-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v12) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x1024 .f32) (main_arg1 : IVec S8192 32) (main_arg2 : FVec F S8192 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192x1024 : Shape := ⟨2, ![8192, 1024]⟩
abbrev S8192 : Shape := ⟨1, ![8192]⟩
abbrev S8192x1 : Shape := ⟨2, ![8192, 1]⟩
abbrev S1x8192 : Shape := ⟨2, ![1, 8192]⟩
abbrev S512x1024 : Shape := ⟨2, ![512, 1024]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S_ : Shape := ⟨0, ![]⟩

abbrev nBuf : Space → Nat
  | .hbm => 24
  | .vmem => 40
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .f32⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S8192x1, .f32⟩
  | .hbm, ⟨8, _⟩ => ⟨S8192x1, .f32⟩
  | .hbm, ⟨9, _⟩ => ⟨S8192x1, .i32⟩
  | .hbm, ⟨10, _⟩ => ⟨S8192x1, .i32⟩
  | .hbm, ⟨11, _⟩ => ⟨S8192x1, .i32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .i32⟩
  | .local _ .vmem, ⟨5, _⟩ => ⟨S512x1, .i32⟩
  | .local _ .vmem, ⟨6, _⟩ => ⟨S1x512, .i32⟩
  | .local _ .vmem, ⟨7, _⟩ => ⟨S1x512, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1, .i32⟩
  | .local _ .vmem, ⟨19, _⟩ => ⟨S512x1, .i32⟩
  | .local _ .vmem, ⟨20, _⟩ => ⟨S1x512, .i32⟩
  | .local _ .vmem, ⟨21, _⟩ => ⟨S1x512, .i32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .i32⟩
  | .local _ .vmem, ⟨31, _⟩ => ⟨S512x1, .i32⟩
  | .local _ .vmem, ⟨32, _⟩ => ⟨S512x1, .i32⟩
  | .local _ .vmem, ⟨33, _⟩ => ⟨S512x1, .i32⟩
  | .local _ .vmem, ⟨34, _⟩ => ⟨S512x1, .i32⟩
  | .local _ .vmem, ⟨35, _⟩ => ⟨S512x1, .i32⟩
  | .local _ .vmem, ⟨36, _⟩ => ⟨S512x1, .f32⟩
  | .local _ .vmem, ⟨37, _⟩ => ⟨S512x1, .f32⟩
  | .local _ .vmem, ⟨38, _⟩ => ⟨S512x1, .f32⟩
  | .local _ .vmem, ⟨39, _⟩ => ⟨S512x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_scratch0 : Ref sig .tc := ⟨.vmem, 36, rfl⟩
abbrev cc1_scratch1 : Ref sig .tc := ⟨.vmem, 37, rfl⟩
abbrev cc1_scratch2 : Ref sig .tc := ⟨.vmem, 38, rfl⟩
abbrev cc1_scratch3 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg1 : BitVec 32 := BitVec.ofNat 32 (i 1).val
  let c15_i32 : BitVec 32 := 15#32
  let v37 : BitVec 1 := Scalar.cmpi .eq arg1 c15_i32
  let v38 : BitVec 32 := Scalar.extui v37
  let c0_i32_22 : BitVec 32 := 0#32
  let v39 : BitVec 1 := Scalar.cmpi .ne v38 c0_i32_22
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v85 : BitVec 1 := Scalar.cmpi .eq arg1 c15_i32
  let v86 : BitVec 32 := Scalar.extui v85
  let c0_i32_44 : BitVec 32 := 0#32
  let v87 : BitVec 1 := Scalar.cmpi .ne v86 c0_i32_44
  v87

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x1 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S512x1 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S512x1 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

class Facts₀ : Prop where
  shapeCasts_S8192_S8192x1 : S8192.ShapeCasts S8192x1
  shapeCasts_S8192_S1x8192 : S8192.ShapeCasts S1x8192
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  natLt_1_32 : 1 < 32
  reducesTo_S8192x1_S_d0_1 : S8192x1.ReducesTo [0, 1] S_
  h_S_ : 0 < S_.numel
  shapeCasts_S8192x1_S8192 : S8192x1.ShapeCasts S8192
  reducesTo_S8192_S_d0 : S8192.ReducesTo [0] S_
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S8192x1.size a
  hwx0_4 : ∀ i : grid0.Coords, EltTy.bits .f32 = 32 ∨ (Rect.block (s := S8192x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S8192x1.size a
  hwx0_5 : ∀ i : grid0.Coords, EltTy.bits .f32 = 32 ∨ (Rect.block (s := S8192x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .f32 = 32 ∨ (Rect.block (s := S8192x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .f32 = 32 ∨ (Rect.block (s := S8192x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .i32 = 32 ∨ (Rect.block (s := S8192x1) S512x1.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x8192.size a
  hwx1_3 : ∀ i : grid1.Coords, EltTy.bits .i32 = 32 ∨ (Rect.block (s := S1x8192) S1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S8192x1.size a
  hwx1_4 : ∀ i : grid1.Coords, EltTy.bits .f32 = 32 ∨ (Rect.block (s := S8192x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S8192x1.size a
  hwx1_5 : ∀ i : grid1.Coords, EltTy.bits .f32 = 32 ∨ (Rect.block (s := S8192x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S8192x1.size a
  hwx1_6 : ∀ i : grid1.Coords, EltTy.bits .f32 = 32 ∨ (Rect.block (s := S8192x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S8192x1.size a
  hwx1_7 : ∀ i : grid1.Coords, EltTy.bits .f32 = 32 ∨ (Rect.block (s := S8192x1) S512x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S8192x1.size a
  hwx1_8 : ∀ i : grid1.Coords, EltTy.bits .i32 = 32 ∨ (Rect.block (s := S8192x1) S512x1.size (cc1_transform_8 i) (hinb1_8 i)).WholeWords (EltTy.packing .i32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x1.size a ≤ S8192x1.size a
  hwx1_9 : ∀ i : grid1.Coords, EltTy.bits .i32 = 32 ∨ (Rect.block (s := S8192x1) S512x1.size (cc1_transform_9 i) (hinb1_9 i)).WholeWords (EltTy.packing .i32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x1.size a ≤ S8192x1.size a
  hwx1_10 : ∀ i : grid1.Coords, EltTy.bits .i32 = 32 ∨ (Rect.block (s := S8192x1) S512x1.size (cc1_transform_10 i) (hinb1_10 i)).WholeWords (EltTy.packing .i32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S512x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S512x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v4_0) S512x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v4_1) S512x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v4_2) S512x1.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v4_3) S512x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev idle1 : Fin 11 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | 9 => fun i => !(k1_cond2 i == 1#1) | 10 => fun i => !(k1_cond2 i == 1#1) | ⟨_ + 11, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S1024x8192 : Shape := ⟨2, ![1024, 8192]⟩
abbrev S8192x8192 : Shape := ⟨2, ![8192, 8192]⟩
abbrev S8192x1 : Shape := ⟨2, ![8192, 1]⟩
abbrev S1x8192 : Shape := ⟨2, ![1, 8192]⟩
abbrev S_ : Shape := ⟨0, ![]⟩

abbrev nBuf : Space → Nat
  | .hbm => 116
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192, .f32⟩
  | .hbm, ⟨3, _⟩ => ⟨S1024x8192, .f32⟩
  | .hbm, ⟨4, _⟩ => ⟨S8192x8192, .f32⟩
  | .hbm, ⟨5, _⟩ => ⟨S8192x1, .i32⟩
  | .hbm, ⟨6, _⟩ => ⟨S1x8192, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S_, .f32⟩
  | .hbm, ⟨11, _⟩ => ⟨S8192x8192, .f32⟩
  | .hbm, ⟨12, _⟩ => ⟨S8192x8192, .i1⟩
  | .hbm, ⟨13, _⟩ => ⟨S8192x8192, .i1⟩
  | .hbm, ⟨14, _⟩ => ⟨S8192x8192, .i1⟩
  | .hbm, ⟨15, _⟩ => ⟨S_, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192x8192, .f32⟩
  | .hbm, ⟨35, _⟩ => ⟨S8192x8192, .i1⟩
  | .hbm, ⟨36, _⟩ => ⟨S8192x8192, .i1⟩
  | .hbm, ⟨37, _⟩ => ⟨S8192x1, .f32⟩
  | .hbm, ⟨38, _⟩ => ⟨S8192x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .i1⟩
  | .hbm, ⟨45, _⟩ => ⟨S8192x8192, .i1⟩
  | .hbm, ⟨46, _⟩ => ⟨S8192x8192, .i32⟩
  | .hbm, ⟨47, _⟩ => ⟨S_, .i32⟩
  | .hbm, ⟨48, _⟩ => ⟨S8192, .i32⟩
  | .hbm, ⟨49, _⟩ => ⟨S8192x8192, .i32⟩
  | .hbm, ⟨50, _⟩ => ⟨S_, .i32⟩
  | .hbm, ⟨51, _⟩ => ⟨S8192, .i32⟩
  | .hbm, ⟨52, _⟩ => ⟨S_, .i32⟩
  | .hbm, ⟨53, _⟩ => ⟨S8192, .i32⟩
  | .hbm, ⟨54, _⟩ => ⟨S8192, .i1⟩
  | .hbm, ⟨55, _⟩ => ⟨S_, .i32⟩
  | .hbm, ⟨56, _⟩ => ⟨S8192, .i32⟩
  | .hbm, ⟨57, _⟩ => ⟨S8192, .i1⟩
  | .hbm, ⟨58, _⟩ => ⟨S8192, .i1⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S_, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S_, .f32⟩
  | .hbm, ⟨85, _⟩ => ⟨S8192x8192, .f32⟩
  | .hbm, ⟨86, _⟩ => ⟨S8192x8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S_, .f32⟩
  | .hbm, ⟨95, _⟩ => ⟨S_, .f32⟩
  | .hbm, ⟨96, _⟩ => ⟨S8192, .f32⟩
  | .hbm, ⟨97, _⟩ => ⟨S8192, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S8192, .i32⟩
  | .hbm, ⟨103, _⟩ => ⟨S_, .i32⟩
  | .hbm, ⟨104, _⟩ => ⟨S_, .i32⟩
  | .hbm, ⟨105, _⟩ => ⟨S8192, .i32⟩
  | .hbm, ⟨106, _⟩ => ⟨S8192, .i32⟩
  | .hbm, ⟨107, _⟩ => ⟨S_, .i32⟩
  | .hbm, ⟨108, _⟩ => ⟨S_, .i32⟩
  | .hbm, ⟨109, _⟩ => ⟨S8192, .i32⟩
  | .hbm, ⟨110, _⟩ => ⟨S8192, .i32⟩
  | .hbm, ⟨111, _⟩ => ⟨S_, .i32⟩
  | .hbm, ⟨112, _⟩ => ⟨S_, .i32⟩
  | .hbm, ⟨113, _⟩ => ⟨S_, .i32⟩
  | .hbm, ⟨114, _⟩ => ⟨S_, .i32⟩
  | .hbm, ⟨115, _⟩ => ⟨S_, .i32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_c_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_call2_v0 : Ref sig .tc := ⟨.hbm, 67, rfl⟩
abbrev main_call2_v1 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_cst_13 : Ref sig .tc := ⟨.hbm, 73, rfl⟩
abbrev main_v49 : Ref sig .tc := ⟨.hbm, 74, rfl⟩
abbrev main_v50 : Ref sig .tc := ⟨.hbm, 75, rfl⟩
abbrev main_cst_14 : Ref sig .tc := ⟨.hbm, 76, rfl⟩
abbrev main_v51 : Ref sig .tc := ⟨.hbm, 77, rfl⟩
abbrev main_v52 : Ref sig .tc := ⟨.hbm, 78, rfl⟩
abbrev main_cst_15 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_16 : Ref sig .tc := ⟨.hbm, 83, rfl⟩
abbrev main_call3_v0 : Ref sig .tc := ⟨.hbm, 84, rfl⟩
abbrev main_call3_v1 : Ref sig .tc := ⟨.hbm, 85, rfl⟩
abbrev main_v56 : Ref sig .tc := ⟨.hbm, 86, rfl⟩
abbrev main_cst_17 : Ref sig .tc := ⟨.hbm, 87, rfl⟩
abbrev main_v57 : Ref sig .tc := ⟨.hbm, 88, rfl⟩
abbrev main_v58 : Ref sig .tc := ⟨.hbm, 89, rfl⟩
abbrev main_cst_18 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_19 : Ref sig .tc := ⟨.hbm, 94, rfl⟩
abbrev main_call4_v0 : Ref sig .tc := ⟨.hbm, 95, rfl⟩
abbrev main_call4_v1 : Ref sig .tc := ⟨.hbm, 96, rfl⟩
abbrev main_v62 : Ref sig .tc := ⟨.hbm, 97, rfl⟩
abbrev main_cst_20 : Ref sig .tc := ⟨.hbm, 98, rfl⟩
abbrev main_v63 : Ref sig .tc := ⟨.hbm, 99, rfl⟩
abbrev main_cst_21 : Ref sig .tc := ⟨.hbm, 100, rfl⟩
abbrev main_v64 : Ref sig .tc := ⟨.hbm, 101, rfl⟩
abbrev main_v65 : Ref sig .tc := ⟨.hbm, 102, rfl⟩
abbrev main_c_22 : Ref sig .tc := ⟨.hbm, 103, rfl⟩
abbrev main_call5_v0 : Ref sig .tc := ⟨.hbm, 104, rfl⟩
abbrev main_call5_v1 : Ref sig .tc := ⟨.hbm, 105, rfl⟩
abbrev main_v66 : Ref sig .tc := ⟨.hbm, 106, rfl⟩
abbrev main_c_23 : Ref sig .tc := ⟨.hbm, 107, rfl⟩
abbrev main_call6_v0 : Ref sig .tc := ⟨.hbm, 108, rfl⟩
abbrev main_call6_v1 : Ref sig .tc := ⟨.hbm, 109, rfl⟩
abbrev main_v67 : Ref sig .tc := ⟨.hbm, 110, rfl⟩
abbrev main_c_24 : Ref sig .tc := ⟨.hbm, 111, rfl⟩
abbrev main_v68 : Ref sig .tc := ⟨.hbm, 112, rfl⟩
abbrev main_c_25 : Ref sig .tc := ⟨.hbm, 113, rfl⟩
abbrev main_v69 : Ref sig .tc := ⟨.hbm, 114, rfl⟩
abbrev main_v70 : Ref sig .tc := ⟨.hbm, 115, rfl⟩

abbrev nD : Nat := 1
abbrev τ : Topo := Topo.v7x

variable {F : FTy → Type} [FloatOps F]

class Facts₀ : Prop where
  transposes_S8192x1024_S1024x8192_1_0 : S8192x1024.Transposes [1, 0] S1024x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  natLt_1_32 : 1 < 32
  bcast_S_S8192 : S_.BroadcastsInDim S8192 (![] : Fin 0 → Fin S8192.rank)
  reducesTo_S8192_S_d0 : S8192.ReducesTo [0] S_
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.KernelIdeal.Run.lean ====
/-
  @main of the kernel's program as four segments — three reshapes, the first pass, the second pass, the closing host
  operations — run from the launch to the return, for ANY proof data of the two passes that meet the launch's needs
  (`Reg0`, `Reg1`).

  What is particular to this program: both passes hand ONE array, the embeddings, to TWO input windows (its row block
  and its column block). So at a pass's entry the array's points-to is split in two halves, one per window
  (`arrays0_of_bufs`, `arrays1_of_bufs`), and at its exit, both windows still holding the contents they entered with,
  the halves are joined again (`bufs_of_arrays0`, `bufs_of_arrays1`); every other array belongs to one window and is
  held whole. Between the items the TensorCore's unscoped buffers are tracked at named contents: `W1` after the
  reshapes, `W2` with the first pass's two outputs at what its pipeline leaves, `W3` with the second pass's four.
  The run's post names every unscoped buffer at the closing operations' result over `W3` (`run_all`).
-/
import proofs.«118951_j44573170598307_1_alg».proof.Proof.KernelIdeal.RunCond
import proofs.«118951_j44573170598307_1_alg».proof.Proof.Gen.KernelIdeal.Points
import Idealize.ShloMosaic.Lib.Pipeline.FrameBody
import Idealize.ShloMosaic.Lib.Pipeline.Frame
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (Pipeline.UD sig nD τ) ℕ

/-- A core-indexed reading of the TensorCore's buffers: what a region's proof data are stated at. -/
abbrev Contents (F : FTy → Type) : Type := (c : Dev nD) → (b : Ref sig .tc) → Buf (Elt F) ((c : Thread nD τ).loc b)

/-! ## What the launch needs of each pass's proof data -/

/-- The first pass's proof data at entry contents `V`: the arrays read off `V`; the one array two windows stage
    (the embeddings, by row block and by column block) held in halves; nothing owed; the body obligation; the
    invariant entered from and left at the plain one (every scratch at some contents, the generator register). -/
structure Reg0 (V : Contents F) where
  dat : (c : Dev nD) → Dat τ (Elt F) Unit ℕ (Pipeline.UD sig nD τ) ℕ cfg0 c
  A_eq : ∀ c w, (dat c).A w = V c (Pipeline.arrRef spec0 w)
  q_0 : ∀ c, (dat c).q 0 = fullShare.left
  q_1 : ∀ c, (dat c).q 1 = fullShare.right
  q_ge2 : ∀ c (w : Fin cfg0.W), 2 ≤ w.val → (dat c).q w = fullShare
  owed_zero : ∀ c t, (dat c).owed t = 0
  recorded_univ : ∀ c t, (dat c).recorded t = Set.univ
  body : ∀ c, BodyObligation (dat c) (defs₀ (F := F)) Variants.none () Set.univ
  hin : ∀ c, (Pipeline.ΦA spec0 c : sProp 𝕄) ⊢ (dat c).Φ 0
  hout : ∀ c, (dat c).Φ (Fin.last cfg0.N) ⊢ (Pipeline.ΦA spec0 c : sProp 𝕄)

/-- The same of the second pass. -/
structure Reg1 (V : Contents F) where
  dat : (c : Dev nD) → Dat τ (Elt F) Unit ℕ (Pipeline.UD sig nD τ) ℕ cfg1 c
  A_eq : ∀ c w, (dat c).A w = V c (Pipeline.arrRef spec1 w)
  q_0 : ∀ c, (dat c).q 0 = fullShare.left
  q_1 : ∀ c, (dat c).q 1 = fullShare.right
  q_ge2 : ∀ c (w : Fin cfg1.W), 2 ≤ w.val → (dat c).q w = fullShare
  owed_zero : ∀ c t, (dat c).owed t = 0
  recorded_univ : ∀ c t, (dat c).recorded t = Set.univ
  body : ∀ c, BodyObligation (dat c) (defs₀ (F := F)) Variants.none () Set.univ
  hin : ∀ c, (Pipeline.ΦA spec1 c : sProp 𝕄) ⊢ (dat c).Φ 0
  hout : ∀ c, (dat c).Φ (Fin.last cfg1.N) ⊢ (Pipeline.ΦA spec1 c : sProp 𝕄)

/-! ## The first pass's arrays among the unscoped buffers -/

section Arrays0
variable {V : Contents F}

/-- The five buffers behind the six windows' arrays, one by one. -/
theorem arrBufs0_eq (c : Dev nD) (Vc : (b : Ref sig .tc) → Buf (Elt F) ((c : Thread nD τ).loc b)) :
    (Pipeline.arrBufs (Ix := Unit) (Name := ℕ) (U := Pipeline.UD sig nD τ) (Lvl := ℕ) spec0 c Vc : sProp 𝕄)
      = iprop((((c : Thread nD τ).loc main_arg0) ↦{fullShare} Vc main_arg0) ∗ (((c : Thread nD τ).loc main_v0) ↦{fullShare} Vc main_v0)
          ∗ (((c : Thread nD τ).loc main_v1) ↦{fullShare} Vc main_v1) ∗ (((c : Thread nD τ).loc main_v3_0) ↦{fullShare} Vc main_v3_0)
          ∗ (((c : Thread nD τ).loc main_v3_1) ↦{fullShare} Vc main_v3_1)) := by
  unfold Pipeline.arrBufs
  rw [BI.bigSep_eq_bigSepL_of_eq [main_arg0, main_v0, main_v1, main_v3_0, main_v3_1] (by decide) (by decide)]; rfl

theorem share0_0 (r0 : Reg0 V) (c : Dev nD) : (r0.dat c).share 0 = fullShare.left := by
  unfold Dat.share; rw [if_neg (by decide)]; exact r0.q_0 c
theorem share0_1 (r0 : Reg0 V) (c : Dev nD) : (r0.dat c).share 1 = fullShare.right := by
  unfold Dat.share; rw [if_neg (by decide)]; exact r0.q_1 c
theorem share0_2 (r0 : Reg0 V) (c : Dev nD) : (r0.dat c).share 2 = fullShare := by
  unfold Dat.share; rw [if_neg (by decide)]; exact r0.q_ge2 c 2 (by decide)
theorem share0_3 (r0 : Reg0 V) (c : Dev nD) : (r0.dat c).share 3 = fullShare := by
  unfold Dat.share; rw [if_neg (by decide)]; exact r0.q_ge2 c 3 (by decide)
theorem share0_4 (r0 : Reg0 V) (c : Dev nD) : (r0.dat c).share 4 = fullShare := by
  unfold Dat.share; rw [if_pos (by decide)]
theorem share0_5 (r0 : Reg0 V) (c : Dev nD) : (r0.dat c).share 5 = fullShare := by
  unfold Dat.share; rw [if_pos (by decide)]

/-- The pipeline's arrays, window by window: the embeddings' two windows at the two halves. -/
theorem arrays0_eq (r0 : Reg0 V) (c : Dev nD) (G : (w : Fin cfg0.W) → Buf (Elt F) ((cfg0.win w).arr.view.loc (c : Thread nD τ))) :
    ((r0.dat c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v3_0) ↦{fullShare} G 4) ∗ (((c : Thread nD τ).loc main_v3_1) ↦{fullShare} G 5)) := by
  unfold Dat.arrays
  rw [bigSep_W0, share0_0 r0 c, share0_1 r0 c, share0_2 r0 c, share0_3 r0 c, share0_4 r0 c, share0_5 r0 c,
    (arr_whole0 0).set_eq_univ, (arr_whole0 2).set_eq_univ, (arr_whole0 3).set_eq_univ, (arr_whole0 4).set_eq_univ, (arr_whole0 5).set_eq_univ]

theorem arrAt0_zero (r0 : Reg0 V) (c : Dev nD) (w : Fin cfg0.W) : (r0.dat c).arrAt w 0 = V c (Pipeline.arrRef spec0 w) :=
  (show (r0.dat c).arrAt w 0 = (r0.dat c).A w from rfl).trans (r0.A_eq c w)

/-- ENTRY: the buffers behind the arrays, each whole at the entry contents, are the pipeline's arrays at entry —
    the embeddings split in halves between the window that reads them by row block and the one that reads them by
    column block. -/
theorem arrays0_of_bufs (r0 : Reg0 V) (c : Dev nD) :
    (Pipeline.arrBufs (Ix := Unit) (Name := ℕ) (U := Pipeline.UD sig nD τ) (Lvl := ℕ) spec0 c (V c) : sProp 𝕄)
      ⊢ (r0.dat c).arrays ((r0.dat c).arrAt · 0) := by
  rw [arrBufs0_eq, arrays0_eq]
  simp only [arrAt0_zero r0 c]
  iintro ⟨H0, H1, H2, H3, H4⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  iexact H4

/-- EXIT: the pipeline's arrays after its last write-back are those buffers whole again, at any contents `V'` that
    keeps the inputs and has the two outputs at what the pipeline left. -/
theorem bufs_of_arrays0 (r0 : Reg0 V) (c : Dev nD) (V' : (b : Ref sig .tc) → Buf (Elt F) ((c : Thread nD τ).loc b))
    (h0 : V' main_arg0 = V c main_arg0) (h1 : V' main_v0 = V c main_v0) (h2 : V' main_v1 = V c main_v1)
    (h3 : V' main_v3_0 = (r0.dat c).arrAt 4 cfg0.N) (h4 : V' main_v3_1 = (r0.dat c).arrAt 5 cfg0.N) :
    ((r0.dat c).arrays ((r0.dat c).arrAt · cfg0.N) : sProp 𝕄)
      ⊢ Pipeline.arrBufs (Ix := Unit) (Name := ℕ) (U := Pipeline.UD sig nD τ) (Lvl := ℕ) spec0 c V' := by
  rw [arrBufs0_eq, arrays0_eq, h0, h1, h2, h3, h4]
  rw [show (r0.dat c).arrAt 0 cfg0.N = V c main_arg0 from ((r0.dat c).arrAt_in 0 rfl _).trans (r0.A_eq c 0),
    show (r0.dat c).arrAt 1 cfg0.N = V c main_arg0 from ((r0.dat c).arrAt_in 1 rfl _).trans (r0.A_eq c 1),
    show (r0.dat c).arrAt 2 cfg0.N = V c main_v0 from ((r0.dat c).arrAt_in 2 rfl _).trans (r0.A_eq c 2),
    show (r0.dat c).arrAt 3 cfg0.N = V c main_v1 from ((r0.dat c).arrAt_in 3 rfl _).trans (r0.A_eq c 3)]
  iintro ⟨Ha, Hb, H1, H2, H3, H4⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  iexact H4

end Arrays0

/-! ## The second pass's arrays among the unscoped buffers -/

section Arrays1
variable {V : Contents F}

/-- The ten buffers behind the eleven windows' arrays, one by one. -/
theorem arrBufs1_eq (c : Dev nD) (Vc : (b : Ref sig .tc) → Buf (Elt F) ((c : Thread nD τ).loc b)) :
    (Pipeline.arrBufs (Ix := Unit) (Name := ℕ) (U := Pipeline.UD sig nD τ) (Lvl := ℕ) spec1 c Vc : sProp 𝕄)
      = iprop((((c : Thread nD τ).loc main_arg0) ↦{fullShare} Vc main_arg0) ∗ (((c : Thread nD τ).loc main_v0) ↦{fullShare} Vc main_v0)
          ∗ (((c : Thread nD τ).loc main_v1) ↦{fullShare} Vc main_v1) ∗ (((c : Thread nD τ).loc main_v2) ↦{fullShare} Vc main_v2)
          ∗ (((c : Thread nD τ).loc main_v3_0) ↦{fullShare} Vc main_v3_0) ∗ (((c : Thread nD τ).loc main_v3_1) ↦{fullShare} Vc main_v3_1)
          ∗ (((c : Thread nD τ).loc main_v4_0) ↦{fullShare} Vc main_v4_0) ∗ (((c : Thread nD τ).loc main_v4_1) ↦{fullShare} Vc main_v4_1)
          ∗ (((c : Thread nD τ).loc main_v4_2) ↦{fullShare} Vc main_v4_2) ∗ (((c : Thread nD τ).loc main_v4_3) ↦{fullShare} Vc main_v4_3)) := by
  unfold Pipeline.arrBufs
  rw [BI.bigSep_eq_bigSepL_of_eq [main_arg0, main_v0, main_v1, main_v2, main_v3_0, main_v3_1, main_v4_0, main_v4_1, main_v4_2, main_v4_3] (by decide +kernel) (by decide)]; rfl

theorem share1_0 (r1 : Reg1 V) (c : Dev nD) : (r1.dat c).share 0 = fullShare.left := by
  unfold Dat.share; rw [if_neg (by decide)]; exact r1.q_0 c
theorem share1_1 (r1 : Reg1 V) (c : Dev nD) : (r1.dat c).share 1 = fullShare.right := by
  unfold Dat.share; rw [if_neg (by decide)]; exact r1.q_1 c
theorem share1_in (r1 : Reg1 V) (c : Dev nD) (w : Fin cfg1.W) (h2 : 2 ≤ w.val) (h7 : w.val < 7) : (r1.dat c).share w = fullShare := by
  unfold Dat.share
  rw [if_neg (by revert w; decide)]; exact r1.q_ge2 c w h2
theorem share1_out (r1 : Reg1 V) (c : Dev nD) (w : Fin cfg1.W) (h7 : 7 ≤ w.val) : (r1.dat c).share w = fullShare := by
  unfold Dat.share
  rw [if_pos (by revert w; decide)]

set_option maxHeartbeats 4000000 in
/-- The pipeline's arrays, window by window: the embeddings' two windows at the two halves. -/
theorem arrays1_eq (r1 : Reg1 V) (c : Dev nD) (G : (w : Fin cfg1.W) → Buf (Elt F) ((cfg1.win w).arr.view.loc (c : Thread nD τ))) :
    ((r1.dat c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)
          ∗ (((c : Thread nD τ).loc main_v3_0) ↦{fullShare} G 5) ∗ (((c : Thread nD τ).loc main_v3_1) ↦{fullShare} G 6)
          ∗ (((c : Thread nD τ).loc main_v4_0) ↦{fullShare} G 7) ∗ (((c : Thread nD τ).loc main_v4_1) ↦{fullShare} G 8)
          ∗ (((c : Thread nD τ).loc main_v4_2) ↦{fullShare} G 9) ∗ (((c : Thread nD τ).loc main_v4_3) ↦{fullShare} G 10)) := by
  unfold Dat.arrays
  rw [bigSep_W1, share1_0 r1 c, share1_1 r1 c, share1_in r1 c 2 (by decide) (by decide), share1_in r1 c 3 (by decide) (by decide),
    share1_in r1 c 4 (by decide) (by decide), share1_in r1 c 5 (by decide) (by decide), share1_in r1 c 6 (by decide) (by decide),
    share1_out r1 c 7 (by decide), share1_out r1 c 8 (by decide), share1_out r1 c 9 (by decide), share1_out r1 c 10 (by decide),
    (arr_whole1 0).set_eq_univ, (arr_whole1 2).set_eq_univ, (arr_whole1 3).set_eq_univ, (arr_whole1 4).set_eq_univ, (arr_whole1 5).set_eq_univ,
    (arr_whole1 6).set_eq_univ, (arr_whole1 7).set_eq_univ, (arr_whole1 8).set_eq_univ, (arr_whole1 9).set_eq_univ, (arr_whole1 10).set_eq_univ]

theorem arrAt1_zero (r1 : Reg1 V) (c : Dev nD) (w : Fin cfg1.W) : (r1.dat c).arrAt w 0 = V c (Pipeline.arrRef spec1 w) :=
  (show (r1.dat c).arrAt w 0 = (r1.dat c).A w from rfl).trans (r1.A_eq c w)

set_option maxHeartbeats 4000000 in
/-- ENTRY of the second pass: as the first's. -/
theorem arrays1_of_bufs (r1 : Reg1 V) (c : Dev nD) :
    (Pipeline.arrBufs (Ix := Unit) (Name := ℕ) (U := Pipeline.UD sig nD τ) (Lvl := ℕ) spec1 c (V c) : sProp 𝕄)
      ⊢ (r1.dat c).arrays ((r1.dat c).arrAt · 0) := by
  rw [arrBufs1_eq, arrays1_eq]
  simp only [arrAt1_zero r1 c]
  iintro ⟨H0, H1, H2, H3, H4, H5, H6, H7, H8, H9⟩
  ihave H0' := (pointsTo_share (PosShare.mem_left_op_right fullShare)).1 $$ H0
  icases H0' with ⟨Ha, Hb⟩
  isplitl [Ha]; · iexact Ha
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

set_option maxHeartbeats 4000000 in
/-- EXIT of the second pass: the seven inputs as entered, the four outputs at what the pipeline left. -/
theorem bufs_of_arrays1 (r1 : Reg1 V) (c : Dev nD) (V' : (b : Ref sig .tc) → Buf (Elt F) ((c : Thread nD τ).loc b))
    (h0 : V' main_arg0 = V c main_arg0) (h1 : V' main_v0 = V c main_v0) (h2 : V' main_v1 = V c main_v1) (h3 : V' main_v2 = V c main_v2)
    (h4 : V' main_v3_0 = V c main_v3_0) (h5 : V' main_v3_1 = V c main_v3_1)
    (h6 : V' main_v4_0 = (r1.dat c).arrAt 7 cfg1.N) (h7 : V' main_v4_1 = (r1.dat c).arrAt 8 cfg1.N)
    (h8 : V' main_v4_2 = (r1.dat c).arrAt 9 cfg1.N) (h9 : V' main_v4_3 = (r1.dat c).arrAt 10 cfg1.N) :
    ((r1.dat c).arrays ((r1.dat c).arrAt · cfg1.N) : sProp 𝕄)
      ⊢ Pipeline.arrBufs (Ix := Unit) (Name := ℕ) (U := Pipeline.UD sig nD τ) (Lvl := ℕ) spec1 c V' := by
  rw [arrBufs1_eq, arrays1_eq, h0, h1, h2, h3, h4, h5, h6, h7, h8, h9]
  rw [show (r1.dat c).arrAt 0 cfg1.N = V c main_arg0 from ((r1.dat c).arrAt_in 0 rfl _).trans (r1.A_eq c 0),
    show (r1.dat c).arrAt 1 cfg1.N = V c main_arg0 from ((r1.dat c).arrAt_in 1 rfl _).trans (r1.A_eq c 1),
    show (r1.dat c).arrAt 2 cfg1.N = V c main_v0 from ((r1.dat c).arrAt_in 2 rfl _).trans (r1.A_eq c 2),
    show (r1.dat c).arrAt 3 cfg1.N = V c main_v1 from ((r1.dat c).arrAt_in 3 rfl _).trans (r1.A_eq c 3),
    show (r1.dat c).arrAt 4 cfg1.N = V c main_v2 from ((r1.dat c).arrAt_in 4 rfl _).trans (r1.A_eq c 4),
    show (r1.dat c).arrAt 5 cfg1.N = V c main_v3_0 from ((r1.dat c).arrAt_in 5 rfl _).trans (r1.A_eq c 5),
    show (r1.dat c).arrAt 6 cfg1.N = V c main_v3_1 from ((r1.dat c).arrAt_in 6 rfl _).trans (r1.A_eq c 6)]
  iintro ⟨Ha, Hb, H1, H2, H3, H4, H5, H6, H7, H8, H9⟩
  isplitl [Ha Hb]
  · iapply (pointsTo_share (PosShare.mem_left_op_right fullShare)).2
    isplitl [Ha]; · iexact Ha
    iexact Hb
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Arrays1

/-! ## The buffers' contents between @main's items -/

section Run

variable (m : (ℓ : Loc nD τ sig) → Buf (Elt F) ℓ)

/-- After the three reshapes that open @main: what the first pass is entered from. -/
abbrev W1 (c : Dev nD) : Valuation τ sig (Elt F) := V1 m c
abbrev C1 : Contents F := fun c b => W1 m c b

/-- After the first pass: its two outputs at what the pipeline leaves, everything else as before. -/
def W2 (r0 : Reg0 (C1 m)) (c : Dev nD) : Valuation τ sig (Elt F) :=
  Function.update (Function.update (W1 m c) main_v3_0 ((r0.dat c).arrAt 4 cfg0.N)) main_v3_1 ((r0.dat c).arrAt 5 cfg0.N)
abbrev C2 (r0 : Reg0 (C1 m)) : Contents F := fun c b => W2 m r0 c b

/-- After the second pass: its four outputs at what the pipeline leaves. -/
def W3 (r0 : Reg0 (C1 m)) (r1 : Reg1 (C2 m r0)) (c : Dev nD) : Valuation τ sig (Elt F) :=
  Function.update (Function.update (Function.update (Function.update (W2 m r0 c) main_v4_0 ((r1.dat c).arrAt 7 cfg1.N)) main_v4_1 ((r1.dat c).arrAt 8 cfg1.N)) main_v4_2 ((r1.dat c).arrAt 9 cfg1.N)) main_v4_3 ((r1.dat c).arrAt 10 cfg1.N)
abbrev C3 (r0 : Reg0 (C1 m)) (r1 : Reg1 (C2 m r0)) : Contents F := fun c b => W3 m r0 r1 c b

variable {m}

theorem W2_of (r0 : Reg0 (C1 m)) (c : Dev nD) (r : Ref sig .tc) (h : r ∉ ([main_v3_0, main_v3_1] : List (Ref sig .tc))) : W2 m r0 c r = W1 m c r := by
  simp only [W2, Function.update_of_ne (StableHlo.devRef_ne_of_ne (List.ne_of_not_mem_cons h) : (Proc.devRef .tc r : DevRef τ sig) ≠ Proc.devRef .tc main_v3_0), Function.update_of_ne (StableHlo.devRef_ne_of_ne (List.ne_of_not_mem_cons (List.not_mem_of_not_mem_cons h)) : (Proc.devRef .tc r : DevRef τ sig) ≠ Proc.devRef .tc main_v3_1)]
theorem W2_v3_0 (r0 : Reg0 (C1 m)) (c : Dev nD) : W2 m r0 c main_v3_0 = (r0.dat c).arrAt 4 cfg0.N := by
  unfold W2
  rw [Function.update_of_ne (StableHlo.devRef_ne_of_ne (by decide) : (Proc.devRef .tc main_v3_0 : DevRef τ sig) ≠ Proc.devRef .tc main_v3_1), Function.update_self]
theorem W2_v3_1 (r0 : Reg0 (C1 m)) (c : Dev nD) : W2 m r0 c main_v3_1 = (r0.dat c).arrAt 5 cfg0.N := by
  unfold W2; rw [Function.update_self]

theorem W3_of (r0 : Reg0 (C1 m)) (r1 : Reg1 (C2 m r0)) (c : Dev nD) (r : Ref sig .tc) (h : r ∉ ([main_v4_0, main_v4_1, main_v4_2, main_v4_3] : List (Ref sig .tc))) : W3 m r0 r1 c r = W2 m r0 c r := by
  simp only [W3, Function.update_of_ne (StableHlo.devRef_ne_of_ne (List.ne_of_not_mem_cons h) : (Proc.devRef .tc r : DevRef τ sig) ≠ Proc.devRef .tc main_v4_0), Function.update_of_ne (StableHlo.devRef_ne_of_ne (List.ne_of_not_mem_cons (List.not_mem_of_not_mem_cons h)) : (Proc.devRef .tc r : DevRef τ sig) ≠ Proc.devRef .tc main_v4_1), Function.update_of_ne (StableHlo.devRef_ne_of_ne (List.ne_of_not_mem_cons (List.not_mem_of_not_mem_cons (List.not_mem_of_not_mem_cons h))) : (Proc.devRef .tc r : DevRef τ sig) ≠ Proc.devRef .tc main_v4_2), Function.update_of_ne (StableHlo.devRef_ne_of_ne (List.ne_of_not_mem_cons (List.not_mem_of_not_mem_cons (List.not_mem_of_not_mem_cons (List.not_mem_of_not_mem_cons h)))) : (Proc.devRef .tc r : DevRef τ sig) ≠ Proc.devRef .tc main_v4_3)]
theorem W3_v4_0 (r0 : Reg0 (C1 m)) (r1 : Reg1 (C2 m r0)) (c : Dev nD) : W3 m r0 r1 c main_v4_0 = (r1.dat c).arrAt 7 cfg1.N := by
  unfold W3
  rw [Function.update_of_ne (StableHlo.devRef_ne_of_ne (by decide) : (Proc.devRef .tc main_v4_0 : DevRef τ sig) ≠ Proc.devRef .tc main_v4_3),
    Function.update_of_ne (StableHlo.devRef_ne_of_ne (by decide) : (Proc.devRef .tc main_v4_0 : DevRef τ sig) ≠ Proc.devRef .tc main_v4_2),
    Function.update_of_ne (StableHlo.devRef_ne_of_ne (by decide) : (Proc.devRef .tc main_v4_0 : DevRef τ sig) ≠ Proc.devRef .tc main_v4_1), Function.update_self]
theorem W3_v4_1 (r0 : Reg0 (C1 m)) (r1 : Reg1 (C2 m r0)) (c : Dev nD) : W3 m r0 r1 c main_v4_1 = (r1.dat c).arrAt 8 cfg1.N := by
  unfold W3
  rw [Function.update_of_ne (StableHlo.devRef_ne_of_ne (by decide) : (Proc.devRef .tc main_v4_1 : DevRef τ sig) ≠ Proc.devRef .tc main_v4_3),
    Function.update_of_ne (StableHlo.devRef_ne_of_ne (by decide) : (Proc.devRef .tc main_v4_1 : DevRef τ sig) ≠ Proc.devRef .tc main_v4_2), Function.update_self]
theorem W3_v4_2 (r0 : Reg0 (C1 m)) (r1 : Reg1 (C2 m r0)) (c : Dev nD) : W3 m r0 r1 c main_v4_2 = (r1.dat c).arrAt 9 cfg1.N := by
  unfold W3
  rw [Function.update_of_ne (StableHlo.devRef_ne_of_ne (by decide) : (Proc.devRef .tc main_v4_2 : DevRef τ sig) ≠ Proc.devRef .tc main_v4_3), Function.update_self]
theorem W3_v4_3 (r0 : Reg0 (C1 m)) (r1 : Reg1 (C2 m r0)) (c : Dev nD) : W3 m r0 r1 c main_v4_3 = (r1.dat c).arrAt 10 cfg1.N := by
  unfold W3; rw [Function.update_self]

/-! ## The proof data family and what rides beside the buffers -/

/-- Each pass's proof data at its own entry contents: a literal match on the pipeline's number. -/
def pdats (r0 : Reg0 (C1 m)) (r1 : Reg1 (C2 m r0)) : (p : Fin 2) → (c : Dev nD) → Dat τ (Elt F) Unit ℕ (Pipeline.UD sig nD τ) ℕ (cfgs p) c
  | ⟨0, _⟩ => fun c => r0.dat c
  | ⟨1, _⟩ => fun c => r1.dat c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rest (c : Dev nD) : sProp 𝕄 := iprop((∃ r, prngReg c r) ∗ ∃ W, owes (c : Thread nD τ) (0 : CellTallies nD τ sig Unit) W)

/-- Off the first pass's arrays its exit contents are its entry contents. -/
theorem off0 (r0 : Reg0 (C1 m)) (c : Dev nD) (b : Ref sig .tc) (hb : b ∉ Finset.univ.image (Pipeline.arrRef spec0)) : C2 m r0 c b = C1 m c b :=
  W2_of r0 c b fun h => hb (by
    rcases List.mem_cons.mp h with rfl | h
    · decide
    rcases List.mem_cons.mp h with rfl | h
    · decide
    cases h)
/-- Off the second pass's arrays its exit contents are its entry contents. -/
theorem off1 (r0 : Reg0 (C1 m)) (r1 : Reg1 (C2 m r0)) (c : Dev nD) (b : Ref sig .tc) (hb : b ∉ Finset.univ.image (Pipeline.arrRef spec1)) : C3 m r0 r1 c b = C2 m r0 c b :=
  W3_of r0 r1 c b fun h => hb (by
    rcases List.mem_cons.mp h with rfl | h
    · decide
    rcases List.mem_cons.mp h with rfl | h
    · decide
    rcases List.mem_cons.mp h with rfl | h
    · decide
    rcases List.mem_cons.mp h with rfl | h
    · decide
    cases h)

/-! ## The two passes as segments of @main -/

set_option backward.isDefEq.respectTransparency.types false in
/-- THE FIRST PASS between the contents `W1` and `W2`: its arrays split out of the unscoped buffers at entry (the
    embeddings in halves) and put back at exit; the generator register into the invariant and out; nothing owed; no
    semaphore of the kernel's own. -/
def reg0 (r0 : Reg0 (C1 m)) (r1 : Reg1 (C2 m r0)) : RegionSeg (pcfgs (F := F)) adm (pdats r0 r1) () defs₀ 𝒱₀ L lv 0 where
  win := winFacts₀0
  block_pos := block_pos0
  stage_whole := stage_whole0
  K := PEmpty
  osem k := k.elim
  ho := Pipeline.OwnSemFacts.none _
  hbody c := (r0.body c).loose
  hwaits := Pipeline.hwaits_of_owed_zero _ _ _ _ L lv 0 fun c t => r0.owed_zero c t
  pre c := iprop(StableHlo.held (c : Thread nD τ) (Pipeline.ucRefs τ sig) (W1 m c) ∗ Rest c)
  post c := iprop(StableHlo.held (c : Thread nD τ) (Pipeline.ucRefs τ sig) (W2 m r0 c) ∗ Rest c)
  X c := iprop(∃ r, prngReg c r)
  Y c := iprop(∃ r, prngReg c r)
  Z c := Pipeline.unscopedRest (Ix := Unit) (Name := ℕ) (U := Pipeline.UD sig nD τ) (Lvl := ℕ) spec0 c (C1 m c)
  hentry c := by
    rw [Pipeline.ownSems0_none]
    have hsplit : (StableHlo.held (c : Thread nD τ) (Pipeline.ucRefs τ sig) (W1 m c) : sProp 𝕄)
        ⊢ iprop((pdats r0 r1 0 c).arrays ((pdats r0 r1 0 c).arrAt · 0) ∗ Pipeline.unscopedRest (Ix := Unit) (Name := ℕ) (U := Pipeline.UD sig nD τ) (Lvl := ℕ) spec0 c (C1 m c)) := by
      rw [← Pipeline.unscopedBufs_held (Ix := Unit) (Name := ℕ) (U := Pipeline.UD sig nD τ) (Lvl := ℕ) c (W1 m c),
        Pipeline.unscopedBufs_split₀ cfgs (0 : Fin 2) winFacts₀0.arr_unscoped c]
      exact sep_mono (arrays0_of_bufs r0 c) .rfl
    have e0 : (pdats r0 r1 0 c).owed 0 = 0 := r0.owed_zero c 0
    have eR : (pdats r0 r1 0 c).recorded 0 = Set.univ := r0.recorded_univ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr
      · ipureintro; intro x _; exact Or.inl (by rw [eR]; trivial)
      iexact HO
    isplitl [Hp]; · iexact Hp
    iexact Hrest
  hin c := by
    refine BIBase.Entails.trans ?_ (r0.hin c)
    unfold Pipeline.ΦA
    iintro ⟨Hp, -, Hr⟩
    isplitl [Hr]; · iexact Hr
    iexact Hp
  hout c := by
    rw [Pipeline.ownSems0_none]
    refine BIBase.Entails.trans (r0.hout c) ?_
    unfold Pipeline.ΦA
    iintro ⟨Hr, Hp⟩
    isplitl [Hp]; · iexact Hp
    isplitr; · iempintro
    iexact Hr
  hexit c := by
    have hjoin : iprop((pdats r0 r1 0 c).arrays ((pdats r0 r1 0 c).arrAt · cfg0.N) ∗ Pipeline.unscopedRest (Ix := Unit) (Name := ℕ) (U := Pipeline.UD sig nD τ) (Lvl := ℕ) spec0 c (C1 m c))
        ⊢ (StableHlo.held (c : Thread nD τ) (Pipeline.ucRefs τ sig) (W2 m r0 c) : sProp 𝕄) := by
      rw [← Pipeline.unscopedBufs_held (Ix := Unit) (Name := ℕ) (U := Pipeline.UD sig nD τ) (Lvl := ℕ) c (W2 m r0 c),
        Pipeline.unscopedBufs_split₀ cfgs (0 : Fin 2) winFacts₀0.arr_unscoped c]
      refine sep_mono (bufs_of_arrays0 r0 c (C2 m r0 c) (W2_of r0 c main_arg0 (by decide)) (W2_of r0 c main_v0 (by decide)) (W2_of r0 c main_v1 (by decide)) (W2_v3_0 r0 c) (W2_v3_1 r0 c)) (Entails.of_eq ?_)
      unfold Pipeline.unscopedRest
      exact bigSep_congr fun b hb => by
        show ((c : Thread nD τ).loc b ↦{fullShare} C1 m c b : sProp 𝕄) = ((c : Thread nD τ).loc b ↦{fullShare} C2 m r0 c b)
        rw [off0 r0 c b (Finset.mem_sdiff.mp hb).2]
    have eN : ∀ t, (pdats r0 r1 0 c).owed t = 0 := fun t => r0.owed_zero c t
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

set_option backward.isDefEq.respectTransparency.types false in
/-- THE SECOND PASS between the contents `W2` and `W3`, likewise. -/
def reg1 (r0 : Reg0 (C1 m)) (r1 : Reg1 (C2 m r0)) : RegionSeg (pcfgs (F := F)) adm (pdats r0 r1) () defs₀ 𝒱₀ L lv 1 where
  win := winFacts₀1
  block_pos := block_pos1
  stage_whole := stage_whole1
  K := PEmpty
  osem k := k.elim
  ho := Pipeline.OwnSemFacts.none _
  hbody c := (r1.body c).loose
  hwaits := Pipeline.hwaits_of_owed_zero _ _ _ _ L lv 1 fun c t => r1.owed_zero c t
  pre c := iprop(StableHlo.held (c : Thread nD τ) (Pipeline.ucRefs τ sig) (W2 m r0 c) ∗ Rest c)
  post c := iprop(StableHlo.held (c : Thread nD τ) (Pipeline.ucRefs τ sig) (W3 m r0 r1 c) ∗ Rest c)
  X c := iprop(∃ r, prngReg c r)
  Y c := iprop(∃ r, prngReg c r)
  Z c := Pipeline.unscopedRest (Ix := Unit) (Name := ℕ) (U := Pipeline.UD sig nD τ) (Lvl := ℕ) spec1 c (C2 m r0 c)
  hentry c := by
    rw [Pipeline.ownSems0_none]
    have hsplit : (StableHlo.held (c : Thread nD τ) (Pipeline.ucRefs τ sig) (W2 m r0 c) : sProp 𝕄)
        ⊢ iprop((pdats r0 r1 1 c).arrays ((pdats r0 r1 1 c).arrAt · 0) ∗ Pipeline.unscopedRest (Ix := Unit) (Name := ℕ) (U := Pipeline.UD sig nD τ) (Lvl := ℕ) spec1 c (C2 m r0 c)) := by
      rw [← Pipeline.unscopedBufs_held (Ix := Unit) (Name := ℕ) (U := Pipeline.UD sig nD τ) (Lvl := ℕ) c (W2 m r0 c),
        Pipeline.unscopedBufs_split₀ cfgs (1 : Fin 2) winFacts₀1.arr_unscoped c]
      exact sep_mono (arrays1_of_bufs r1 c) .rfl
    have e0 : (pdats r0 r1 1 c).owed 0 = 0 := r1.owed_zero c 0
    have eR : (pdats r0 r1 1 c).recorded 0 = Set.univ := r1.recorded_univ c 0
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [e0]
      icases HO with ⟨%W, HO⟩; iexists W; isplitr
      · ipureintro; intro x _; exact Or.inl (by rw [eR]; trivial)
      iexact HO
    isplitl [Hp]; · iexact Hp
    iexact Hrest
  hin c := by
    refine BIBase.Entails.trans ?_ (r1.hin c)
    unfold Pipeline.ΦA
    iintro ⟨Hp, -, Hr⟩
    isplitl [Hr]; · iexact Hr
    iexact Hp
  hout c := by
    rw [Pipeline.ownSems0_none]
    refine BIBase.Entails.trans (r1.hout c) ?_
    unfold Pipeline.ΦA
    iintro ⟨Hr, Hp⟩
    isplitl [Hp]; · iexact Hp
    isplitr; · iempintro
    iexact Hr
  hexit c := by
    have hjoin : iprop((pdats r0 r1 1 c).arrays ((pdats r0 r1 1 c).arrAt · cfg1.N) ∗ Pipeline.unscopedRest (Ix := Unit) (Name := ℕ) (U := Pipeline.UD sig nD τ) (Lvl := ℕ) spec1 c (C2 m r0 c))
        ⊢ (StableHlo.held (c : Thread nD τ) (Pipeline.ucRefs τ sig) (W3 m r0 r1 c) : sProp 𝕄) := by
      rw [← Pipeline.unscopedBufs_held (Ix := Unit) (Name := ℕ) (U := Pipeline.UD sig nD τ) (Lvl := ℕ) c (W3 m r0 r1 c),
        Pipeline.unscopedBufs_split₀ cfgs (1 : Fin 2) winFacts₀1.arr_unscoped c]
      refine sep_mono (bufs_of_arrays1 r1 c (C3 m r0 r1 c) (W3_of r0 r1 c main_arg0 (by decide)) (W3_of r0 r1 c main_v0 (by decide)) (W3_of r0 r1 c main_v1 (by decide)) (W3_of r0 r1 c main_v2 (by decide)) (W3_of r0 r1 c main_v3_0 (by decide)) (W3_of r0 r1 c main_v3_1 (by decide)) (W3_v4_0 r0 r1 c) (W3_v4_1 r0 r1 c) (W3_v4_2 r0 r1 c) (W3_v4_3 r0 r1 c)) (Entails.of_eq ?_)
      unfold Pipeline.unscopedRest
      exact bigSep_congr fun b hb => by
        show ((c : Thread nD τ).loc b ↦{fullShare} C2 m r0 c b : sProp 𝕄) = ((c : Thread nD τ).loc b ↦{fullShare} C3 m r0 r1 c b)
        rw [off1 r0 r1 c b (Finset.mem_sdiff.mp hb).2]
    have eN : ∀ t, (pdats r0 r1 1 c).owed t = 0 := fun t => r1.owed_zero c t
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [eN]
    icases HO with ⟨%W, -, HO⟩; iexists W; iexact HO

/-! ## The run -/

variable (m) in
set_option backward.isDefEq.respectTransparency.types false in
/-- THE RUN: from any memory with zero counters every weakly fair execution of @main terminates, nothing faulting,
    and every final memory holds each unscoped buffer at the closing host operations' result over the second pass's
    exit contents. -/
theorem run_all (ρ : Dev nD → PrngReg) (r0 : Reg0 (C1 m)) (r1 : Reg1 (C2 m r0)) :
    θ_run defs (onTc (τ := τ) (main (F := F))) ⟨m, fun _ => 0, ρ⟩ (fun r => ∀ c : Dev nD,
      ∀ b ∈ Pipeline.ucRefs τ sig, r.2.mem ((c : Thread nD τ).1, b) = StableHlo.after hostOps2 (W3 m r0 r1 c) b) :=
  run_cond m embL () 𝒱₀ L lv (fun _ _ => rfl) ρ (W2 m r0) (W3 m r0 r1) (pdats r0 r1) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ => Rest)
    (by
      refine Pipeline.initEach L lv fun c => ?_
      iintro ⟨⟨-, HO, -, Hp, -⟩, -⟩
      imodintro
      isplitl [Hp]; · iexists _; iexact Hp
      iexists ∅; iexact HO)
    (fun c => by iintro ⟨-, H⟩; iexact H)
    (reg0 r0 r1) (fun c => .rfl) (fun c => .rfl) (reg1 r0 r1) (fun c => .rfl) (fun c => .rfl)

end Run

end Cert.KernelIdeal.Run
end
-- ==== Proof.KernelIdeal.RunFrame.lean ====
/-
  The frame claim from the run: the closing host operations write none of the three arguments, neither pass has an
  argument among its outputs, and the opening reshapes write fresh buffers — so each argument's buffer, read off the
  run's last contents, walks back to the launch memory.
-/
import proofs.«118951_j44573170598307_1_alg».proof.Proof.KernelIdeal.Run

noncomputable section

namespace Cert.KernelIdeal.Run

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no item of @main writes ends as launched. -/
theorem last_of_untouched (r0 : Reg0 (C1 m)) (r1 : Reg1 (C2 m r0)) (c : Dev nD) (r : Ref sig .tc)
    (h2 : r ∉ hostOps2_W) (h31 : r ∉ ([main_v4_0, main_v4_1, main_v4_2, main_v4_3] : List (Ref sig .tc)))
    (h30 : r ∉ ([main_v3_0, main_v3_1] : List (Ref sig .tc))) (h0 : r ∉ hostOps0_W) :
    StableHlo.after hostOps2 (W3 m r0 r1 c) r = m ((c : Thread nD τ).loc r) :=
  (StableHlo.after_of_writes_sub hostOps2 _ hostOps2_writes h2).trans <| (W3_of r0 r1 c r h31).trans <| (W2_of r0 c r h30).trans <|
    (V1_of m c r h0).trans rfl

/-- THE FRAME of the program, for any proof data of the two passes that the launch admits. -/
theorem frame_of (ρ : Dev nD → PrngReg) (r0 : Reg0 (C1 m)) (r1 : Reg1 (C2 m r0)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (last_of_untouched m r0 r1 c main_arg0 (by decide) (by decide) (by decide) (by decide)),
     (h c _ (mem_uc main_arg1 (by decide))).trans (last_of_untouched m r0 r1 c main_arg1 (by decide) (by decide) (by decide) (by decide)),
     (h c _ (mem_uc main_arg2 (by decide))).trans (last_of_untouched m r0 r1 c main_arg2 (by decide) (by decide) (by decide) (by decide))⟩)
    (run_all m ρ r0 r1)

end Cert.KernelIdeal.Run

end
-- ==== Proof.KernelIdeal.Steps.lean ====
/-
  What one grid point does to each accumulator, and what the last column of a row block writes out, as pure functions
  of the point's blocks: `x0`, `x1` the row block's and the column block's 512 embeddings, `x2`, `x3` their labels (a
  column and a row), `x4` the row block's margins, `x5`, `x6` its least positive and greatest negative similarity.

  First pass: the running row minimum of the masked similarities (`minStep`, from `minInit` = +1e9 at a row block's
  first column block) and the running row maximum (`maxStep`, from `maxInit` = -1e9).
  Second pass: the running counts of kept positives and negatives (`apStep`, `anStep`) and the running sums of their
  exponentials (`posStep`, `negStep`), each from zero; at the last column block the four outputs of the row block
  from the four finished accumulators.
-/
import proofs.«118951_j44573170598307_1_alg».proof.Proof.Gen.KernelIdeal.Skeleton

noncomputable section

namespace Cert.KernelIdeal.Steps

open Idealize.ShloMosaic Cert.KernelIdeal Cert.KernelIdeal.Gen

variable {F : FTy → Type} [FloatOps F]

/-! ## First pass -/

/-- The accumulators at a row block's first column block. -/
def minInit : Vec F S512x1 .f32 := k0_pay2
def maxInit : Vec F S512x1 .f32 := k0_pay3
/-- The running minimum after a point, from the one before it. -/
def minStep (x0 x1 : Vec F S512x1024 .f32) (x2 : Vec F S512x1 .i32) (x3 : Vec F S1x512 .i32) (acc : Vec F S512x1 .f32) : Vec F S512x1 .f32 :=
  k0_pay7 x0 x1 x2 x3 acc
/-- The running maximum after a point, from the one before it. -/
def maxStep (x0 x1 : Vec F S512x1024 .f32) (x2 : Vec F S512x1 .i32) (x3 : Vec F S1x512 .i32) (acc : Vec F S512x1 .f32) : Vec F S512x1 .f32 :=
  k0_pay1 (k0_pay6 x0 x1 x2 x3) acc

/-! ## Second pass -/

/-- The four accumulators at a row block's first column block: zero. -/
def apInit : Vec F S512x1 .f32 := k1_pay7
def anInit : Vec F S512x1 .f32 := k1_pay8
def posInit : Vec F S512x1 .f32 := k1_pay9
def negInit : Vec F S512x1 .f32 := k1_pay10

/-- The count of kept positives after a point. -/
def apStep (x0 x1 : Vec F S512x1024 .f32) (x2 : Vec F S512x1 .i32) (x3 : Vec F S1x512 .i32) (x4 x6 : Vec F S512x1 .f32) (acc : Vec F S512x1 .f32) : Vec F S512x1 .f32 :=
  k1_pay18 (k1_pay13 x0 x1 x2 x3) (k1_pay16 x0 x1 x4 x6) (Scalar.ofBits .f32 0x00000000#32) acc
/-- The count of kept negatives after a point. -/
def anStep (x0 x1 : Vec F S512x1024 .f32) (x2 : Vec F S512x1 .i32) (x3 : Vec F S1x512 .i32) (x4 x5 : Vec F S512x1 .f32) (acc : Vec F S512x1 .f32) : Vec F S512x1 .f32 :=
  k1_pay19 (k1_pay15 x0 x1 x2 x3 x4 x5) acc
/-- The sum over the kept positives after a point. -/
def posStep (x0 x1 : Vec F S512x1024 .f32) (x2 : Vec F S512x1 .i32) (x3 : Vec F S1x512 .i32) (x4 x6 : Vec F S512x1 .f32) (acc : Vec F S512x1 .f32) : Vec F S512x1 .f32 :=
  k1_pay20 (k1_pay11 x0 x1) (k1_pay13 x0 x1 x2 x3) (k1_pay16 x0 x1 x4 x6) (Scalar.ofBits .f32 0x00000000#32) acc
/-- The sum over the kept negatives after a point. -/
def negStep (x0 x1 : Vec F S512x1024 .f32) (x2 : Vec F S512x1 .i32) (x3 : Vec F S1x512 .i32) (x4 x5 : Vec F S512x1 .f32) (acc : Vec F S512x1 .f32) : Vec F S512x1 .f32 :=
  k1_pay1 (k1_pay11 x0 x1) (k1_pay15 x0 x1 x2 x3 x4 x5) acc (Scalar.ofBits .f32 0x3F000000#32)

/-- The row block's four outputs from its finished accumulators (counts `s0`, `s1`; sums `s2`, `s3`). -/
def lossOut (s0 s1 s2 s3 : Vec F S512x1 .f32) : Vec F S512x1 .f32 := k1_pay3 s0 s1 s2 s3
def anchorOut (s0 s1 : Vec F S512x1 .f32) : Vec F S512x1 .i32 := k1_pay4 s0 s1
def apOut (s0 s1 : Vec F S512x1 .f32) : Vec F S512x1 .i32 := k1_pay5 s0 s1 s0
def anOut (s0 s1 : Vec F S512x1 .f32) : Vec F S512x1 .i32 := k1_pay6 s0 s1 s1

end Cert.KernelIdeal.Steps

end
-- ==== Proof.KernelIdeal.Pass1Shared.lean ====
/-
  The first pass over the similarity matrix, at a grid point: what every later statement about it shares.

  The grid is 16 row blocks by 16 column blocks of 512 rows each; point `t` sits in column block `t % 16`. The first
  pass keeps, per row of the row block, the least similarity over the row's positives and the greatest over its negatives
  in two running columns that live across the sixteen column blocks of a row block: both are reset at the first column
  block (+1e9 and -1e9), folded with the tile's masked row minimum and maximum at every column block, and copied out to
  the two result columns at the last column block.

  Here: the block of each array a point reads (`iblk`); that an input's buffer holds its block at every point, brought
  in there or carried over; the two branch conditions of the body in closed form over the grid (first column block,
  last column block); at which points the two result columns are stored and written back; the buffers the body is
  handed; and the invariant between points with the two running columns singled out.
-/
import proofs.«118951_j44573170598307_1_alg».proof.Proof.Gen.KernelIdeal.Launch
import proofs.«118951_j44573170598307_1_alg».proof.Proof.Gen.KernelIdeal.Skeleton
import proofs.«118951_j44573170598307_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«118951_j44573170598307_1_alg».proof.Proof.KernelIdeal.Steps

set_option maxRecDepth 16384

noncomputable section

namespace Cert.KernelIdeal.P1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- the buffers' contents when the first pass is entered
variable (V : (c : Dev nD) → (b : Ref sig .tc) → Buf (Elt F) ((c : Thread nD τ).loc b))

/-! ## The blocks a point reads -/

/-- Window `w`'s block at point `t`, read off its array as the first pass finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block's embeddings are in their buffer at every point of the row block, brought in at its first column
    block and left in place after: for any proof data over these arrays whose body leaves the block where it is. -/
theorem before_0_of {c : Dev nD} (dat : Dat τ (Elt F) Unit ℕ (Pipeline.UD sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column block's embeddings, brought in at every point. -/
theorem before_1_of {c : Dev nD} (dat : Dat τ (Elt F) Unit ℕ (Pipeline.UD sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The row block's labels, as the embeddings of the row block. -/
theorem before_2_of {c : Dev nD} (dat : Dat τ (Elt F) Unit ℕ (Pipeline.UD sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The column block's labels, brought in at every point. -/
theorem before_3_of {c : Dev nD} (dat : Dat τ (Elt F) Unit ℕ (Pipeline.UD sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's two branches, over the grid -/

/-- The reset's condition: the column block's number is zero. -/
abbrev condFirst (i : grid0.Coords) : Prop :=
  (Scalar.cmpi .ne (Scalar.extui (Scalar.cmpi .eq (BitVec.ofNat 32 (i 1).val) 0#32)) 0#32) = 1#1
/-- It holds at a row block's first column block only. -/
theorem hcondFirst : ∀ t : Fin cfg0.N, condFirst (grid0.coords t) ↔ t.val % 16 = 0 :=
  (by decide +kernel : ∀ t : Fin grid0.N, condFirst (grid0.coords t) ↔ t.val % 16 = 0)

/-- The copy-out's condition: the column block's number is fifteen. -/
abbrev condLast (i : grid0.Coords) : Prop := k0_cond2 i = 1#1
/-- It holds at a row block's last column block only. -/
theorem hcondLast : ∀ t : Fin cfg0.N, condLast (grid0.coords t) ↔ t.val % 16 = 15 :=
  (by decide +kernel : ∀ t : Fin grid0.N, condLast (grid0.coords t) ↔ t.val % 16 = 15)

/-! ## Where the result columns are stored -/

/-- The four inputs are read at every point. -/
theorem liveAt_0 : ∀ t : Fin cfg0.N, cfg0.idle 0 (grid0.coords t) = false := fun _ => rfl
theorem liveAt_1 : ∀ t : Fin cfg0.N, cfg0.idle 1 (grid0.coords t) = false := fun _ => rfl
theorem liveAt_2 : ∀ t : Fin cfg0.N, cfg0.idle 2 (grid0.coords t) = false := fun _ => rfl
theorem liveAt_3 : ∀ t : Fin cfg0.N, cfg0.idle 3 (grid0.coords t) = false := fun _ => rfl

/-- Before a row block's last column block nothing is stored into the least-positive column, -/
theorem idleAt_4 : ∀ t : Fin cfg0.N, t.val % 16 ≠ 15 → cfg0.idle 4 (grid0.coords t) = true :=
  (by decide +kernel : ∀ t : Fin grid0.N, t.val % 16 ≠ 15 → idle0 4 (grid0.coords t) = true)
/-- nor is it written back there; -/
theorem noFlush_4 (t : Fin cfg0.N) (h : t.val % 16 ≠ 15) : (cfg0.win 4).flush t = false :=
  Bool.eq_false_iff.mpr fun hf => h ((flush0_4 t).mp hf)
/-- at the last column block it is stored. -/
theorem liveAt_4 : ∀ t : Fin cfg0.N, t.val % 16 = 15 → cfg0.idle 4 (grid0.coords t) = false :=
  (by decide +kernel : ∀ t : Fin grid0.N, t.val % 16 = 15 → idle0 4 (grid0.coords t) = false)

/-- The same of the greatest-negative column. -/
theorem idleAt_5 : ∀ t : Fin cfg0.N, t.val % 16 ≠ 15 → cfg0.idle 5 (grid0.coords t) = true :=
  (by decide +kernel : ∀ t : Fin grid0.N, t.val % 16 ≠ 15 → idle0 5 (grid0.coords t) = true)
theorem noFlush_5 (t : Fin cfg0.N) (h : t.val % 16 ≠ 15) : (cfg0.win 5).flush t = false :=
  Bool.eq_false_iff.mpr fun hf => h ((flush0_5 t).mp hf)
theorem liveAt_5 : ∀ t : Fin cfg0.N, t.val % 16 = 15 → cfg0.idle 5 (grid0.coords t) = false :=
  (by decide +kernel : ∀ t : Fin grid0.N, t.val % 16 = 15 → idle0 5 (grid0.coords t) = false)

/-! ## The buffers the body is handed -/

/-- Each window's current buffer at point `t`, and that it is a whole buffer. -/
abbrev ms0 (t : Fin cfg0.N) : Memref sig .tc .vmem S512x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)

/-- The two running columns: the least positive similarity so far, the greatest negative so far. -/
abbrev scM0 : Memref sig .tc .vmem S512x1 .f32 := Memref.whole cc0_scratch0
abbrev scM1 : Memref sig .tc .vmem S512x1 .f32 := Memref.whole cc0_scratch1
/-- As views: what they hold is stated through these. -/
abbrev VS0 : View sig .tc .vmem S512x1 .f32 := scM0.view
abbrev VS1 : View sig .tc .vmem S512x1 .f32 := scM1.view
/-- One buffer of each result column, through which its contents are stated (the choice does not matter). -/
abbrev VO4 : View sig .tc .vmem S512x1 .f32 := (Memref.whole cc0_stg4_0 : Memref sig .tc .vmem S512x1 .f32).view
abbrev VO5 : View sig .tc .vmem S512x1 .f32 := (Memref.whole cc0_stg5_0 : Memref sig .tc .vmem S512x1 .f32).view

/-- Everything else the core holds in local memory, which the first pass never opens. -/
abbrev restBut (c : Dev nD) : sProp 𝕄 :=
  Pipeline.scopedRestBut (Ix := Unit) (Name := ℕ) (U := Pipeline.UD sig nD τ) (Lvl := ℕ) (Val := Elt F) spec0 c [cc0_scratch0, cc0_scratch1]

/-- The invariant with nothing known of the running columns: each at some contents, the rest of local memory and the
    generator register beside them. -/
theorem PhiA_eq (c : Dev nD) :
    (Pipeline.ΦA spec0 c : sProp 𝕄)
      = iprop(iprop(iprop((∃ d, owns (c : Thread nD τ) scM0 fullShare d) ∗ (∃ d, owns (c : Thread nD τ) scM1 fullShare d)) ∗ restBut (F := F) c) ∗ (∃ r, prngReg c r)) := by
  unfold Pipeline.ΦA; rw [scopedRest0_split]; simp only [scM0, scM1, owns_whole]; try rfl

end Cert.KernelIdeal.P1

end
-- ==== Proof.KernelIdeal.Pass1Runs.lean ====
/-
  The first pass's body at a grid point, run in each of the three situations a point can be in, on any buffers.

  * At a row block's FIRST column block the two running columns are reset (to +1e9 and -1e9) and then folded with this
    tile's masked row minimum and maximum; whatever they held before is read and discarded.
  * At a column block strictly between the first and the last they are folded only, from what the column block before
    left in them.
  * At the LAST column block they are folded and then copied to the two result columns.

  Each run is stated with the lists of stores each buffer ends with as its witness: the lists are found by running the
  body, not written down. The row block's and column block's embeddings and labels are read and left as they were.
-/
import proofs.«118951_j44573170598307_1_alg».proof.Proof.KernelIdeal.Pass1Shared

set_option maxRecDepth 16384

noncomputable section

namespace Cert.KernelIdeal.P1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

set_option maxHeartbeats 1000000 in
/-- FIRST column block of a row block (the reset taken, the copy-out not): from the four inputs at their contents and the
    two running columns at anything, the body runs to the inputs as they were and each running column with its stores
    `LS0`, `LS1` written (the reset, then the fold). The result columns' buffers are not touched. -/
noncomputable def runFirst (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : condFirst i) (hc1 : ¬condLast i)
    (x0 x1 : Vec F S512x1024 .f32) (x2 : Vec F S512x1 .i32) (x3 : Vec F S1x512 .i32) :
    Σ' (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- A column block strictly BETWEEN the first and the last (neither branch taken): from the inputs at their contents and
    the running columns at what the column block before left (`xs0`, `xs1`), the body runs to the inputs as they were
    and each running column with its one store written (the fold). The result columns' buffers are not touched. -/
noncomputable def runMid (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : ¬condLast i)
    (x0 x1 : Vec F S512x1024 .f32) (x2 : Vec F S512x1 .i32) (x3 : Vec F S1x512 .i32) (xs0 xs1 : Vec F S512x1 .f32) :
    Σ' (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

set_option maxHeartbeats 1000000 in
/-- LAST column block of a row block (the copy-out taken, the reset not): from the inputs at their contents, the result
    columns' buffers at anything and the running columns at what the column block before left, the body runs to the
    inputs as they were, each running column with its one store written (the fold) and each result column's buffer with
    its one store written (the finished running column). -/
noncomputable def runLast (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) :
    Σ' (L4 : List (View.Piece (Elt F) S512x1 .f32)) (L5 : List (View.Piece (Elt F) S512x1 .f32)) (LS0 : List (View.Piece (Elt F) S512x1 .f32)), { LS1 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__pass1_kernel i arg2 harg2 arg3 harg3 arg4 harg4 arg5 harg5 arg6 harg6 arg7 harg7 arg8 harg8 arg9 harg9) K } := by
  refine ⟨?_, ?_, ?_, ?_, fun E K => ?run⟩
  case run =>
    simp only [cc0__pass1_kernel_eq_skeleton]; unfold cc0__pass1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.P1

end
-- ==== Proof.KernelIdeal.Pass1Data.lean ====
/-
  The first pass as a whole: what the two running columns and the two result columns hold after every grid point, the
  invariant between points, and the body's obligation at every point.

  After point `n` (row block `n / 16`, column block `n % 16`):
    * the running minimum and maximum hold, at a first column block, the reset folded with this tile; at any other
      column block, what the column block before left folded with this tile;
    * at a last column block the two result columns' buffers hold the finished running columns; elsewhere nothing is
      stored into them and nothing written back, and what is recorded for them there is never consulted.
  Between points the invariant holds the two running columns at exactly these contents (before the very first point: at
  anything); a row block's first column block discards what it finds there, so the invariant carries from one row block
  into the next without saying more.
-/
import proofs.«118951_j44573170598307_1_alg».proof.Proof.KernelIdeal.Pass1Runs

set_option maxRecDepth 16384

noncomputable section

namespace Cert.KernelIdeal.P1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## What each situation leaves, on any buffers -/

/-- At a first column block the stores into the running minimum (the reset, then the fold) cover it. -/
theorem scoverF_0 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : condFirst i) (hc1 : ¬condLast i)
    (x0 x1 : Vec F S512x1024 .f32) (x2 : Vec F S512x1 .i32) (x3 : Vec F S1x512 .i32) (y : S512x1.Idx) :
    ∃ pc ∈ (runFirst c i arg2 harg2 arg3 harg3 arg4 harg4 arg5 harg5 arg6 harg6 arg7 harg7 arg8 harg8 arg9 harg9 hc0 hc1 x0 x1 x2 x3).1, y ∈ pc.1.set :=
  View.cover_of_tiledL (runFirst c i arg2 harg2 arg3 harg3 arg4 harg4 arg5 harg5 arg6 harg6 arg7 harg7 arg8 harg8 arg9 harg9 hc0 hc1 x0 x1 x2 x3).1 S512x1.size (by sl_kernel_rfl) y
/-- What a first column block leaves in the running minimum: its stores read back. -/
def soutF_0 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : condFirst i) (hc1 : ¬condLast i)
    (x0 x1 : Vec F S512x1024 .f32) (x2 : Vec F S512x1 .i32) (x3 : Vec F S1x512 .i32) : Vec F S512x1 .f32 :=
  VS0.read (Elt F) (VS0.writes (Elt F) VS0.junk (runFirst c i arg2 harg2 arg3 harg3 arg4 harg4 arg5 harg5 arg6 harg6 arg7 harg7 arg8 harg8 arg9 harg9 hc0 hc1 x0 x1 x2 x3).1)
/-- The same of the running maximum. -/
theorem scoverF_1 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : condFirst i) (hc1 : ¬condLast i)
    (x0 x1 : Vec F S512x1024 .f32) (x2 : Vec F S512x1 .i32) (x3 : Vec F S1x512 .i32) (y : S512x1.Idx) :
    ∃ pc ∈ (runFirst c i arg2 harg2 arg3 harg3 arg4 harg4 arg5 harg5 arg6 harg6 arg7 harg7 arg8 harg8 arg9 harg9 hc0 hc1 x0 x1 x2 x3).2.1, y ∈ pc.1.set :=
  View.cover_of_tiledL (runFirst c i arg2 harg2 arg3 harg3 arg4 harg4 arg5 harg5 arg6 harg6 arg7 harg7 arg8 harg8 arg9 harg9 hc0 hc1 x0 x1 x2 x3).2.1 S512x1.size (by sl_kernel_rfl) y
/-- What a first column block leaves in the running maximum. -/
def soutF_1 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : condFirst i) (hc1 : ¬condLast i)
    (x0 x1 : Vec F S512x1024 .f32) (x2 : Vec F S512x1 .i32) (x3 : Vec F S1x512 .i32) : Vec F S512x1 .f32 :=
  VS1.read (Elt F) (VS1.writes (Elt F) VS1.junk (runFirst c i arg2 harg2 arg3 harg3 arg4 harg4 arg5 harg5 arg6 harg6 arg7 harg7 arg8 harg8 arg9 harg9 hc0 hc1 x0 x1 x2 x3).2.1)
/-- At a column block between the first and the last the one store into the running minimum (the fold) covers it. -/
theorem scoverM_0 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : ¬condLast i)
    (x0 x1 : Vec F S512x1024 .f32) (x2 : Vec F S512x1 .i32) (x3 : Vec F S1x512 .i32) (xs0 xs1 : Vec F S512x1 .f32) (y : S512x1.Idx) :
    ∃ pc ∈ (runMid c i arg2 harg2 arg3 harg3 arg4 harg4 arg5 harg5 arg6 harg6 arg7 harg7 arg8 harg8 arg9 harg9 hc0 hc1 x0 x1 x2 x3 xs0 xs1).1, y ∈ pc.1.set :=
  View.cover_of_tiledL (runMid c i arg2 harg2 arg3 harg3 arg4 harg4 arg5 harg5 arg6 harg6 arg7 harg7 arg8 harg8 arg9 harg9 hc0 hc1 x0 x1 x2 x3 xs0 xs1).1 S512x1.size (by sl_kernel_rfl) y
/-- What such a column block leaves in the running minimum, from what the one before left in the two running columns. -/
def soutM_0 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : ¬condLast i)
    (x0 x1 : Vec F S512x1024 .f32) (x2 : Vec F S512x1 .i32) (x3 : Vec F S1x512 .i32) (xs0 xs1 : Vec F S512x1 .f32) : Vec F S512x1 .f32 :=
  VS0.read (Elt F) (VS0.writes (Elt F) VS0.junk (runMid c i arg2 harg2 arg3 harg3 arg4 harg4 arg5 harg5 arg6 harg6 arg7 harg7 arg8 harg8 arg9 harg9 hc0 hc1 x0 x1 x2 x3 xs0 xs1).1)
/-- The same of the running maximum. -/
theorem scoverM_1 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : ¬condLast i)
    (x0 x1 : Vec F S512x1024 .f32) (x2 : Vec F S512x1 .i32) (x3 : Vec F S1x512 .i32) (xs0 xs1 : Vec F S512x1 .f32) (y : S512x1.Idx) :
    ∃ pc ∈ (runMid c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (runMid c i arg2 harg2 arg3 harg3 arg4 harg4 arg5 harg5 arg6 harg6 arg7 harg7 arg8 harg8 arg9 harg9 hc0 hc1 x0 x1 x2 x3 xs0 xs1).2.1 S512x1.size (by sl_kernel_rfl) y
/-- What such a column block leaves in the running maximum. -/
def soutM_1 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : ¬condLast i)
    (x0 x1 : Vec F S512x1024 .f32) (x2 : Vec F S512x1 .i32) (x3 : Vec F S1x512 .i32) (xs0 xs1 : Vec F S512x1 .f32) : Vec F S512x1 .f32 :=
  VS1.read (Elt F) (VS1.writes (Elt F) VS1.junk (runMid c i arg2 harg2 arg3 harg3 arg4 harg4 arg5 harg5 arg6 harg6 arg7 harg7 arg8 harg8 arg9 harg9 hc0 hc1 x0 x1 x2 x3 xs0 xs1).2.1)
/-- At a last column block the one store into the least-positive result column covers its block. -/
theorem coverL_4 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) (y : S512x1.Idx) :
    ∃ pc ∈ (runLast c i arg2 harg2 arg3 harg3 arg4 harg4 arg5 harg5 arg6 harg6 arg7 harg7 arg8 harg8 arg9 harg9 hc0 hc1 x0 x1 x2 x3 xs0 xs1).1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1).1 S512x1.size (by sl_kernel_rfl) y
/-- What a last column block leaves in the least-positive result column's buffer. -/
def outL_4 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) : Vec F S512x1 .f32 :=
  VO4.read (Elt F) (VO4.writes (Elt F) VO4.junk (runLast c i arg2 harg2 arg3 harg3 arg4 harg4 arg5 harg5 arg6 harg6 arg7 harg7 arg8 harg8 arg9 harg9 hc0 hc1 x0 x1 x2 x3 xs0 xs1).1)
/-- The same of the greatest-negative result column. -/
theorem coverL_5 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) (y : S512x1.Idx) :
    ∃ pc ∈ (runLast c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1).2.1 S512x1.size (by sl_kernel_rfl) y
/-- What a last column block leaves in the greatest-negative result column's buffer. -/
def outL_5 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) : Vec F S512x1 .f32 :=
  VO5.read (Elt F) (VO5.writes (Elt F) VO5.junk (runLast c i arg2 harg2 arg3 harg3 arg4 harg4 arg5 harg5 arg6 harg6 arg7 harg7 arg8 harg8 arg9 harg9 hc0 hc1 x0 x1 x2 x3 xs0 xs1).2.1)
/-- At a last column block the one store into the running minimum (the fold) covers it. -/
theorem scoverL_0 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) (y : S512x1.Idx) :
    ∃ pc ∈ (runLast c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1).2.2.1 S512x1.size (by sl_kernel_rfl) y
/-- What a last column block leaves in the running minimum. -/
def soutL_0 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) : Vec F S512x1 .f32 :=
  VS0.read (Elt F) (VS0.writes (Elt F) VS0.junk (runLast c i arg2 harg2 arg3 harg3 arg4 harg4 arg5 harg5 arg6 harg6 arg7 harg7 arg8 harg8 arg9 harg9 hc0 hc1 x0 x1 x2 x3 xs0 xs1).2.2.1)
/-- The same of the running maximum. -/
theorem scoverL_1 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) (y : S512x1.Idx) :
    ∃ pc ∈ (runLast c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (runLast c i arg2 harg2 arg3 harg3 arg4 harg4 arg5 harg5 arg6 harg6 arg7 harg7 arg8 harg8 arg9 harg9 hc0 hc1 x0 x1 x2 x3 xs0 xs1).2.2.2.1 S512x1.size (by sl_kernel_rfl) y
/-- What a last column block leaves in the running maximum. -/
def soutL_1 (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) : Vec F S512x1 .f32 :=
  VS1.read (Elt F) (VS1.writes (Elt F) VS1.junk (runLast c i arg2 harg2 arg3 harg3 arg4 harg4 arg5 harg5 arg6 harg6 arg7 harg7 arg8 harg8 arg9 harg9 hc0 hc1 x0 x1 x2 x3 xs0 xs1).2.2.2.1)

/-! ## The situations, from a point's column block -/

theorem isFirst (t : Fin cfg0.N) (h : t.val % 16 = 0) : condFirst (grid0.coords t) := (hcondFirst t).mpr h
theorem notFirst (t : Fin cfg0.N) (h : ¬t.val % 16 = 0) : ¬condFirst (grid0.coords t) := fun hc => h ((hcondFirst t).mp hc)
theorem isLast (t : Fin cfg0.N) (h : t.val % 16 = 15) : condLast (grid0.coords t) := (hcondLast t).mpr h
theorem notLast (t : Fin cfg0.N) (h : ¬t.val % 16 = 15) : ¬condLast (grid0.coords t) := fun hc => h ((hcondLast t).mp hc)
theorem notLast_of_first (t : Fin cfg0.N) (h : t.val % 16 = 0) : ¬t.val % 16 = 15 := by omega
theorem notFirst_of_last (t : Fin cfg0.N) (h : t.val % 16 = 15) : ¬t.val % 16 = 0 := by omega

-- the buffers' contents when the first pass is entered
variable (V : (c : Dev nD) → (b : Ref sig .tc) → Buf (Elt F) ((c : Thread nD τ).loc b))

/-! ## What a point leaves, at the point's own buffers and blocks -/

/-- The running minimum after a first column block `t`. -/
def firstScr0 (c : Dev nD) (t : Fin cfg0.N) (h : t.val % 16 = 0) : Vec F S512x1 .f32 :=
  soutF_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (isFirst t h) (notLast t (notLast_of_first t h)) (iblk V c 0 t) (iblk V c 1 t) (iblk V c 2 t) (iblk V c 3 t)
/-- The running maximum after a first column block `t`. -/
def firstScr1 (c : Dev nD) (t : Fin cfg0.N) (h : t.val % 16 = 0) : Vec F S512x1 .f32 :=
  soutF_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (isFirst t h) (notLast t (notLast_of_first t h)) (iblk V c 0 t) (iblk V c 1 t) (iblk V c 2 t) (iblk V c 3 t)
/-- The running minimum after a column block `t` between the first and the last, from what the one before left. -/
def midScr0 (c : Dev nD) (t : Fin cfg0.N) (h0 : ¬t.val % 16 = 0) (h1 : ¬t.val % 16 = 15) (xs0 xs1 : Vec F S512x1 .f32) : Vec F S512x1 .f32 :=
  soutM_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (notLast t h1) (iblk V c 0 t) (iblk V c 1 t) (iblk V c 2 t) (iblk V c 3 t) xs0 xs1
/-- The running maximum after such a column block. -/
def midScr1 (c : Dev nD) (t : Fin cfg0.N) (h0 : ¬t.val % 16 = 0) (h1 : ¬t.val % 16 = 15) (xs0 xs1 : Vec F S512x1 .f32) : Vec F S512x1 .f32 :=
  soutM_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (notLast t h1) (iblk V c 0 t) (iblk V c 1 t) (iblk V c 2 t) (iblk V c 3 t) xs0 xs1
/-- The least-positive result column's buffer after a last column block `t`. -/
def lastOut4 (c : Dev nD) (t : Fin cfg0.N) (h1 : t.val % 16 = 15) (xs0 xs1 : Vec F S512x1 .f32) : Vec F S512x1 .f32 :=
  outL_4 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t (notFirst_of_last t h1)) (isLast t h1) (iblk V c 0 t) (iblk V c 1 t) (iblk V c 2 t) (iblk V c 3 t) xs0 xs1
/-- The greatest-negative result column's buffer after a last column block `t`. -/
def lastOut5 (c : Dev nD) (t : Fin cfg0.N) (h1 : t.val % 16 = 15) (xs0 xs1 : Vec F S512x1 .f32) : Vec F S512x1 .f32 :=
  outL_5 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t (notFirst_of_last t h1)) (isLast t h1) (iblk V c 0 t) (iblk V c 1 t) (iblk V c 2 t) (iblk V c 3 t) xs0 xs1
/-- The running minimum after a last column block. -/
def lastScr0 (c : Dev nD) (t : Fin cfg0.N) (h1 : t.val % 16 = 15) (xs0 xs1 : Vec F S512x1 .f32) : Vec F S512x1 .f32 :=
  soutL_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t (notFirst_of_last t h1)) (isLast t h1) (iblk V c 0 t) (iblk V c 1 t) (iblk V c 2 t) (iblk V c 3 t) xs0 xs1
/-- The running maximum after a last column block. -/
def lastScr1 (c : Dev nD) (t : Fin cfg0.N) (h1 : t.val % 16 = 15) (xs0 xs1 : Vec F S512x1 .f32) : Vec F S512x1 .f32 :=
  soutL_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t (notFirst_of_last t h1)) (isLast t h1) (iblk V c 0 t) (iblk V c 1 t) (iblk V c 2 t) (iblk V c 3 t) xs0 xs1

/-- What is recorded for a result column's buffer at a point that stores nothing into it: never consulted. -/
def idle4 : Vec F S512x1 .f32 := VO4.read (Elt F) VO4.junk
def idle5 : Vec F S512x1 .f32 := VO5.read (Elt F) VO5.junk

/-! ## Point by point -/

/-- What the two result columns' buffers and the two running columns hold after the body at point `n`, in that order:
    by recursion on the point, a column block after the first taking the running columns from the point before. -/
def accAt (c : Dev nD) : (n : ℕ) → n < cfg0.N → Vec F S512x1 .f32 × Vec F S512x1 .f32 × Vec F S512x1 .f32 × Vec F S512x1 .f32
  | 0, hn => (idle4, idle5, firstScr0 V c ⟨0, hn⟩ (Nat.zero_mod _), firstScr1 V c ⟨0, hn⟩ (Nat.zero_mod _))
  | n + 1, hn =>
    if h0 : (n + 1) % 16 = 0 then
      (idle4, idle5, firstScr0 V c ⟨n + 1, hn⟩ h0, firstScr1 V c ⟨n + 1, hn⟩ h0)
    else
      if h1 : (n + 1) % 16 = 15 then
        (lastOut4 V c ⟨n + 1, hn⟩ h1 (accAt c n (Nat.lt_of_succ_lt hn)).2.2.1 (accAt c n (Nat.lt_of_succ_lt hn)).2.2.2,
         lastOut5 V c ⟨n + 1, hn⟩ h1 (accAt c n (Nat.lt_of_succ_lt hn)).2.2.1 (accAt c n (Nat.lt_of_succ_lt hn)).2.2.2,
         lastScr0 V c ⟨n + 1, hn⟩ h1 (accAt c n (Nat.lt_of_succ_lt hn)).2.2.1 (accAt c n (Nat.lt_of_succ_lt hn)).2.2.2,
         lastScr1 V c ⟨n + 1, hn⟩ h1 (accAt c n (Nat.lt_of_succ_lt hn)).2.2.1 (accAt c n (Nat.lt_of_succ_lt hn)).2.2.2)
      else
        (idle4, idle5,
         midScr0 V c ⟨n + 1, hn⟩ h0 h1 (accAt c n (Nat.lt_of_succ_lt hn)).2.2.1 (accAt c n (Nat.lt_of_succ_lt hn)).2.2.2,
         midScr1 V c ⟨n + 1, hn⟩ h0 h1 (accAt c n (Nat.lt_of_succ_lt hn)).2.2.1 (accAt c n (Nat.lt_of_succ_lt hn)).2.2.2)

/-- The running minimum and maximum after point `n`. -/
abbrev scr0 (c : Dev nD) (n : ℕ) (hn : n < cfg0.N) : Vec F S512x1 .f32 := (accAt V c n hn).2.2.1
abbrev scr1 (c : Dev nD) (n : ℕ) (hn : n < cfg0.N) : Vec F S512x1 .f32 := (accAt V c n hn).2.2.2

/-- At a first column block. -/
theorem accAt_first (c : Dev nD) (t : Fin cfg0.N) (h0 : t.val % 16 = 0) :
    accAt V c t.val t.isLt = (idle4, idle5, firstScr0 V c t h0, firstScr1 V c t h0) := by
  obtain ⟨n, hn⟩ := t
  cases n with
  | zero => exact rfl
  | succ n => exact dif_pos h0

/-- At a column block between the first and the last: over what the point before left. -/
theorem accAt_mid (c : Dev nD) (t : Fin cfg0.N) (h0 : ¬t.val % 16 = 0) (h1 : ¬t.val % 16 = 15) :
    accAt V c t.val t.isLt = (idle4, idle5,
      midScr0 V c t h0 h1 (accAt V c (t.val - 1) (Nat.lt_of_le_of_lt (Nat.sub_le _ _) t.isLt)).2.2.1 (accAt V c (t.val - 1) (Nat.lt_of_le_of_lt (Nat.sub_le _ _) t.isLt)).2.2.2,
      midScr1 V c t h0 h1 (accAt V c (t.val - 1) (Nat.lt_of_le_of_lt (Nat.sub_le _ _) t.isLt)).2.2.1 (accAt V c (t.val - 1) (Nat.lt_of_le_of_lt (Nat.sub_le _ _) t.isLt)).2.2.2) := by
  obtain ⟨n, hn⟩ := t
  cases n with
  | zero => exact absurd (Nat.zero_mod _) h0
  | succ n => exact (dif_neg h0).trans ((dif_neg h1).trans rfl)

/-- At a last column block: over what the point before left. -/
theorem accAt_last (c : Dev nD) (t : Fin cfg0.N) (h1 : t.val % 16 = 15) :
    accAt V c t.val t.isLt = (
      lastOut4 V c t h1 (accAt V c (t.val - 1) (Nat.lt_of_le_of_lt (Nat.sub_le _ _) t.isLt)).2.2.1 (accAt V c (t.val - 1) (Nat.lt_of_le_of_lt (Nat.sub_le _ _) t.isLt)).2.2.2,
      lastOut5 V c t h1 (accAt V c (t.val - 1) (Nat.lt_of_le_of_lt (Nat.sub_le _ _) t.isLt)).2.2.1 (accAt V c (t.val - 1) (Nat.lt_of_le_of_lt (Nat.sub_le _ _) t.isLt)).2.2.2,
      lastScr0 V c t h1 (accAt V c (t.val - 1) (Nat.lt_of_le_of_lt (Nat.sub_le _ _) t.isLt)).2.2.1 (accAt V c (t.val - 1) (Nat.lt_of_le_of_lt (Nat.sub_le _ _) t.isLt)).2.2.2,
      lastScr1 V c t h1 (accAt V c (t.val - 1) (Nat.lt_of_le_of_lt (Nat.sub_le _ _) t.isLt)).2.2.1 (accAt V c (t.val - 1) (Nat.lt_of_le_of_lt (Nat.sub_le _ _) t.isLt)).2.2.2) := by
  obtain ⟨n, hn⟩ := t
  cases n with
  | zero => exact absurd h1 (show ¬(0 % 16 = 15) from by decide)
  | succ n => exact (dif_neg (notFirst_of_last ⟨n + 1, hn⟩ h1)).trans ((dif_pos h1).trans rfl)

/-! ## The invariant between points -/

/-- Before point `n`: before the very first, nothing is known of the running columns; afterwards they hold what the point
    before left. The rest of local memory and the generator register ride along. -/
def PhiS (c : Dev nD) : (n : ℕ) → n ≤ cfg0.N → sProp 𝕄
  | 0, _ => Pipeline.ΦA spec0 c
  | n + 1, hn => iprop(iprop(iprop(owns (c : Thread nD τ) scM0 fullShare (accAt V c n hn).2.2.1 ∗ owns (c : Thread nD τ) scM1 fullShare (accAt V c n hn).2.2.2) ∗ restBut (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scM0 fullShare (accAt V c n hn).2.2.1 ∗ owns (c : Thread nD τ) scM1 fullShare (accAt V c n hn).2.2.2) ∗ restBut (F := F) c) ∗ (∃ r, prngReg c r)) := rfl

theorem PhiS_pos (c : Dev nD) (n : ℕ) (h : n ≤ cfg0.N) (hz : n ≠ 0) :
    PhiS V c n h = iprop(iprop(iprop(owns (c : Thread nD τ) scM0 fullShare (accAt V c (n - 1) (by omega)).2.2.1 ∗ owns (c : Thread nD τ) scM1 fullShare (accAt V c (n - 1) (by omega)).2.2.2) ∗ restBut (F := F) c) ∗ (∃ r, prngReg c r)) := by
  cases n with
  | zero => exact absurd rfl hz
  | succ n => rfl

/-! ## The proof data -/

/-- The share of each window's array: the two windows over the embeddings hold half of that one array each. -/
def qOf : Fin cfg0.W → PosShare TreeShare
  | ⟨0, _⟩ => fullShare.left
  | ⟨1, _⟩ => fullShare.right
  | _ => fullShare

/-- The first pass's proof data on core `c`: the arrays as the pass finds them; after the body at point `t` each
    input's buffer at its block, the result columns' at `accAt`'s first two components; the invariant `PhiS`; nothing owed. -/
def dat (c : Dev nD) : Dat τ (Elt F) Unit ℕ (Pipeline.UD sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (accAt V c t.val t.isLt).1
    | ⟨5, _⟩ => (accAt V c t.val t.isLt).2.1
  Φ t := PhiS V c t.val (Nat.le_of_lt_succ t.isLt)
  q w := qOf w
  owed _ := 0

theorem A_eq (c : Dev nD) (w : Fin cfg0.W) : (dat V c).A w = V c (Pipeline.arrRef spec0 w) := by
  dsimp only [dat]

theorem q_0 (c : Dev nD) : (dat V c).q 0 = fullShare.left := by dsimp only [dat]; rfl
theorem q_1 (c : Dev nD) : (dat V c).q 1 = fullShare.right := by dsimp only [dat]; rfl
theorem q_ge2 (c : Dev nD) (w : Fin cfg0.W) (h : 2 ≤ w.val) : (dat V c).q w = fullShare := by
  dsimp only [dat]
  match w, h with
  | ⟨0, _⟩, h => exact absurd h (show ¬(2 ≤ 0) from by decide)
  | ⟨1, _⟩, h => exact absurd h (show ¬(2 ≤ 1) from by decide)
  | ⟨n + 2, _⟩, _ => rfl

theorem owed_zero (c : Dev nD) (t : Fin (cfg0.N + 1)) : (dat V c).owed t = 0 := by dsimp only [dat]
/-- Nothing bounds what the core's waits have recorded. -/
theorem recorded_univ (c : Dev nD) (t : Fin (cfg0.N + 1)) : (dat V c).recorded t = Set.univ := rfl

theorem PhiS_castSucc (c : Dev nD) (t : Fin cfg0.N) :
    (dat V c).Φ t.castSucc = PhiS V c t.val (Nat.le_of_lt t.isLt) := by
  dsimp only [dat]; simp only [Fin.coe_castSucc]

/-- What the body leaves, window by window. -/
theorem after_in0 (c : Dev nD) (t : Fin cfg0.N) : (dat V c).after 0 t = iblk V c 0 t := by dsimp only [dat]
theorem after_in1 (c : Dev nD) (t : Fin cfg0.N) : (dat V c).after 1 t = iblk V c 1 t := by dsimp only [dat]
theorem after_in2 (c : Dev nD) (t : Fin cfg0.N) : (dat V c).after 2 t = iblk V c 2 t := by dsimp only [dat]
theorem after_in3 (c : Dev nD) (t : Fin cfg0.N) : (dat V c).after 3 t = iblk V c 3 t := by dsimp only [dat]
theorem after_out4 (c : Dev nD) (t : Fin cfg0.N) : (dat V c).after 4 t = (accAt V c t.val t.isLt).1 := by dsimp only [dat]
theorem after_out5 (c : Dev nD) (t : Fin cfg0.N) : (dat V c).after 5 t = (accAt V c t.val t.isLt).2.1 := by dsimp only [dat]

/-- Each input's buffer holds its block at every point. -/
theorem before_0 (c : Dev nD) (t : Fin cfg0.N) (d) : (dat V c).before 0 t d = iblk V c 0 t :=
  before_0_of V (dat V c) (A_eq V c 0) (after_in0 V c) t d
theorem before_1 (c : Dev nD) (t : Fin cfg0.N) (d) : (dat V c).before 1 t d = iblk V c 1 t :=
  before_1_of V (dat V c) (A_eq V c 1) (after_in1 V c) t d
theorem before_2 (c : Dev nD) (t : Fin cfg0.N) (d) : (dat V c).before 2 t d = iblk V c 2 t :=
  before_2_of V (dat V c) (A_eq V c 2) (after_in2 V c) t d
theorem before_3 (c : Dev nD) (t : Fin cfg0.N) (d) : (dat V c).before 3 t d = iblk V c 3 t :=
  before_3_of V (dat V c) (A_eq V c 3) (after_in3 V c) t d

/-! ## The body's obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t)

set_option maxHeartbeats 4800000 in
/-- The body at any point. The inputs' buffers hold their blocks; the point's column block says which of the three
    situations it is in, and that situation's run applies. The invariant hands the body the two running columns — at
    what the point before left, which a first column block discards — and takes them back at this point's contents;
    where the result columns are not stored their buffers pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
        unfold Dat.leavesExact; rw [liveAt_0 t], after_in0]
  rw [show (dat V c).leavesExact 1 t = owns (c : Thread nD τ) (ms1 t) fullShare ((dat V c).after 1 t) from by
        unfold Dat.leavesExact; rw [liveAt_1 t], after_in1]
  rw [show (dat V c).leavesExact 2 t = owns (c : Thread nD τ) (ms2 t) fullShare ((dat V c).after 2 t) from by
        unfold Dat.leavesExact; rw [liveAt_2 t], after_in2]
  rw [show (dat V c).leavesExact 3 t = owns (c : Thread nD τ) (ms3 t) fullShare ((dat V c).after 3 t) from by
        unfold Dat.leavesExact; rw [liveAt_3 t], after_in3]
  by_cases h0 : t.val % 16 = 0
  · -- a first column block
    have h1 : ¬t.val % 16 = 15 := notLast_of_first t h0
    rw [Dat.leavesExact_idle (dat V c) 4 t (idleAt_4 t h1) (noFlush_4 t h1), Dat.leavesExact_idle (dat V c) 5 t (idleAt_5 t h1) (noFlush_5 t h1)]
    rw [accAt_first V c t h0]
    dsimp only
    unfold firstScr0 firstScr1 soutF_0 soutF_1; (try dsimp only)
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (isFirst t h0) (notLast t h1) (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverF_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (isFirst t h0) (notLast t h1) (iblk V c 0 t) (iblk V c 1 t) (iblk V c 2 t) (iblk V c 3 t))
            · unfold owns; iexists _; isplitr
              swap; · iexact HS1
              ipureintro; exact View.read_writes_of_cover _ _ _ _ _ (scoverF_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (isFirst t h0) (notLast t h1) (iblk V c 0 t) (iblk V c 1 t) (iblk V c 2 t) (iblk V c 3 t))
          · iexact HR
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((runFirst c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (isFirst t h0) (notLast t h1) (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverF_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (isFirst t h0) (notLast t h1) (iblk V c 0 t) (iblk V c 1 t) (iblk V c 2 t) (iblk V c 3 t))
            · unfold owns; iexists _; isplitr
              swap; · iexact HS1
              ipureintro; exact View.read_writes_of_cover _ _ _ _ _ (scoverF_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (isFirst t h0) (notLast t h1) (iblk V c 0 t) (iblk V c 1 t) (iblk V c 2 t) (iblk V c 3 t))
          · iexact HR
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    by_cases h1 : t.val % 16 = 15
    · -- a last column block
      rw [show (dat V c).leavesExact 4 t = owns (c : Thread nD τ) (ms4 t) fullShare ((dat V c).after 4 t) from by
            unfold Dat.leavesExact; rw [liveAt_4 t h1], after_out4]
      rw [show (dat V c).leavesExact 5 t = owns (c : Thread nD τ) (ms5 t) fullShare ((dat V c).after 5 t) from by
            unfold Dat.leavesExact; rw [liveAt_5 t h1], after_out5]
      rw [accAt_last V c t h1]
      dsimp only
      unfold lastOut4 lastOut5 lastScr0 lastScr1 outL_4 outL_5 soutL_0 soutL_1; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((runLast c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (isLast t h1) (iblk V c 0 t) (iblk V c 1 t) (iblk V c 2 t) (iblk V c 3 t) (accAt V c (t.val - 1) (Nat.lt_of_le_of_lt (Nat.sub_le _ _) t.isLt)).2.2.1 (accAt V c (t.val - 1) (Nat.lt_of_le_of_lt (Nat.sub_le _ _) t.isLt)).2.2.2).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverL_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (isLast t h1) (iblk V c 0 t) (iblk V c 1 t) (iblk V c 2 t) (iblk V c 3 t) (accAt V c (t.val - 1) (Nat.lt_of_le_of_lt (Nat.sub_le _ _) t.isLt)).2.2.1 (accAt V c (t.val - 1) (Nat.lt_of_le_of_lt (Nat.sub_le _ _) t.isLt)).2.2.2)
            · unfold owns; iexists _; isplitr
              swap; · iexact HS1
              ipureintro; exact View.read_writes_of_cover _ _ _ _ _ (scoverL_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (isLast t h1) (iblk V c 0 t) (iblk V c 1 t) (iblk V c 2 t) (iblk V c 3 t) (accAt V c (t.val - 1) (Nat.lt_of_le_of_lt (Nat.sub_le _ _) t.isLt)).2.2.1 (accAt V c (t.val - 1) (Nat.lt_of_le_of_lt (Nat.sub_le _ _) t.isLt)).2.2.2)
          · iexact HR
        · iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (coverL_4 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (isLast t h1) (iblk V c 0 t) (iblk V c 1 t) (iblk V c 2 t) (iblk V c 3 t) (accAt V c (t.val - 1) (Nat.lt_of_le_of_lt (Nat.sub_le _ _) t.isLt)).2.2.1 (accAt V c (t.val - 1) (Nat.lt_of_le_of_lt (Nat.sub_le _ _) t.isLt)).2.2.2)
      unfold owns; iexists _; isplitr
      swap; · iexact H5
      ipureintro; exact View.read_writes_of_cover _ _ _ _ _ (coverL_5 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (isLast t h1) (iblk V c 0 t) (iblk V c 1 t) (iblk V c 2 t) (iblk V c 3 t) (accAt V c (t.val - 1) (Nat.lt_of_le_of_lt (Nat.sub_le _ _) t.isLt)).2.2.1 (accAt V c (t.val - 1) (Nat.lt_of_le_of_lt (Nat.sub_le _ _) t.isLt)).2.2.2)
    · -- a column block between the first and the last
      rw [Dat.leavesExact_idle (dat V c) 4 t (idleAt_4 t h1) (noFlush_4 t h1), Dat.leavesExact_idle (dat V c) 5 t (idleAt_5 t h1) (noFlush_5 t h1)]
      rw [accAt_mid V c t h0 h1]
      dsimp only
      unfold midScr0 midScr1 soutM_0 soutM_1; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((runMid c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (notLast t h1) (iblk V c 0 t) (iblk V c 1 t) (iblk V c 2 t) (iblk V c 3 t) (accAt V c (t.val - 1) (Nat.lt_of_le_of_lt (Nat.sub_le _ _) t.isLt)).2.2.1 (accAt V c (t.val - 1) (Nat.lt_of_le_of_lt (Nat.sub_le _ _) t.isLt)).2.2.2).2.2 Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scoverM_0 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (notLast t h1) (iblk V c 0 t) (iblk V c 1 t) (iblk V c 2 t) (iblk V c 3 t) (accAt V c (t.val - 1) (Nat.lt_of_le_of_lt (Nat.sub_le _ _) t.isLt)).2.2.1 (accAt V c (t.val - 1) (Nat.lt_of_le_of_lt (Nat.sub_le _ _) t.isLt)).2.2.2)
            · unfold owns; iexists _; isplitr
              swap; · iexact HS1
              ipureintro; exact View.read_writes_of_cover _ _ _ _ _ (scoverM_1 c (grid0.coords t) (ms0 t) (hs0 t) (ms1 t) (hs1 t) (ms2 t) (hs2 t) (ms3 t) (hs3 t) (ms4 t) (hs4 t) (ms5 t) (hs5 t) scM0 (Memref.isWhole_whole _) scM1 (Memref.isWhole_whole _) (notFirst t h0) (notLast t h1) (iblk V c 0 t) (iblk V c 1 t) (iblk V c 2 t) (iblk V c 3 t) (accAt V c (t.val - 1) (Nat.lt_of_le_of_lt (Nat.sub_le _ _) t.isLt)).2.2.1 (accAt V c (t.val - 1) (Nat.lt_of_le_of_lt (Nat.sub_le _ _) t.isLt)).2.2.2)
          · iexact HR
        · iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The body's obligation, at every point. -/
theorem body_obligation (c : Dev nD) : BodyObligation (dat (F := F) V c) (defs₀ (F := F)) Variants.none () Set.univ := fun t => by
  rw [bigSep_W0, bigSep_W0]
  exact sound_body V c t

/-- What the pass is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point the invariant gives it back: what the running columns hold is forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      · iexists _; iexact HS1
    · iexact HR
  iexact Hg

/-- The same after the last point. -/
theorem hout (c : Dev nD) : (dat V c).Φ (Fin.last cfg0.N) ⊢ Pipeline.ΦA spec0 c :=
  Phi_out V c _ (by rw [Fin.val_last]; have : cfg0.N = 256 := N_0; omega)

end Cert.KernelIdeal.P1

end
-- ==== Proof.KernelIdeal.Pass2Shared.lean ====
/-
  The second pass of the multi-similarity loss, one grid point at a time: what every run of its body shares.

  The grid is 16 row blocks by 16 column blocks of 512 rows; point `t` is row block `t / 16` against column block
  `j = t % 16`. The body keeps four running row quantities in scratch (the counts of kept positives and of kept
  negatives, and the sums of their exponentials). At `j = 0` it sets them to zero, at every `j` it adds the tile's
  row sums, and at `j = 15` it turns them into the row block's four outputs. Hence three kinds of point:
  the FIRST of a row (`j = 0`), a MIDDLE one (`0 < j < 15`) and the LAST (`j = 15`).

  Here: each window's block read off its array as the call finds it (`iblk`); that an input's buffer holds that block
  at every point, fetched there or not; the two branch conditions in closed form over the points; where the four
  outputs are idle; the names of the buffers the body is handed; and the invariant of the call with the four
  accumulators set apart from the other scoped buffers of the core.
-/
import proofs.«118951_j44573170598307_1_alg».proof.Proof.Gen.KernelIdeal.Launch
import proofs.«118951_j44573170598307_1_alg».proof.Proof.Gen.KernelIdeal.Skeleton
import proofs.«118951_j44573170598307_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import proofs.«118951_j44573170598307_1_alg».proof.Proof.KernelIdeal.Steps

set_option maxRecDepth 16384

noncomputable section

namespace Cert.KernelIdeal.P2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- what the core's buffers hold when the second call is entered
variable (V : (c : Dev nD) → (b : Ref sig .tc) → Buf (Elt F) ((c : Thread nD τ).loc b))

/-! ## The blocks -/

/-- Window `w`'s block at point `t`: the part of its array, as the call finds the array, that the point's row block
    (windows 0, 2, 4, 5, 6 and the outputs) or column block (windows 1, 3) selects. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Inputs

variable {c : Dev nD} (dat : Dat τ (Elt F) Unit ℕ (Pipeline.UD sig nD τ) ℕ cfg1 c)

/-- The row block's embeddings (window 0) are in their buffer at every point of the row: fetched at `j = 0`, and left
    in place by the body afterwards, the block index not moving along the row. -/
theorem before_in0_of (hA : dat.A 0 = V c (Pipeline.arrRef spec1 0)) (hafter : ∀ t, dat.after 0 t = iblk V c 0 t)
    (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column block's embeddings (window 1), fetched at every point. -/
theorem before_in1_of (hA : dat.A 1 = V c (Pipeline.arrRef spec1 1)) (hafter : ∀ t, dat.after 1 t = iblk V c 1 t)
    (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The row block's labels (window 2). -/
theorem before_in2_of (hA : dat.A 2 = V c (Pipeline.arrRef spec1 2)) (hafter : ∀ t, dat.after 2 t = iblk V c 2 t)
    (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The column block's labels (window 3), fetched at every point. -/
theorem before_in3_of (hA : dat.A 3 = V c (Pipeline.arrRef spec1 3)) (hafter : ∀ t, dat.after 3 t = iblk V c 3 t)
    (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- The row block's margins (window 4). -/
theorem before_in4_of (hA : dat.A 4 = V c (Pipeline.arrRef spec1 4)) (hafter : ∀ t, dat.after 4 t = iblk V c 4 t)
    (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The row block's least positive similarities, from the first pass (window 5). -/
theorem before_in5_of (hA : dat.A 5 = V c (Pipeline.arrRef spec1 5)) (hafter : ∀ t, dat.after 5 t = iblk V c 5 t)
    (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The row block's greatest negative similarities, from the first pass (window 6). -/
theorem before_in6_of (hA : dat.A 6 = V c (Pipeline.arrRef spec1 6)) (hafter : ∀ t, dat.after 6 t = iblk V c 6 t)
    (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

end Inputs

/-! ## The two branches of the body, over the points -/

/-- "This is the row's first column block": the body's test `j == 0`, as it computes it from the point. -/
abbrev condFirst (i : grid1.Coords) : Prop :=
  (Scalar.cmpi .ne (Scalar.extui (Scalar.cmpi .eq (BitVec.ofNat 32 (i 1).val) 0#32)) 0#32) = 1#1
/-- It holds exactly at the points with `j = 0`. -/
theorem hcondFirst : ∀ t : Fin cfg1.N, condFirst (grid1.coords t) ↔ t.val % 16 = 0 :=
  (by decide +kernel : ∀ t : Fin grid1.N, condFirst (grid1.coords t) ↔ t.val % 16 = 0)

/-- "This is the row's last column block": the body's test `j == 15`. -/
abbrev condLast (i : grid1.Coords) : Prop := k1_cond2 i = 1#1
/-- It holds exactly at the points with `j = 15`. -/
theorem hcondLast : ∀ t : Fin cfg1.N, condLast (grid1.coords t) ↔ t.val % 16 = 15 :=
  (by decide +kernel : ∀ t : Fin grid1.N, condLast (grid1.coords t) ↔ t.val % 16 = 15)

/-! ## Where the outputs are idle -/

/-- An input window is live at every point. -/
theorem live_in (w : Fin cfg1.W) (hw : w.val < 7) (i : grid1.Coords) : cfg1.idle w i = false := by
  obtain ⟨k, hk⟩ := w
  match k, hk, hw with
  | 0, _, _ => rfl
  | 1, _, _ => rfl
  | 2, _, _ => rfl
  | 3, _, _ => rfl
  | 4, _, _ => rfl
  | 5, _, _ => rfl
  | 6, _, _ => rfl

/-- Away from a row's last point the body stores nothing into an output window: it is idle there, -/
theorem idle_out (w : Fin cfg1.W) (hw : 7 ≤ w.val) (i : grid1.Coords) (h : ¬condLast i) : cfg1.idle w i = true := by
  have hb : (k1_cond2 i == 1#1) = false := beq_eq_false_iff_ne.mpr h
  obtain ⟨k, hk⟩ := w
  match k, hk, hw with
  | 7, _, _ => show (!(k1_cond2 i == 1#1)) = true; rw [hb]; rfl
  | 8, _, _ => show (!(k1_cond2 i == 1#1)) = true; rw [hb]; rfl
  | 9, _, _ => show (!(k1_cond2 i == 1#1)) = true; rw [hb]; rfl
  | 10, _, _ => show (!(k1_cond2 i == 1#1)) = true; rw [hb]; rfl

/-- and live at the last, where the four outputs are stored. -/
theorem live_out (w : Fin cfg1.W) (hw : 7 ≤ w.val) (i : grid1.Coords) (h : condLast i) : cfg1.idle w i = false := by
  have hb : (k1_cond2 i == 1#1) = true := beq_iff_eq.mpr h
  obtain ⟨k, hk⟩ := w
  match k, hk, hw with
  | 7, _, _ => show (!(k1_cond2 i == 1#1)) = false; rw [hb]; rfl
  | 8, _, _ => show (!(k1_cond2 i == 1#1)) = false; rw [hb]; rfl
  | 9, _, _ => show (!(k1_cond2 i == 1#1)) = false; rw [hb]; rfl
  | 10, _, _ => show (!(k1_cond2 i == 1#1)) = false; rw [hb]; rfl

/-- Away from a row's last point no output block is written back. -/
theorem noFlush7 (t : Fin cfg1.N) (h : t.val % 16 ≠ 15) : (cfg1.win 7).flush t = false :=
  Bool.eq_false_iff.mpr fun hf => h ((flush1_7 t).mp hf)
theorem noFlush8 (t : Fin cfg1.N) (h : t.val % 16 ≠ 15) : (cfg1.win 8).flush t = false :=
  Bool.eq_false_iff.mpr fun hf => h ((flush1_8 t).mp hf)
theorem noFlush9 (t : Fin cfg1.N) (h : t.val % 16 ≠ 15) : (cfg1.win 9).flush t = false :=
  Bool.eq_false_iff.mpr fun hf => h ((flush1_9 t).mp hf)
theorem noFlush10 (t : Fin cfg1.N) (h : t.val % 16 ≠ 15) : (cfg1.win 10).flush t = false :=
  Bool.eq_false_iff.mpr fun hf => h ((flush1_10 t).mp hf)

/-! ## The buffers the body is handed -/

/-- Each window's buffer at point `t` (the one of its two the point is on), and that it is a whole buffer. -/
abbrev ms0 (t : Fin cfg1.N) : Memref sig .tc .vmem S512x1024 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x1 .i32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S512x1 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S512x1 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S512x1 .f32 := win1_6.stage (cfg1.slots t 6)
abbrev hs6 (t : Fin cfg1.N) : (ms6 t).IsWhole := hstage1_6 ((cfg1.slots t 6).cast nbuf1_6)
abbrev ms7 (t : Fin cfg1.N) : Memref sig .tc .vmem S512x1 .f32 := win1_7.stage (cfg1.slots t 7)
abbrev hs7 (t : Fin cfg1.N) : (ms7 t).IsWhole := hstage1_7 ((cfg1.slots t 7).cast nbuf1_7)
abbrev ms8 (t : Fin cfg1.N) : Memref sig .tc .vmem S512x1 .i32 := win1_8.stage (cfg1.slots t 8)
abbrev hs8 (t : Fin cfg1.N) : (ms8 t).IsWhole := hstage1_8 ((cfg1.slots t 8).cast nbuf1_8)
abbrev ms9 (t : Fin cfg1.N) : Memref sig .tc .vmem S512x1 .i32 := win1_9.stage (cfg1.slots t 9)
abbrev hs9 (t : Fin cfg1.N) : (ms9 t).IsWhole := hstage1_9 ((cfg1.slots t 9).cast nbuf1_9)
abbrev ms10 (t : Fin cfg1.N) : Memref sig .tc .vmem S512x1 .i32 := win1_10.stage (cfg1.slots t 10)
abbrev hs10 (t : Fin cfg1.N) : (ms10 t).IsWhole := hstage1_10 ((cfg1.slots t 10).cast nbuf1_10)

/-- The four accumulators, whole scratch buffers of the call: the count of kept positives, the count of kept negatives,
    the sum over the kept positives, the sum over the kept negatives. -/
abbrev scM0 : Memref sig .tc .vmem S512x1 .f32 := Memref.whole cc1_scratch0
abbrev scM1 : Memref sig .tc .vmem S512x1 .f32 := Memref.whole cc1_scratch1
abbrev scM2 : Memref sig .tc .vmem S512x1 .f32 := Memref.whole cc1_scratch2
abbrev scM3 : Memref sig .tc .vmem S512x1 .f32 := Memref.whole cc1_scratch3
/-- The views through which what an accumulator holds is stated. -/
abbrev VS0 : View sig .tc .vmem S512x1 .f32 := scM0.view
abbrev VS1 : View sig .tc .vmem S512x1 .f32 := scM1.view
abbrev VS2 : View sig .tc .vmem S512x1 .f32 := scM2.view
abbrev VS3 : View sig .tc .vmem S512x1 .f32 := scM3.view
/-- One buffer of each output window, through which what the window's buffer holds is stated (which of the two does
    not matter once the stores cover the block). -/
abbrev VO7 : View sig .tc .vmem S512x1 .f32 := (Memref.whole cc1_stg7_0 : Memref sig .tc .vmem S512x1 .f32).view
abbrev VO8 : View sig .tc .vmem S512x1 .i32 := (Memref.whole cc1_stg8_0 : Memref sig .tc .vmem S512x1 .i32).view
abbrev VO9 : View sig .tc .vmem S512x1 .i32 := (Memref.whole cc1_stg9_0 : Memref sig .tc .vmem S512x1 .i32).view
abbrev VO10 : View sig .tc .vmem S512x1 .i32 := (Memref.whole cc1_stg10_0 : Memref sig .tc .vmem S512x1 .i32).view

/-! ## The invariant of the call -/

/-- The core's scoped buffers that are neither a staging buffer of this call nor one of its four accumulators (the first
    call's staging buffers and its two accumulators), each at some contents: the body never touches them. -/
abbrev others (c : Dev nD) : sProp 𝕄 :=
  Pipeline.scopedRestBut (Ix := Unit) (Name := ℕ) (U := Pipeline.UD sig nD τ) (Lvl := ℕ) (Val := Elt F) spec1 c
    [cc1_scratch0, cc1_scratch1, cc1_scratch2, cc1_scratch3]

/-- The call's invariant as the launch states it, with the four accumulators set apart, each owned at some contents,
    from the other scoped buffers and the generator register. -/
theorem PhiA_eq (c : Dev nD) :
    (Pipeline.ΦA spec1 c : sProp 𝕄)
      = iprop(iprop(iprop((∃ d, owns (c : Thread nD τ) scM0 fullShare d) ∗ (∃ d, owns (c : Thread nD τ) scM1 fullShare d)
            ∗ (∃ d, owns (c : Thread nD τ) scM2 fullShare d) ∗ (∃ d, owns (c : Thread nD τ) scM3 fullShare d))
          ∗ others c) ∗ (∃ r, prngReg c r)) := by
  unfold Pipeline.ΦA
  rw [Pipeline.scopedRest_split_of_list spec1 c [cc1_scratch0, cc1_scratch1, cc1_scratch2, cc1_scratch3] (by decide) (by decide)]
  simp only [scM0, scM1, scM2, scM3, owns_whole]; try rfl

end Cert.KernelIdeal.P2

end
-- ==== Proof.KernelIdeal.Pass2Runs.lean ====
/-
  The body of the second pass run once, in each of its three kinds of point.

  In every case the seven inputs' buffers hold the point's blocks and are handed back as they were. What differs:
  * FIRST point of a row (`j = 0`): the four accumulators may hold anything; each is loaded (the value is not used),
    reset to zero, loaded again and stored back with the tile's row sum added. The four outputs are not touched.
  * MIDDLE point (`0 < j < 15`): the accumulators hold what the point before left; each is loaded and stored back with
    the tile's row sum added. The four outputs are not touched.
  * LAST point (`j = 15`): as a middle point, and then the four outputs are computed from the finished accumulators
    and stored, whatever their buffers held.
  Each run is stated as: the lists of stores (latest first) each accumulator, and at the last point each output, ends
  with, together with the proof that the body runs to a continuation that is given the buffers with those stores
  applied. The lists themselves are read off the run.
-/
import proofs.«118951_j44573170598307_1_alg».proof.Proof.KernelIdeal.Pass2Shared

set_option maxRecDepth 16384

noncomputable section

namespace Cert.KernelIdeal.P2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section Runs

-- the core, the point's coordinates, and the fifteen buffers the body is called on: seven inputs, four outputs, four
-- accumulators, each a whole buffer
variable (c : Dev nD) (i : grid1.Coords)
  (arg2 : Memref sig .tc .vmem S512x1024 .f32) (harg2 : arg2.IsWhole) (arg3 : Memref sig .tc .vmem S512x1024 .f32) (harg3 : arg3.IsWhole)
  (arg4 : Memref sig .tc .vmem S512x1 .i32) (harg4 : arg4.IsWhole) (arg5 : Memref sig .tc .vmem S1x512 .i32) (harg5 : arg5.IsWhole)
  (arg6 : Memref sig .tc .vmem S512x1 .f32) (harg6 : arg6.IsWhole) (arg7 : Memref sig .tc .vmem S512x1 .f32) (harg7 : arg7.IsWhole)
  (arg8 : Memref sig .tc .vmem S512x1 .f32) (harg8 : arg8.IsWhole)
  (arg9 : Memref sig .tc .vmem S512x1 .f32) (harg9 : arg9.IsWhole) (arg10 : Memref sig .tc .vmem S512x1 .i32) (harg10 : arg10.IsWhole)
  (arg11 : Memref sig .tc .vmem S512x1 .i32) (harg11 : arg11.IsWhole) (arg12 : Memref sig .tc .vmem S512x1 .i32) (harg12 : arg12.IsWhole)
  (arg13 : Memref sig .tc .vmem S512x1 .f32) (harg13 : arg13.IsWhole) (arg14 : Memref sig .tc .vmem S512x1 .f32) (harg14 : arg14.IsWhole)
  (arg15 : Memref sig .tc .vmem S512x1 .f32) (harg15 : arg15.IsWhole) (arg16 : Memref sig .tc .vmem S512x1 .f32) (harg16 : arg16.IsWhole)

set_option maxHeartbeats 4000000 in
/-- A row's FIRST point. The accumulators are taken at any contents and given back with their stores (the reset, then
    the tile's sums added to it); the outputs' buffers, at contents `y·`, come back untouched. -/
noncomputable def runFirst (hc0 : condFirst i) (hc1 : ¬condLast i)
    (x0 x1 : Vec F S512x1024 .f32) (x2 : Vec F S512x1 .i32) (x3 : Vec F S1x512 .i32) (x4 x5 x6 : Vec F S512x1 .f32) :
    Σ' (LS0 LS1 LS2 : List (View.Piece (Elt F) S512x1 .f32)), { LS3 : List (View.Piece (Elt F) S512x1 .f32) //
      ∀ (y7 : Vec F S512x1 .f32) (y8 y9 y10 : Vec F S512x1 .i32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ owns (c : Thread nD τ) arg9 fullShare y7 ∗ owns (c : Thread nD τ) arg10 fullShare y8 ∗ owns (c : Thread nD τ) arg11 fullShare y9
            ∗ owns (c : Thread nD τ) arg12 fullShare y10
            ∗ (∃ d, owns (c : Thread nD τ) arg13 fullShare d) ∗ (∃ d, owns (c : Thread nD τ) arg14 fullShare d)
            ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6
                ∗ owns (c : Thread nD τ) arg9 fullShare y7 ∗ owns (c : Thread nD τ) arg10 fullShare y8 ∗ owns (c : Thread nD τ) arg11 fullShare y9
                ∗ owns (c : Thread nD τ) arg12 fullShare y10
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)
                ∗ (∃ f, arg15.view.loc (c : Thread nD τ) ↦[arg15.view.set]{fullShare} arg15.view.writes (Elt F) f LS2)
                ∗ (∃ f, arg16.view.loc (c : Thread nD τ) ↦[arg16.view.set]{fullShare} arg16.view.writes (Elt F) f LS3)) -∗ K ⟨⟩))
          ⊢ wp frame (wpE (defs₀ (F := F)) Variants.none c none) E
              (cc1__pass2_kernel i arg2 harg2 arg3 harg3 arg4 harg4 arg5 harg5 arg6 harg6 arg7 harg7 arg8 harg8 arg9 harg9 arg10 harg10
                arg11 harg11 arg12 harg12 arg13 harg13 arg14 harg14 arg15 harg15 arg16 harg16) K } := by
  refine ⟨?_, ?_, ?_, ?_, fun y7 y8 y9 y10 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%f8, %hf8, H8⟩, ⟨%f9, %hf9, H9⟩, ⟨%f10, %hf10, H10⟩,
      ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg9.eq_unread hf7; obtain rfl := harg10.eq_unread hf8; obtain rfl := harg11.eq_unread hf9
    obtain rfl := harg12.eq_unread hf10
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

set_option maxHeartbeats 4000000 in
/-- A MIDDLE point. The accumulators are taken at what the point before left (`s·`) and given back with the one store
    each that adds the tile's sums; the outputs' buffers, at contents `y·`, come back untouched. -/
noncomputable def runMid (hc0 : ¬condFirst i) (hc1 : ¬condLast i)
    (x0 x1 : Vec F S512x1024 .f32) (x2 : Vec F S512x1 .i32) (x3 : Vec F S1x512 .i32) (x4 x5 x6 : Vec F S512x1 .f32)
    (s0 s1 s2 s3 : Vec F S512x1 .f32) :
    Σ' (LS0 LS1 LS2 : List (View.Piece (Elt F) S512x1 .f32)), { LS3 : List (View.Piece (Elt F) S512x1 .f32) //
      ∀ (y7 : Vec F S512x1 .f32) (y8 y9 y10 : Vec F S512x1 .i32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ owns (c : Thread nD τ) arg9 fullShare y7 ∗ owns (c : Thread nD τ) arg10 fullShare y8 ∗ owns (c : Thread nD τ) arg11 fullShare y9
            ∗ owns (c : Thread nD τ) arg12 fullShare y10
            ∗ owns (c : Thread nD τ) arg13 fullShare s0 ∗ owns (c : Thread nD τ) arg14 fullShare s1
            ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6
                ∗ owns (c : Thread nD τ) arg9 fullShare y7 ∗ owns (c : Thread nD τ) arg10 fullShare y8 ∗ owns (c : Thread nD τ) arg11 fullShare y9
                ∗ owns (c : Thread nD τ) arg12 fullShare y10
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)
                ∗ (∃ f, arg15.view.loc (c : Thread nD τ) ↦[arg15.view.set]{fullShare} arg15.view.writes (Elt F) f LS2)
                ∗ (∃ f, arg16.view.loc (c : Thread nD τ) ↦[arg16.view.set]{fullShare} arg16.view.writes (Elt F) f LS3)) -∗ K ⟨⟩))
          ⊢ wp frame (wpE (defs₀ (F := F)) Variants.none c none) E
              (cc1__pass2_kernel i arg2 harg2 arg3 harg3 arg4 harg4 arg5 harg5 arg6 harg6 arg7 harg7 arg8 harg8 arg9 harg9 arg10 harg10
                arg11 harg11 arg12 harg12 arg13 harg13 arg14 harg14 arg15 harg15 arg16 harg16) K } := by
  refine ⟨?_, ?_, ?_, ?_, fun y7 y8 y9 y10 E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%f7, %hf7, H7⟩, ⟨%f8, %hf8, H8⟩, ⟨%f9, %hf9, H9⟩, ⟨%f10, %hf10, H10⟩,
      ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg9.eq_unread hf7; obtain rfl := harg10.eq_unread hf8; obtain rfl := harg11.eq_unread hf9
    obtain rfl := harg12.eq_unread hf10
    obtain rfl := harg13.eq_unread hfs0; obtain rfl := harg14.eq_unread hfs1; obtain rfl := harg15.eq_unread hfs2
    obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [HS0]; · iexists _; iexact HS0
    isplitl [HS1]; · iexists _; iexact HS1
    isplitl [HS2]; · iexists _; iexact HS2
    iexists _; iexact HS3

set_option maxHeartbeats 4000000 in
/-- A row's LAST point. The accumulators are taken at what the point before left (`s·`) and given back with the store
    that adds the tile's sums; the outputs' buffers are taken at any contents and given back with the one store each
    of the row block's result. -/
noncomputable def runLast (hc0 : ¬condFirst i) (hc1 : condLast i)
    (x0 x1 : Vec F S512x1024 .f32) (x2 : Vec F S512x1 .i32) (x3 : Vec F S1x512 .i32) (x4 x5 x6 : Vec F S512x1 .f32)
    (s0 s1 s2 s3 : Vec F S512x1 .f32) :
    Σ' (L7 : List (View.Piece (Elt F) S512x1 .f32)) (L8 L9 L10 : List (View.Piece (Elt F) S512x1 .i32))
      (LS0 LS1 LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6
            ∗ (∃ d, owns (c : Thread nD τ) arg9 fullShare d) ∗ (∃ d, owns (c : Thread nD τ) arg10 fullShare d)
            ∗ (∃ d, owns (c : Thread nD τ) arg11 fullShare d) ∗ (∃ d, owns (c : Thread nD τ) arg12 fullShare d)
            ∗ owns (c : Thread nD τ) arg13 fullShare s0 ∗ owns (c : Thread nD τ) arg14 fullShare s1
            ∗ owns (c : Thread nD τ) arg15 fullShare s2 ∗ owns (c : Thread nD τ) arg16 fullShare s3
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4 ∗ owns (c : Thread nD τ) arg7 fullShare x5
                ∗ owns (c : Thread nD τ) arg8 fullShare x6
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f L9)
                ∗ (∃ f, arg12.view.loc (c : Thread nD τ) ↦[arg12.view.set]{fullShare} arg12.view.writes (Elt F) f L10)
                ∗ (∃ f, arg13.view.loc (c : Thread nD τ) ↦[arg13.view.set]{fullShare} arg13.view.writes (Elt F) f LS0)
                ∗ (∃ f, arg14.view.loc (c : Thread nD τ) ↦[arg14.view.set]{fullShare} arg14.view.writes (Elt F) f LS1)
                ∗ (∃ f, arg15.view.loc (c : Thread nD τ) ↦[arg15.view.set]{fullShare} arg15.view.writes (Elt F) f LS2)
                ∗ (∃ f, arg16.view.loc (c : Thread nD τ) ↦[arg16.view.set]{fullShare} arg16.view.writes (Elt F) f LS3)) -∗ K ⟨⟩))
          ⊢ wp frame (wpE (defs₀ (F := F)) Variants.none c none) E
              (cc1__pass2_kernel i arg2 harg2 arg3 harg3 arg4 harg4 arg5 harg5 arg6 harg6 arg7 harg7 arg8 harg8 arg9 harg9 arg10 harg10
                arg11 harg11 arg12 harg12 arg13 harg13 arg14 harg14 arg15 harg15 arg16 harg16) K } := by
  refine ⟨?_, ?_, ?_, ?_, ?_, ?_, ?_, ?_, fun E K => ?run⟩
  case run =>
    simp only [cc1__pass2_kernel_eq_skeleton]; unfold cc1__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
      ⟨%d7, %f7, -, H7⟩, ⟨%d8, %f8, -, H8⟩, ⟨%d9, %f9, -, H9⟩, ⟨%d10, %f10, -, H10⟩,
      ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    obtain rfl := harg13.eq_unread hfs0; obtain rfl := harg14.eq_unread hfs1; obtain rfl := harg15.eq_unread hfs2
    obtain rfl := harg16.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    iexists _; iexact HS3

end Runs

end Cert.KernelIdeal.P2

end
-- ==== Proof.KernelIdeal.Pass2Data.lean ====
/-
  The second pass, point after point: what its four accumulators and its four outputs hold after each point, the
  invariant that carries the accumulators from a point to the next, and the proof that the body, at every point, does
  what this says.

  After point n the accumulators hold: at a row's first point the reset with the tile's sums added; at any other
  point what the point before left with the tile's sums added. Only at a row's last point are the four outputs stored;
  elsewhere their windows are idle, their blocks are not written back, and nothing reads what is recorded for them.
-/
import proofs.«118951_j44573170598307_1_alg».proof.Proof.KernelIdeal.Pass2Runs

set_option maxRecDepth 16384

noncomputable section

namespace Cert.KernelIdeal.P2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- What is recorded after a point: the four outputs' buffers (loss, anchor flag, kept positives, kept negatives), then
    the four accumulators (count of kept positives, count of kept negatives, sum over the kept positives, sum over the
    kept negatives). -/
abbrev Acc (F : FTy → Type) [FloatOps F] : Type :=
  Vec F S512x1 .f32 × Vec F S512x1 .i32 × Vec F S512x1 .i32 × Vec F S512x1 .i32
    × Vec F S512x1 .f32 × Vec F S512x1 .f32 × Vec F S512x1 .f32 × Vec F S512x1 .f32

/-- A buffer's contents after the stores L (the latest first), read through the view v. Where the stores cover the
    buffer this depends on neither the view nor what the buffer held before. -/
def readBack {S : Shape} {e : EltTy} (v : View sig .tc .vmem S e) (L : List (View.Piece (Elt F) S e)) : Vec F S e :=
  v.read (Elt F) (v.writes (Elt F) v.junk L)

/-- What is recorded for an output at a point that stores nothing into it: contents nothing depends on (there the
    window's buffer is handed back as found, is not written back, and the next point does not read it). -/
def idle7 : Vec F S512x1 .f32 := readBack VO7 []
def idle8 : Vec F S512x1 .i32 := readBack VO8 []
def idle9 : Vec F S512x1 .i32 := readBack VO9 []
def idle10 : Vec F S512x1 .i32 := readBack VO10 []

/-! ## What one run leaves -/

section OnBuffers

-- the core, the point's coordinates, and the fifteen whole buffers the body is called on
variable (c : Dev nD) (i : grid1.Coords)
  (arg2 : Memref sig .tc .vmem S512x1024 .f32) (harg2 : arg2.IsWhole) (arg3 : Memref sig .tc .vmem S512x1024 .f32) (harg3 : arg3.IsWhole)
  (arg4 : Memref sig .tc .vmem S512x1 .i32) (harg4 : arg4.IsWhole) (arg5 : Memref sig .tc .vmem S1x512 .i32) (harg5 : arg5.IsWhole)
  (arg6 : Memref sig .tc .vmem S512x1 .f32) (harg6 : arg6.IsWhole) (arg7 : Memref sig .tc .vmem S512x1 .f32) (harg7 : arg7.IsWhole)
  (arg8 : Memref sig .tc .vmem S512x1 .f32) (harg8 : arg8.IsWhole)
  (arg9 : Memref sig .tc .vmem S512x1 .f32) (harg9 : arg9.IsWhole) (arg10 : Memref sig .tc .vmem S512x1 .i32) (harg10 : arg10.IsWhole)
  (arg11 : Memref sig .tc .vmem S512x1 .i32) (harg11 : arg11.IsWhole) (arg12 : Memref sig .tc .vmem S512x1 .i32) (harg12 : arg12.IsWhole)
  (arg13 : Memref sig .tc .vmem S512x1 .f32) (harg13 : arg13.IsWhole) (arg14 : Memref sig .tc .vmem S512x1 .f32) (harg14 : arg14.IsWhole)
  (arg15 : Memref sig .tc .vmem S512x1 .f32) (harg15 : arg15.IsWhole) (arg16 : Memref sig .tc .vmem S512x1 .f32) (harg16 : arg16.IsWhole)
  (x0 x1 : Vec F S512x1024 .f32) (x2 : Vec F S512x1 .i32) (x3 : Vec F S1x512 .i32) (x4 x5 x6 : Vec F S512x1 .f32)

section First

variable (hc0 : condFirst i) (hc1 : ¬condLast i)

local notation "RUNF" => runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6

/-- At a first point each accumulator's stores (the reset, then the sum) cover it. -/
theorem scoverFirst0 (y : S512x1.Idx) : ∃ pc ∈ (RUNF).1, y ∈ pc.1.set :=
  View.cover_of_tiledL (RUNF).1 S512x1.size (by sl_kernel_rfl) y
theorem scoverFirst1 (y : S512x1.Idx) : ∃ pc ∈ (RUNF).2.1, y ∈ pc.1.set :=
  View.cover_of_tiledL (RUNF).2.1 S512x1.size (by sl_kernel_rfl) y
theorem scoverFirst2 (y : S512x1.Idx) : ∃ pc ∈ (RUNF).2.2.1, y ∈ pc.1.set :=
  View.cover_of_tiledL (RUNF).2.2.1 S512x1.size (by sl_kernel_rfl) y
theorem scoverFirst3 (y : S512x1.Idx) : ∃ pc ∈ (RUNF).2.2.2.1, y ∈ pc.1.set :=
  View.cover_of_tiledL (RUNF).2.2.2.1 S512x1.size (by sl_kernel_rfl) y

/-- What is recorded after a first point: nothing for the outputs, each accumulator's stores read back. -/
def accFirst : Acc F :=
  (idle7, idle8, idle9, idle10,
    readBack VS0 (RUNF).1, readBack VS1 (RUNF).2.1, readBack VS2 (RUNF).2.2.1, readBack VS3 (RUNF).2.2.2.1)

end First

section Later

-- what the point before left in the accumulators
variable (s0 s1 s2 s3 : Vec F S512x1 .f32) (hc0 : ¬condFirst i)

section Mid

variable (hc1 : ¬condLast i)

local notation "RUNM" => runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 s0 s1 s2 s3

/-- At a middle point each accumulator's one store covers it. -/
theorem scoverMid0 (y : S512x1.Idx) : ∃ pc ∈ (RUNM).1, y ∈ pc.1.set :=
  View.cover_of_tiledL (RUNM).1 S512x1.size (by sl_kernel_rfl) y
theorem scoverMid1 (y : S512x1.Idx) : ∃ pc ∈ (RUNM).2.1, y ∈ pc.1.set :=
  View.cover_of_tiledL (RUNM).2.1 S512x1.size (by sl_kernel_rfl) y
theorem scoverMid2 (y : S512x1.Idx) : ∃ pc ∈ (RUNM).2.2.1, y ∈ pc.1.set :=
  View.cover_of_tiledL (RUNM).2.2.1 S512x1.size (by sl_kernel_rfl) y
theorem scoverMid3 (y : S512x1.Idx) : ∃ pc ∈ (RUNM).2.2.2.1, y ∈ pc.1.set :=
  View.cover_of_tiledL (RUNM).2.2.2.1 S512x1.size (by sl_kernel_rfl) y

/-- What is recorded after a middle point. -/
def accMid : Acc F :=
  (idle7, idle8, idle9, idle10,
    readBack VS0 (RUNM).1, readBack VS1 (RUNM).2.1, readBack VS2 (RUNM).2.2.1, readBack VS3 (RUNM).2.2.2.1)

end Mid

section Last

variable (hc1 : condLast i)

local notation "RUNL" => runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 s0 s1 s2 s3

/-- At a last point each output's one store covers its block, -/
theorem coverLast7 (y : S512x1.Idx) : ∃ pc ∈ (RUNL).1, y ∈ pc.1.set :=
  View.cover_of_tiledL (RUNL).1 S512x1.size (by sl_kernel_rfl) y
theorem coverLast8 (y : S512x1.Idx) : ∃ pc ∈ (RUNL).2.1, y ∈ pc.1.set :=
  View.cover_of_tiledL (RUNL).2.1 S512x1.size (by sl_kernel_rfl) y
theorem coverLast9 (y : S512x1.Idx) : ∃ pc ∈ (RUNL).2.2.1, y ∈ pc.1.set :=
  View.cover_of_tiledL (RUNL).2.2.1 S512x1.size (by sl_kernel_rfl) y
theorem coverLast10 (y : S512x1.Idx) : ∃ pc ∈ (RUNL).2.2.2.1, y ∈ pc.1.set :=
  View.cover_of_tiledL (RUNL).2.2.2.1 S512x1.size (by sl_kernel_rfl) y
/-- and each accumulator's one store covers it. -/
theorem scoverLast0 (y : S512x1.Idx) : ∃ pc ∈ (RUNL).2.2.2.2.1, y ∈ pc.1.set :=
  View.cover_of_tiledL (RUNL).2.2.2.2.1 S512x1.size (by sl_kernel_rfl) y
theorem scoverLast1 (y : S512x1.Idx) : ∃ pc ∈ (RUNL).2.2.2.2.2.1, y ∈ pc.1.set :=
  View.cover_of_tiledL (RUNL).2.2.2.2.2.1 S512x1.size (by sl_kernel_rfl) y
theorem scoverLast2 (y : S512x1.Idx) : ∃ pc ∈ (RUNL).2.2.2.2.2.2.1, y ∈ pc.1.set :=
  View.cover_of_tiledL (RUNL).2.2.2.2.2.2.1 S512x1.size (by sl_kernel_rfl) y
theorem scoverLast3 (y : S512x1.Idx) : ∃ pc ∈ (RUNL).2.2.2.2.2.2.2.1, y ∈ pc.1.set :=
  View.cover_of_tiledL (RUNL).2.2.2.2.2.2.2.1 S512x1.size (by sl_kernel_rfl) y

/-- What is recorded after a last point: each output's store and each accumulator's store read back. -/
def accLast : Acc F :=
  (readBack VO7 (RUNL).1, readBack VO8 (RUNL).2.1, readBack VO9 (RUNL).2.2.1, readBack VO10 (RUNL).2.2.2.1,
    readBack VS0 (RUNL).2.2.2.2.1, readBack VS1 (RUNL).2.2.2.2.2.1, readBack VS2 (RUNL).2.2.2.2.2.2.1,
    readBack VS3 (RUNL).2.2.2.2.2.2.2.1)

end Last

end Later

end OnBuffers

/-! ## Point after point -/

-- what the core's buffers hold when the second call is entered
variable (V : (c : Dev nD) → (b : Ref sig .tc) → Buf (Elt F) ((c : Thread nD τ).loc b))

/-- A first point's record, at the point's buffers and blocks. -/
def firstAcc (c : Dev nD) (t : Fin cfg1.N) (h0 : t.val % 16 = 0) : Acc F :=
  accFirst c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    ((hcondFirst t).mpr h0) (fun h => absurd ((hcondLast t).mp h) (by omega))

/-- A middle point's record, over the record p of the point before. -/
def midAcc (c : Dev nD) (t : Fin cfg1.N) (h0 : ¬t.val % 16 = 0) (h1 : ¬t.val % 16 = 15) (p : Acc F) : Acc F :=
  accMid c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    p.2.2.2.2.1 p.2.2.2.2.2.1 p.2.2.2.2.2.2.1 p.2.2.2.2.2.2.2
    (fun h => h0 ((hcondFirst t).mp h)) (fun h => h1 ((hcondLast t).mp h))

/-- A last point's record, over the record p of the point before. -/
def lastAcc (c : Dev nD) (t : Fin cfg1.N) (h0 : ¬t.val % 16 = 0) (h1 : t.val % 16 = 15) (p : Acc F) : Acc F :=
  accLast c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    p.2.2.2.2.1 p.2.2.2.2.2.1 p.2.2.2.2.2.2.1 p.2.2.2.2.2.2.2
    (fun h => h0 ((hcondFirst t).mp h)) ((hcondLast t).mpr h1)

/-- THE ACCUMULATION: what the four outputs' buffers and the four accumulators hold after the body at position n, by
    recursion on the position: a row's first point starts afresh, any other continues from the position before. -/
def accAt (c : Dev nD) : (n : ℕ) → n < cfg1.N → Acc F
  | 0, hn => firstAcc V c ⟨0, hn⟩ (Nat.zero_mod 16)
  | n + 1, hn =>
    if h0 : (n + 1) % 16 = 0 then firstAcc V c ⟨n + 1, hn⟩ h0
    else if h1 : (n + 1) % 16 = 15 then lastAcc V c ⟨n + 1, hn⟩ h0 h1 (accAt c n (Nat.lt_of_succ_lt hn))
    else midAcc V c ⟨n + 1, hn⟩ h0 h1 (accAt c n (Nat.lt_of_succ_lt hn))

theorem accAt_first (c : Dev nD) (t : Fin cfg1.N) (h0 : t.val % 16 = 0) :
    accAt V c t.val t.isLt = firstAcc V c t h0 := by
  obtain ⟨n, hn⟩ := t
  cases n with
  | zero => rfl
  | succ n => exact (dif_pos h0).trans rfl

theorem accAt_mid (c : Dev nD) (t : Fin cfg1.N) (h0 : ¬t.val % 16 = 0) (h1 : ¬t.val % 16 = 15) :
    accAt V c t.val t.isLt
      = midAcc V c t h0 h1 (accAt V c (t.val - 1) (Nat.lt_of_le_of_lt (Nat.sub_le _ _) t.isLt)) := by
  obtain ⟨n, hn⟩ := t
  cases n with
  | zero => exact absurd (Nat.zero_mod 16) h0
  | succ n => exact (dif_neg h0).trans ((dif_neg h1).trans rfl)

theorem accAt_last (c : Dev nD) (t : Fin cfg1.N) (h0 : ¬t.val % 16 = 0) (h1 : t.val % 16 = 15) :
    accAt V c t.val t.isLt
      = lastAcc V c t h0 h1 (accAt V c (t.val - 1) (Nat.lt_of_le_of_lt (Nat.sub_le _ _) t.isLt)) := by
  obtain ⟨n, hn⟩ := t
  cases n with
  | zero => exact absurd (Nat.zero_mod 16) h0
  | succ n => exact (dif_neg h0).trans ((dif_pos h1).trans rfl)

/-- The record's components by name: the outputs' buffers -/
def out7 (c : Dev nD) (n : ℕ) (hn : n < cfg1.N) : Vec F S512x1 .f32 := (accAt V c n hn).1
def out8 (c : Dev nD) (n : ℕ) (hn : n < cfg1.N) : Vec F S512x1 .i32 := (accAt V c n hn).2.1
def out9 (c : Dev nD) (n : ℕ) (hn : n < cfg1.N) : Vec F S512x1 .i32 := (accAt V c n hn).2.2.1
def out10 (c : Dev nD) (n : ℕ) (hn : n < cfg1.N) : Vec F S512x1 .i32 := (accAt V c n hn).2.2.2.1
/-- and the accumulators. -/
def scr0 (c : Dev nD) (n : ℕ) (hn : n < cfg1.N) : Vec F S512x1 .f32 := (accAt V c n hn).2.2.2.2.1
def scr1 (c : Dev nD) (n : ℕ) (hn : n < cfg1.N) : Vec F S512x1 .f32 := (accAt V c n hn).2.2.2.2.2.1
def scr2 (c : Dev nD) (n : ℕ) (hn : n < cfg1.N) : Vec F S512x1 .f32 := (accAt V c n hn).2.2.2.2.2.2.1
def scr3 (c : Dev nD) (n : ℕ) (hn : n < cfg1.N) : Vec F S512x1 .f32 := (accAt V c n hn).2.2.2.2.2.2.2

/-! ## The invariant -/

/-- Before position n: at the very first point what the launch hands the call (every accumulator at anything);
    afterwards the four accumulators at what the position before left, the core's other scoped buffers at anything, the
    generator register at some state. -/
def PhiS (c : Dev nD) : (n : ℕ) → n ≤ cfg1.N → sProp 𝕄
  | 0, _ => Pipeline.ΦA spec1 c
  | n + 1, hn =>
    iprop(iprop(iprop(owns (c : Thread nD τ) scM0 fullShare (scr0 V c n hn) ∗ owns (c : Thread nD τ) scM1 fullShare (scr1 V c n hn)
        ∗ owns (c : Thread nD τ) scM2 fullShare (scr2 V c n hn) ∗ owns (c : Thread nD τ) scM3 fullShare (scr3 V c n hn))
      ∗ others c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn
      = iprop(iprop(iprop(owns (c : Thread nD τ) scM0 fullShare (scr0 V c n hn) ∗ owns (c : Thread nD τ) scM1 fullShare (scr1 V c n hn)
          ∗ owns (c : Thread nD τ) scM2 fullShare (scr2 V c n hn) ∗ owns (c : Thread nD τ) scM3 fullShare (scr3 V c n hn))
        ∗ others c) ∗ (∃ r, prngReg c r)) := rfl

theorem PhiS_pos (c : Dev nD) (n : ℕ) (h : n ≤ cfg1.N) (hz : n ≠ 0) :
    PhiS V c n h
      = iprop(iprop(iprop(owns (c : Thread nD τ) scM0 fullShare (scr0 V c (n - 1) (by omega))
          ∗ owns (c : Thread nD τ) scM1 fullShare (scr1 V c (n - 1) (by omega))
          ∗ owns (c : Thread nD τ) scM2 fullShare (scr2 V c (n - 1) (by omega))
          ∗ owns (c : Thread nD τ) scM3 fullShare (scr3 V c (n - 1) (by omega)))
        ∗ others c) ∗ (∃ r, prngReg c r)) := by
  cases n with
  | zero => exact absurd rfl hz
  | succ n => rfl

/-! ## The proof data -/

/-- The call's proof data on core c: the arrays as the call finds them; after the body at a point each input's buffer
    at its block and each output's at its record; the invariant above; nothing owed. The two windows onto the
    embeddings (the row block's and the column block's) stage one array: each holds half of it. -/
def dat (c : Dev nD) : Dat τ (Elt F) Unit ℕ (Pipeline.UD sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => out7 V c t.val t.isLt
    | ⟨8, _⟩ => out8 V c t.val t.isLt
    | ⟨9, _⟩ => out9 V c t.val t.isLt
    | ⟨10, _⟩ => out10 V c t.val t.isLt
  Φ t := PhiS V c t.val (Nat.le_of_lt_succ t.isLt)
  q w := match w with
    | ⟨0, _⟩ => fullShare.left
    | ⟨1, _⟩ => fullShare.right
    | _ => fullShare
  owed _ := 0

theorem A_eq (c : Dev nD) (w : Fin cfg1.W) : (dat V c).A w = V c (Pipeline.arrRef spec1 w) := by
  dsimp only [dat]

theorem q_0 (c : Dev nD) : (dat V c).q 0 = fullShare.left := by dsimp only [dat]; rfl
theorem q_1 (c : Dev nD) : (dat V c).q 1 = fullShare.right := by dsimp only [dat]; rfl
theorem q_ge2 (c : Dev nD) (w : Fin cfg1.W) (h : 2 ≤ w.val) : (dat V c).q w = fullShare := by
  obtain ⟨k, hk⟩ := w
  match k, hk, h with
  | 0, _, h => exact absurd h (by show ¬2 ≤ 0; omega)
  | 1, _, h => exact absurd h (by show ¬2 ≤ 1; omega)
  | k + 2, _, _ => rfl

theorem owed_zero (c : Dev nD) (t : Fin (cfg1.N + 1)) : (dat V c).owed t = 0 := by dsimp only [dat]

theorem recorded_univ (c : Dev nD) (t : Fin (cfg1.N + 1)) : (dat V c).recorded t = Set.univ := rfl

theorem PhiS_castSucc (c : Dev nD) (t : Fin cfg1.N) :
    (dat V c).Φ t.castSucc = PhiS V c t.val (Nat.le_of_lt t.isLt) := by
  dsimp only [dat]; simp only [Fin.coe_castSucc]

/-- What the body leaves, window by window. -/
theorem after_in0 (c : Dev nD) (t : Fin cfg1.N) : (dat V c).after 0 t = iblk V c 0 t := by dsimp only [dat]
theorem after_in1 (c : Dev nD) (t : Fin cfg1.N) : (dat V c).after 1 t = iblk V c 1 t := by dsimp only [dat]
theorem after_in2 (c : Dev nD) (t : Fin cfg1.N) : (dat V c).after 2 t = iblk V c 2 t := by dsimp only [dat]
theorem after_in3 (c : Dev nD) (t : Fin cfg1.N) : (dat V c).after 3 t = iblk V c 3 t := by dsimp only [dat]
theorem after_in4 (c : Dev nD) (t : Fin cfg1.N) : (dat V c).after 4 t = iblk V c 4 t := by dsimp only [dat]
theorem after_in5 (c : Dev nD) (t : Fin cfg1.N) : (dat V c).after 5 t = iblk V c 5 t := by dsimp only [dat]
theorem after_in6 (c : Dev nD) (t : Fin cfg1.N) : (dat V c).after 6 t = iblk V c 6 t := by dsimp only [dat]
theorem after_out7 (c : Dev nD) (t : Fin cfg1.N) : (dat V c).after 7 t = out7 V c t.val t.isLt := by dsimp only [dat]
theorem after_out8 (c : Dev nD) (t : Fin cfg1.N) : (dat V c).after 8 t = out8 V c t.val t.isLt := by dsimp only [dat]
theorem after_out9 (c : Dev nD) (t : Fin cfg1.N) : (dat V c).after 9 t = out9 V c t.val t.isLt := by dsimp only [dat]
theorem after_out10 (c : Dev nD) (t : Fin cfg1.N) : (dat V c).after 10 t = out10 V c t.val t.isLt := by dsimp only [dat]

/-- Each input's buffer holds its block when the body runs, at every point. -/
theorem before_in0 (c : Dev nD) (t : Fin cfg1.N) (d) : (dat V c).before 0 t d = iblk V c 0 t :=
  before_in0_of V (dat V c) (A_eq V c 0) (after_in0 V c) t d
theorem before_in1 (c : Dev nD) (t : Fin cfg1.N) (d) : (dat V c).before 1 t d = iblk V c 1 t :=
  before_in1_of V (dat V c) (A_eq V c 1) (after_in1 V c) t d
theorem before_in2 (c : Dev nD) (t : Fin cfg1.N) (d) : (dat V c).before 2 t d = iblk V c 2 t :=
  before_in2_of V (dat V c) (A_eq V c 2) (after_in2 V c) t d
theorem before_in3 (c : Dev nD) (t : Fin cfg1.N) (d) : (dat V c).before 3 t d = iblk V c 3 t :=
  before_in3_of V (dat V c) (A_eq V c 3) (after_in3 V c) t d
theorem before_in4 (c : Dev nD) (t : Fin cfg1.N) (d) : (dat V c).before 4 t d = iblk V c 4 t :=
  before_in4_of V (dat V c) (A_eq V c 4) (after_in4 V c) t d
theorem before_in5 (c : Dev nD) (t : Fin cfg1.N) (d) : (dat V c).before 5 t d = iblk V c 5 t :=
  before_in5_of V (dat V c) (A_eq V c 5) (after_in5 V c) t d
theorem before_in6 (c : Dev nD) (t : Fin cfg1.N) (d) : (dat V c).before 6 t d = iblk V c 6 t :=
  before_in6_of V (dat V c) (A_eq V c 6) (after_in6 V c) t d

/-- An input's buffer is handed back holding its block. -/
theorem leaves_in0 (c : Dev nD) (t : Fin cfg1.N) :
    (dat V c).leavesExact 0 t = owns (c : Thread nD τ) (ms0 t) fullShare (iblk V c 0 t) := by
  unfold Dat.leavesExact; rw [live_in 0 (by decide) (grid1.coords t), after_in0]
theorem leaves_in1 (c : Dev nD) (t : Fin cfg1.N) :
    (dat V c).leavesExact 1 t = owns (c : Thread nD τ) (ms1 t) fullShare (iblk V c 1 t) := by
  unfold Dat.leavesExact; rw [live_in 1 (by decide) (grid1.coords t), after_in1]
theorem leaves_in2 (c : Dev nD) (t : Fin cfg1.N) :
    (dat V c).leavesExact 2 t = owns (c : Thread nD τ) (ms2 t) fullShare (iblk V c 2 t) := by
  unfold Dat.leavesExact; rw [live_in 2 (by decide) (grid1.coords t), after_in2]
theorem leaves_in3 (c : Dev nD) (t : Fin cfg1.N) :
    (dat V c).leavesExact 3 t = owns (c : Thread nD τ) (ms3 t) fullShare (iblk V c 3 t) := by
  unfold Dat.leavesExact; rw [live_in 3 (by decide) (grid1.coords t), after_in3]
theorem leaves_in4 (c : Dev nD) (t : Fin cfg1.N) :
    (dat V c).leavesExact 4 t = owns (c : Thread nD τ) (ms4 t) fullShare (iblk V c 4 t) := by
  unfold Dat.leavesExact; rw [live_in 4 (by decide) (grid1.coords t), after_in4]
theorem leaves_in5 (c : Dev nD) (t : Fin cfg1.N) :
    (dat V c).leavesExact 5 t = owns (c : Thread nD τ) (ms5 t) fullShare (iblk V c 5 t) := by
  unfold Dat.leavesExact; rw [live_in 5 (by decide) (grid1.coords t), after_in5]
theorem leaves_in6 (c : Dev nD) (t : Fin cfg1.N) :
    (dat V c).leavesExact 6 t = owns (c : Thread nD τ) (ms6 t) fullShare (iblk V c 6 t) := by
  unfold Dat.leavesExact; rw [live_in 6 (by decide) (grid1.coords t), after_in6]

/-- At a row's last point an output's buffer is handed back holding its record. -/
theorem leaves_out7 (c : Dev nD) (t : Fin cfg1.N) (h : condLast (grid1.coords t)) :
    (dat V c).leavesExact 7 t = owns (c : Thread nD τ) (ms7 t) fullShare (out7 V c t.val t.isLt) := by
  unfold Dat.leavesExact; rw [live_out 7 (by decide) (grid1.coords t) h, after_out7]
theorem leaves_out8 (c : Dev nD) (t : Fin cfg1.N) (h : condLast (grid1.coords t)) :
    (dat V c).leavesExact 8 t = owns (c : Thread nD τ) (ms8 t) fullShare (out8 V c t.val t.isLt) := by
  unfold Dat.leavesExact; rw [live_out 8 (by decide) (grid1.coords t) h, after_out8]
theorem leaves_out9 (c : Dev nD) (t : Fin cfg1.N) (h : condLast (grid1.coords t)) :
    (dat V c).leavesExact 9 t = owns (c : Thread nD τ) (ms9 t) fullShare (out9 V c t.val t.isLt) := by
  unfold Dat.leavesExact; rw [live_out 9 (by decide) (grid1.coords t) h, after_out9]
theorem leaves_out10 (c : Dev nD) (t : Fin cfg1.N) (h : condLast (grid1.coords t)) :
    (dat V c).leavesExact 10 t = owns (c : Thread nD τ) (ms10 t) fullShare (out10 V c t.val t.isLt) := by
  unfold Dat.leavesExact; rw [live_out 10 (by decide) (grid1.coords t) h, after_out10]

/-- Before any point the invariant holds each accumulator at some contents: at the very first point by what the launch
    hands over, later by forgetting what the contents are. -/
theorem Phi_open (c : Dev nD) (t : Fin (cfg1.N + 1)) :
    (dat V c).Φ t ⊢ iprop(iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d))
        ∗ others c) ∗ (∃ r, prngReg c r)) := by
  rw [show (dat V c).Φ t = PhiS V c t.val (Nat.le_of_lt_succ t.isLt) from rfl]
  by_cases hz : t.val = 0
  · rw [PhiS_zero V c _ _ hz, PhiA_eq]
  · rw [PhiS_pos V c _ _ hz]
    iintro ⟨⟨⟨HS0, HS1, HS2, HS3⟩, Hoth⟩, Hg⟩
    isplitl [HS0 HS1 HS2 HS3 Hoth]
    · isplitl [HS0 HS1 HS2 HS3]
      · isplitl [HS0]; · iexists _; iexact HS0
        isplitl [HS1]; · iexists _; iexact HS1
        isplitl [HS2]; · iexists _; iexact HS2
        iexists _; iexact HS3
      iexact Hoth
    iexact Hg

/-! ## The body at a point -/

/-- What the body is called with at point t: the invariant, what the core owes (nothing), and each window's buffer. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d)))

/-- What it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t
    ∗ (dat V c).leavesExact 4 t ∗ (dat V c).leavesExact 5 t ∗ (dat V c).leavesExact 6 t
    ∗ (dat V c).leavesExact 7 t ∗ (dat V c).leavesExact 8 t ∗ (dat V c).leavesExact 9 t ∗ (dat V c).leavesExact 10 t)

/-- A buffer handed back with stores that cover it holds their read-back. -/
theorem owns_readBack (c : Dev nD) {S : Shape} {e : EltTy} (M : Memref sig .tc .vmem S e) (v : View sig .tc .vmem S e)
    (L : List (View.Piece (Elt F) S e)) (hcov : ∀ y, ∃ pc ∈ L, y ∈ pc.1.set) :
    iprop(∃ f, M.view.loc (c : Thread nD τ) ↦[M.view.set]{fullShare} M.view.writes (Elt F) f L)
      ⊢ (owns (c : Thread nD τ) M fullShare (readBack v L) : sProp 𝕄) := by
  iintro ⟨%f, H⟩
  unfold owns readBack; iexists _; isplitr
  swap; · iexact H
  ipureintro; exact View.read_writes_of_cover _ _ _ _ _ hcov

set_option maxHeartbeats 8000000 in
/-- The body at any point. The inputs' buffers hold their blocks; the point is a row's first, a middle or a last one,
    and that case's run applies: at a first point to the accumulators at whatever they hold, otherwise at what the
    point before left; the accumulators come back at this point's record; away from a row's last point the outputs'
    buffers come back as they were found, at the last point at their record. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_in0, before_in1, before_in2, before_in3, before_in4, before_in5, before_in6]
  rw [leaves_in0, leaves_in1, leaves_in2, leaves_in3, leaves_in4, leaves_in5, leaves_in6]
  rw [show (dat V c).owesAt () t.succ = (dat V c).owesAt () t.castSucc from rfl]
  rw [show (dat V c).Φ t.succ = PhiS V c (t.val + 1) t.isLt from rfl, PhiS_succ]
  by_cases h0 : t.val % 16 = 0
  · -- a row's first point
    have h1 : ¬t.val % 16 = 15 := by omega
    have hc0 : condFirst (grid1.coords t) := (hcondFirst t).mpr h0
    have hc1 : ¬condLast (grid1.coords t) := fun h => h1 ((hcondLast t).mp h)
    rw [Dat.leavesExact_idle (dat V c) 7 t (idle_out 7 (by decide) _ hc1) (noFlush7 t h1),
      Dat.leavesExact_idle (dat V c) 8 t (idle_out 8 (by decide) _ hc1) (noFlush8 t h1),
      Dat.leavesExact_idle (dat V c) 9 t (idle_out 9 (by decide) _ hc1) (noFlush9 t h1),
      Dat.leavesExact_idle (dat V c) 10 t (idle_out 10 (by decide) _ hc1) (noFlush10 t h1)]
    unfold scr0 scr1 scr2 scr3
    rw [accAt_first V c t h0]
    unfold firstAcc accFirst; dsimp only
    refine (sep_mono_left (Phi_open V c t.castSucc)).trans ?_
    iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩,
      ⟨%d7, H7⟩, ⟨%d8, H8⟩, ⟨%d9, H9⟩, ⟨%d10, H10⟩⟩
    iapply ((runFirst c (grid1.coords t) (ms0 t) (hs0 t) (ms1 t) (hs1 t) (ms2 t) (hs2 t) (ms3 t) (hs3 t) (ms4 t) (hs4 t) (ms5 t) (hs5 t)
        (ms6 t) (hs6 t) (ms7 t) (hs7 t) (ms8 t) (hs8 t) (ms9 t) (hs9 t) (ms10 t) (hs10 t)
        scM0 (Memref.isWhole_whole _) scM1 (Memref.isWhole_whole _) scM2 (Memref.isWhole_whole _) scM3 (Memref.isWhole_whole _)
        hc0 hc1 (iblk V c 0 t) (iblk V c 1 t) (iblk V c 2 t) (iblk V c 3 t) (iblk V c 4 t) (iblk V c 5 t) (iblk V c 6 t)).2.2.2.2
      ((dat V c).before 7 t d7) ((dat V c).before 8 t d8) ((dat V c).before 9 t d9) ((dat V c).before 10 t d10) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hoth Hg]
    · isplitl [HS0 HS1 HS2 HS3 Hoth]
      · isplitl [HS0 HS1 HS2 HS3]
        · isplitl [HS0]
          · iapply (owns_readBack c scM0 VS0 _ (fun y => scoverFirst0 (y := y) ..)); iexact HS0
          isplitl [HS1]
          · iapply (owns_readBack c scM1 VS1 _ (fun y => scoverFirst1 (y := y) ..)); iexact HS1
          isplitl [HS2]
          · iapply (owns_readBack c scM2 VS2 _ (fun y => scoverFirst2 (y := y) ..)); iexact HS2
          iapply (owns_readBack c scM3 VS3 _ (fun y => scoverFirst3 (y := y) ..)); iexact HS3
        iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    iexists _; iexact H10
  · have hz : t.val ≠ 0 := fun h => h0 (by rw [h])
    have hc0 : ¬condFirst (grid1.coords t) := fun h => h0 ((hcondFirst t).mp h)
    by_cases h1 : t.val % 16 = 15
    · -- a row's last point
      have hc1 : condLast (grid1.coords t) := (hcondLast t).mpr h1
      rw [leaves_out7 V c t hc1, leaves_out8 V c t hc1, leaves_out9 V c t hc1, leaves_out10 V c t hc1]
      rw [PhiS_castSucc V c t, PhiS_pos V c _ _ hz]
      unfold out7 out8 out9 out10 scr0 scr1 scr2 scr3
      rw [accAt_last V c t h0 h1]
      unfold lastAcc accLast; dsimp only
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩,
        ⟨%d7, H7⟩, ⟨%d8, H8⟩, ⟨%d9, H9⟩, ⟨%d10, H10⟩⟩
      iapply ((runLast c (grid1.coords t) (ms0 t) (hs0 t) (ms1 t) (hs1 t) (ms2 t) (hs2 t) (ms3 t) (hs3 t) (ms4 t) (hs4 t) (ms5 t) (hs5 t)
          (ms6 t) (hs6 t) (ms7 t) (hs7 t) (ms8 t) (hs8 t) (ms9 t) (hs9 t) (ms10 t) (hs10 t)
          scM0 (Memref.isWhole_whole _) scM1 (Memref.isWhole_whole _) scM2 (Memref.isWhole_whole _) scM3 (Memref.isWhole_whole _)
          hc0 hc1 (iblk V c 0 t) (iblk V c 1 t) (iblk V c 2 t) (iblk V c 3 t) (iblk V c 4 t) (iblk V c 5 t) (iblk V c 6 t)
          _ _ _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hoth Hg]
      · isplitl [HS0 HS1 HS2 HS3 Hoth]
        · isplitl [HS0 HS1 HS2 HS3]
          · isplitl [HS0]
            · iapply (owns_readBack c scM0 VS0 _ (fun y => scoverLast0 (y := y) ..)); iexact HS0
            isplitl [HS1]
            · iapply (owns_readBack c scM1 VS1 _ (fun y => scoverLast1 (y := y) ..)); iexact HS1
            isplitl [HS2]
            · iapply (owns_readBack c scM2 VS2 _ (fun y => scoverLast2 (y := y) ..)); iexact HS2
            iapply (owns_readBack c scM3 VS3 _ (fun y => scoverLast3 (y := y) ..)); iexact HS3
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iapply (owns_readBack c (ms7 t) VO7 _ (fun y => coverLast7 (y := y) ..)); iexact H7
      isplitl [H8]
      · iapply (owns_readBack c (ms8 t) VO8 _ (fun y => coverLast8 (y := y) ..)); iexact H8
      isplitl [H9]
      · iapply (owns_readBack c (ms9 t) VO9 _ (fun y => coverLast9 (y := y) ..)); iexact H9
      iapply (owns_readBack c (ms10 t) VO10 _ (fun y => coverLast10 (y := y) ..)); iexact H10
    · -- a middle point
      have hc1 : ¬condLast (grid1.coords t) := fun h => h1 ((hcondLast t).mp h)
      rw [Dat.leavesExact_idle (dat V c) 7 t (idle_out 7 (by decide) _ hc1) (noFlush7 t h1),
        Dat.leavesExact_idle (dat V c) 8 t (idle_out 8 (by decide) _ hc1) (noFlush8 t h1),
        Dat.leavesExact_idle (dat V c) 9 t (idle_out 9 (by decide) _ hc1) (noFlush9 t h1),
        Dat.leavesExact_idle (dat V c) 10 t (idle_out 10 (by decide) _ hc1) (noFlush10 t h1)]
      rw [PhiS_castSucc V c t, PhiS_pos V c _ _ hz]
      unfold scr0 scr1 scr2 scr3
      rw [accAt_mid V c t h0 h1]
      unfold midAcc accMid; dsimp only
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩, ⟨%d6, H6⟩,
        ⟨%d7, H7⟩, ⟨%d8, H8⟩, ⟨%d9, H9⟩, ⟨%d10, H10⟩⟩
      iapply ((runMid c (grid1.coords t) (ms0 t) (hs0 t) (ms1 t) (hs1 t) (ms2 t) (hs2 t) (ms3 t) (hs3 t) (ms4 t) (hs4 t) (ms5 t) (hs5 t)
          (ms6 t) (hs6 t) (ms7 t) (hs7 t) (ms8 t) (hs8 t) (ms9 t) (hs9 t) (ms10 t) (hs10 t)
          scM0 (Memref.isWhole_whole _) scM1 (Memref.isWhole_whole _) scM2 (Memref.isWhole_whole _) scM3 (Memref.isWhole_whole _)
          hc0 hc1 (iblk V c 0 t) (iblk V c 1 t) (iblk V c 2 t) (iblk V c 3 t) (iblk V c 4 t) (iblk V c 5 t) (iblk V c 6 t)
          _ _ _ _).2.2.2.2
        ((dat V c).before 7 t d7) ((dat V c).before 8 t d8) ((dat V c).before 9 t d9) ((dat V c).before 10 t d10) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      isplitl [HS3]; · iexact HS3
      iintro ⟨H0, H1, H2, H3, H4, H5, H6, H7, H8, H9, H10, HS0, HS1, HS2, HS3⟩
      isplitl [HS0 HS1 HS2 HS3 Hoth Hg]
      · isplitl [HS0 HS1 HS2 HS3 Hoth]
        · isplitl [HS0 HS1 HS2 HS3]
          · isplitl [HS0]
            · iapply (owns_readBack c scM0 VS0 _ (fun y => scoverMid0 (y := y) ..)); iexact HS0
            isplitl [HS1]
            · iapply (owns_readBack c scM1 VS1 _ (fun y => scoverMid1 (y := y) ..)); iexact HS1
            isplitl [HS2]
            · iapply (owns_readBack c scM2 VS2 _ (fun y => scoverMid2 (y := y) ..)); iexact HS2
            iapply (owns_readBack c scM3 VS3 _ (fun y => scoverMid3 (y := y) ..)); iexact HS3
          iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      iexists _; iexact H10

/-- The library's obligation for the body, at every point. -/
theorem body_obligation (c : Dev nD) : BodyObligation (dat (F := F) V c) (defs₀ (F := F)) Variants.none () Set.univ := fun t => by
  rw [bigSep_W1, bigSep_W1]
  exact sound_body V c t

/-- What the launch hands the call is the invariant before the very first point. -/
theorem hin (c : Dev nD) : Pipeline.ΦA spec1 c ⊢ (dat V c).Φ 0 := by
  rw [show (dat V c).Φ 0 = PhiS V c 0 (Nat.zero_le _) from rfl, PhiS_zero V c 0 _ rfl]

/-- After the last point the invariant gives back what the launch handed over: what the accumulators hold is forgotten. -/
theorem hout (c : Dev nD) : (dat V c).Φ (Fin.last cfg1.N) ⊢ Pipeline.ΦA spec1 c := by
  rw [PhiA_eq]; exact Phi_open V c _

end Cert.KernelIdeal.P2

end
-- ==== Proof.KernelIdeal.Regs.lean ====
/-
  The two passes' proof data handed to the launch, each at its own entry contents, and the program's frame.
-/
import proofs.«118951_j44573170598307_1_alg».proof.Proof.KernelIdeal.RunFrame
import proofs.«118951_j44573170598307_1_alg».proof.Proof.KernelIdeal.Pass1Data
import proofs.«118951_j44573170598307_1_alg».proof.Proof.KernelIdeal.Pass2Data

noncomputable section

namespace Cert.KernelIdeal.Run

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

/-- The first pass, entered from the contents the opening reshapes leave. -/
def pass1 : Reg0 (C1 m) where
  dat := P1.dat (C1 m)
  A_eq := P1.A_eq (C1 m)
  q_0 := P1.q_0 (C1 m)
  q_1 := P1.q_1 (C1 m)
  q_ge2 := P1.q_ge2 (C1 m)
  owed_zero := P1.owed_zero (C1 m)
  recorded_univ := P1.recorded_univ (C1 m)
  body := P1.body_obligation (C1 m)
  hin := P1.hin (C1 m)
  hout := P1.hout (C1 m)

/-- The second pass, entered from what the first leaves. -/
def pass2 : Reg1 (C2 m (pass1 m)) where
  dat := P2.dat (C2 m (pass1 m))
  A_eq := P2.A_eq (C2 m (pass1 m))
  q_0 := P2.q_0 (C2 m (pass1 m))
  q_1 := P2.q_1 (C2 m (pass1 m))
  q_ge2 := P2.q_ge2 (C2 m (pass1 m))
  owed_zero := P2.owed_zero (C2 m (pass1 m))
  recorded_univ := P2.recorded_univ (C2 m (pass1 m))
  body := P2.body_obligation (C2 m (pass1 m))
  hin := P2.hin (C2 m (pass1 m))
  hout := P2.hout (C2 m (pass1 m))

/-- THE FRAME: from any memory with zero counters every weakly fair execution of @main terminates, nothing faulting,
    and the three argument arrays end as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (pass1 m) (pass2 m)

end Cert.KernelIdeal.Run

end
-- ==== Proof.KernelIdeal.Pass1Pieces.lean ====
/-
  What the first pass's runs found, as the step functions of the running columns.

  The stores each situation leaves in a buffer, read back:
    * a first column block leaves the reset folded with its tile — `minStep … minInit` in the running minimum,
      `maxStep … maxInit` in the running maximum: the fold reads back the reset it follows;
    * any later column block leaves what the column block before left, folded with its tile;
    * a last column block copies the running columns, as they are after its own fold, to the two result columns.
  Then the same at a grid point: the running columns after point `t` from those after `t - 1`, and the result
  columns' buffers after a row block's last point.
-/
import proofs.«118951_j44573170598307_1_alg».proof.Proof.KernelIdeal.Pass1Data
import Idealize.ShloMosaic.Lib.Pipeline.Value

set_option maxRecDepth 16384

noncomputable section

namespace Cert.KernelIdeal.P1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Every load and store of the body is of a whole buffer: the rectangle at offsets zero. -/
theorem hz : (![0, 0] : Fin 2 → Nat) = fun _ => 0 := funext fun a => by fin_cases a <;> rfl

/-! ## On any buffers -/

/-- A first column block leaves the reset folded with its tile in the running minimum. -/
theorem soutF_0_eq (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : condFirst i) (hc1 : ¬condLast i)
    (x0 x1 : Vec F S512x1024 .f32) (x2 : Vec F S512x1 .i32) (x3 : Vec F S1x512 .i32) :
    soutF_0 c i arg2 harg2 arg3 harg3 arg4 harg4 arg5 harg5 arg6 harg6 arg7 harg7 arg8 harg8 arg9 harg9 hc0 hc1 x0 x1 x2 x3 = Steps.minStep x0 x1 x2 x3 Steps.minInit := by
  unfold soutF_0
  rw [View.read_writes_eq_canon _ _ _ (scoverF_0 c i arg2 harg2 arg3 harg3 arg4 harg4 arg5 harg5 arg6 harg6 arg7 harg7 arg8 harg8 arg9 harg9 hc0 hc1 x0 x1 x2 x3)]
  unfold runFirst
  dsimp only
  sl_unfold_words
  rw [View.canon_cons_unit_zero (S := S512x1) hz]
  simp only [View.readAt_eq_ld, Memref.IsWhole.read_unread, View.ld_unit_zero (S := S512x1024) hz, View.ld_unit_zero (S := S512x1) hz, View.ld_unit_zero (S := S1x512) hz, View.readCov_unit_zero (S := S512x1) _ hz]
  rfl
/-- And in the running maximum. -/
theorem soutF_1_eq (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : condFirst i) (hc1 : ¬condLast i)
    (x0 x1 : Vec F S512x1024 .f32) (x2 : Vec F S512x1 .i32) (x3 : Vec F S1x512 .i32) :
    soutF_1 c i arg2 harg2 arg3 harg3 arg4 harg4 arg5 harg5 arg6 harg6 arg7 harg7 arg8 harg8 arg9 harg9 hc0 hc1 x0 x1 x2 x3 = Steps.maxStep x0 x1 x2 x3 Steps.maxInit := by
  unfold soutF_1
  rw [View.read_writes_eq_canon _ _ _ (scoverF_1 c i arg2 harg2 arg3 harg3 arg4 harg4 arg5 harg5 arg6 harg6 arg7 harg7 arg8 harg8 arg9 harg9 hc0 hc1 x0 x1 x2 x3)]
  unfold runFirst
  dsimp only
  sl_unfold_words
  rw [View.canon_cons_unit_zero (S := S512x1) hz]
  simp only [View.readAt_eq_ld, Memref.IsWhole.read_unread, View.ld_unit_zero (S := S512x1024) hz, View.ld_unit_zero (S := S512x1) hz, View.ld_unit_zero (S := S1x512) hz, View.readCov_unit_zero (S := S512x1) _ hz]
  rfl
/-- A column block between the first and the last folds its tile into the running minimum it finds. -/
theorem soutM_0_eq (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : ¬condLast i)
    (x0 x1 : Vec F S512x1024 .f32) (x2 : Vec F S512x1 .i32) (x3 : Vec F S1x512 .i32) (xs0 xs1 : Vec F S512x1 .f32) :
    soutM_0 c i arg2 harg2 arg3 harg3 arg4 harg4 arg5 harg5 arg6 harg6 arg7 harg7 arg8 harg8 arg9 harg9 hc0 hc1 x0 x1 x2 x3 xs0 xs1 = Steps.minStep x0 x1 x2 x3 xs0 := by
  unfold soutM_0
  rw [View.read_writes_eq_canon _ _ _ (scoverM_0 c i arg2 harg2 arg3 harg3 arg4 harg4 arg5 harg5 arg6 harg6 arg7 harg7 arg8 harg8 arg9 harg9 hc0 hc1 x0 x1 x2 x3 xs0 xs1)]
  unfold runMid
  dsimp only
  sl_unfold_words
  rw [View.canon_unit_zero (S := S512x1) hz]
  simp only [View.readAt_eq_ld, Memref.IsWhole.read_unread, View.ld_unit_zero (S := S512x1024) hz, View.ld_unit_zero (S := S512x1) hz, View.ld_unit_zero (S := S1x512) hz, View.readCov_unit_zero (S := S512x1) _ hz]
  rfl
/-- And into the running maximum it finds. -/
theorem soutM_1_eq (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : ¬condLast i)
    (x0 x1 : Vec F S512x1024 .f32) (x2 : Vec F S512x1 .i32) (x3 : Vec F S1x512 .i32) (xs0 xs1 : Vec F S512x1 .f32) :
    soutM_1 c i arg2 harg2 arg3 harg3 arg4 harg4 arg5 harg5 arg6 harg6 arg7 harg7 arg8 harg8 arg9 harg9 hc0 hc1 x0 x1 x2 x3 xs0 xs1 = Steps.maxStep x0 x1 x2 x3 xs1 := by
  unfold soutM_1
  rw [View.read_writes_eq_canon _ _ _ (scoverM_1 c i arg2 harg2 arg3 harg3 arg4 harg4 arg5 harg5 arg6 harg6 arg7 harg7 arg8 harg8 arg9 harg9 hc0 hc1 x0 x1 x2 x3 xs0 xs1)]
  unfold runMid
  dsimp only
  sl_unfold_words
  rw [View.canon_unit_zero (S := S512x1) hz]
  simp only [View.readAt_eq_ld, Memref.IsWhole.read_unread, View.ld_unit_zero (S := S512x1024) hz, View.ld_unit_zero (S := S512x1) hz, View.ld_unit_zero (S := S1x512) hz, View.readCov_unit_zero (S := S512x1) _ hz]
  rfl
/-- A last column block folds its tile into the running minimum it finds, -/
theorem soutL_0_eq (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) :
    soutL_0 c i arg2 harg2 arg3 harg3 arg4 harg4 arg5 harg5 arg6 harg6 arg7 harg7 arg8 harg8 arg9 harg9 hc0 hc1 x0 x1 x2 x3 xs0 xs1 = Steps.minStep x0 x1 x2 x3 xs0 := by
  unfold soutL_0
  rw [View.read_writes_eq_canon _ _ _ (scoverL_0 c i arg2 harg2 arg3 harg3 arg4 harg4 arg5 harg5 arg6 harg6 arg7 harg7 arg8 harg8 arg9 harg9 hc0 hc1 x0 x1 x2 x3 xs0 xs1)]
  unfold runLast
  dsimp only
  sl_unfold_words
  rw [View.canon_unit_zero (S := S512x1) hz]
  simp only [View.readAt_eq_ld, Memref.IsWhole.read_unread, View.ld_unit_zero (S := S512x1024) hz, View.ld_unit_zero (S := S512x1) hz, View.ld_unit_zero (S := S1x512) hz, View.readCov_unit_zero (S := S512x1) _ hz]
  rfl
/-- and into the running maximum it finds; -/
theorem soutL_1_eq (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) :
    soutL_1 c i arg2 harg2 arg3 harg3 arg4 harg4 arg5 harg5 arg6 harg6 arg7 harg7 arg8 harg8 arg9 harg9 hc0 hc1 x0 x1 x2 x3 xs0 xs1 = Steps.maxStep x0 x1 x2 x3 xs1 := by
  unfold soutL_1
  rw [View.read_writes_eq_canon _ _ _ (scoverL_1 c i arg2 harg2 arg3 harg3 arg4 harg4 arg5 harg5 arg6 harg6 arg7 harg7 arg8 harg8 arg9 harg9 hc0 hc1 x0 x1 x2 x3 xs0 xs1)]
  unfold runLast
  dsimp only
  sl_unfold_words
  rw [View.canon_unit_zero (S := S512x1) hz]
  simp only [View.readAt_eq_ld, Memref.IsWhole.read_unread, View.ld_unit_zero (S := S512x1024) hz, View.ld_unit_zero (S := S512x1) hz, View.ld_unit_zero (S := S1x512) hz, View.readCov_unit_zero (S := S512x1) _ hz]
  rfl
/-- and the least-positive result column's buffer gets the running minimum so folded, -/
theorem outL_4_eq (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) :
    outL_4 c i arg2 harg2 arg3 harg3 arg4 harg4 arg5 harg5 arg6 harg6 arg7 harg7 arg8 harg8 arg9 harg9 hc0 hc1 x0 x1 x2 x3 xs0 xs1 = Steps.minStep x0 x1 x2 x3 xs0 := by
  unfold outL_4
  rw [View.read_writes_eq_canon _ _ _ (coverL_4 c i arg2 harg2 arg3 harg3 arg4 harg4 arg5 harg5 arg6 harg6 arg7 harg7 arg8 harg8 arg9 harg9 hc0 hc1 x0 x1 x2 x3 xs0 xs1)]
  unfold runLast
  dsimp only
  sl_unfold_words
  rw [View.canon_unit_zero (S := S512x1) hz]
  simp only [View.readAt_eq_ld, Memref.IsWhole.read_unread, View.ld_unit_zero (S := S512x1024) hz, View.ld_unit_zero (S := S512x1) hz, View.ld_unit_zero (S := S1x512) hz, View.readCov_unit_zero (S := S512x1) _ hz]
  rfl
/-- the greatest-negative result column's buffer the running maximum so folded. -/
theorem outL_5_eq (c : Dev nD) (i : grid0.Coords)
    (arg2 : Memref sig .tc .vmem S512x1024 .f32) (harg2 : arg2.IsWhole) (arg3 : Memref sig .tc .vmem S512x1024 .f32) (harg3 : arg3.IsWhole)
    (arg4 : Memref sig .tc .vmem S512x1 .i32) (harg4 : arg4.IsWhole) (arg5 : Memref sig .tc .vmem S1x512 .i32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole) (arg9 : Memref sig .tc .vmem S512x1 .f32) (harg9 : arg9.IsWhole)
    (hc0 : ¬condFirst i) (hc1 : condLast i)
    (x0 x1 : Vec F S512x1024 .f32) (x2 : Vec F S512x1 .i32) (x3 : Vec F S1x512 .i32) (xs0 xs1 : Vec F S512x1 .f32) :
    outL_5 c i arg2 harg2 arg3 harg3 arg4 harg4 arg5 harg5 arg6 harg6 arg7 harg7 arg8 harg8 arg9 harg9 hc0 hc1 x0 x1 x2 x3 xs0 xs1 = Steps.maxStep x0 x1 x2 x3 xs1 := by
  unfold outL_5
  rw [View.read_writes_eq_canon _ _ _ (coverL_5 c i arg2 harg2 arg3 harg3 arg4 harg4 arg5 harg5 arg6 harg6 arg7 harg7 arg8 harg8 arg9 harg9 hc0 hc1 x0 x1 x2 x3 xs0 xs1)]
  unfold runLast
  dsimp only
  sl_unfold_words
  rw [View.canon_unit_zero (S := S512x1) hz]
  simp only [View.readAt_eq_ld, Memref.IsWhole.read_unread, View.ld_unit_zero (S := S512x1024) hz, View.ld_unit_zero (S := S512x1) hz, View.ld_unit_zero (S := S1x512) hz, View.readCov_unit_zero (S := S512x1) _ hz]
  rfl

/-! ## At a grid point -/

-- the buffers' contents when the first pass is entered
variable (V : (c : Dev nD) → (b : Ref sig .tc) → Buf (Elt F) ((c : Thread nD τ).loc b))

/-- After a row block's first column block the running minimum is the reset folded with that tile. -/
theorem scr0_first (c : Dev nD) (t : Fin cfg0.N) (h : t.val % 16 = 0) :
    scr0 V c t.val t.isLt = Steps.minStep (iblk V c 0 t) (iblk V c 1 t) (iblk V c 2 t) (iblk V c 3 t) Steps.minInit := by
  show (accAt V c t.val t.isLt).2.2.1 = _
  rw [accAt_first V c t h]
  dsimp only
  unfold firstScr0
  rw [soutF_0_eq]

/-- After any later column block it is what the column block before left, folded with this tile. -/
theorem scr0_later (c : Dev nD) (t : Fin cfg0.N) (h : t.val % 16 ≠ 0) :
    scr0 V c t.val t.isLt = Steps.minStep (iblk V c 0 t) (iblk V c 1 t) (iblk V c 2 t) (iblk V c 3 t) (scr0 V c (t.val - 1) (Nat.lt_of_le_of_lt (Nat.sub_le _ _) t.isLt)) := by
  show (accAt V c t.val t.isLt).2.2.1 = _
  by_cases h1 : t.val % 16 = 15
  · rw [accAt_last V c t h1]
    dsimp only
    unfold lastScr0
    rw [soutL_0_eq]
  · rw [accAt_mid V c t h h1]
    dsimp only
    unfold midScr0
    rw [soutM_0_eq]

/-- After a row block's first column block the running maximum is the reset folded with that tile. -/
theorem scr1_first (c : Dev nD) (t : Fin cfg0.N) (h : t.val % 16 = 0) :
    scr1 V c t.val t.isLt = Steps.maxStep (iblk V c 0 t) (iblk V c 1 t) (iblk V c 2 t) (iblk V c 3 t) Steps.maxInit := by
  show (accAt V c t.val t.isLt).2.2.2 = _
  rw [accAt_first V c t h]
  dsimp only
  unfold firstScr1
  rw [soutF_1_eq]

/-- After any later column block it is what the column block before left, folded with this tile. -/
theorem scr1_later (c : Dev nD) (t : Fin cfg0.N) (h : t.val % 16 ≠ 0) :
    scr1 V c t.val t.isLt = Steps.maxStep (iblk V c 0 t) (iblk V c 1 t) (iblk V c 2 t) (iblk V c 3 t) (scr1 V c (t.val - 1) (Nat.lt_of_le_of_lt (Nat.sub_le _ _) t.isLt)) := by
  show (accAt V c t.val t.isLt).2.2.2 = _
  by_cases h1 : t.val % 16 = 15
  · rw [accAt_last V c t h1]
    dsimp only
    unfold lastScr1
    rw [soutL_1_eq]
  · rw [accAt_mid V c t h h1]
    dsimp only
    unfold midScr1
    rw [soutM_1_eq]

/-- After a row block's last column block the least-positive result column's buffer holds the finished running minimum. -/
theorem out4_last (c : Dev nD) (t : Fin cfg0.N) (h : t.val % 16 = 15) :
    (dat V c).after 4 t = scr0 V c t.val t.isLt := by
  rw [after_out4]
  show (accAt V c t.val t.isLt).1 = (accAt V c t.val t.isLt).2.2.1
  rw [accAt_last V c t h]
  dsimp only
  unfold lastOut4 lastScr0
  rw [outL_4_eq, soutL_0_eq]

/-- And the greatest-negative result column's buffer the finished running maximum. -/
theorem out5_last (c : Dev nD) (t : Fin cfg0.N) (h : t.val % 16 = 15) :
    (dat V c).after 5 t = scr1 V c t.val t.isLt := by
  rw [after_out5]
  show (accAt V c t.val t.isLt).2.1 = (accAt V c t.val t.isLt).2.2.2
  rw [accAt_last V c t h]
  dsimp only
  unfold lastOut5 lastScr1
  rw [outL_5_eq, soutL_1_eq]

end Cert.KernelIdeal.P1

end
-- ==== Proof.KernelIdeal.Pass2Pieces.lean ====
/-
  What the runs of the second pass found, as the steps of the accumulation.

  Each accumulator after a point is one step of its recurrence: from zero at a row's first point, from what the point
  before left otherwise; and at a row's last point each output is the closing function of the finished accumulators.
  The steps and the closing functions are the compositions named in Steps; here each store the runs found is read back
  (a whole-buffer store read through a whole-buffer load is its payload) and recognised as one of them.
-/
import proofs.«118951_j44573170598307_1_alg».proof.Proof.KernelIdeal.Pass2Data
import Idealize.ShloMosaic.Lib.Pipeline.Value

set_option maxRecDepth 16384

noncomputable section

namespace Cert.KernelIdeal.P2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- Every load and store of the body is at the origin of its buffer. -/
theorem hz2 : (![0, 0] : Fin 2 → ℕ) = fun _ => 0 := by funext a; fin_cases a <;> rfl

/-! ## One run's stores, read back -/

section OnBuffers

-- the core, the point's coordinates, the fifteen whole buffers the body is called on, and the seven blocks
variable (c : Dev nD) (i : grid1.Coords)
  (arg2 : Memref sig .tc .vmem S512x1024 .f32) (harg2 : arg2.IsWhole) (arg3 : Memref sig .tc .vmem S512x1024 .f32) (harg3 : arg3.IsWhole)
  (arg4 : Memref sig .tc .vmem S512x1 .i32) (harg4 : arg4.IsWhole) (arg5 : Memref sig .tc .vmem S1x512 .i32) (harg5 : arg5.IsWhole)
  (arg6 : Memref sig .tc .vmem S512x1 .f32) (harg6 : arg6.IsWhole) (arg7 : Memref sig .tc .vmem S512x1 .f32) (harg7 : arg7.IsWhole)
  (arg8 : Memref sig .tc .vmem S512x1 .f32) (harg8 : arg8.IsWhole)
  (arg9 : Memref sig .tc .vmem S512x1 .f32) (harg9 : arg9.IsWhole) (arg10 : Memref sig .tc .vmem S512x1 .i32) (harg10 : arg10.IsWhole)
  (arg11 : Memref sig .tc .vmem S512x1 .i32) (harg11 : arg11.IsWhole) (arg12 : Memref sig .tc .vmem S512x1 .i32) (harg12 : arg12.IsWhole)
  (arg13 : Memref sig .tc .vmem S512x1 .f32) (harg13 : arg13.IsWhole) (arg14 : Memref sig .tc .vmem S512x1 .f32) (harg14 : arg14.IsWhole)
  (arg15 : Memref sig .tc .vmem S512x1 .f32) (harg15 : arg15.IsWhole) (arg16 : Memref sig .tc .vmem S512x1 .f32) (harg16 : arg16.IsWhole)
  (x0 x1 : Vec F S512x1024 .f32) (x2 : Vec F S512x1 .i32) (x3 : Vec F S1x512 .i32) (x4 x5 x6 : Vec F S512x1 .f32)

section First

variable (hc0 : condFirst i) (hc1 : ¬condLast i)

local notation "RUNF" => runFirst c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6

/-- At a row's first point the count of kept positives is one step from zero: the later store covers the reset, and
    the value it adds to is the reset's, read back. -/
theorem first0 : readBack VS0 (RUNF).1 = Steps.apStep x0 x1 x2 x3 x4 x6 Steps.apInit := by
  unfold readBack
  rw [View.read_writes_eq_canon _ _ _ (scoverFirst0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1)]
  unfold runFirst
  dsimp only
  sl_unfold_words
  rw [View.canon_cons_unit_zero (S := S512x1) hz2]
  simp only [View.readAt_eq_ld, harg2.read_unread, harg3.read_unread, harg4.read_unread, harg5.read_unread, harg6.read_unread,
    harg7.read_unread, harg8.read_unread, View.ld_unit_zero (S := S512x1024) hz2, View.ld_unit_zero (S := S512x1) hz2,
    View.ld_unit_zero (S := S1x512) hz2, View.readCov_unit_zero (S := S512x1) _ hz2]
  rfl

/-- The count of kept negatives, likewise. -/
theorem first1 : readBack VS1 (RUNF).2.1 = Steps.anStep x0 x1 x2 x3 x4 x5 Steps.anInit := by
  unfold readBack
  rw [View.read_writes_eq_canon _ _ _ (scoverFirst1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1)]
  unfold runFirst
  dsimp only
  sl_unfold_words
  rw [View.canon_cons_unit_zero (S := S512x1) hz2]
  simp only [View.readAt_eq_ld, harg2.read_unread, harg3.read_unread, harg4.read_unread, harg5.read_unread, harg6.read_unread,
    harg7.read_unread, harg8.read_unread, View.ld_unit_zero (S := S512x1024) hz2, View.ld_unit_zero (S := S512x1) hz2,
    View.ld_unit_zero (S := S1x512) hz2, View.readCov_unit_zero (S := S512x1) _ hz2]
  rfl

/-- The sum over the kept positives. -/
theorem first2 : readBack VS2 (RUNF).2.2.1 = Steps.posStep x0 x1 x2 x3 x4 x6 Steps.posInit := by
  unfold readBack
  rw [View.read_writes_eq_canon _ _ _ (scoverFirst2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1)]
  unfold runFirst
  dsimp only
  sl_unfold_words
  rw [View.canon_cons_unit_zero (S := S512x1) hz2]
  simp only [View.readAt_eq_ld, harg2.read_unread, harg3.read_unread, harg4.read_unread, harg5.read_unread, harg6.read_unread,
    harg7.read_unread, harg8.read_unread, View.ld_unit_zero (S := S512x1024) hz2, View.ld_unit_zero (S := S512x1) hz2,
    View.ld_unit_zero (S := S1x512) hz2, View.readCov_unit_zero (S := S512x1) _ hz2]
  rfl

/-- The sum over the kept negatives. -/
theorem first3 : readBack VS3 (RUNF).2.2.2.1 = Steps.negStep x0 x1 x2 x3 x4 x5 Steps.negInit := by
  unfold readBack
  rw [View.read_writes_eq_canon _ _ _ (scoverFirst3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 hc0 hc1)]
  unfold runFirst
  dsimp only
  sl_unfold_words
  rw [View.canon_cons_unit_zero (S := S512x1) hz2]
  simp only [View.readAt_eq_ld, harg2.read_unread, harg3.read_unread, harg4.read_unread, harg5.read_unread, harg6.read_unread,
    harg7.read_unread, harg8.read_unread, View.ld_unit_zero (S := S512x1024) hz2, View.ld_unit_zero (S := S512x1) hz2,
    View.ld_unit_zero (S := S1x512) hz2, View.readCov_unit_zero (S := S512x1) _ hz2]
  rfl

end First

section Later

-- what the point before left in the accumulators
variable (s0 s1 s2 s3 : Vec F S512x1 .f32) (hc0 : ¬condFirst i)

section Mid

variable (hc1 : ¬condLast i)

local notation "RUNM" => runMid c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 s0 s1 s2 s3

/-- At a middle point each accumulator is one step from what the point before left. -/
theorem mid0 : readBack VS0 (RUNM).1 = Steps.apStep x0 x1 x2 x3 x4 x6 s0 := by
  unfold readBack
  rw [View.read_writes_eq_canon _ _ _ (scoverMid0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runMid
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2]
  rfl

theorem mid1 : readBack VS1 (RUNM).2.1 = Steps.anStep x0 x1 x2 x3 x4 x5 s1 := by
  unfold readBack
  rw [View.read_writes_eq_canon _ _ _ (scoverMid1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runMid
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2]
  rfl

theorem mid2 : readBack VS2 (RUNM).2.2.1 = Steps.posStep x0 x1 x2 x3 x4 x6 s2 := by
  unfold readBack
  rw [View.read_writes_eq_canon _ _ _ (scoverMid2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runMid
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2]
  rfl

theorem mid3 : readBack VS3 (RUNM).2.2.2.1 = Steps.negStep x0 x1 x2 x3 x4 x5 s3 := by
  unfold readBack
  rw [View.read_writes_eq_canon _ _ _ (scoverMid3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runMid
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2]
  rfl

end Mid

section Last

variable (hc1 : condLast i)

local notation "RUNL" => runLast c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 s0 s1 s2 s3

/-- At a row's last point each accumulator is again one step from what the point before left. -/
theorem lastS0 : readBack VS0 (RUNL).2.2.2.2.1 = Steps.apStep x0 x1 x2 x3 x4 x6 s0 := by
  unfold readBack
  rw [View.read_writes_eq_canon _ _ _ (scoverLast0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runLast
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2]
  rfl

theorem lastS1 : readBack VS1 (RUNL).2.2.2.2.2.1 = Steps.anStep x0 x1 x2 x3 x4 x5 s1 := by
  unfold readBack
  rw [View.read_writes_eq_canon _ _ _ (scoverLast1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runLast
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2]
  rfl

theorem lastS2 : readBack VS2 (RUNL).2.2.2.2.2.2.1 = Steps.posStep x0 x1 x2 x3 x4 x6 s2 := by
  unfold readBack
  rw [View.read_writes_eq_canon _ _ _ (scoverLast2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runLast
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2]
  rfl

theorem lastS3 : readBack VS3 (RUNL).2.2.2.2.2.2.2.1 = Steps.negStep x0 x1 x2 x3 x4 x5 s3 := by
  unfold readBack
  rw [View.read_writes_eq_canon _ _ _ (scoverLast3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runLast
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2]
  rfl

/-- The row block's loss is the closing function of the four finished accumulators, each loaded after its last store: as
    steps from what the point before left, -/
theorem last7_steps : readBack VO7 (RUNL).1
    = Steps.lossOut (Steps.apStep x0 x1 x2 x3 x4 x6 s0) (Steps.anStep x0 x1 x2 x3 x4 x5 s1) (Steps.posStep x0 x1 x2 x3 x4 x6 s2)
        (Steps.negStep x0 x1 x2 x3 x4 x5 s3) := by
  unfold readBack
  rw [View.read_writes_eq_canon _ _ _ (coverLast7 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runLast
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2,
    View.readCov_unit_zero (S := S512x1) _ hz2]
  rfl

/-- and as the accumulators the point leaves. -/
theorem last7 : readBack VO7 (RUNL).1
    = Steps.lossOut (readBack VS0 (RUNL).2.2.2.2.1) (readBack VS1 (RUNL).2.2.2.2.2.1) (readBack VS2 (RUNL).2.2.2.2.2.2.1)
        (readBack VS3 (RUNL).2.2.2.2.2.2.2.1) :=
  (last7_steps c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).trans
    (congr (congr (congr (congrArg Steps.lossOut
      (lastS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)
      (lastS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)
      (lastS2 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)
      (lastS3 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)

/-- The anchor flag, from the two counts. -/
theorem last8_steps : readBack VO8 (RUNL).2.1
    = Steps.anchorOut (Steps.apStep x0 x1 x2 x3 x4 x6 s0) (Steps.anStep x0 x1 x2 x3 x4 x5 s1) := by
  unfold readBack
  rw [View.read_writes_eq_canon _ _ _ (coverLast8 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runLast
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2,
    View.readCov_unit_zero (S := S512x1) _ hz2]
  rfl

theorem last8 : readBack VO8 (RUNL).2.1
    = Steps.anchorOut (readBack VS0 (RUNL).2.2.2.2.1) (readBack VS1 (RUNL).2.2.2.2.2.1) :=
  (last8_steps c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).trans
    (congr (congrArg Steps.anchorOut
      (lastS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)
      (lastS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)

/-- The number of kept positives, as an integer, where the anchor counts. -/
theorem last9_steps : readBack VO9 (RUNL).2.2.1
    = Steps.apOut (Steps.apStep x0 x1 x2 x3 x4 x6 s0) (Steps.anStep x0 x1 x2 x3 x4 x5 s1) := by
  unfold readBack
  rw [View.read_writes_eq_canon _ _ _ (coverLast9 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runLast
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2,
    View.readCov_unit_zero (S := S512x1) _ hz2]
  rfl

theorem last9 : readBack VO9 (RUNL).2.2.1
    = Steps.apOut (readBack VS0 (RUNL).2.2.2.2.1) (readBack VS1 (RUNL).2.2.2.2.2.1) :=
  (last9_steps c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).trans
    (congr (congrArg Steps.apOut
      (lastS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)
      (lastS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)

/-- The number of kept negatives, likewise. -/
theorem last10_steps : readBack VO10 (RUNL).2.2.2.1
    = Steps.anOut (Steps.apStep x0 x1 x2 x3 x4 x6 s0) (Steps.anStep x0 x1 x2 x3 x4 x5 s1) := by
  unfold readBack
  rw [View.read_writes_eq_canon _ _ _ (coverLast10 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1)]
  unfold runLast
  dsimp only
  sl_unfold_words
  rw [View.canon_unit_zero (S := S512x1) hz2]
  simp only [View.readAt_eq_ld, harg2.read_unread, harg3.read_unread, harg4.read_unread, harg5.read_unread, harg6.read_unread,
    harg7.read_unread, harg8.read_unread, harg13.read_unread, harg14.read_unread, harg15.read_unread, harg16.read_unread,
    View.ld_unit_zero (S := S512x1024) hz2, View.ld_unit_zero (S := S512x1) hz2, View.ld_unit_zero (S := S1x512) hz2,
    View.readCov_unit_zero (S := S512x1) _ hz2]
  rfl

theorem last10 : readBack VO10 (RUNL).2.2.2.1
    = Steps.anOut (readBack VS0 (RUNL).2.2.2.2.1) (readBack VS1 (RUNL).2.2.2.2.2.1) :=
  (last10_steps c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).trans
    (congr (congrArg Steps.anOut
      (lastS0 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)
      (lastS1 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 s0 s1 s2 s3 hc0 hc1).symm)

end Last

end Later

end OnBuffers

/-! ## Point after point -/

-- what the core's buffers hold when the second call is entered
variable (V : (c : Dev nD) → (b : Ref sig .tc) → Buf (Elt F) ((c : Thread nD τ).loc b))

/-- At a row's first point the count of kept positives is one step from zero, over the point's blocks. -/
theorem scr0_first (c : Dev nD) (t : Fin cfg1.N) (h : t.val % 16 = 0) :
    scr0 V c t.val t.isLt
      = Steps.apStep (iblk V c 0 t) (iblk V c 1 t) (iblk V c 2 t) (iblk V c 3 t) (iblk V c 4 t) (iblk V c 6 t) Steps.apInit := by
  unfold scr0; rw [accAt_first V c t h]; unfold firstAcc accFirst; dsimp only
  exact first0 c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    ((hcondFirst t).mpr h) (fun hl => absurd ((hcondLast t).mp hl) (by omega))

/-- The count of kept negatives, -/
theorem scr1_first (c : Dev nD) (t : Fin cfg1.N) (h : t.val % 16 = 0) :
    scr1 V c t.val t.isLt
      = Steps.anStep (iblk V c 0 t) (iblk V c 1 t) (iblk V c 2 t) (iblk V c 3 t) (iblk V c 4 t) (iblk V c 5 t) Steps.anInit := by
  unfold scr1; rw [accAt_first V c t h]; unfold firstAcc accFirst; dsimp only
  exact first1 c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    ((hcondFirst t).mpr h) (fun hl => absurd ((hcondLast t).mp hl) (by omega))

/-- the sum over the kept positives, -/
theorem scr2_first (c : Dev nD) (t : Fin cfg1.N) (h : t.val % 16 = 0) :
    scr2 V c t.val t.isLt
      = Steps.posStep (iblk V c 0 t) (iblk V c 1 t) (iblk V c 2 t) (iblk V c 3 t) (iblk V c 4 t) (iblk V c 6 t) Steps.posInit := by
  unfold scr2; rw [accAt_first V c t h]; unfold firstAcc accFirst; dsimp only
  exact first2 c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    ((hcondFirst t).mpr h) (fun hl => absurd ((hcondLast t).mp hl) (by omega))

/-- and the sum over the kept negatives. -/
theorem scr3_first (c : Dev nD) (t : Fin cfg1.N) (h : t.val % 16 = 0) :
    scr3 V c t.val t.isLt
      = Steps.negStep (iblk V c 0 t) (iblk V c 1 t) (iblk V c 2 t) (iblk V c 3 t) (iblk V c 4 t) (iblk V c 5 t) Steps.negInit := by
  unfold scr3; rw [accAt_first V c t h]; unfold firstAcc accFirst; dsimp only
  exact first3 c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    ((hcondFirst t).mpr h) (fun hl => absurd ((hcondLast t).mp hl) (by omega))

/-- At any later point of a row the count of kept positives is one step from what the point before left, whether the
    point is the row's last or not. -/
theorem scr0_later (c : Dev nD) (t : Fin cfg1.N) (h : t.val % 16 ≠ 0) :
    scr0 V c t.val t.isLt
      = Steps.apStep (iblk V c 0 t) (iblk V c 1 t) (iblk V c 2 t) (iblk V c 3 t) (iblk V c 4 t) (iblk V c 6 t)
          (scr0 V c (t.val - 1) (Nat.lt_of_le_of_lt (Nat.sub_le _ _) t.isLt)) := by
  unfold scr0
  by_cases h1 : t.val % 16 = 15
  · rw [accAt_last V c t h h1]; unfold lastAcc accLast; dsimp only
    exact lastS0 c (grid1.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t)
      scM0 (Memref.isWhole_whole _) scM1 (Memref.isWhole_whole _) scM2 (Memref.isWhole_whole _) scM3 (Memref.isWhole_whole _)
      (iblk V c 0 t) (iblk V c 1 t) (iblk V c 2 t) (iblk V c 3 t) (iblk V c 4 t) (iblk V c 5 t) (iblk V c 6 t)
      _ _ _ _ (fun hf => h ((hcondFirst t).mp hf)) ((hcondLast t).mpr h1)
  · rw [accAt_mid V c t h h1]; unfold midAcc accMid; dsimp only
    exact mid0 c (grid1.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t)
      scM0 (Memref.isWhole_whole _) scM1 (Memref.isWhole_whole _) scM2 (Memref.isWhole_whole _) scM3 (Memref.isWhole_whole _)
      (iblk V c 0 t) (iblk V c 1 t) (iblk V c 2 t) (iblk V c 3 t) (iblk V c 4 t) (iblk V c 5 t) (iblk V c 6 t)
      _ _ _ _ (fun hf => h ((hcondFirst t).mp hf)) (fun hl => h1 ((hcondLast t).mp hl))

/-- The count of kept negatives, -/
theorem scr1_later (c : Dev nD) (t : Fin cfg1.N) (h : t.val % 16 ≠ 0) :
    scr1 V c t.val t.isLt
      = Steps.anStep (iblk V c 0 t) (iblk V c 1 t) (iblk V c 2 t) (iblk V c 3 t) (iblk V c 4 t) (iblk V c 5 t)
          (scr1 V c (t.val - 1) (Nat.lt_of_le_of_lt (Nat.sub_le _ _) t.isLt)) := by
  unfold scr1
  by_cases h1 : t.val % 16 = 15
  · rw [accAt_last V c t h h1]; unfold lastAcc accLast; dsimp only
    exact lastS1 c (grid1.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t)
      scM0 (Memref.isWhole_whole _) scM1 (Memref.isWhole_whole _) scM2 (Memref.isWhole_whole _) scM3 (Memref.isWhole_whole _)
      (iblk V c 0 t) (iblk V c 1 t) (iblk V c 2 t) (iblk V c 3 t) (iblk V c 4 t) (iblk V c 5 t) (iblk V c 6 t)
      _ _ _ _ (fun hf => h ((hcondFirst t).mp hf)) ((hcondLast t).mpr h1)
  · rw [accAt_mid V c t h h1]; unfold midAcc accMid; dsimp only
    exact mid1 c (grid1.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t)
      scM0 (Memref.isWhole_whole _) scM1 (Memref.isWhole_whole _) scM2 (Memref.isWhole_whole _) scM3 (Memref.isWhole_whole _)
      (iblk V c 0 t) (iblk V c 1 t) (iblk V c 2 t) (iblk V c 3 t) (iblk V c 4 t) (iblk V c 5 t) (iblk V c 6 t)
      _ _ _ _ (fun hf => h ((hcondFirst t).mp hf)) (fun hl => h1 ((hcondLast t).mp hl))

/-- the sum over the kept positives, -/
theorem scr2_later (c : Dev nD) (t : Fin cfg1.N) (h : t.val % 16 ≠ 0) :
    scr2 V c t.val t.isLt
      = Steps.posStep (iblk V c 0 t) (iblk V c 1 t) (iblk V c 2 t) (iblk V c 3 t) (iblk V c 4 t) (iblk V c 6 t)
          (scr2 V c (t.val - 1) (Nat.lt_of_le_of_lt (Nat.sub_le _ _) t.isLt)) := by
  unfold scr2
  by_cases h1 : t.val % 16 = 15
  · rw [accAt_last V c t h h1]; unfold lastAcc accLast; dsimp only
    exact lastS2 c (grid1.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t)
      scM0 (Memref.isWhole_whole _) scM1 (Memref.isWhole_whole _) scM2 (Memref.isWhole_whole _) scM3 (Memref.isWhole_whole _)
      (iblk V c 0 t) (iblk V c 1 t) (iblk V c 2 t) (iblk V c 3 t) (iblk V c 4 t) (iblk V c 5 t) (iblk V c 6 t)
      _ _ _ _ (fun hf => h ((hcondFirst t).mp hf)) ((hcondLast t).mpr h1)
  · rw [accAt_mid V c t h h1]; unfold midAcc accMid; dsimp only
    exact mid2 c (grid1.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t)
      scM0 (Memref.isWhole_whole _) scM1 (Memref.isWhole_whole _) scM2 (Memref.isWhole_whole _) scM3 (Memref.isWhole_whole _)
      (iblk V c 0 t) (iblk V c 1 t) (iblk V c 2 t) (iblk V c 3 t) (iblk V c 4 t) (iblk V c 5 t) (iblk V c 6 t)
      _ _ _ _ (fun hf => h ((hcondFirst t).mp hf)) (fun hl => h1 ((hcondLast t).mp hl))

/-- and the sum over the kept negatives. -/
theorem scr3_later (c : Dev nD) (t : Fin cfg1.N) (h : t.val % 16 ≠ 0) :
    scr3 V c t.val t.isLt
      = Steps.negStep (iblk V c 0 t) (iblk V c 1 t) (iblk V c 2 t) (iblk V c 3 t) (iblk V c 4 t) (iblk V c 5 t)
          (scr3 V c (t.val - 1) (Nat.lt_of_le_of_lt (Nat.sub_le _ _) t.isLt)) := by
  unfold scr3
  by_cases h1 : t.val % 16 = 15
  · rw [accAt_last V c t h h1]; unfold lastAcc accLast; dsimp only
    exact lastS3 c (grid1.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t)
      scM0 (Memref.isWhole_whole _) scM1 (Memref.isWhole_whole _) scM2 (Memref.isWhole_whole _) scM3 (Memref.isWhole_whole _)
      (iblk V c 0 t) (iblk V c 1 t) (iblk V c 2 t) (iblk V c 3 t) (iblk V c 4 t) (iblk V c 5 t) (iblk V c 6 t)
      _ _ _ _ (fun hf => h ((hcondFirst t).mp hf)) ((hcondLast t).mpr h1)
  · rw [accAt_mid V c t h h1]; unfold midAcc accMid; dsimp only
    exact mid3 c (grid1.coords t) (ms0 t) (hs0 t) (ms1 t) (hs1 t) (ms2 t) (hs2 t) (ms3 t) (hs3 t) (ms4 t) (hs4 t) (ms5 t) (hs5 t)
      (ms6 t) (hs6 t) (ms7 t) (hs7 t) (ms8 t) (hs8 t) (ms9 t) (hs9 t) (ms10 t) (hs10 t)
      scM0 (Memref.isWhole_whole _) scM1 (Memref.isWhole_whole _) scM2 (Memref.isWhole_whole _) scM3 (Memref.isWhole_whole _)
      (iblk V c 0 t) (iblk V c 1 t) (iblk V c 2 t) (iblk V c 3 t) (iblk V c 4 t) (iblk V c 5 t) (iblk V c 6 t)
      _ _ _ _ (fun hf => h ((hcondFirst t).mp hf)) (fun hl => h1 ((hcondLast t).mp hl))

/-- At a row's last point the loss written out is the closing function of the four accumulators as that point leaves
    them. -/
theorem out7_last (c : Dev nD) (t : Fin cfg1.N) (h : t.val % 16 = 15) :
    (dat V c).after 7 t
      = Steps.lossOut (scr0 V c t.val t.isLt) (scr1 V c t.val t.isLt) (scr2 V c t.val t.isLt) (scr3 V c t.val t.isLt) := by
  have h0 : ¬t.val % 16 = 0 := by omega
  rw [after_out7]; unfold out7 scr0 scr1 scr2 scr3
  rw [accAt_last V c t h0 h]; unfold lastAcc accLast; dsimp only
  exact last7 c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    _ _ _ _ (fun hf => h0 ((hcondFirst t).mp hf)) ((hcondLast t).mpr h)

/-- The anchor flag, -/
theorem out8_last (c : Dev nD) (t : Fin cfg1.N) (h : t.val % 16 = 15) :
    (dat V c).after 8 t = Steps.anchorOut (scr0 V c t.val t.isLt) (scr1 V c t.val t.isLt) := by
  have h0 : ¬t.val % 16 = 0 := by omega
  rw [after_out8]; unfold out8 scr0 scr1
  rw [accAt_last V c t h0 h]; unfold lastAcc accLast; dsimp only
  exact last8 c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    _ _ _ _ (fun hf => h0 ((hcondFirst t).mp hf)) ((hcondLast t).mpr h)

/-- the number of kept positives, -/
theorem out9_last (c : Dev nD) (t : Fin cfg1.N) (h : t.val % 16 = 15) :
    (dat V c).after 9 t = Steps.apOut (scr0 V c t.val t.isLt) (scr1 V c t.val t.isLt) := by
  have h0 : ¬t.val % 16 = 0 := by omega
  rw [after_out9]; unfold out9 scr0 scr1
  rw [accAt_last V c t h0 h]; unfold lastAcc accLast; dsimp only
  exact last9 c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    _ _ _ _ (fun hf => h0 ((hcondFirst t).mp hf)) ((hcondLast t).mpr h)

/-- and the number of kept negatives. -/
theorem out10_last (c : Dev nD) (t : Fin cfg1.N) (h : t.val % 16 = 15) :
    (dat V c).after 10 t = Steps.anOut (scr0 V c t.val t.isLt) (scr1 V c t.val t.isLt) := by
  have h0 : ¬t.val % 16 = 0 := by omega
  rw [after_out10]; unfold out10 scr0 scr1
  rw [accAt_last V c t h0 h]; unfold lastAcc accLast; dsimp only
  exact last10 c (grid1.coords t) (ms0 t) (hs0 t) (ms1 t) (hs1 t) (ms2 t) (hs2 t) (ms3 t) (hs3 t) (ms4 t) (hs4 t) (ms5 t) (hs5 t)
    (ms6 t) (hs6 t) (ms7 t) (hs7 t) (ms8 t) (hs8 t) (ms9 t) (hs9 t) (ms10 t) (hs10 t)
    scM0 (Memref.isWhole_whole _) scM1 (Memref.isWhole_whole _) scM2 (Memref.isWhole_whole _) scM3 (Memref.isWhole_whole _)
    (iblk V c 0 t) (iblk V c 1 t) (iblk V c 2 t) (iblk V c 3 t) (iblk V c 4 t) (iblk V c 5 t) (iblk V c 6 t)
    _ _ _ _ (fun hf => h0 ((hcondFirst t).mp hf)) ((hcondLast t).mpr h)

end Cert.KernelIdeal.P2

end
-- ==== Proof.Spec.lean ====
/-
  The mathematics both programs compute, stated once over the extended reals.

  Inputs: the embeddings `x` (8192 rows of 1024 numbers), a label per row (read once down the rows, `tc`, and once
  along the columns, `tr`) and a margin per row `mg`.  With `sim i j = ∑ k, x i k * x j k`:
    * a pair is POSITIVE when the labels agree and `sim < 1`, NEGATIVE when the labels differ;
    * `minpos i` is the least similarity over the positives of row `i` (a non-positive counts as `big`),
      `maxneg i` the greatest over the negatives (a non-negative counts as `-big`);
    * a negative is KEPT when `(sim + mg i) - minpos i > 0`, a positive when `(maxneg i - sim) + mg i > 0`;
    * `ap i`, `an i` count the kept positives and negatives; the row is VALID when both are positive;
    * the row's loss is `1 · log1p (∑ kept positives exp (-2 (sim - ½))) + ⅕ · log1p (∑ kept negatives exp (10 (sim - ½)))`
      when valid and `0` otherwise; the result is the rows' sum divided by 8192, the validity flags, the
      counts of the valid rows, and the two counts' grand total.
  Masks are kept as one-bit words and float literals as the words the programs print, so that each program's own
  text reads as these definitions operation by operation.
-/
import Idealize.ShloMosaic.PureOps.Ideal
import Idealize.ShloMosaic.PureOps.Vector

noncomputable section

namespace Cert.Spec

open Idealize.ShloMosaic

/-- The float literal a 32-bit word denotes. -/
abbrev lit (w : BitVec 32) : EReal := Ideal.ofBits .f32 w

/-- The similarity of rows `i` and `j`. -/
def sim (x : Fin 8192 → Fin 1024 → EReal) (i j : Fin 8192) : EReal := ∑ k : Fin 1024, x i k * x j k

/-- Rows `i` and `j` carry one label. -/
def same (tc tr : Fin 8192 → BitVec 32) (i j : Fin 8192) : BitVec 1 := IntOp.cmpi .eq (tc i) (tr j)
/-- A positive pair: one label, similarity below one. -/
def pos (x : Fin 8192 → Fin 1024 → EReal) (tc tr : Fin 8192 → BitVec 32) (i j : Fin 8192) : BitVec 1 :=
  IntOp.andi (same tc tr i j) (Ideal.cmp .olt (sim x i j) (lit 0x3F800000#32))
/-- A negative pair: the labels differ. -/
def neg (tc tr : Fin 8192 → BitVec 32) (i j : Fin 8192) : BitVec 1 := IntOp.xori (same tc tr i j) 1#1

/-- The least similarity among row `i`'s positives. -/
def minpos (x : Fin 8192 → Fin 1024 → EReal) (tc tr : Fin 8192 → BitVec 32) (i : Fin 8192) : EReal :=
  Finset.univ.inf fun j : Fin 8192 => Scalar.select (pos x tc tr i j) (sim x i j) (lit 0x4E6E6B28#32)
/-- The greatest similarity among row `i`'s negatives. -/
def maxneg (x : Fin 8192 → Fin 1024 → EReal) (tc tr : Fin 8192 → BitVec 32) (i : Fin 8192) : EReal :=
  Finset.univ.sup fun j : Fin 8192 => Scalar.select (neg tc tr i j) (sim x i j) (lit 0xCE6E6B28#32)

section Pass2
variable (x : Fin 8192 → Fin 1024 → EReal) (tc tr : Fin 8192 → BitVec 32) (mg mp mn : Fin 8192 → EReal)

/-- A kept negative of row `i`: against the row's least positive `mp i`. -/
def keepNeg (i j : Fin 8192) : BitVec 1 :=
  IntOp.andi (neg tc tr i j) (Ideal.cmp .ogt ((sim x i j + mg i) - mp i) (lit 0x00000000#32))
/-- A kept positive of row `i`: against the row's greatest negative `mn i`. -/
def keepPos (i j : Fin 8192) : BitVec 1 :=
  IntOp.andi (pos x tc tr i j) (Ideal.cmp .ogt ((mn i - sim x i j) + mg i) (lit 0x00000000#32))

/-- How many positives (negatives) of row `i` are kept. -/
def ap (i : Fin 8192) : ℕ := (Finset.univ.filter fun j : Fin 8192 => keepPos x tc tr mg mn i j = 1#1).card
def an (i : Fin 8192) : ℕ := (Finset.univ.filter fun j : Fin 8192 => keepNeg x tc tr mg mp i j = 1#1).card

/-- The row has a kept positive and a kept negative. -/
def valid (i : Fin 8192) : BitVec 1 :=
  if 0 < ap x tc tr mg mn i ∧ 0 < an x tc tr mg mp i then 1#1 else 0#1

/-- The two sums under the logarithms. -/
def posSum (i : Fin 8192) : EReal :=
  ∑ j : Fin 8192, Scalar.select (keepPos x tc tr mg mn i j) (Ideal.exp (lit 0xC0000000#32 * (sim x i j - lit 0x3F000000#32))) 0
def negSum (i : Fin 8192) : EReal :=
  ∑ j : Fin 8192, Scalar.select (keepNeg x tc tr mg mp i j) (Ideal.exp (lit 0x41200000#32 * (sim x i j - lit 0x3F000000#32))) 0

/-- The row's loss. -/
def lossRow (i : Fin 8192) : EReal :=
  Scalar.select (valid x tc tr mg mp mn i)
    (lit 0x3F800000#32 * Ideal.log1p (posSum x tc tr mg mn i) + lit 0x3E4CCCCD#32 * Ideal.log1p (negSum x tc tr mg mp i)) 0
/-- The row's validity flag and its two counts, zero on an invalid row, as 32-bit words. -/
def anchor (i : Fin 8192) : BitVec 32 := (valid x tc tr mg mp mn i).setWidth 32
def apOut (i : Fin 8192) : BitVec 32 := Scalar.select (valid x tc tr mg mp mn i) (BitVec.ofNat 32 (ap x tc tr mg mn i)) 0#32
def anOut (i : Fin 8192) : BitVec 32 := Scalar.select (valid x tc tr mg mp mn i) (BitVec.ofNat 32 (an x tc tr mg mp i)) 0#32

end Pass2

/-! The results as functions of the three inputs: the second pass at the first pass's row minima and maxima. (The fifth
    result, the counts' grand total, is one and the same integer reduction of the count arrays in both programs.) -/
section Whole
variable (x : Fin 8192 → Fin 1024 → EReal) (tg : Fin 8192 → BitVec 32) (mg : Fin 8192 → EReal)

def lossRowW (i : Fin 8192) : EReal := lossRow x tg tg mg (minpos x tg tg) (maxneg x tg tg) i
def anchorW (i : Fin 8192) : BitVec 32 := anchor x tg tg mg (minpos x tg tg) (maxneg x tg tg) i
def apW (i : Fin 8192) : BitVec 32 := apOut x tg tg mg (minpos x tg tg) (maxneg x tg tg) i
def anW (i : Fin 8192) : BitVec 32 := anOut x tg tg mg (minpos x tg tg) (maxneg x tg tg) i
/-- The mean row loss. -/
def loss : EReal := Ideal.div (∑ i : Fin 8192, lossRowW x tg mg i) (lit 0x46000000#32)

end Whole

end Cert.Spec

end
-- ==== Proof.KernelIdeal.Pass1ValueLattice.lean ====
/-
  Order facts on the extended reals that the first pass's value needs, with no program in sight.

  The float words: the reductions' neutral words are the two infinities, and the word for one is below the word
  for a thousand million.  The recursion along a row block's sixteen column blocks, as a statement about
  propositions: a quantity that at the first column block is "bounded by the start value and by the block's
  entries" and at each later one "bounded as before and by the block's entries" is, at every column block,
  "bounded by the start value and by the entries of every block so far".  Last, the two ends: a number whose lower
  bounds are exactly the lower bounds of a family is the family's infimum, and dually the supremum; and the
  columns below 8192 are the sixteen stretches of 512.
-/
import Idealize.ShloMosaic.PureOps.Ideal
import Mathlib.Order.CompleteLattice.Finset
import Mathlib.Data.Finset.Lattice.Fold

noncomputable section

namespace Cert.KernelIdeal.V1

open Idealize.ShloMosaic

/-! ## The float words -/

/-- The minimum reduction starts from plus infinity. -/
theorem word_posInf : Ideal.ofBits .f32 0x7F800000#32 = ⊤ := by
  simp [Ideal.ofBits, Ideal.ieee]

/-- The maximum reduction starts from minus infinity. -/
theorem word_negInf : Ideal.ofBits .f32 0xFF800000#32 = ⊥ := by
  simp [Ideal.ofBits, Ideal.ieee]

/-- The word for one is the real number one. -/
theorem word_one : Ideal.ofBits .f32 0x3F800000#32 = ((1 : ℝ) : EReal) := by
  simp [Ideal.ofBits, Ideal.ieee, -EReal.coe_mul]; norm_num

/-- The word for a thousand million is that real number. -/
theorem word_big : Ideal.ofBits .f32 0x4E6E6B28#32 = ((1000000000 : ℝ) : EReal) := by
  simp [Ideal.ofBits, Ideal.ieee, -EReal.coe_mul]; norm_num

/-- One is at most a thousand million. -/
theorem word_one_le_big : Ideal.ofBits .f32 0x3F800000#32 ≤ Ideal.ofBits .f32 0x4E6E6B28#32 := by
  rw [word_one, word_big]
  exact EReal.coe_le_coe_iff.mpr (by norm_num)

/-! ## The recursion along a row block's column blocks -/

/-- A point-indexed proposition `A` that at the points divisible by sixteen says "`B` and `G` here" and at the
    others "`A` at the point before and `G` here" says, at every point, "`B` and `G` at every point of the run of
    sixteen so far". -/
theorem run_iff {N : ℕ} (A : (n : ℕ) → n < N → Prop) (B : Prop) (G : ℕ → Prop)
    (hf : ∀ (n : ℕ) (h : n < N), n % 16 = 0 → (A n h ↔ B ∧ G n))
    (hl : ∀ (n : ℕ) (h : n < N) (hn : n % 16 ≠ 0), (A n h ↔ A (n - 1) (by omega) ∧ G n)) :
    ∀ (n : ℕ) (h : n < N), A n h ↔ B ∧ ∀ n', n / 16 * 16 ≤ n' → n' ≤ n → G n'
  | 0, h => by
    rw [hf 0 h rfl]
    exact and_congr_right fun _ => ⟨fun g n' _ h2 => by obtain rfl : n' = 0 := by omega
                                                        exact g, fun g => g 0 (by omega) (by omega)⟩
  | n + 1, h => by
    by_cases hn : (n + 1) % 16 = 0
    · rw [hf (n + 1) h hn]
      refine and_congr_right fun _ => ⟨fun g n' h1 h2 => ?_, fun g => g (n + 1) (by omega) (by omega)⟩
      obtain rfl : n' = n + 1 := by omega
      exact g
    · rw [hl (n + 1) h hn]
      have ih := run_iff A B G hf hl n (by omega)
      have e : (n + 1 - 1) = n := by omega
      have ih' : A (n + 1 - 1) (by omega) ↔ B ∧ ∀ n', n / 16 * 16 ≤ n' → n' ≤ n → G n' := by
        have : ∀ (k : ℕ) (hk : k < N), k = n → (A k hk ↔ B ∧ ∀ n', n / 16 * 16 ≤ n' → n' ≤ n → G n') := by
          intro k hk ek; subst ek; exact ih
        exact this _ _ e
      rw [ih']
      have hd : (n + 1) / 16 = n / 16 := by omega
      rw [hd]
      constructor
      · rintro ⟨⟨hB, g⟩, g1⟩
        refine ⟨hB, fun n' h1 h2 => ?_⟩
        by_cases e1 : n' = n + 1
        · subst e1; exact g1
        · exact g n' h1 (by omega)
      · rintro ⟨hB, g⟩
        exact ⟨⟨hB, fun n' h1 h2 => g n' h1 (by omega)⟩, g (n + 1) (by omega) (by omega)⟩

/-- At the last of a run of sixteen points "every point of the run so far" is every one of the sixteen. -/
theorem run_last_iff (G : ℕ → Prop) (I : ℕ) :
    (∀ n', (16 * I + 15) / 16 * 16 ≤ n' → n' ≤ 16 * I + 15 → G n') ↔ ∀ J : Fin 16, G (16 * I + J.val) := by
  have hd : (16 * I + 15) / 16 * 16 = 16 * I := by omega
  rw [hd]
  constructor
  · intro g J; exact g _ (by omega) (by have := J.isLt; omega)
  · intro g n' h1 h2
    have := g ⟨n' - 16 * I, by omega⟩
    rwa [show 16 * I + (n' - 16 * I) = n' by omega] at this

/-! ## The columns in stretches of 512 -/

/-- A statement about every column is one about every column of every stretch. -/
theorem forall_col_iff (P : Fin 8192 → Prop) :
    (∀ J : Fin 16, ∀ q : Fin 512, P ⟨512 * J.val + q.val, by have := J.isLt; have := q.isLt; omega⟩) ↔ ∀ j : Fin 8192, P j := by
  constructor
  · intro g j
    have := g ⟨j.val / 512, by have := j.isLt; omega⟩ ⟨j.val % 512, Nat.mod_lt _ (by norm_num)⟩
    have e : (⟨512 * (j.val / 512) + j.val % 512, by have := j.isLt; omega⟩ : Fin 8192) = j := Fin.ext (Nat.div_add_mod _ _)
    simpa only [e] using this
  · intro g J q; exact g _

/-! ## A number known by its bounds -/

/-- A number whose lower bounds are those of a family that never exceeds `b` is the family's infimum. -/
theorem eq_inf_of_le_iff {ι : Type*} [Fintype ι] (a b : EReal) (f : ι → EReal) (j₀ : ι) (hb : ∀ j, f j ≤ b)
    (h : ∀ z : EReal, z ≤ a ↔ z ≤ b ∧ ∀ j, z ≤ f j) : a = Finset.univ.inf f := by
  apply le_antisymm
  · exact Finset.le_inf fun j _ => ((h a).mp le_rfl).2 j
  · refine (h _).mpr ⟨(Finset.inf_le (Finset.mem_univ j₀)).trans (hb j₀), fun j => Finset.inf_le (Finset.mem_univ j)⟩

/-- A number whose upper bounds are those of a family one of whose members is `b` is the family's supremum. -/
theorem eq_sup_of_le_iff {ι : Type*} [Fintype ι] (a b : EReal) (f : ι → EReal) (j₀ : ι) (hb : f j₀ = b)
    (h : ∀ z : EReal, a ≤ z ↔ b ≤ z ∧ ∀ j, f j ≤ z) : a = Finset.univ.sup f := by
  apply le_antisymm
  · refine (h _).mpr ⟨hb ▸ Finset.le_sup (Finset.mem_univ j₀), fun j => Finset.le_sup (Finset.mem_univ j)⟩
  · exact Finset.sup_le fun j _ => ((h a).mp le_rfl).2 j

end Cert.KernelIdeal.V1

end
-- ==== Proof.KernelIdeal.Pass1ValuePoint.lean ====
/-
  What one grid point of the first pass does to its two accumulators, read at one row of the row block.

  With `x0`, `x1` the row block's and the column block's 512 embeddings and `x2`, `x3` their labels (a column and a
  row), the tile's entry at `(r, q)` is the inner product of row `r` of `x0` with row `q` of `x1` (`tile`: both
  operands contract their second axis, and the narrowing of the operands is the identity on the extended reals).
  The running minimum at row `r` becomes the smaller of what it was and the least, over the tile's 512 columns, of the
  entry where the labels agree and the entry is below one, and of a thousand million elsewhere (`posEntry`); the
  running maximum the greater of what it was and the greatest of the entry where the labels differ, and of minus a
  thousand million elsewhere (`negEntry`).  Both are stated by their bounds: a number is below the new minimum exactly
  when it is below the old one and below every masked entry of the row (`le_minStep_iff`), and dually
  (`maxStep_le_iff`).  The accumulators start at the two constants (`minInit_apply`, `maxInit_apply`).
-/
import proofs.«118951_j44573170598307_1_alg».proof.Proof.KernelIdeal.Steps
import proofs.«118951_j44573170598307_1_alg».proof.Proof.KernelIdeal.Pass1ValueLattice
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.V1

open Idealize.ShloMosaic Cert.KernelIdeal Cert.KernelIdeal.Gen Idealize.ShloMosaic.ValueIdx

/-! ## The tile -/

/-- The similarity of row `r` of the row block and row `q` of the column block. -/
def tile (x0 x1 : Vec Ideal S512x1024 .f32) (r q : Fin 512) : EReal := ∑ k : Fin 1024, x0 (ix2 r k) * x1 (ix2 q k)

/-- The left operand is read at the output's row … -/
theorem lhs_tile_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
/-- … and the contraction's position, -/
theorem lhs_tile_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
/-- the right operand at the output's column … -/
theorem rhs_tile_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
/-- … and the contraction's position. -/
theorem rhs_tile_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- The product of the two blocks, read at `(r, q)`, is the inner product of their rows `r` and `q`. -/
theorem sim_apply (x0 x1 : Vec Ideal S512x1024 .f32) (r q : Fin 512) : k0_pay4 x0 x1 (ix2 r q) = tile x0 x1 r q := by
  unfold k0_pay4 tile
  refine (Ideal.matmul_constant_zero_apply dot_S512x1024_S512x1024_S512x512_1_1_0_0_n_n none (truncf .bf16 x0 bitsLt_bf16_f32) (truncf .bf16 x1 bitsLt_bf16_f32) (ix2 r q)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r q) ((contrEquiv1 dot_S512x1024_S512x1024_S512x512_1_1_0_0_n_n 1024 rfl rfl).symm k) = ix2 r k := funext fun a => Fin.ext (by
    match a with
    | ⟨0, _⟩ => exact lhs_tile_0 _ _
    | ⟨1, _⟩ => exact (lhs_tile_1 _ _).trans hk)
  have er : dot_S512x1024_S512x1024_S512x512_1_1_0_0_n_n.rhsIdx (ix2 r q) ((contrEquiv1 dot_S512x1024_S512x1024_S512x512_1_1_0_0_n_n 1024 rfl rfl).symm k) = ix2 q k := funext fun a => Fin.ext (by
    match a with
    | ⟨0, _⟩ => exact rhs_tile_0 _ _
    | ⟨1, _⟩ => exact (rhs_tile_1 _ _).trans hk)
  rw [el, er]
  rfl

/-! ## The labels -/

/-- A column broadcast along the rows reads its row's entry. -/
theorem broadcastTo_a1_ab_apply {α : Type} (v : S512x1.Idx → α) (h : S512x1.Broadcasts S512x512) (r q : Fin 512) :
    broadcastTo S512x512 v h (ix2 r q) = v (ix2 r (0 : Fin 1)) :=
  broadcastTo_apply v h (ix2 r q) (ix2 r (0 : Fin 1)) fun ax => by
    match ax with
    | ⟨0, _⟩ => rfl
    | ⟨1, _⟩ => rfl

/-- Whether the labels of row `r` of the row block and row `q` of the column block agree. -/
theorem same_apply (x2 : Vec Ideal S512x1 .i32) (x3 : Vec Ideal S1x512 .i32) (r q : Fin 512) :
    k0_pay5 (F := Ideal) x2 x3 (ix2 r q) = IntOp.cmpi .eq (x2 (ix2 r (0 : Fin 1))) (x3 (ix2 (0 : Fin 1) q)) := by
  unfold k0_pay5
  have e2 : broadcastTo S512x512 (shapeCast S512x1 x2 shapeCasts_S512x1_S512x1) broadcasts_S512x1_S512x512 (ix2 r q) = x2 (ix2 r (0 : Fin 1)) := by
    rw [shapeCast_self]; exact broadcastTo_a1_ab_apply x2 _ r q
  have e3 : broadcastTo S512x512 (shapeCast S1x512 x3 shapeCasts_S1x512_S1x512) broadcasts_S1x512_S512x512 (ix2 r q) = x3 (ix2 (0 : Fin 1) q) := by
    rw [shapeCast_self]; exact broadcastTo_1b_ab_apply x3 _ r q
  exact congrArg₂ (IntOp.cmpi .eq) e2 e3

/-! ## The masked entries -/

/-- The entry the running minimum sees: the similarity of a positive pair, a thousand million otherwise. -/
def posEntry (x0 x1 : Vec Ideal S512x1024 .f32) (x2 : Vec Ideal S512x1 .i32) (x3 : Vec Ideal S1x512 .i32) (r q : Fin 512) : EReal :=
  Scalar.select (IntOp.andi (IntOp.cmpi .eq (x2 (ix2 r (0 : Fin 1))) (x3 (ix2 (0 : Fin 1) q))) (Ideal.cmp .olt (tile x0 x1 r q) (Ideal.ofBits .f32 0x3F800000#32)))
    (tile x0 x1 r q) (Ideal.ofBits .f32 0x4E6E6B28#32)

/-- The entry the running maximum sees: the similarity of a negative pair, minus a thousand million otherwise. -/
def negEntry (x0 x1 : Vec Ideal S512x1024 .f32) (x2 : Vec Ideal S512x1 .i32) (x3 : Vec Ideal S1x512 .i32) (r q : Fin 512) : EReal :=
  Scalar.select (IntOp.xori (IntOp.cmpi .eq (x2 (ix2 r (0 : Fin 1))) (x3 (ix2 (0 : Fin 1) q))) 1#1)
    (tile x0 x1 r q) (Ideal.ofBits .f32 0xCE6E6B28#32)

/-! ## A row's least and greatest entry -/

/-- Row `r` with column `q` put back is `(r, q)`. -/
theorem lift_row (r : Fin 512) (q : Fin (S512x512.size 1)) :
    reduces_S512x512_S512.lift (ix1 r) q = ix2 r (q : Fin 512) := by
  funext a
  match a with
  | ⟨0, _⟩ => exact Fin.ext rfl
  | ⟨1, _⟩ => exact Fin.ext rfl

/-- A number is below the least entry of row `r` when it is below every entry of the row. -/
theorem le_rowMin_iff (src : FVec Ideal S512x512 .f32) (hφ : FKind.Formats .f32)
    (hacc : (0x7F800000#32 : BitVec 32) = 0x7F800000#32) (r : Fin 512) (z : EReal) :
    z ≤ multiReduction .minimumf [1] S512 src 0x7F800000#32 reduces_S512x512_S512 hφ hacc (ix1 r) ↔ ∀ q : Fin 512, z ≤ src (ix2 r q) := by
  refine (iff_of_eq (congrArg (z ≤ ·) ((multiReduction_minimumf_eq_fold src 0x7F800000#32 reduces_S512x512_S512 hφ hacc (ix1 r)).trans
    (reduces_S512x512_S512.fold_filter_drop_single FloatOps.minimumf _ src (ix1 r))))).trans ?_
  show z ≤ Finset.fold min (Ideal.ofBits .f32 0x7F800000#32) (src ∘ reduces_S512x512_S512.lift (ix1 r)) Finset.univ ↔ _
  rw [Finset.le_fold_min, word_posInf]
  refine ⟨fun h q => ?_, fun h => ⟨le_top, fun q _ => ?_⟩⟩
  · exact (congrArg (fun i => z ≤ src i) (lift_row r q)).mp (h.2 q (Finset.mem_univ _))
  · exact (congrArg (fun i => z ≤ src i) (lift_row r q)).mpr (h q)

/-- The greatest entry of row `r` is below a number when every entry of the row is. -/
theorem rowMax_le_iff (src : FVec Ideal S512x512 .f32) (hφ : FKind.Formats .f32)
    (hacc : (0xFF800000#32 : BitVec 32) = 0xFF800000#32) (r : Fin 512) (z : EReal) :
    multiReduction .maximumf [1] S512 src 0xFF800000#32 reduces_S512x512_S512 hφ hacc (ix1 r) ≤ z ↔ ∀ q : Fin 512, src (ix2 r q) ≤ z := by
  refine (iff_of_eq (congrArg (· ≤ z) ((multiReduction_maximumf_eq_fold src 0xFF800000#32 reduces_S512x512_S512 hφ hacc (ix1 r)).trans
    (reduces_S512x512_S512.fold_filter_drop_single FloatOps.maximumf _ src (ix1 r))))).trans ?_
  show Finset.fold max (Ideal.ofBits .f32 0xFF800000#32) (src ∘ reduces_S512x512_S512.lift (ix1 r)) Finset.univ ≤ z ↔ _
  rw [Finset.fold_max_le, word_negInf]
  refine ⟨fun h q => ?_, fun h => ⟨bot_le, fun q _ => ?_⟩⟩
  · exact (congrArg (fun i => src i ≤ z) (lift_row r q)).mp (h.2 q (Finset.mem_univ _))
  · exact (congrArg (fun i => src i ≤ z) (lift_row r q)).mpr (h q)

/-- A vector of 512 numbers cast to a column reads its row's number. -/
theorem shapeCast_a_a1_apply {α : Type} (x : S512.Idx → α) (h : S512.ShapeCasts S512x1) (r : Fin 512) (u : Fin 1) :
    shapeCast S512x1 x h (ix2 r u) = x (ix1 r) :=
  shapeCast_apply x h _ _ (by
    have hu : u.val = 0 := by omega
    rw [Shape.rowMajor_val_two, Shape.rowMajor_val_one]
    show r.val = r.val * 1 + u.val
    rw [hu]; omega)

/-! ## One point's step -/

/-- The running minimum after a point, by its lower bounds. -/
theorem le_minStep_iff (x0 x1 : Vec Ideal S512x1024 .f32) (x2 : Vec Ideal S512x1 .i32) (x3 : Vec Ideal S1x512 .i32)
    (acc : Vec Ideal S512x1 .f32) (r : Fin 512) (z : EReal) :
    z ≤ Steps.minStep x0 x1 x2 x3 acc (ix2 r (0 : Fin 1)) ↔ z ≤ acc (ix2 r (0 : Fin 1)) ∧ ∀ q : Fin 512, z ≤ posEntry x0 x1 x2 x3 r q := by
  unfold Steps.minStep k0_pay7
  dsimp only
  rw [shapeCast_self, minimumf_apply, shapeCast_a_a1_apply, le_min_iff]
  refine and_congr_right fun _ => (le_rowMin_iff _ _ _ r z).trans (forall_congr' fun q => ?_)
  show z ≤ Scalar.select (IntOp.andi (k0_pay5 (F := Ideal) x2 x3 (ix2 r q)) (Ideal.cmp .olt (k0_pay4 x0 x1 (ix2 r q)) (Ideal.ofBits .f32 0x3F800000#32)))
    (k0_pay4 x0 x1 (ix2 r q)) (Ideal.ofBits .f32 0x4E6E6B28#32) ↔ _
  rw [same_apply, sim_apply]
  rfl

/-- The running maximum after a point, by its upper bounds. -/
theorem maxStep_le_iff (x0 x1 : Vec Ideal S512x1024 .f32) (x2 : Vec Ideal S512x1 .i32) (x3 : Vec Ideal S1x512 .i32)
    (acc : Vec Ideal S512x1 .f32) (r : Fin 512) (z : EReal) :
    Steps.maxStep x0 x1 x2 x3 acc (ix2 r (0 : Fin 1)) ≤ z ↔ acc (ix2 r (0 : Fin 1)) ≤ z ∧ ∀ q : Fin 512, negEntry x0 x1 x2 x3 r q ≤ z := by
  unfold Steps.maxStep k0_pay1 k0_pay6
  dsimp only
  rw [shapeCast_self, maximumf_apply, shapeCast_a_a1_apply, max_le_iff]
  refine and_congr_right fun _ => (rowMax_le_iff _ _ _ r z).trans (forall_congr' fun q => ?_)
  show Scalar.select (IntOp.xori (k0_pay5 (F := Ideal) x2 x3 (ix2 r q)) 1#1) (k0_pay4 x0 x1 (ix2 r q)) (Ideal.ofBits .f32 0xCE6E6B28#32) ≤ z ↔ _
  rw [same_apply, sim_apply]
  rfl

/-- The running minimum starts at a thousand million … -/
theorem minInit_apply (r : Fin 512) : Steps.minInit (F := Ideal) (ix2 r (0 : Fin 1)) = Ideal.ofBits .f32 0x4E6E6B28#32 := by
  unfold Steps.minInit k0_pay2
  rw [shapeCast_self]
  rfl

/-- … and the running maximum at minus a thousand million. -/
theorem maxInit_apply (r : Fin 512) : Steps.maxInit (F := Ideal) (ix2 r (0 : Fin 1)) = Ideal.ofBits .f32 0xCE6E6B28#32 := by
  unfold Steps.maxInit k0_pay3
  rw [shapeCast_self]
  rfl

end Cert.KernelIdeal.V1

end
-- ==== Proof.KernelIdeal.Pass1ValueBlocks.lean ====
/-
  The first pass's arrays and its blocks.

  The embeddings `X`, the labels read down the rows `TC` and along the columns `TR`, out of the arrays the launch
  finds.  Grid point `t` is row block `t / 16` and column block `t % 16`: the index maps decided once over the 256
  points (`index_facts`), and then each input window's block read at an element — rows `512 · (t / 16) + r` of the
  embeddings and of the labels' column for the row block, rows `512 · (t % 16) + q` of the embeddings and those entries
  of the labels' row for the column block.
-/
import proofs.«118951_j44573170598307_1_alg».proof.Proof.Gen.KernelIdeal.Launch
import proofs.«118951_j44573170598307_1_alg».proof.Proof.Gen.KernelIdeal.Points
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.V1

open Cert.KernelIdeal Cert.KernelIdeal.Gen Idealize.ShloMosaic.ValueIdx

variable (V : (c : Dev nD) → (b : Ref sig .tc) → Buf (Elt Ideal) ((c : Thread nD τ).loc b))

/-- The embeddings: row `a`, coordinate `k`. -/
def X (c : Dev nD) : Fin 8192 → Fin 1024 → EReal := fun a k => (V c main_arg0 : S8192x1024.Idx → EReal) (ValueIdx.ix2 a k)
/-- The labels down the rows. -/
def TC (c : Dev nD) : Fin 8192 → BitVec 32 := fun a => (V c main_v0 : S8192x1.Idx → BitVec 32) (ValueIdx.ix2 a 0)
/-- The labels along the columns. -/
def TR (c : Dev nD) : Fin 8192 → BitVec 32 := fun b => (V c main_v1 : S1x8192.Idx → BitVec 32) (ValueIdx.ix2 0 b)
/-- Window `w`'s block of its array at point `t`. -/
abbrev blk (c : Dev nD) (w : Fin cfg0.W) (t : Fin cfg0.N) := ((cfg0.win w).blk t).view.read (Elt Ideal) (V c (Pipeline.arrRef spec0 w))

/-- The grid has 256 points. -/
theorem N_eq : cfg0.N = 256 := N_0

/-- Where each window's block sits at point `t`: the row block is `t / 16`, the column block `t % 16`. -/
theorem index_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0 :=
  (by decide +kernel : ∀ t : Fin grid0.N, _)

/-- A row of the row block is a row of the array. -/
theorem rowI_lt (t : Fin cfg0.N) (r : Fin 512) : 512 * (t.val / 16) + r.val < 8192 := by
  have ht : t.val < 256 := lt_of_lt_of_eq t.isLt N_eq
  have := r.isLt; omega
/-- A row of the column block is a row of the array. -/
theorem rowJ_lt (t : Fin cfg0.N) (q : Fin 512) : 512 * (t.val % 16) + q.val < 8192 := by
  have := q.isLt; omega

/-- The row block's embeddings. -/
theorem blk0_apply (c : Dev nD) (t : Fin cfg0.N) (r : Fin 512) (k : Fin 1024) :
    (blk V c 0 t : Vec Ideal S512x1024 .f32) (ix2 r k) = X V c ⟨512 * (t.val / 16) + r.val, rowI_lt t r⟩ k := by
  have hi := index_facts t
  unfold blk X
  rw [View.read_apply]
  show V c main_arg0 _ = V c main_arg0 _
  congr 1
  funext a
  apply Fin.ext
  match a with
  | ⟨0, _⟩ => show win0_0.index t 0 * 512 + 1 * r.val = 512 * (t.val / 16) + r.val; rw [hi.1]; omega
  | ⟨1, _⟩ => show win0_0.index t 1 * 1024 + 1 * k.val = k.val; rw [hi.2.1]; omega

/-- The column block's embeddings. -/
theorem blk1_apply (c : Dev nD) (t : Fin cfg0.N) (q : Fin 512) (k : Fin 1024) :
    (blk V c 1 t : Vec Ideal S512x1024 .f32) (ix2 q k) = X V c ⟨512 * (t.val % 16) + q.val, rowJ_lt t q⟩ k := by
  have hi := index_facts t
  unfold blk X
  rw [View.read_apply]
  show V c main_arg0 _ = V c main_arg0 _
  congr 1
  funext a
  apply Fin.ext
  match a with
  | ⟨0, _⟩ => show win0_1.index t 0 * 512 + 1 * q.val = 512 * (t.val % 16) + q.val; rw [hi.2.2.1]; omega
  | ⟨1, _⟩ => show win0_1.index t 1 * 1024 + 1 * k.val = k.val; rw [hi.2.2.2.1]; omega

/-- The row block's labels. -/
theorem blk2_apply (c : Dev nD) (t : Fin cfg0.N) (r : Fin 512) :
    (blk V c 2 t : Vec Ideal S512x1 .i32) (ix2 r (0 : Fin 1)) = TC V c ⟨512 * (t.val / 16) + r.val, rowI_lt t r⟩ := by
  have hi := index_facts t
  unfold blk TC
  rw [View.read_apply]
  show V c main_v0 _ = V c main_v0 _
  congr 1
  funext a
  apply Fin.ext
  match a with
  | ⟨0, _⟩ => show win0_2.index t 0 * 512 + 1 * r.val = 512 * (t.val / 16) + r.val; rw [hi.2.2.2.2.1]; omega
  | ⟨1, _⟩ => show win0_2.index t 1 * 1 + 1 * 0 = 0; rw [hi.2.2.2.2.2.1]

/-- The column block's labels. -/
theorem blk3_apply (c : Dev nD) (t : Fin cfg0.N) (q : Fin 512) :
    (blk V c 3 t : Vec Ideal S1x512 .i32) (ix2 (0 : Fin 1) q) = TR V c ⟨512 * (t.val % 16) + q.val, rowJ_lt t q⟩ := by
  have hi := index_facts t
  unfold blk TR
  rw [View.read_apply]
  show V c main_v1 _ = V c main_v1 _
  congr 1
  funext a
  apply Fin.ext
  match a with
  | ⟨0, _⟩ => show win0_3.index t 0 * 1 + 1 * 0 = 0; rw [hi.2.2.2.2.2.2.1]
  | ⟨1, _⟩ => show win0_3.index t 1 * 512 + 1 * q.val = 512 * (t.val % 16) + q.val; rw [hi.2.2.2.2.2.2.2.1]; omega

end Cert.KernelIdeal.V1

end
-- ==== Proof.KernelIdeal.Pass1ValueRun.lean ====
/-
  The first pass's two accumulators after the last column block of a row block.

  For row `i` and column `j` of the 8192 × 8192 similarities, `mpos i j` is the entry the row minimum runs over (the
  similarity of a positive pair, a thousand million otherwise) and `mneg i j` the one the row maximum runs over (the
  similarity of a negative pair, minus a thousand million otherwise); the specification's `minpos i` and `maxneg i`
  are their infimum and supremum over `j`.  At grid point `t` the masked entries of the tile are those of rows
  `512 · (t / 16) + r` and columns `512 · (t % 16) + q` (`posEntry_blk`, `negEntry_blk`).  So, by the recursion along
  the sixteen column blocks, a number is below the running minimum after the last of them exactly when it is below
  a thousand million and below `mpos i j` for EVERY column `j` (`le_s0_last_iff`), and dually for the running maximum
  (`s1_last_le_iff`).  A masked entry never exceeds a thousand million (a positive pair's similarity is below one),
  and the pair of a row with itself is no negative pair, so the start values drop out: the accumulators end at
  `minpos i` and `maxneg i` (`s0_last`, `s1_last`).
-/
import proofs.«118951_j44573170598307_1_alg».proof.Proof.Spec
import proofs.«118951_j44573170598307_1_alg».proof.Proof.KernelIdeal.Pass1ValueLattice
import proofs.«118951_j44573170598307_1_alg».proof.Proof.KernelIdeal.Pass1ValuePoint
import proofs.«118951_j44573170598307_1_alg».proof.Proof.KernelIdeal.Pass1ValueBlocks

noncomputable section

open Idealize.ShloMosaic Idealize.ShloMosaic.TcCoe Idealize.SL.Sem

namespace Cert.KernelIdeal.V1

open Cert.KernelIdeal Cert.KernelIdeal.Gen Idealize.ShloMosaic.ValueIdx

/-! ## The masked similarities of the whole matrix -/

section Entries
variable (x : Fin 8192 → Fin 1024 → EReal) (tc tr : Fin 8192 → BitVec 32)

/-- What the row minimum runs over at the pair `(i, j)`. -/
def mpos (i j : Fin 8192) : EReal :=
  Scalar.select (Cert.Spec.pos x tc tr i j) (Cert.Spec.sim x i j) (Cert.Spec.lit 0x4E6E6B28#32)
/-- What the row maximum runs over at the pair `(i, j)`. -/
def mneg (i j : Fin 8192) : EReal :=
  Scalar.select (Cert.Spec.neg tc tr i j) (Cert.Spec.sim x i j) (Cert.Spec.lit 0xCE6E6B28#32)

theorem minpos_eq (i : Fin 8192) : Cert.Spec.minpos x tc tr i = Finset.univ.inf (mpos x tc tr i) := rfl
theorem maxneg_eq (i : Fin 8192) : Cert.Spec.maxneg x tc tr i = Finset.univ.sup (mneg x tc tr i) := rfl

/-- A comparison that answers one is the strict order. -/
theorem lt_of_cmp_olt {a b : EReal} (h : Ideal.cmp .olt a b = 1#1) : a < b := by
  by_contra hn
  have h0 : Ideal.cmp .olt a b = 0#1 := by simp [Ideal.cmp, hn]
  rw [h0] at h
  exact absurd h (by decide)

/-- The second of two bits whose conjunction is one is one. -/
theorem bit_of_andi_right : ∀ a b : BitVec 1, IntOp.andi a b = 1#1 → b = 1#1 := by decide

/-- A masked entry of the minimum never exceeds a thousand million: a positive pair's similarity is below one. -/
theorem mpos_le_big (i j : Fin 8192) : mpos x tc tr i j ≤ Cert.Spec.lit 0x4E6E6B28#32 := by
  unfold mpos Scalar.select
  split
  · rename_i h
    exact (lt_of_cmp_olt (bit_of_andi_right _ _ h)).le.trans word_one_le_big
  · exact le_rfl

/-- A row paired with itself is no negative pair. -/
theorem mneg_diag (i : Fin 8192) (h : tc i = tr i) : mneg x tc tr i i = Cert.Spec.lit 0xCE6E6B28#32 := by
  unfold mneg Cert.Spec.neg Cert.Spec.same
  rw [h]
  have e1 : IntOp.cmpi .eq (tr i) (tr i) = 1#1 := by simp [IntOp.cmpi]
  rw [e1]
  exact select_zero _ _

end Entries

/-! ## The tile's masked entries are the matrix's -/

variable (V : (c : Dev nD) → (b : Ref sig .tc) → Buf (Elt Ideal) ((c : Thread nD τ).loc b)) (c : Dev nD)

/-- The tile's similarity at point `t` is the matrix's at the point's rows and columns. -/
theorem tile_blk (t : Fin cfg0.N) (r q : Fin 512) :
    tile (blk V c 0 t) (blk V c 1 t) r q
      = Cert.Spec.sim (X V c) ⟨512 * (t.val / 16) + r.val, rowI_lt t r⟩ ⟨512 * (t.val % 16) + q.val, rowJ_lt t q⟩ :=
  Finset.sum_congr rfl fun k _ => congrArg₂ (· * ·) (blk0_apply V c t r k) (blk1_apply V c t q k)

theorem posEntry_blk (t : Fin cfg0.N) (r q : Fin 512) (i j : Fin 8192)
    (hi : i.val = 512 * (t.val / 16) + r.val) (hj : j.val = 512 * (t.val % 16) + q.val) :
    posEntry (blk V c 0 t) (blk V c 1 t) (blk V c 2 t) (blk V c 3 t) r q = mpos (X V c) (TC V c) (TR V c) i j := by
  obtain rfl : i = ⟨_, rowI_lt t r⟩ := Fin.ext hi
  obtain rfl : j = ⟨_, rowJ_lt t q⟩ := Fin.ext hj
  unfold posEntry mpos Cert.Spec.pos Cert.Spec.same
  rw [tile_blk V c t r q, blk2_apply V c t r, blk3_apply V c t q]

theorem negEntry_blk (t : Fin cfg0.N) (r q : Fin 512) (i j : Fin 8192)
    (hi : i.val = 512 * (t.val / 16) + r.val) (hj : j.val = 512 * (t.val % 16) + q.val) :
    negEntry (blk V c 0 t) (blk V c 1 t) (blk V c 2 t) (blk V c 3 t) r q = mneg (X V c) (TC V c) (TR V c) i j := by
  obtain rfl : i = ⟨_, rowI_lt t r⟩ := Fin.ext hi
  obtain rfl : j = ⟨_, rowJ_lt t q⟩ := Fin.ext hj
  unfold negEntry mneg Cert.Spec.neg Cert.Spec.same
  rw [tile_blk V c t r q, blk2_apply V c t r, blk3_apply V c t q]

/-! ## The recursion along a row block -/

/-- The last point of row block `I` is a point of the grid. -/
theorem last_lt (I : Fin 16) : 16 * I.val + 15 < cfg0.N := by rw [N_eq]; have := I.isLt; omega
/-- Row `r` of row block `I` is a row of the matrix. -/
theorem row_lt (I : Fin 16) (r : Fin 512) : 512 * I.val + r.val < 8192 := by have := I.isLt; have := r.isLt; omega

/-- "Below every masked entry of row `r` of the tile at point `n`". -/
def belowTile (r : Fin 512) (z : EReal) (n : ℕ) : Prop :=
  ∀ (h : n < cfg0.N) (q : Fin 512), z ≤ posEntry (blk V c 0 ⟨n, h⟩) (blk V c 1 ⟨n, h⟩) (blk V c 2 ⟨n, h⟩) (blk V c 3 ⟨n, h⟩) r q
/-- "Above every masked entry of row `r` of the tile at point `n`". -/
def aboveTile (r : Fin 512) (z : EReal) (n : ℕ) : Prop :=
  ∀ (h : n < cfg0.N) (q : Fin 512), negEntry (blk V c 0 ⟨n, h⟩) (blk V c 1 ⟨n, h⟩) (blk V c 2 ⟨n, h⟩) (blk V c 3 ⟨n, h⟩) r q ≤ z

/-- Over a whole row block the tiles' rows `r` are row `512 · I + r` of the matrix. -/
theorem belowTile_all_iff (I : Fin 16) (r : Fin 512) (z : EReal) :
    (∀ J : Fin 16, belowTile V c r z (16 * I.val + J.val)) ↔ ∀ j : Fin 8192, z ≤ mpos (X V c) (TC V c) (TR V c) ⟨512 * I.val + r.val, row_lt I r⟩ j := by
  refine Iff.trans ?_ (forall_col_iff fun j => z ≤ mpos (X V c) (TC V c) (TR V c) ⟨512 * I.val + r.val, row_lt I r⟩ j)
  refine forall_congr' fun J => ?_
  have hJ : 16 * I.val + J.val < cfg0.N := by rw [N_eq]; have := I.isLt; have := J.isLt; omega
  have e : ∀ q : Fin 512, posEntry (blk V c 0 ⟨16 * I.val + J.val, hJ⟩) (blk V c 1 ⟨16 * I.val + J.val, hJ⟩) (blk V c 2 ⟨16 * I.val + J.val, hJ⟩) (blk V c 3 ⟨16 * I.val + J.val, hJ⟩) r q
      = mpos (X V c) (TC V c) (TR V c) ⟨512 * I.val + r.val, row_lt I r⟩ ⟨512 * J.val + q.val, by have := J.isLt; have := q.isLt; omega⟩ :=
    fun q => posEntry_blk V c ⟨16 * I.val + J.val, hJ⟩ r q _ _ (by have := J.isLt; show 512 * I.val + r.val = 512 * ((16 * I.val + J.val) / 16) + r.val; omega)
      (by have := J.isLt; show 512 * J.val + q.val = 512 * ((16 * I.val + J.val) % 16) + q.val; omega)
  exact ⟨fun g q => e q ▸ g hJ q, fun g _ q => e q ▸ g q⟩

theorem aboveTile_all_iff (I : Fin 16) (r : Fin 512) (z : EReal) :
    (∀ J : Fin 16, aboveTile V c r z (16 * I.val + J.val)) ↔ ∀ j : Fin 8192, mneg (X V c) (TC V c) (TR V c) ⟨512 * I.val + r.val, row_lt I r⟩ j ≤ z := by
  refine Iff.trans ?_ (forall_col_iff fun j => mneg (X V c) (TC V c) (TR V c) ⟨512 * I.val + r.val, row_lt I r⟩ j ≤ z)
  refine forall_congr' fun J => ?_
  have hJ : 16 * I.val + J.val < cfg0.N := by rw [N_eq]; have := I.isLt; have := J.isLt; omega
  have e : ∀ q : Fin 512, negEntry (blk V c 0 ⟨16 * I.val + J.val, hJ⟩) (blk V c 1 ⟨16 * I.val + J.val, hJ⟩) (blk V c 2 ⟨16 * I.val + J.val, hJ⟩) (blk V c 3 ⟨16 * I.val + J.val, hJ⟩) r q
      = mneg (X V c) (TC V c) (TR V c) ⟨512 * I.val + r.val, row_lt I r⟩ ⟨512 * J.val + q.val, by have := J.isLt; have := q.isLt; omega⟩ :=
    fun q => negEntry_blk V c ⟨16 * I.val + J.val, hJ⟩ r q _ _ (by have := J.isLt; show 512 * I.val + r.val = 512 * ((16 * I.val + J.val) / 16) + r.val; omega)
      (by have := J.isLt; show 512 * J.val + q.val = 512 * ((16 * I.val + J.val) % 16) + q.val; omega)
  exact ⟨fun g q => e q ▸ g hJ q, fun g _ q => e q ▸ g q⟩

section Run
variable (s0 s1 : (n : ℕ) → n < cfg0.N → Vec Ideal S512x1 .f32)

/-- The running minimum after a row block's last column block, by its lower bounds. -/
theorem le_s0_last_iff
    (h0f : ∀ t : Fin cfg0.N, t.val % 16 = 0 → s0 t.val t.isLt = Steps.minStep (blk V c 0 t) (blk V c 1 t) (blk V c 2 t) (blk V c 3 t) Steps.minInit)
    (h0l : ∀ (t : Fin cfg0.N) (h : t.val % 16 ≠ 0), s0 t.val t.isLt = Steps.minStep (blk V c 0 t) (blk V c 1 t) (blk V c 2 t) (blk V c 3 t) (s0 (t.val - 1) (by omega)))
    (I : Fin 16) (r : Fin 512) (z : EReal) :
    z ≤ s0 (16 * I.val + 15) (last_lt I) (ix2 r (0 : Fin 1))
      ↔ z ≤ Cert.Spec.lit 0x4E6E6B28#32 ∧ ∀ j : Fin 8192, z ≤ mpos (X V c) (TC V c) (TR V c) ⟨512 * I.val + r.val, row_lt I r⟩ j := by
  have key := run_iff (N := cfg0.N) (fun n h => z ≤ s0 n h (ix2 r (0 : Fin 1))) (z ≤ Cert.Spec.lit 0x4E6E6B28#32) (belowTile V c r z)
    (fun n h hn => by
      have e : s0 n h = Steps.minStep (blk V c 0 ⟨n, h⟩) (blk V c 1 ⟨n, h⟩) (blk V c 2 ⟨n, h⟩) (blk V c 3 ⟨n, h⟩) Steps.minInit := h0f ⟨n, h⟩ hn
      refine (iff_of_eq (congrArg (z ≤ ·) (congrFun e (ix2 r (0 : Fin 1))))).trans
        ((le_minStep_iff (blk V c 0 ⟨n, h⟩) (blk V c 1 ⟨n, h⟩) (blk V c 2 ⟨n, h⟩) (blk V c 3 ⟨n, h⟩) Steps.minInit r z).trans ?_)
      rw [minInit_apply]
      exact and_congr_right fun _ => ⟨fun g _ q => g q, fun g q => g h q⟩)
    (fun n h hn => by
      have e : s0 n h = Steps.minStep (blk V c 0 ⟨n, h⟩) (blk V c 1 ⟨n, h⟩) (blk V c 2 ⟨n, h⟩) (blk V c 3 ⟨n, h⟩) (s0 (n - 1) (by omega)) := h0l ⟨n, h⟩ hn
      refine (iff_of_eq (congrArg (z ≤ ·) (congrFun e (ix2 r (0 : Fin 1))))).trans
        ((le_minStep_iff (blk V c 0 ⟨n, h⟩) (blk V c 1 ⟨n, h⟩) (blk V c 2 ⟨n, h⟩) (blk V c 3 ⟨n, h⟩) (s0 (n - 1) (by omega)) r z).trans ?_)
      exact and_congr_right fun _ => ⟨fun g _ q => g q, fun g q => g h q⟩)
    (16 * I.val + 15) (last_lt I)
  exact key.trans (and_congr_right fun _ => (run_last_iff (belowTile V c r z) I.val).trans (belowTile_all_iff V c I r z))

/-- The running maximum after a row block's last column block, by its upper bounds. -/
theorem s1_last_le_iff
    (h1f : ∀ t : Fin cfg0.N, t.val % 16 = 0 → s1 t.val t.isLt = Steps.maxStep (blk V c 0 t) (blk V c 1 t) (blk V c 2 t) (blk V c 3 t) Steps.maxInit)
    (h1l : ∀ (t : Fin cfg0.N) (h : t.val % 16 ≠ 0), s1 t.val t.isLt = Steps.maxStep (blk V c 0 t) (blk V c 1 t) (blk V c 2 t) (blk V c 3 t) (s1 (t.val - 1) (by omega)))
    (I : Fin 16) (r : Fin 512) (z : EReal) :
    s1 (16 * I.val + 15) (last_lt I) (ix2 r (0 : Fin 1)) ≤ z
      ↔ Cert.Spec.lit 0xCE6E6B28#32 ≤ z ∧ ∀ j : Fin 8192, mneg (X V c) (TC V c) (TR V c) ⟨512 * I.val + r.val, row_lt I r⟩ j ≤ z := by
  have key := run_iff (N := cfg0.N) (fun n h => s1 n h (ix2 r (0 : Fin 1)) ≤ z) (Cert.Spec.lit 0xCE6E6B28#32 ≤ z) (aboveTile V c r z)
    (fun n h hn => by
      have e : s1 n h = Steps.maxStep (blk V c 0 ⟨n, h⟩) (blk V c 1 ⟨n, h⟩) (blk V c 2 ⟨n, h⟩) (blk V c 3 ⟨n, h⟩) Steps.maxInit := h1f ⟨n, h⟩ hn
      refine (iff_of_eq (congrArg (· ≤ z) (congrFun e (ix2 r (0 : Fin 1))))).trans
        ((maxStep_le_iff (blk V c 0 ⟨n, h⟩) (blk V c 1 ⟨n, h⟩) (blk V c 2 ⟨n, h⟩) (blk V c 3 ⟨n, h⟩) Steps.maxInit r z).trans ?_)
      rw [maxInit_apply]
      exact and_congr_right fun _ => ⟨fun g _ q => g q, fun g q => g h q⟩)
    (fun n h hn => by
      have e : s1 n h = Steps.maxStep (blk V c 0 ⟨n, h⟩) (blk V c 1 ⟨n, h⟩) (blk V c 2 ⟨n, h⟩) (blk V c 3 ⟨n, h⟩) (s1 (n - 1) (by omega)) := h1l ⟨n, h⟩ hn
      refine (iff_of_eq (congrArg (· ≤ z) (congrFun e (ix2 r (0 : Fin 1))))).trans
        ((maxStep_le_iff (blk V c 0 ⟨n, h⟩) (blk V c 1 ⟨n, h⟩) (blk V c 2 ⟨n, h⟩) (blk V c 3 ⟨n, h⟩) (s1 (n - 1) (by omega)) r z).trans ?_)
      exact and_congr_right fun _ => ⟨fun g _ q => g q, fun g q => g h q⟩)
    (16 * I.val + 15) (last_lt I)
  exact key.trans (and_congr_right fun _ => (run_last_iff (aboveTile V c r z) I.val).trans (aboveTile_all_iff V c I r z))

/-- After a row block's last column block the running minimum is the specification's row minimum. -/
theorem s0_last
    (h0f : ∀ t : Fin cfg0.N, t.val % 16 = 0 → s0 t.val t.isLt = Steps.minStep (blk V c 0 t) (blk V c 1 t) (blk V c 2 t) (blk V c 3 t) Steps.minInit)
    (h0l : ∀ (t : Fin cfg0.N) (h : t.val % 16 ≠ 0), s0 t.val t.isLt = Steps.minStep (blk V c 0 t) (blk V c 1 t) (blk V c 2 t) (blk V c 3 t) (s0 (t.val - 1) (by omega)))
    (I : Fin 16) (r : Fin 512) :
    s0 (16 * I.val + 15) (last_lt I) (ix2 r (0 : Fin 1)) = Cert.Spec.minpos (X V c) (TC V c) (TR V c) ⟨512 * I.val + r.val, row_lt I r⟩ :=
  eq_inf_of_le_iff _ (Cert.Spec.lit 0x4E6E6B28#32) (mpos (X V c) (TC V c) (TR V c) ⟨512 * I.val + r.val, row_lt I r⟩) ⟨512 * I.val + r.val, row_lt I r⟩
    (mpos_le_big (X V c) (TC V c) (TR V c) _) (le_s0_last_iff V c s0 h0f h0l I r)

/-- After a row block's last column block the running maximum is the specification's row maximum. -/
theorem s1_last (hdiag : ∀ i, TC V c i = TR V c i)
    (h1f : ∀ t : Fin cfg0.N, t.val % 16 = 0 → s1 t.val t.isLt = Steps.maxStep (blk V c 0 t) (blk V c 1 t) (blk V c 2 t) (blk V c 3 t) Steps.maxInit)
    (h1l : ∀ (t : Fin cfg0.N) (h : t.val % 16 ≠ 0), s1 t.val t.isLt = Steps.maxStep (blk V c 0 t) (blk V c 1 t) (blk V c 2 t) (blk V c 3 t) (s1 (t.val - 1) (by omega)))
    (I : Fin 16) (r : Fin 512) :
    s1 (16 * I.val + 15) (last_lt I) (ix2 r (0 : Fin 1)) = Cert.Spec.maxneg (X V c) (TC V c) (TR V c) ⟨512 * I.val + r.val, row_lt I r⟩ :=
  eq_sup_of_le_iff _ (Cert.Spec.lit 0xCE6E6B28#32) (mneg (X V c) (TC V c) (TR V c) ⟨512 * I.val + r.val, row_lt I r⟩) ⟨512 * I.val + r.val, row_lt I r⟩
    (mneg_diag (X V c) (TC V c) (TR V c) _ (hdiag _)) (s1_last_le_iff V c s1 h1f h1l I r)

end Run

end Cert.KernelIdeal.V1

end
-- ==== Proof.KernelIdeal.Pass1Value.lean ====
/-
  The value of the first pallas_call on the extended reals: its two output arrays are the specification's row minimum
  and row maximum.

  An output window's block is written back only after the last column block of a row block (points `16 · I + 15`), at
  block index `(I, 0)`: rows `512 · I …` of the `[8192, 1]` array.  What is written back there is the finished
  accumulator, which is the specification's value at those rows (the recursion along the row block); the sixteen blocks
  tile the array, so the array ends holding the specification's column.
-/
import proofs.«118951_j44573170598307_1_alg».proof.Proof.Spec
import proofs.«118951_j44573170598307_1_alg».proof.Proof.KernelIdeal.Pass1ValueRun
import Idealize.ShloMosaic.Lib.Pipeline.Value

noncomputable section

open Idealize.ShloMosaic Idealize.ShloMosaic.TcCoe Idealize.SL.Sem
open Idealize.ShloMosaic.Pipeline (Dat)

namespace Cert.KernelIdeal.V1

open Cert.KernelIdeal Cert.KernelIdeal.Gen Idealize.ShloMosaic.ValueIdx

variable (V : (c : Dev nD) → (b : Ref sig .tc) → Buf (Elt Ideal) ((c : Thread nD τ).loc b))

/-- The specification's row minima as a column. -/
def minposCol (c : Dev nD) : S8192x1.Idx → EReal :=
  fun y => Cert.Spec.minpos (X V c) (TC V c) (TR V c) ⟨(y 0).val, idx2_lt0 y⟩
/-- The specification's row maxima as a column. -/
def maxnegCol (c : Dev nD) : S8192x1.Idx → EReal :=
  fun y => Cert.Spec.maxneg (X V c) (TC V c) (TR V c) ⟨(y 0).val, idx2_lt0 y⟩

/-- A point is in row block `t / 16`, one of sixteen. -/
theorem rowBlock_lt (t : Fin cfg0.N) : t.val / 16 < 16 := by
  have := lt_of_lt_of_eq t.isLt N_eq; omega

section Flushed
variable (c : Dev nD) (dat : Dat τ (Elt Ideal) Unit ℕ (Pipeline.UD sig nD τ) ℕ cfg0 c)
  (s0 s1 : (n : ℕ) → n < cfg0.N → Vec Ideal S512x1 .f32)

/-- What the first output's write-back writes is its block of the column of row minima. -/
theorem flushed4_eq
    (h0f : ∀ t : Fin cfg0.N, t.val % 16 = 0 → s0 t.val t.isLt = Steps.minStep (blk V c 0 t) (blk V c 1 t) (blk V c 2 t) (blk V c 3 t) Steps.minInit)
    (h0l : ∀ (t : Fin cfg0.N) (h : t.val % 16 ≠ 0), s0 t.val t.isLt = Steps.minStep (blk V c 0 t) (blk V c 1 t) (blk V c 2 t) (blk V c 3 t) (s0 (t.val - 1) (by omega)))
    (ho4 : ∀ t : Fin cfg0.N, t.val % 16 = 15 → dat.after 4 t = s0 t.val t.isLt)
    (t : Fin cfg0.N) (hf : (cfg0.win 4).flush t = true) :
    dat.flushed 4 t = ((cfg0.win 4).blk t).view.read (Elt Ideal) (minposCol V c) := by
  have h15 : t.val % 16 = 15 := (flush0_4 t).mp hf
  have hi := index_facts t
  show (cfg0.win 4).cut (grid0.coords t) (dat.after 4 t) = _
  rw [ho4 t h15]
  funext y
  obtain ⟨r, u, rfl⟩ : ∃ (r : Fin 512) (u : Fin 1), y = ix2 r u := ⟨y 0, y 1, eq_ix2 y⟩
  obtain rfl : u = 0 := Subsingleton.elim _ _
  rw [View.read_apply]
  show s0 t.val t.isLt (ix2 r (0 : Fin 1)) = Cert.Spec.minpos (X V c) (TC V c) (TR V c) _
  have hs := s0_last V c s0 h0f h0l ⟨t.val / 16, rowBlock_lt t⟩ r
  have ht : ∀ (n : ℕ) (h : n < cfg0.N), n = t.val → s0 n h = s0 t.val t.isLt := by intro n h e; subst e; rfl
  rw [ht _ _ (by show 16 * (t.val / 16) + 15 = t.val; omega)] at hs
  refine hs.trans (congrArg (Cert.Spec.minpos (X V c) (TC V c) (TR V c)) (Fin.ext ?_))
  show 512 * (t.val / 16) + r.val = win0_4.index t 0 * 512 + 1 * r.val
  rw [hi.2.2.2.2.2.2.2.2.1]; omega

/-- What the second output's write-back writes is its block of the column of row maxima. -/
theorem flushed5_eq (hdiag : ∀ i, TC V c i = TR V c i)
    (h1f : ∀ t : Fin cfg0.N, t.val % 16 = 0 → s1 t.val t.isLt = Steps.maxStep (blk V c 0 t) (blk V c 1 t) (blk V c 2 t) (blk V c 3 t) Steps.maxInit)
    (h1l : ∀ (t : Fin cfg0.N) (h : t.val % 16 ≠ 0), s1 t.val t.isLt = Steps.maxStep (blk V c 0 t) (blk V c 1 t) (blk V c 2 t) (blk V c 3 t) (s1 (t.val - 1) (by omega)))
    (ho5 : ∀ t : Fin cfg0.N, t.val % 16 = 15 → dat.after 5 t = s1 t.val t.isLt)
    (t : Fin cfg0.N) (hf : (cfg0.win 5).flush t = true) :
    dat.flushed 5 t = ((cfg0.win 5).blk t).view.read (Elt Ideal) (maxnegCol V c) := by
  have h15 : t.val % 16 = 15 := (flush0_5 t).mp hf
  have hi := index_facts t
  show (cfg0.win 5).cut (grid0.coords t) (dat.after 5 t) = _
  rw [ho5 t h15]
  funext y
  obtain ⟨r, u, rfl⟩ : ∃ (r : Fin 512) (u : Fin 1), y = ix2 r u := ⟨y 0, y 1, eq_ix2 y⟩
  obtain rfl : u = 0 := Subsingleton.elim _ _
  rw [View.read_apply]
  show s1 t.val t.isLt (ix2 r (0 : Fin 1)) = Cert.Spec.maxneg (X V c) (TC V c) (TR V c) _
  have hs := s1_last V c s1 hdiag h1f h1l ⟨t.val / 16, rowBlock_lt t⟩ r
  have ht : ∀ (n : ℕ) (h : n < cfg0.N), n = t.val → s1 n h = s1 t.val t.isLt := by intro n h e; subst e; rfl
  rw [ht _ _ (by show 16 * (t.val / 16) + 15 = t.val; omega)] at hs
  refine hs.trans (congrArg (Cert.Spec.maxneg (X V c) (TC V c) (TR V c)) (Fin.ext ?_))
  show 512 * (t.val / 16) + r.val = win0_5.index t 0 * 512 + 1 * r.val
  rw [hi.2.2.2.2.2.2.2.2.2.2.1]; omega

end Flushed

/-- The last point of the row block that holds row `i`. -/
def lastOf (i : S8192x1.Idx) : Fin cfg0.N :=
  ⟨16 * ((i 0).val / 512) + 15, by have := idx2_lt0 i; rw [N_eq]; omega⟩

/-- Every row of the first output lies in a block that is written back. -/
theorem cover4 (i : S8192x1.Idx) : ∃ t : Fin cfg0.N, (cfg0.win 4).flush t = true ∧ i ∈ ((cfg0.win 4).blk t).view.set := by
  have h0 : (i 0).val < 8192 := idx2_lt0 i
  have h1 : (i 1).val < 1 := idx2_lt1 i
  have hi := index_facts (lastOf i)
  refine ⟨lastOf i, (flush0_4 (lastOf i)).mpr (by show (16 * ((i 0).val / 512) + 15) % 16 = 15; omega), ?_⟩
  show i ∈ ((View.whole main_v3_0).slice (win0_4.rect (lastOf i))).set
  rw [View.set_slice_whole, Rect.mem_set_unit]
  intro a
  match a with
  | ⟨0, _⟩ =>
    show win0_4.index (lastOf i) 0 * 512 ≤ (i 0).val ∧ (i 0).val < win0_4.index (lastOf i) 0 * 512 + 512
    rw [hi.2.2.2.2.2.2.2.2.1]
    show (16 * ((i 0).val / 512) + 15) / 16 * 512 ≤ (i 0).val ∧ (i 0).val < (16 * ((i 0).val / 512) + 15) / 16 * 512 + 512
    omega
  | ⟨1, _⟩ =>
    show win0_4.index (lastOf i) 1 * 1 ≤ (i 1).val ∧ (i 1).val < win0_4.index (lastOf i) 1 * 1 + 1
    rw [hi.2.2.2.2.2.2.2.2.2.1]; omega

/-- Every row of the second output lies in a block that is written back. -/
theorem cover5 (i : S8192x1.Idx) : ∃ t : Fin cfg0.N, (cfg0.win 5).flush t = true ∧ i ∈ ((cfg0.win 5).blk t).view.set := by
  have h0 : (i 0).val < 8192 := idx2_lt0 i
  have h1 : (i 1).val < 1 := idx2_lt1 i
  have hi := index_facts (lastOf i)
  refine ⟨lastOf i, (flush0_5 (lastOf i)).mpr (by show (16 * ((i 0).val / 512) + 15) % 16 = 15; omega), ?_⟩
  show i ∈ ((View.whole main_v3_1).slice (win0_5.rect (lastOf i))).set
  rw [View.set_slice_whole, Rect.mem_set_unit]
  intro a
  match a with
  | ⟨0, _⟩ =>
    show win0_5.index (lastOf i) 0 * 512 ≤ (i 0).val ∧ (i 0).val < win0_5.index (lastOf i) 0 * 512 + 512
    rw [hi.2.2.2.2.2.2.2.2.2.2.1]
    show (16 * ((i 0).val / 512) + 15) / 16 * 512 ≤ (i 0).val ∧ (i 0).val < (16 * ((i 0).val / 512) + 15) / 16 * 512 + 512
    omega
  | ⟨1, _⟩ =>
    show win0_5.index (lastOf i) 1 * 1 ≤ (i 1).val ∧ (i 1).val < win0_5.index (lastOf i) 1 * 1 + 1
    rw [hi.2.2.2.2.2.2.2.2.2.2.2]; omega

/-- THE FIRST PASS'S VALUE: the two output arrays are the specification's row minima and row maxima. -/
theorem pass1_value (c : Dev nD) (dat : Dat τ (Elt Ideal) Unit ℕ (Pipeline.UD sig nD τ) ℕ cfg0 c)
    (hA : ∀ w, dat.A w = V c (Pipeline.arrRef spec0 w))
    (hdiag : ∀ i, TC V c i = TR V c i)
    (s0 s1 : (n : ℕ) → n < cfg0.N → Vec Ideal S512x1 .f32)
    (h0f : ∀ t : Fin cfg0.N, t.val % 16 = 0 → s0 t.val t.isLt = Steps.minStep (blk V c 0 t) (blk V c 1 t) (blk V c 2 t) (blk V c 3 t) Steps.minInit)
    (h0l : ∀ (t : Fin cfg0.N) (h : t.val % 16 ≠ 0), s0 t.val t.isLt = Steps.minStep (blk V c 0 t) (blk V c 1 t) (blk V c 2 t) (blk V c 3 t) (s0 (t.val - 1) (by omega)))
    (h1f : ∀ t : Fin cfg0.N, t.val % 16 = 0 → s1 t.val t.isLt = Steps.maxStep (blk V c 0 t) (blk V c 1 t) (blk V c 2 t) (blk V c 3 t) Steps.maxInit)
    (h1l : ∀ (t : Fin cfg0.N) (h : t.val % 16 ≠ 0), s1 t.val t.isLt = Steps.maxStep (blk V c 0 t) (blk V c 1 t) (blk V c 2 t) (blk V c 3 t) (s1 (t.val - 1) (by omega)))
    (ho4 : ∀ t : Fin cfg0.N, t.val % 16 = 15 → dat.after 4 t = s0 t.val t.isLt)
    (ho5 : ∀ t : Fin cfg0.N, t.val % 16 = 15 → dat.after 5 t = s1 t.val t.isLt) :
    (∀ i : Fin 8192, (dat.arrAt 4 cfg0.N : S8192x1.Idx → EReal) (ValueIdx.ix2 i 0) = Cert.Spec.minpos (X V c) (TC V c) (TR V c) i)
    ∧ (∀ i : Fin 8192, (dat.arrAt 5 cfg0.N : S8192x1.Idx → EReal) (ValueIdx.ix2 i 0) = Cert.Spec.maxneg (X V c) (TC V c) (TR V c) i) := by
  have e4 : dat.arrAt 4 cfg0.N = minposCol V c :=
    dat.arrAt_eq_of_cover 4 (minposCol V c) (flushed4_eq V c dat s0 h0f h0l ho4) cover4
  have e5 : dat.arrAt 5 cfg0.N = maxnegCol V c :=
    dat.arrAt_eq_of_cover 5 (maxnegCol V c) (flushed5_eq V c dat s1 hdiag h1f h1l ho5) cover5
  exact ⟨fun i => (congrFun e4 (ix2 i 0)).trans rfl, fun i => (congrFun e5 (ix2 i 0)).trans rfl⟩

end Cert.KernelIdeal.V1

end
-- ==== Proof.KernelIdeal.Pass2ValueSums.lean ====
/-
  Sums over the 8192 rows taken sixteen blocks of 512 at a time, and the words a count turns into.

  Row `r` of block `B` is row `512 B + r` of the array (`row`); a sum over all 8192 rows is the sum over the sixteen
  blocks of the sums over a block's 512 rows (`sum_rows`). A one-bit mask read as a float is `1` where the bit is
  set and `0` elsewhere (`bitR`), so its sum over a finite set is the number of set bits (`sum_bitR`); a natural
  number as an extended real is above zero exactly when it is positive (`cmp_ogt_natCast`), and truncates to the
  32-bit word of the same number while it is below `2 ^ 31` (`fptosi_natCast`).
-/
import Idealize.ShloMosaic.PureOps.Ideal
import Idealize.ShloMosaic.PureOps.Ideal.Laws
import Mathlib.Algebra.BigOperators.Fin
import Mathlib.Algebra.BigOperators.Ring.Finset
import Mathlib.Algebra.Order.Floor.Ring
import Mathlib.Data.EReal.Basic
import Mathlib.Data.Fintype.BigOperators
import Mathlib.Logic.Equiv.Fin.Basic

noncomputable section

open scoped BigOperators

namespace Cert.KernelIdeal.V2

open Idealize.ShloMosaic

/-! ## Rows by blocks -/

/-- Row `r` of block `B` (blocks counted modulo sixteen, so that every natural number names one). -/
def row (B : ℕ) (r : Fin 512) : Fin 8192 :=
  ⟨512 * (B % 16) + r.val, by have := r.isLt; have := Nat.mod_lt B (by decide : 0 < 16); omega⟩

theorem row_val (B : ℕ) (r : Fin 512) (hB : B < 16) : (row B r).val = 512 * B + r.val := by
  show 512 * (B % 16) + r.val = 512 * B + r.val
  rw [Nat.mod_eq_of_lt hB]

/-- Every row is a row of its block. -/
theorem eq_row (i : Fin 8192) : i = row (i.val / 512) ⟨i.val % 512, Nat.mod_lt _ (by decide)⟩ := by
  apply Fin.ext
  have := i.isLt
  rw [row_val _ _ (by omega)]
  show i.val = 512 * (i.val / 512) + i.val % 512
  omega

/-- A sum over the rows is the sum over the blocks of the sums over a block's rows. -/
theorem sum_rows {M : Type*} [AddCommMonoid M] (f : Fin 8192 → M) :
    ∑ B ∈ Finset.range 16, ∑ q : Fin 512, f (row B q) = ∑ j : Fin 8192, f j := by
  rw [Finset.sum_range (fun B => ∑ q : Fin 512, f (row B q)), ← Fintype.sum_prod_type' (fun (B : Fin 16) (q : Fin 512) => f (row B.val q))]
  refine Fintype.sum_equiv (finProdFinEquiv (m := 16) (n := 512)) _ _ fun x => congrArg f (Fin.ext ?_)
  rw [row_val _ _ x.1.isLt]
  show 512 * x.1.val + x.2.val = x.2.val + 512 * x.1.val
  omega

/-! ## A mask read as a float, and its sum -/

/-- A one-bit word widened to 32 bits and read as a signed integer, as an extended real. -/
def bitR (b : BitVec 1) : EReal := (((b.setWidth 32).toInt : ℝ) : EReal)

theorem bitR_eq (b : BitVec 1) : bitR b = if b = 1#1 then 1 else 0 := by
  rcases BitVec.eq_zero_or_eq_one b with h | h <;> subst h
  · rw [if_neg (by decide)]; unfold bitR
    rw [show ((0#1 : BitVec 1).setWidth 32).toInt = 0 from by decide, Int.cast_zero, EReal.coe_zero]
  · rw [if_pos rfl]; unfold bitR
    rw [show ((1#1 : BitVec 1).setWidth 32).toInt = 1 from by decide, Int.cast_one, EReal.coe_one]

/-- The sum of a mask read as floats is the number of its set bits. -/
theorem sum_bitR {ι : Type*} [Fintype ι] (p : ι → BitVec 1) :
    ∑ q, bitR (p q) = ((Finset.univ.filter fun q => p q = 1#1).card : EReal) := by
  simp only [bitR_eq]
  exact Finset.sum_boole _ _

/-! ## A count compared with zero, and truncated to a word -/

/-- A count is above the zero word's value exactly when it is positive. -/
theorem cmp_ogt_natCast (n : ℕ) :
    Ideal.cmp .ogt (n : EReal) (Ideal.ofBits .f32 0x00000000#32) = if 0 < n then 1#1 else 0#1 := by
  rw [Ideal.ofBits_zero_f32]
  unfold Ideal.cmp
  have e : ((0 : EReal) < (n : EReal)) ↔ 0 < n := by
    rw [← EReal.coe_natCast, EReal.coe_pos, Nat.cast_pos]
  by_cases h : 0 < n
  · rw [if_pos h]; simp only [e.mpr h, decide_true]; rfl
  · rw [if_neg h]; simp only [mt e.mp h, decide_false]; rfl

/-- A count below `2 ^ 31` truncates to the 32-bit word of the same number. -/
theorem fptosi_natCast (n : ℕ) (h : n < 2 ^ 31) : Ideal.fptosi 32 (n : EReal) = BitVec.ofNat 32 n := by
  rw [← EReal.coe_natCast]
  unfold Ideal.fptosi
  rw [Ideal.toIntClamped_coe, if_pos (Nat.cast_nonneg n), Int.floor_natCast]
  have h1 : min (((2 ^ (32 - 1) : ℕ) : ℤ) - 1) (n : ℤ) = n := by
    apply min_eq_right; push_cast; omega
  rw [h1, max_eq_right (by omega), BitVec.ofInt_natCast]

/-- The zero word's value truncates to the zero word. -/
theorem fptosi_zero : Ideal.fptosi 32 (Ideal.ofBits .f32 0x00000000#32) = 0#32 := by
  rw [Ideal.ofBits_zero_f32, ← Nat.cast_zero (R := EReal), fptosi_natCast 0 (by decide)]

end Cert.KernelIdeal.V2

end
-- ==== Proof.KernelIdeal.Pass2ValueBlocks.lean ====
/-
  The arrays of the second pass by rows, and the blocks its windows read at a grid point as rows of those arrays.

  `X` the embeddings, `TC` / `TR` the labels down the rows and along the columns, `MG` the margins, `MP` / `MN` the first
  pass's least positive and greatest negative similarity per row. At point `t`, row `r` of a block read at the row block
  is row `row (t / 16) r` of its array, and row (or column) `q` of a block read at the column block is row (column)
  `row (t % 16) q`.
-/
import proofs.«118951_j44573170598307_1_alg».proof.Proof.Spec
import proofs.«118951_j44573170598307_1_alg».proof.Proof.KernelIdeal.Pass2ValueSums
import proofs.«118951_j44573170598307_1_alg».proof.Proof.Gen.KernelIdeal.Launch
import proofs.«118951_j44573170598307_1_alg».proof.Proof.Gen.KernelIdeal.Points
import Idealize.ShloMosaic.Lib.Pipeline.Value
import Idealize.ShloMosaic.Lib.ValueIdx

noncomputable section

open scoped BigOperators

namespace Cert.KernelIdeal.V2

open Idealize.ShloMosaic Idealize.ShloMosaic.TcCoe Idealize.SL.Sem
open Idealize.ShloMosaic.Pipeline (Dat)
open Cert.KernelIdeal Cert.KernelIdeal.Gen Idealize.ShloMosaic.ValueIdx

variable (V : (c : Dev nD) → (b : Ref sig .tc) → Buf (Elt Ideal) ((c : Thread nD τ).loc b))

def X (c : Dev nD) : Fin 8192 → Fin 1024 → EReal := fun a k => (V c main_arg0 : S8192x1024.Idx → EReal) (ix2 a k)
def TC (c : Dev nD) : Fin 8192 → BitVec 32 := fun a => (V c main_v0 : S8192x1.Idx → BitVec 32) (ix2 a 0)
def TR (c : Dev nD) : Fin 8192 → BitVec 32 := fun b => (V c main_v1 : S1x8192.Idx → BitVec 32) (ix2 0 b)
def MG (c : Dev nD) : Fin 8192 → EReal := fun a => (V c main_v2 : S8192x1.Idx → EReal) (ix2 a 0)
def MP (c : Dev nD) : Fin 8192 → EReal := fun a => (V c main_v3_0 : S8192x1.Idx → EReal) (ix2 a 0)
def MN (c : Dev nD) : Fin 8192 → EReal := fun a => (V c main_v3_1 : S8192x1.Idx → EReal) (ix2 a 0)

abbrev blk (c : Dev nD) (w : Fin cfg1.W) (t : Fin cfg1.N) := ((cfg1.win w).blk t).view.read (Elt Ideal) (V c (Pipeline.arrRef spec1 w))

/-! ## Which block each window reads at a point

Point `t` is column block `t % 16` of row block `t / 16`. The embeddings by rows, the labels down the rows, the margins
and the first pass's two columns are read at the row block; the embeddings again and the labels along the columns
at the column block. -/

theorem idx1_0 : ∀ t : Fin cfg1.N, win1_0.index t 0 = t.val / 16 ∧ win1_0.index t 1 = 0 :=
  (by decide +kernel : ∀ t : Fin grid1.N, win1_0.index t 0 = t.val / 16 ∧ win1_0.index t 1 = 0)
theorem idx1_1 : ∀ t : Fin cfg1.N, win1_1.index t 0 = t.val % 16 ∧ win1_1.index t 1 = 0 :=
  (by decide +kernel : ∀ t : Fin grid1.N, win1_1.index t 0 = t.val % 16 ∧ win1_1.index t 1 = 0)
theorem idx1_2 : ∀ t : Fin cfg1.N, win1_2.index t 0 = t.val / 16 ∧ win1_2.index t 1 = 0 :=
  (by decide +kernel : ∀ t : Fin grid1.N, win1_2.index t 0 = t.val / 16 ∧ win1_2.index t 1 = 0)
theorem idx1_3 : ∀ t : Fin cfg1.N, win1_3.index t 0 = 0 ∧ win1_3.index t 1 = t.val % 16 :=
  (by decide +kernel : ∀ t : Fin grid1.N, win1_3.index t 0 = 0 ∧ win1_3.index t 1 = t.val % 16)
theorem idx1_4 : ∀ t : Fin cfg1.N, win1_4.index t 0 = t.val / 16 ∧ win1_4.index t 1 = 0 :=
  (by decide +kernel : ∀ t : Fin grid1.N, win1_4.index t 0 = t.val / 16 ∧ win1_4.index t 1 = 0)
theorem idx1_5 : ∀ t : Fin cfg1.N, win1_5.index t 0 = t.val / 16 ∧ win1_5.index t 1 = 0 :=
  (by decide +kernel : ∀ t : Fin grid1.N, win1_5.index t 0 = t.val / 16 ∧ win1_5.index t 1 = 0)
theorem idx1_6 : ∀ t : Fin cfg1.N, win1_6.index t 0 = t.val / 16 ∧ win1_6.index t 1 = 0 :=
  (by decide +kernel : ∀ t : Fin grid1.N, win1_6.index t 0 = t.val / 16 ∧ win1_6.index t 1 = 0)

section Reads
variable (c : Dev nD) (t : Fin cfg1.N)

/-- The row block's embeddings. -/
theorem b0_apply (r : Fin 512) (k : Fin 1024) :
    (blk V c 0 t : Vec Ideal S512x1024 .f32) (ix2 r k) = X V c (row (t.val / 16) r) k := by
  have hN : cfg1.N = 256 := N_1
  have ht := t.isLt
  unfold X
  show (V c main_arg0 : S8192x1024.Idx → EReal) _ = (V c main_arg0 : S8192x1024.Idx → EReal) _
  congr 1
  funext a
  apply Fin.ext
  match a with
  | ⟨0, _⟩ =>
    show win1_0.index t 0 * 512 + 1 * r.val = (row (t.val / 16) r).val
    rw [(idx1_0 t).1, row_val _ _ (by omega)]; omega
  | ⟨1, _⟩ =>
    show win1_0.index t 1 * 1024 + 1 * k.val = k.val
    rw [(idx1_0 t).2]; omega

/-- The column block's embeddings. -/
theorem b1_apply (q : Fin 512) (k : Fin 1024) :
    (blk V c 1 t : Vec Ideal S512x1024 .f32) (ix2 q k) = X V c (row (t.val % 16) q) k := by
  have hN : cfg1.N = 256 := N_1
  have ht := t.isLt
  unfold X
  show (V c main_arg0 : S8192x1024.Idx → EReal) _ = (V c main_arg0 : S8192x1024.Idx → EReal) _
  congr 1
  funext a
  apply Fin.ext
  match a with
  | ⟨0, _⟩ =>
    show win1_1.index t 0 * 512 + 1 * q.val = (row (t.val % 16) q).val
    rw [(idx1_1 t).1, row_val _ _ (by omega)]; omega
  | ⟨1, _⟩ =>
    show win1_1.index t 1 * 1024 + 1 * k.val = k.val
    rw [(idx1_1 t).2]; omega

/-- The row block's labels. -/
theorem b2_apply (r : Fin 512) :
    (blk V c 2 t : Vec Ideal S512x1 .i32) (ix2 r 0) = TC V c (row (t.val / 16) r) := by
  have hN : cfg1.N = 256 := N_1
  have ht := t.isLt
  unfold TC
  show (V c main_v0 : S8192x1.Idx → BitVec 32) _ = (V c main_v0 : S8192x1.Idx → BitVec 32) _
  congr 1
  funext a
  apply Fin.ext
  match a with
  | ⟨0, _⟩ =>
    show win1_2.index t 0 * 512 + 1 * r.val = (row (t.val / 16) r).val
    rw [(idx1_2 t).1, row_val _ _ (by omega)]; omega
  | ⟨1, _⟩ =>
    show win1_2.index t 1 * 1 + 1 * 0 = 0
    rw [(idx1_2 t).2]

/-- The column block's labels. -/
theorem b3_apply (q : Fin 512) :
    (blk V c 3 t : Vec Ideal S1x512 .i32) (ix2 0 q) = TR V c (row (t.val % 16) q) := by
  have hN : cfg1.N = 256 := N_1
  have ht := t.isLt
  unfold TR
  show (V c main_v1 : S1x8192.Idx → BitVec 32) _ = (V c main_v1 : S1x8192.Idx → BitVec 32) _
  congr 1
  funext a
  apply Fin.ext
  match a with
  | ⟨0, _⟩ =>
    show win1_3.index t 0 * 1 + 1 * 0 = 0
    rw [(idx1_3 t).1]
  | ⟨1, _⟩ =>
    show win1_3.index t 1 * 512 + 1 * q.val = (row (t.val % 16) q).val
    rw [(idx1_3 t).2, row_val _ _ (by omega)]; omega

/-- The row block's margins. -/
theorem b4_apply (r : Fin 512) :
    (blk V c 4 t : Vec Ideal S512x1 .f32) (ix2 r 0) = MG V c (row (t.val / 16) r) := by
  have hN : cfg1.N = 256 := N_1
  have ht := t.isLt
  unfold MG
  show (V c main_v2 : S8192x1.Idx → EReal) _ = (V c main_v2 : S8192x1.Idx → EReal) _
  congr 1
  funext a
  apply Fin.ext
  match a with
  | ⟨0, _⟩ =>
    show win1_4.index t 0 * 512 + 1 * r.val = (row (t.val / 16) r).val
    rw [(idx1_4 t).1, row_val _ _ (by omega)]; omega
  | ⟨1, _⟩ =>
    show win1_4.index t 1 * 1 + 1 * 0 = 0
    rw [(idx1_4 t).2]

/-- The row block's least positive similarities. -/
theorem b5_apply (r : Fin 512) :
    (blk V c 5 t : Vec Ideal S512x1 .f32) (ix2 r 0) = MP V c (row (t.val / 16) r) := by
  have hN : cfg1.N = 256 := N_1
  have ht := t.isLt
  unfold MP
  show (V c main_v3_0 : S8192x1.Idx → EReal) _ = (V c main_v3_0 : S8192x1.Idx → EReal) _
  congr 1
  funext a
  apply Fin.ext
  match a with
  | ⟨0, _⟩ =>
    show win1_5.index t 0 * 512 + 1 * r.val = (row (t.val / 16) r).val
    rw [(idx1_5 t).1, row_val _ _ (by omega)]; omega
  | ⟨1, _⟩ =>
    show win1_5.index t 1 * 1 + 1 * 0 = 0
    rw [(idx1_5 t).2]

/-- The row block's greatest negative similarities. -/
theorem b6_apply (r : Fin 512) :
    (blk V c 6 t : Vec Ideal S512x1 .f32) (ix2 r 0) = MN V c (row (t.val / 16) r) := by
  have hN : cfg1.N = 256 := N_1
  have ht := t.isLt
  unfold MN
  show (V c main_v3_1 : S8192x1.Idx → EReal) _ = (V c main_v3_1 : S8192x1.Idx → EReal) _
  congr 1
  funext a
  apply Fin.ext
  match a with
  | ⟨0, _⟩ =>
    show win1_6.index t 0 * 512 + 1 * r.val = (row (t.val / 16) r).val
    rw [(idx1_6 t).1, row_val _ _ (by omega)]; omega
  | ⟨1, _⟩ =>
    show win1_6.index t 1 * 1 + 1 * 0 = 0
    rw [(idx1_6 t).2]

end Reads

end Cert.KernelIdeal.V2

end
-- ==== Proof.KernelIdeal.Pass2ValuePay.lean ====
/-
  The second pass's arithmetic at one entry of a tile.

  With `x0`, `x1` the row block's and the column block's 512 embeddings, `x2`, `x3` their labels, `x4` the row block's
  margins and `x5`, `x6` its least positive and greatest negative similarity: entry `(r, q)` of the similarity tile is
  `∑ k, x0 (r, k) * x1 (q, k)` (`tile_apply`); the masks at `(r, q)` are the specification's one-pair functions
  of that similarity and of row `r`'s and column `q`'s data (`keepPos_apply`, `keepNeg_apply`); each step adds to
  row `r` of its running column the sum over the tile's 512 columns of the mask as a float, or of the masked
  exponential (`apStep_apply`, `anStep_apply`, `posStep_apply`, `negStep_apply`); the running columns start at zero.
-/
import proofs.«118951_j44573170598307_1_alg».proof.Proof.Spec
import proofs.«118951_j44573170598307_1_alg».proof.Proof.KernelIdeal.Steps
import proofs.«118951_j44573170598307_1_alg».proof.Proof.KernelIdeal.Pass2ValueSums
import Idealize.ShloMosaic.Lib.Pipeline.Value
import Idealize.ShloMosaic.Lib.ValueIdx
import Idealize.ShloMosaic.PureOps.Ideal.Laws

noncomputable section

open scoped BigOperators

namespace Cert.KernelIdeal.V2

open Idealize.ShloMosaic Cert.KernelIdeal Cert.KernelIdeal.Gen Idealize.ShloMosaic.ValueIdx
open Cert.Spec (lit)

/-! ## One pair's masks and terms, as functions of the pair's similarity and data -/

/-- The pair carries one label. -/
def sameE (a b : BitVec 32) : BitVec 1 := IntOp.cmpi .eq a b
/-- A positive pair. -/
def posE (s : EReal) (a b : BitVec 32) : BitVec 1 := IntOp.andi (sameE a b) (Ideal.cmp .olt s (lit 0x3F800000#32))
/-- A negative pair. -/
def negE (a b : BitVec 32) : BitVec 1 := IntOp.xori (sameE a b) 1#1
/-- A kept negative, against the row's margin and least positive. -/
def keepNegE (s : EReal) (a b : BitVec 32) (mg mp : EReal) : BitVec 1 :=
  IntOp.andi (negE a b) (Ideal.cmp .ogt ((s + mg) - mp) (lit 0x00000000#32))
/-- A kept positive, against the row's margin and greatest negative. -/
def keepPosE (s : EReal) (a b : BitVec 32) (mg mn : EReal) : BitVec 1 :=
  IntOp.andi (posE s a b) (Ideal.cmp .ogt ((mn - s) + mg) (lit 0x00000000#32))
/-- A kept positive's term of the row's positive sum. -/
def posTermE (s : EReal) (a b : BitVec 32) (mg mn : EReal) : EReal :=
  Scalar.select (keepPosE s a b mg mn) (Ideal.exp (lit 0xC0000000#32 * (s - lit 0x3F000000#32))) 0
/-- A kept negative's term of the row's negative sum. -/
def negTermE (s : EReal) (a b : BitVec 32) (mg mp : EReal) : EReal :=
  Scalar.select (keepNegE s a b mg mp) (Ideal.exp (lit 0x41200000#32 * (s - lit 0x3F000000#32))) 0

/-! ## The similarity tile -/

theorem lhs_tile_0 (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide), dif_pos (show (0 : Fin S512x1024.rank) ∈ dot_S512x1024_S512x1024_S512x512_1_1_0_0_n_n.lhsNonContracting by decide)]
  rfl
theorem lhs_tile_1 (i : S512x512.Idx) (q : dot_S512x1024_S512x1024_S512x512_1_1_0_0_n_n.contr.Idx) :
    (dot_S512x1024_S512x1024_S512x512_1_1_0_0_n_n.lhsIdx i q 1).val = (q ⟨0, by decide⟩).val :=
  dot_S512x1024_S512x1024_S512x512_1_1_0_0_n_n.lhsIdx_val_of_single rfl i q
theorem rhs_tile_0 (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide), dif_pos (show (0 : Fin S512x1024.rank) ∈ dot_S512x1024_S512x1024_S512x512_1_1_0_0_n_n.rhsNonContracting by decide)]
  rfl
theorem rhs_tile_1 (i : S512x512.Idx) (q : dot_S512x1024_S512x1024_S512x512_1_1_0_0_n_n.contr.Idx) :
    (dot_S512x1024_S512x1024_S512x512_1_1_0_0_n_n.rhsIdx i q 1).val = (q ⟨0, by decide⟩).val :=
  dot_S512x1024_S512x1024_S512x512_1_1_0_0_n_n.rhsIdx_val_of_single rfl i q

/-- Entry `(r, q)` of the tile: row `r` of the row block against row `q` of the column block. -/
def tileE (x0 x1 : Vec Ideal S512x1024 .f32) (r q : Fin 512) : EReal := ∑ k : Fin 1024, x0 (ix2 r k) * x1 (ix2 q k)

theorem tile_apply (x0 x1 : Vec Ideal S512x1024 .f32) (r q : Fin 512) :
    k1_pay11 (F := Ideal) x0 x1 (ix2 r q) = tileE x0 x1 r q := by
  unfold k1_pay11 tileE
  refine (Ideal.matmul_constant_zero_apply dot_S512x1024_S512x1024_S512x512_1_1_0_0_n_n none _ _ (ix2 r q)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 r q) ((contrEquiv1 dot_S512x1024_S512x1024_S512x512_1_1_0_0_n_n 1024 rfl rfl).symm k) = ix2 r k := funext fun a => Fin.ext (by
    match a with
    | ⟨0, _⟩ => exact lhs_tile_0 _ _
    | ⟨1, _⟩ => exact (lhs_tile_1 _ _).trans hk)
  have er : dot_S512x1024_S512x1024_S512x512_1_1_0_0_n_n.rhsIdx (ix2 r q) ((contrEquiv1 dot_S512x1024_S512x1024_S512x512_1_1_0_0_n_n 1024 rfl rfl).symm k) = ix2 q k := funext fun a => Fin.ext (by
    match a with
    | ⟨0, _⟩ => exact rhs_tile_0 _ _
    | ⟨1, _⟩ => exact (rhs_tile_1 _ _).trans hk)
  rw [el, er]
  rfl

/-! ## A column and a row spread over the tile -/

theorem colSpread {α : Type} (v : S512x1.Idx → α) (h1 : S512x1.ShapeCasts S512x1) (h2 : S512x1.Broadcasts S512x512) (r q : Fin 512) :
    broadcastTo S512x512 (shapeCast S512x1 v h1) h2 (ix2 r q) = v (ix2 r 0) := by
  rw [shapeCast_self]
  exact broadcastTo_apply v h2 (ix2 r q) (ix2 r 0) (fun a => match a with | ⟨0, _⟩ => rfl | ⟨1, _⟩ => rfl)

theorem rowSpread {α : Type} (v : S1x512.Idx → α) (h1 : S1x512.ShapeCasts S1x512) (h2 : S1x512.Broadcasts S512x512) (r q : Fin 512) :
    broadcastTo S512x512 (shapeCast S1x512 v h1) h2 (ix2 r q) = v (ix2 0 q) := by
  rw [shapeCast_self]
  exact broadcastTo_apply v h2 (ix2 r q) (ix2 0 q) (fun a => match a with | ⟨0, _⟩ => rfl | ⟨1, _⟩ => rfl)

/-! ## The masks at an entry -/

section Masks
variable (x0 x1 : Vec Ideal S512x1024 .f32) (x2 : Vec Ideal S512x1 .i32) (x3 : Vec Ideal S1x512 .i32)
  (x4 x5 x6 : Vec Ideal S512x1 .f32) (r q : Fin 512)

theorem same_apply : k1_pay12 (F := Ideal) x2 x3 (ix2 r q) = sameE (x2 (ix2 r 0)) (x3 (ix2 0 q)) := by
  unfold k1_pay12 sameE
  show IntOp.cmpi .eq (broadcastTo S512x512 (shapeCast S512x1 x2 shapeCasts_S512x1_S512x1) broadcasts_S512x1_S512x512 (ix2 r q))
    (broadcastTo S512x512 (shapeCast S1x512 x3 shapeCasts_S1x512_S1x512) broadcasts_S1x512_S512x512 (ix2 r q)) = _
  rw [colSpread, rowSpread]

theorem pos_apply : k1_pay13 (F := Ideal) x0 x1 x2 x3 (ix2 r q) = posE (tileE x0 x1 r q) (x2 (ix2 r 0)) (x3 (ix2 0 q)) := by
  unfold k1_pay13 posE
  show IntOp.andi (k1_pay12 (F := Ideal) x2 x3 (ix2 r q)) (Ideal.cmp .olt (k1_pay11 (F := Ideal) x0 x1 (ix2 r q)) (Ideal.ofBits .f32 0x3F800000#32)) = _
  rw [same_apply, tile_apply]

theorem keepNeg_apply : k1_pay15 (F := Ideal) x0 x1 x2 x3 x4 x5 (ix2 r q)
    = keepNegE (tileE x0 x1 r q) (x2 (ix2 r 0)) (x3 (ix2 0 q)) (x4 (ix2 r 0)) (x5 (ix2 r 0)) := by
  unfold k1_pay15 k1_pay14 keepNegE negE
  show IntOp.andi (IntOp.xori (k1_pay12 (F := Ideal) x2 x3 (ix2 r q)) 1#1)
    (Ideal.cmp .ogt ((k1_pay11 (F := Ideal) x0 x1 (ix2 r q)
        + broadcastTo S512x512 (shapeCast S512x1 x4 shapeCasts_S512x1_S512x1) broadcasts_S512x1_S512x512 (ix2 r q))
      - broadcastTo S512x512 (shapeCast S512x1 x5 shapeCasts_S512x1_S512x1) broadcasts_S512x1_S512x512 (ix2 r q))
      (Ideal.ofBits .f32 0x00000000#32)) = _
  rw [same_apply, tile_apply, colSpread, colSpread]

theorem above_apply : k1_pay16 (F := Ideal) x0 x1 x4 x6 (ix2 r q) = (x6 (ix2 r 0) - tileE x0 x1 r q) + x4 (ix2 r 0) := by
  unfold k1_pay16 k1_pay14
  show (broadcastTo S512x512 (shapeCast S512x1 x6 shapeCasts_S512x1_S512x1) broadcasts_S512x1_S512x512 (ix2 r q)
      - k1_pay11 (F := Ideal) x0 x1 (ix2 r q))
    + broadcastTo S512x512 (shapeCast S512x1 x4 shapeCasts_S512x1_S512x1) broadcasts_S512x1_S512x512 (ix2 r q) = _
  rw [tile_apply, colSpread, colSpread]

theorem keepPos_apply : k1_pay17 (F := Ideal) (k1_pay13 (F := Ideal) x0 x1 x2 x3) (k1_pay16 (F := Ideal) x0 x1 x4 x6) (Scalar.ofBits .f32 0x00000000#32) (ix2 r q)
    = keepPosE (tileE x0 x1 r q) (x2 (ix2 r 0)) (x3 (ix2 0 q)) (x4 (ix2 r 0)) (x6 (ix2 r 0)) := by
  unfold k1_pay17 keepPosE
  show IntOp.andi (k1_pay13 (F := Ideal) x0 x1 x2 x3 (ix2 r q))
    (Ideal.cmp .ogt (k1_pay16 (F := Ideal) x0 x1 x4 x6 (ix2 r q)) (Ideal.ofBits .f32 0x00000000#32)) = _
  rw [pos_apply, above_apply]

end Masks

/-! ## A tile's row sums, and the four steps at a row -/

/-- Row `r` of the sum of a tile along its columns, stood up as a column. -/
theorem rowSum_apply (src : FVec Ideal S512x512 .f32) (h : S512x512.Reduces [1] S512) (hφ : FKind.Formats .f32)
    (hacc : (0x00000000#32 : BitVec 32) = FKind.add.neutral .f32 hφ) (hsc : S512.ShapeCasts S512x1) (r : Fin 512) :
    shapeCast S512x1 (multiReduction .add [1] S512 src 0x00000000#32 h hφ hacc) hsc (ix2 r 0) = ∑ q : Fin 512, src (ix2 r q) := by
  refine (shapeCast_apply _ hsc (ix2 r 0) (ix1 r) ?_).trans ?_
  · rw [Shape.rowMajor_val_one, Shape.rowMajor_val_two]
    show r.val = r.val * 1 + 0
    omega
  · refine (Ideal.multiReduction_add_single src _ h hφ hacc (ix1 r)).trans ?_
    refine Finset.sum_congr rfl fun q _ => congrArg src ?_
    funext a
    apply Fin.ext
    match a with
    | ⟨0, _⟩ => rfl
    | ⟨1, _⟩ => rfl

section Steps
variable (x0 x1 : Vec Ideal S512x1024 .f32) (x2 : Vec Ideal S512x1 .i32) (x3 : Vec Ideal S1x512 .i32)
  (x4 x5 x6 acc : Vec Ideal S512x1 .f32) (r : Fin 512)

/-- The running columns start at zero. -/
theorem apInit_apply : Steps.apInit (F := Ideal) (ix2 r 0) = 0 := by
  unfold Steps.apInit k1_pay7
  rw [shapeCast_self]
  exact Ideal.ofBits_zero_f32
theorem anInit_apply : Steps.anInit (F := Ideal) (ix2 r 0) = 0 := by
  unfold Steps.anInit k1_pay8
  rw [shapeCast_self]
  exact Ideal.ofBits_zero_f32
theorem posInit_apply : Steps.posInit (F := Ideal) (ix2 r 0) = 0 := by
  unfold Steps.posInit k1_pay9
  rw [shapeCast_self]
  exact Ideal.ofBits_zero_f32
theorem negInit_apply : Steps.negInit (F := Ideal) (ix2 r 0) = 0 := by
  unfold Steps.negInit k1_pay10
  rw [shapeCast_self]
  exact Ideal.ofBits_zero_f32

/-- The count of kept positives grows by the tile's kept positives of the row. -/
theorem apStep_apply : Steps.apStep (F := Ideal) x0 x1 x2 x3 x4 x6 acc (ix2 r 0)
    = acc (ix2 r 0) + ∑ q : Fin 512, bitR (keepPosE (tileE x0 x1 r q) (x2 (ix2 r 0)) (x3 (ix2 0 q)) (x4 (ix2 r 0)) (x6 (ix2 r 0))) := by
  unfold Steps.apStep k1_pay18
  refine (congrFun (shapeCast_self _ _) (ix2 r 0)).trans ?_
  show acc (ix2 r 0) + _ = _
  refine congrArg (acc (ix2 r 0) + ·) ?_
  refine (rowSum_apply _ _ _ _ _ r).trans ?_
  refine Finset.sum_congr rfl fun q _ => ?_
  show bitR (k1_pay17 (F := Ideal) (k1_pay13 (F := Ideal) x0 x1 x2 x3) (k1_pay16 (F := Ideal) x0 x1 x4 x6) (Scalar.ofBits .f32 0x00000000#32) (ix2 r q)) = _
  rw [keepPos_apply]

/-- The count of kept negatives grows by the tile's kept negatives of the row. -/
theorem anStep_apply : Steps.anStep (F := Ideal) x0 x1 x2 x3 x4 x5 acc (ix2 r 0)
    = acc (ix2 r 0) + ∑ q : Fin 512, bitR (keepNegE (tileE x0 x1 r q) (x2 (ix2 r 0)) (x3 (ix2 0 q)) (x4 (ix2 r 0)) (x5 (ix2 r 0))) := by
  unfold Steps.anStep k1_pay19
  refine (congrFun (shapeCast_self _ _) (ix2 r 0)).trans ?_
  show acc (ix2 r 0) + _ = _
  refine congrArg (acc (ix2 r 0) + ·) ?_
  refine (rowSum_apply _ _ _ _ _ r).trans ?_
  refine Finset.sum_congr rfl fun q _ => ?_
  show bitR (k1_pay15 (F := Ideal) x0 x1 x2 x3 x4 x5 (ix2 r q)) = _
  rw [keepNeg_apply]

/-- The positive sum grows by the tile's kept positives' terms of the row. -/
theorem posStep_apply : Steps.posStep (F := Ideal) x0 x1 x2 x3 x4 x6 acc (ix2 r 0)
    = acc (ix2 r 0) + ∑ q : Fin 512, posTermE (tileE x0 x1 r q) (x2 (ix2 r 0)) (x3 (ix2 0 q)) (x4 (ix2 r 0)) (x6 (ix2 r 0)) := by
  unfold Steps.posStep k1_pay20
  refine (congrFun (shapeCast_self _ _) (ix2 r 0)).trans ?_
  show acc (ix2 r 0) + _ = _
  refine congrArg (acc (ix2 r 0) + ·) ?_
  refine (rowSum_apply _ _ _ _ _ r).trans ?_
  refine Finset.sum_congr rfl fun q _ => ?_
  show Scalar.select (k1_pay17 (F := Ideal) (k1_pay13 (F := Ideal) x0 x1 x2 x3) (k1_pay16 (F := Ideal) x0 x1 x4 x6) (Scalar.ofBits .f32 0x00000000#32) (ix2 r q))
    (Ideal.exp (Ideal.ofBits .f32 0xC0000000#32 * (k1_pay11 (F := Ideal) x0 x1 (ix2 r q) - Ideal.ofBits .f32 0x3F000000#32)))
    (Ideal.ofBits .f32 0x00000000#32) = _
  rw [keepPos_apply, tile_apply, Ideal.ofBits_zero_f32]
  rfl

/-- The negative sum grows by the tile's kept negatives' terms of the row. -/
theorem negStep_apply : Steps.negStep (F := Ideal) x0 x1 x2 x3 x4 x5 acc (ix2 r 0)
    = acc (ix2 r 0) + ∑ q : Fin 512, negTermE (tileE x0 x1 r q) (x2 (ix2 r 0)) (x3 (ix2 0 q)) (x4 (ix2 r 0)) (x5 (ix2 r 0)) := by
  unfold Steps.negStep k1_pay1
  refine (congrFun (shapeCast_self _ _) (ix2 r 0)).trans ?_
  show acc (ix2 r 0) + _ = _
  refine congrArg (acc (ix2 r 0) + ·) ?_
  refine (rowSum_apply _ _ _ _ _ r).trans ?_
  refine Finset.sum_congr rfl fun q _ => ?_
  show Scalar.select (k1_pay15 (F := Ideal) x0 x1 x2 x3 x4 x5 (ix2 r q))
    (Ideal.exp (Ideal.ofBits .f32 0x41200000#32 * (k1_pay11 (F := Ideal) x0 x1 (ix2 r q) - Ideal.ofBits .f32 0x3F000000#32)))
    (Ideal.ofBits .f32 0x00000000#32) = _
  rw [keepNeg_apply, tile_apply, Ideal.ofBits_zero_f32]
  rfl

end Steps

end Cert.KernelIdeal.V2

end
-- ==== Proof.KernelIdeal.Pass2ValueAcc.lean ====
/-
  The four running columns of the second pass after any grid point, and after a row block's last column block.

  A column that is zero plus the point's addend at a row block's first column block, and what the point before left
  plus the point's addend at the later ones, is after point `n` the sum of the addends of column blocks `0 … n % 16`
  of row block `n / 16` (`run_rows`). The addend of each running column at a point is the sum over the tile's 512
  columns of the specification's one-pair term at the tile's rows and columns as rows of the arrays (`apStep_point` …).
  So after a row block's last column block the four columns hold, at row `r`, the row's count of kept positives and of
  kept negatives as floats and its two sums of exponentials over all 8192 columns (`ap_last` … `neg_last`).
-/
import proofs.«118951_j44573170598307_1_alg».proof.Proof.Spec
import proofs.«118951_j44573170598307_1_alg».proof.Proof.KernelIdeal.Steps
import proofs.«118951_j44573170598307_1_alg».proof.Proof.KernelIdeal.Pass2ValueSums
import proofs.«118951_j44573170598307_1_alg».proof.Proof.KernelIdeal.Pass2ValuePay
import proofs.«118951_j44573170598307_1_alg».proof.Proof.KernelIdeal.Pass2ValueBlocks
import Idealize.ShloMosaic.Lib.ValueIdx

noncomputable section

open scoped BigOperators

namespace Cert.KernelIdeal.V2

open Idealize.ShloMosaic Idealize.ShloMosaic.TcCoe Idealize.SL.Sem
open Cert.KernelIdeal Cert.KernelIdeal.Gen Idealize.ShloMosaic.ValueIdx
open Cert.Spec (lit)

/-! ## A running column over the column blocks of a row block -/

theorem run_rows {N : ℕ} (s : (n : ℕ) → n < N → Fin 512 → EReal) (e : ℕ → ℕ → Fin 512 → EReal)
    (hf : ∀ (n : ℕ) (h : n < N), n % 16 = 0 → ∀ r, s n h r = 0 + e (n / 16) (n % 16) r)
    (hl : ∀ (n : ℕ) (h : n < N) (h0 : n % 16 ≠ 0), ∀ r, s n h r = s (n - 1) (by omega) r + e (n / 16) (n % 16) r) :
    ∀ (n : ℕ) (h : n < N) (r : Fin 512), s n h r = ∑ B ∈ Finset.range (n % 16 + 1), e (n / 16) B r := by
  intro n
  induction n with
  | zero =>
    intro h r
    rw [hf 0 h rfl r, zero_add]
    show e (0 / 16) 0 r = ∑ B ∈ Finset.range 1, e (0 / 16) B r
    rw [Finset.sum_range_one]
  | succ n ih =>
    intro h r
    by_cases h0 : (n + 1) % 16 = 0
    · rw [hf (n + 1) h h0 r, zero_add, h0, zero_add, Finset.sum_range_one]
    · rw [hl (n + 1) h h0 r]
      have e1 : (n + 1) / 16 = n / 16 := by omega
      have e2 : (n + 1) % 16 = n % 16 + 1 := by omega
      rw [e1, e2, Finset.sum_range_succ, ← ih (by omega) r]
      rfl

variable (V : (c : Dev nD) → (b : Ref sig .tc) → Buf (Elt Ideal) ((c : Thread nD τ).loc b))

/-! ## The one-pair terms of the two sums of exponentials -/

/-- Pair `(i, j)`'s term of row `i`'s positive sum. -/
def posTerm (x : Fin 8192 → Fin 1024 → EReal) (tc tr : Fin 8192 → BitVec 32) (mg mn : Fin 8192 → EReal) (i j : Fin 8192) : EReal :=
  Scalar.select (Cert.Spec.keepPos x tc tr mg mn i j) (Ideal.exp (lit 0xC0000000#32 * (Cert.Spec.sim x i j - lit 0x3F000000#32))) 0
/-- Pair `(i, j)`'s term of row `i`'s negative sum. -/
def negTerm (x : Fin 8192 → Fin 1024 → EReal) (tc tr : Fin 8192 → BitVec 32) (mg mp : Fin 8192 → EReal) (i j : Fin 8192) : EReal :=
  Scalar.select (Cert.Spec.keepNeg x tc tr mg mp i j) (Ideal.exp (lit 0x41200000#32 * (Cert.Spec.sim x i j - lit 0x3F000000#32))) 0

/-! ## The four addends at a point -/

section Point
variable (c : Dev nD) (t : Fin cfg1.N)

/-- The tile's entries are the similarities of the row block's rows and the column block's rows. -/
theorem tile_blk (r q : Fin 512) :
    tileE (blk V c 0 t) (blk V c 1 t) r q = Cert.Spec.sim (X V c) (row (t.val / 16) r) (row (t.val % 16) q) := by
  unfold tileE Cert.Spec.sim
  exact Finset.sum_congr rfl fun k _ => by rw [b0_apply, b1_apply]

theorem apStep_point (acc : Vec Ideal S512x1 .f32) (r : Fin 512) :
    Steps.apStep (F := Ideal) (blk V c 0 t) (blk V c 1 t) (blk V c 2 t) (blk V c 3 t) (blk V c 4 t) (blk V c 6 t) acc (ix2 r 0)
      = acc (ix2 r 0) + ∑ q : Fin 512, bitR (Cert.Spec.keepPos (X V c) (TC V c) (TR V c) (MG V c) (MN V c) (row (t.val / 16) r) (row (t.val % 16) q)) := by
  refine (apStep_apply (blk V c 0 t) (blk V c 1 t) (blk V c 2 t) (blk V c 3 t) (blk V c 4 t) (blk V c 6 t) acc r).trans ?_
  refine congrArg (acc (ix2 r 0) + ·) (Finset.sum_congr rfl fun q _ => ?_)
  rw [tile_blk, b2_apply, b3_apply, b4_apply, b6_apply]
  rfl

theorem anStep_point (acc : Vec Ideal S512x1 .f32) (r : Fin 512) :
    Steps.anStep (F := Ideal) (blk V c 0 t) (blk V c 1 t) (blk V c 2 t) (blk V c 3 t) (blk V c 4 t) (blk V c 5 t) acc (ix2 r 0)
      = acc (ix2 r 0) + ∑ q : Fin 512, bitR (Cert.Spec.keepNeg (X V c) (TC V c) (TR V c) (MG V c) (MP V c) (row (t.val / 16) r) (row (t.val % 16) q)) := by
  refine (anStep_apply (blk V c 0 t) (blk V c 1 t) (blk V c 2 t) (blk V c 3 t) (blk V c 4 t) (blk V c 5 t) acc r).trans ?_
  refine congrArg (acc (ix2 r 0) + ·) (Finset.sum_congr rfl fun q _ => ?_)
  rw [tile_blk, b2_apply, b3_apply, b4_apply, b5_apply]
  rfl

theorem posStep_point (acc : Vec Ideal S512x1 .f32) (r : Fin 512) :
    Steps.posStep (F := Ideal) (blk V c 0 t) (blk V c 1 t) (blk V c 2 t) (blk V c 3 t) (blk V c 4 t) (blk V c 6 t) acc (ix2 r 0)
      = acc (ix2 r 0) + ∑ q : Fin 512, posTerm (X V c) (TC V c) (TR V c) (MG V c) (MN V c) (row (t.val / 16) r) (row (t.val % 16) q) := by
  refine (posStep_apply (blk V c 0 t) (blk V c 1 t) (blk V c 2 t) (blk V c 3 t) (blk V c 4 t) (blk V c 6 t) acc r).trans ?_
  refine congrArg (acc (ix2 r 0) + ·) (Finset.sum_congr rfl fun q _ => ?_)
  rw [tile_blk, b2_apply, b3_apply, b4_apply, b6_apply]
  rfl

theorem negStep_point (acc : Vec Ideal S512x1 .f32) (r : Fin 512) :
    Steps.negStep (F := Ideal) (blk V c 0 t) (blk V c 1 t) (blk V c 2 t) (blk V c 3 t) (blk V c 4 t) (blk V c 5 t) acc (ix2 r 0)
      = acc (ix2 r 0) + ∑ q : Fin 512, negTerm (X V c) (TC V c) (TR V c) (MG V c) (MP V c) (row (t.val / 16) r) (row (t.val % 16) q) := by
  refine (negStep_apply (blk V c 0 t) (blk V c 1 t) (blk V c 2 t) (blk V c 3 t) (blk V c 4 t) (blk V c 5 t) acc r).trans ?_
  refine congrArg (acc (ix2 r 0) + ·) (Finset.sum_congr rfl fun q _ => ?_)
  rw [tile_blk, b2_apply, b3_apply, b4_apply, b5_apply]
  rfl

end Point

/-! ## The running columns after a row block's last column block -/

section Last
variable (c : Dev nD) (s : (n : ℕ) → n < cfg1.N → Vec Ideal S512x1 .f32)

/-- The count of kept positives. -/
theorem ap_last
    (hf : ∀ t : Fin cfg1.N, t.val % 16 = 0 → s t.val t.isLt = Steps.apStep (blk V c 0 t) (blk V c 1 t) (blk V c 2 t) (blk V c 3 t) (blk V c 4 t) (blk V c 6 t) Steps.apInit)
    (hl : ∀ (t : Fin cfg1.N) (h : t.val % 16 ≠ 0), s t.val t.isLt = Steps.apStep (blk V c 0 t) (blk V c 1 t) (blk V c 2 t) (blk V c 3 t) (blk V c 4 t) (blk V c 6 t) (s (t.val - 1) (by omega)))
    (t : Fin cfg1.N) (ht : t.val % 16 = 15) (r : Fin 512) :
    s t.val t.isLt (ix2 r 0) = (Cert.Spec.ap (X V c) (TC V c) (TR V c) (MG V c) (MN V c) (row (t.val / 16) r) : EReal) := by
  refine (run_rows (fun n h r => s n h (ix2 r 0))
    (fun I B r => ∑ q : Fin 512, bitR (Cert.Spec.keepPos (X V c) (TC V c) (TR V c) (MG V c) (MN V c) (row I r) (row B q))) ?_ ?_ t.val t.isLt r).trans ?_
  · intro n h hn r
    refine (congrFun (hf ⟨n, h⟩ hn) (ix2 r 0)).trans ?_
    refine (apStep_point V c ⟨n, h⟩ Steps.apInit r).trans ?_
    rw [apInit_apply]
  · intro n h hn r
    refine (congrFun (hl ⟨n, h⟩ hn) (ix2 r 0)).trans ?_
    exact apStep_point V c ⟨n, h⟩ _ r
  · rw [ht]
    refine (sum_rows (fun j => bitR (Cert.Spec.keepPos (X V c) (TC V c) (TR V c) (MG V c) (MN V c) (row (t.val / 16) r) j))).trans ?_
    exact sum_bitR _

/-- The count of kept negatives. -/
theorem an_last
    (hf : ∀ t : Fin cfg1.N, t.val % 16 = 0 → s t.val t.isLt = Steps.anStep (blk V c 0 t) (blk V c 1 t) (blk V c 2 t) (blk V c 3 t) (blk V c 4 t) (blk V c 5 t) Steps.anInit)
    (hl : ∀ (t : Fin cfg1.N) (h : t.val % 16 ≠ 0), s t.val t.isLt = Steps.anStep (blk V c 0 t) (blk V c 1 t) (blk V c 2 t) (blk V c 3 t) (blk V c 4 t) (blk V c 5 t) (s (t.val - 1) (by omega)))
    (t : Fin cfg1.N) (ht : t.val % 16 = 15) (r : Fin 512) :
    s t.val t.isLt (ix2 r 0) = (Cert.Spec.an (X V c) (TC V c) (TR V c) (MG V c) (MP V c) (row (t.val / 16) r) : EReal) := by
  refine (run_rows (fun n h r => s n h (ix2 r 0))
    (fun I B r => ∑ q : Fin 512, bitR (Cert.Spec.keepNeg (X V c) (TC V c) (TR V c) (MG V c) (MP V c) (row I r) (row B q))) ?_ ?_ t.val t.isLt r).trans ?_
  · intro n h hn r
    refine (congrFun (hf ⟨n, h⟩ hn) (ix2 r 0)).trans ?_
    refine (anStep_point V c ⟨n, h⟩ Steps.anInit r).trans ?_
    rw [anInit_apply]
  · intro n h hn r
    refine (congrFun (hl ⟨n, h⟩ hn) (ix2 r 0)).trans ?_
    exact anStep_point V c ⟨n, h⟩ _ r
  · rw [ht]
    refine (sum_rows (fun j => bitR (Cert.Spec.keepNeg (X V c) (TC V c) (TR V c) (MG V c) (MP V c) (row (t.val / 16) r) j))).trans ?_
    exact sum_bitR _

/-- The sum over the kept positives. -/
theorem pos_last
    (hf : ∀ t : Fin cfg1.N, t.val % 16 = 0 → s t.val t.isLt = Steps.posStep (blk V c 0 t) (blk V c 1 t) (blk V c 2 t) (blk V c 3 t) (blk V c 4 t) (blk V c 6 t) Steps.posInit)
    (hl : ∀ (t : Fin cfg1.N) (h : t.val % 16 ≠ 0), s t.val t.isLt = Steps.posStep (blk V c 0 t) (blk V c 1 t) (blk V c 2 t) (blk V c 3 t) (blk V c 4 t) (blk V c 6 t) (s (t.val - 1) (by omega)))
    (t : Fin cfg1.N) (ht : t.val % 16 = 15) (r : Fin 512) :
    s t.val t.isLt (ix2 r 0) = Cert.Spec.posSum (X V c) (TC V c) (TR V c) (MG V c) (MN V c) (row (t.val / 16) r) := by
  refine (run_rows (fun n h r => s n h (ix2 r 0))
    (fun I B r => ∑ q : Fin 512, posTerm (X V c) (TC V c) (TR V c) (MG V c) (MN V c) (row I r) (row B q)) ?_ ?_ t.val t.isLt r).trans ?_
  · intro n h hn r
    refine (congrFun (hf ⟨n, h⟩ hn) (ix2 r 0)).trans ?_
    refine (posStep_point V c ⟨n, h⟩ Steps.posInit r).trans ?_
    rw [posInit_apply]
  · intro n h hn r
    refine (congrFun (hl ⟨n, h⟩ hn) (ix2 r 0)).trans ?_
    exact posStep_point V c ⟨n, h⟩ _ r
  · rw [ht]
    exact sum_rows (fun j => posTerm (X V c) (TC V c) (TR V c) (MG V c) (MN V c) (row (t.val / 16) r) j)

/-- The sum over the kept negatives. -/
theorem neg_last
    (hf : ∀ t : Fin cfg1.N, t.val % 16 = 0 → s t.val t.isLt = Steps.negStep (blk V c 0 t) (blk V c 1 t) (blk V c 2 t) (blk V c 3 t) (blk V c 4 t) (blk V c 5 t) Steps.negInit)
    (hl : ∀ (t : Fin cfg1.N) (h : t.val % 16 ≠ 0), s t.val t.isLt = Steps.negStep (blk V c 0 t) (blk V c 1 t) (blk V c 2 t) (blk V c 3 t) (blk V c 4 t) (blk V c 5 t) (s (t.val - 1) (by omega)))
    (t : Fin cfg1.N) (ht : t.val % 16 = 15) (r : Fin 512) :
    s t.val t.isLt (ix2 r 0) = Cert.Spec.negSum (X V c) (TC V c) (TR V c) (MG V c) (MP V c) (row (t.val / 16) r) := by
  refine (run_rows (fun n h r => s n h (ix2 r 0))
    (fun I B r => ∑ q : Fin 512, negTerm (X V c) (TC V c) (TR V c) (MG V c) (MP V c) (row I r) (row B q)) ?_ ?_ t.val t.isLt r).trans ?_
  · intro n h hn r
    refine (congrFun (hf ⟨n, h⟩ hn) (ix2 r 0)).trans ?_
    refine (negStep_point V c ⟨n, h⟩ Steps.negInit r).trans ?_
    rw [negInit_apply]
  · intro n h hn r
    refine (congrFun (hl ⟨n, h⟩ hn) (ix2 r 0)).trans ?_
    exact negStep_point V c ⟨n, h⟩ _ r
  · rw [ht]
    exact sum_rows (fun j => negTerm (X V c) (TC V c) (TR V c) (MG V c) (MP V c) (row (t.val / 16) r) j)

end Last

end Cert.KernelIdeal.V2

end
-- ==== Proof.KernelIdeal.Pass2ValueOut.lean ====
/-
  What the last column block of a row block writes out, at a row, from the row's four finished sums.

  With `p`, `n` the row's counts of kept positives and negatives as floats and `a`, `b` its two sums of exponentials:
  the row is valid when both counts are above zero (`validE`); the loss is `1 · log1p a + ⅕ · log1p b` on a valid row
  and zero otherwise, the flag is the validity bit widened, and the two count outputs are the counts truncated to
  words on a valid row and zero otherwise. When the counts are the specification's cardinalities and the sums its sums,
  these are the specification's row loss, flag and counts.
-/
import proofs.«118951_j44573170598307_1_alg».proof.Proof.Spec
import proofs.«118951_j44573170598307_1_alg».proof.Proof.KernelIdeal.Steps
import proofs.«118951_j44573170598307_1_alg».proof.Proof.KernelIdeal.Pass2ValueSums
import Idealize.ShloMosaic.Lib.ValueIdx
import Idealize.ShloMosaic.PureOps.Ideal.Laws

noncomputable section

open scoped BigOperators

namespace Cert.KernelIdeal.V2

open Idealize.ShloMosaic Cert.KernelIdeal Cert.KernelIdeal.Gen Idealize.ShloMosaic.ValueIdx
open Cert.Spec (lit)

/-- Both counts, as floats, are above zero. -/
def validE (p n : EReal) : BitVec 1 :=
  IntOp.andi (Ideal.cmp .ogt p (lit 0x00000000#32)) (Ideal.cmp .ogt n (lit 0x00000000#32))

/-! ## The four outputs at a row, from the finished running columns at that row -/

section Rows
variable (s0 s1 s2 s3 : Vec Ideal S512x1 .f32) (r : Fin 512)

theorem lossOut_apply : Steps.lossOut (F := Ideal) s0 s1 s2 s3 (ix2 r 0)
    = Scalar.select (validE (s0 (ix2 r 0)) (s1 (ix2 r 0)))
        (lit 0x3F800000#32 * Ideal.log1p (s2 (ix2 r 0)) + lit 0x3E4CCCCD#32 * Ideal.log1p (s3 (ix2 r 0))) (lit 0x00000000#32) := rfl

theorem anchorOut_apply : Steps.anchorOut (F := Ideal) s0 s1 (ix2 r 0) = (validE (s0 (ix2 r 0)) (s1 (ix2 r 0))).setWidth 32 := rfl

theorem apOut_apply : Steps.apOut (F := Ideal) s0 s1 (ix2 r 0)
    = Ideal.fptosi 32 (Scalar.select (validE (s0 (ix2 r 0)) (s1 (ix2 r 0))) (s0 (ix2 r 0)) (lit 0x00000000#32)) := rfl

theorem anOut_apply : Steps.anOut (F := Ideal) s0 s1 (ix2 r 0)
    = Ideal.fptosi 32 (Scalar.select (validE (s0 (ix2 r 0)) (s1 (ix2 r 0))) (s1 (ix2 r 0)) (lit 0x00000000#32)) := rfl

end Rows

/-! ## Against the specification -/

/-- Validity from two counts. -/
theorem validE_natCast (p n : ℕ) : validE (p : EReal) (n : EReal) = if 0 < p ∧ 0 < n then 1#1 else 0#1 := by
  unfold validE
  rw [cmp_ogt_natCast, cmp_ogt_natCast]
  by_cases hp : 0 < p <;> by_cases hn : 0 < n
  · rw [if_pos hp, if_pos hn, if_pos ⟨hp, hn⟩]; rfl
  · rw [if_pos hp, if_neg hn, if_neg (fun h => hn h.2)]; rfl
  · rw [if_neg hp, if_pos hn, if_neg (fun h => hp h.1)]; rfl
  · rw [if_neg hp, if_neg hn, if_neg (fun h => hp h.1)]; rfl

section Spec
variable (x : Fin 8192 → Fin 1024 → EReal) (tc tr : Fin 8192 → BitVec 32) (mg mp mn : Fin 8192 → EReal) (i : Fin 8192)

theorem ap_lt : Cert.Spec.ap x tc tr mg mn i < 2 ^ 31 := by
  unfold Cert.Spec.ap
  refine lt_of_le_of_lt (Finset.card_filter_le _ _) ?_
  rw [Finset.card_univ, Fintype.card_fin]; decide
theorem an_lt : Cert.Spec.an x tc tr mg mp i < 2 ^ 31 := by
  unfold Cert.Spec.an
  refine lt_of_le_of_lt (Finset.card_filter_le _ _) ?_
  rw [Finset.card_univ, Fintype.card_fin]; decide

theorem validE_spec : validE (Cert.Spec.ap x tc tr mg mn i : EReal) (Cert.Spec.an x tc tr mg mp i : EReal)
    = Cert.Spec.valid x tc tr mg mp mn i := by
  rw [validE_natCast]; rfl

/-- The loss of the row. -/
theorem loss_spec : Scalar.select (validE (Cert.Spec.ap x tc tr mg mn i : EReal) (Cert.Spec.an x tc tr mg mp i : EReal))
      (lit 0x3F800000#32 * Ideal.log1p (Cert.Spec.posSum x tc tr mg mn i) + lit 0x3E4CCCCD#32 * Ideal.log1p (Cert.Spec.negSum x tc tr mg mp i))
      (lit 0x00000000#32)
    = Cert.Spec.lossRow x tc tr mg mp mn i := by
  rw [validE_spec, show lit 0x00000000#32 = 0 from Ideal.ofBits_zero_f32]; rfl

/-- The validity flag of the row. -/
theorem anchor_spec : (validE (Cert.Spec.ap x tc tr mg mn i : EReal) (Cert.Spec.an x tc tr mg mp i : EReal)).setWidth 32
    = Cert.Spec.anchor x tc tr mg mp mn i := by
  rw [validE_spec]; rfl

/-- The count of kept positives of the row, zero on an invalid row. -/
theorem apOut_spec : Ideal.fptosi 32 (Scalar.select (validE (Cert.Spec.ap x tc tr mg mn i : EReal) (Cert.Spec.an x tc tr mg mp i : EReal))
      (Cert.Spec.ap x tc tr mg mn i : EReal) (lit 0x00000000#32))
    = Cert.Spec.apOut x tc tr mg mp mn i := by
  rw [validE_spec]
  unfold Cert.Spec.apOut
  rcases BitVec.eq_zero_or_eq_one (Cert.Spec.valid x tc tr mg mp mn i) with h | h <;> rw [h]
  · rw [select_zero, select_zero, fptosi_zero]
  · rw [select_one, select_one, fptosi_natCast _ (ap_lt x tc tr mg mn i)]

/-- The count of kept negatives of the row, zero on an invalid row. -/
theorem anOut_spec : Ideal.fptosi 32 (Scalar.select (validE (Cert.Spec.ap x tc tr mg mn i : EReal) (Cert.Spec.an x tc tr mg mp i : EReal))
      (Cert.Spec.an x tc tr mg mp i : EReal) (lit 0x00000000#32))
    = Cert.Spec.anOut x tc tr mg mp mn i := by
  rw [validE_spec]
  unfold Cert.Spec.anOut
  rcases BitVec.eq_zero_or_eq_one (Cert.Spec.valid x tc tr mg mp mn i) with h | h <;> rw [h]
  · rw [select_zero, select_zero, fptosi_zero]
  · rw [select_one, select_one, fptosi_natCast _ (an_lt x tc tr mg mp i)]

end Spec

end Cert.KernelIdeal.V2

end
-- ==== Proof.KernelIdeal.Pass2Value.lean ====
/-
  The value of the second pass: the arrays its four output windows leave are the specification's row loss, validity
  flag and two counts.

  Each output window writes a block back only after a row block's last column block, and those sixteen blocks tile
  its [8192, 1] array (`cover7` … `cover10`). What is written back there is, row by row, the output of the four running
  columns, which by then hold the row's two counts and two sums of exponentials over all 8192 columns: the
  specification's value at the row (`flushed7` … `flushed10`). So each array ends holding the specification's column
  (`pass2_value`).
-/
import proofs.«118951_j44573170598307_1_alg».proof.Proof.Spec
import proofs.«118951_j44573170598307_1_alg».proof.Proof.KernelIdeal.Steps
import proofs.«118951_j44573170598307_1_alg».proof.Proof.KernelIdeal.Pass2ValueSums
import proofs.«118951_j44573170598307_1_alg».proof.Proof.KernelIdeal.Pass2ValueBlocks
import proofs.«118951_j44573170598307_1_alg».proof.Proof.KernelIdeal.Pass2ValueAcc
import proofs.«118951_j44573170598307_1_alg».proof.Proof.KernelIdeal.Pass2ValueOut
import proofs.«118951_j44573170598307_1_alg».proof.Proof.Gen.KernelIdeal.Launch
import proofs.«118951_j44573170598307_1_alg».proof.Proof.Gen.KernelIdeal.Points
import Idealize.ShloMosaic.Lib.Pipeline.Value
import Idealize.ShloMosaic.Lib.ValueIdx

noncomputable section

open scoped BigOperators

namespace Cert.KernelIdeal.V2

open Idealize.ShloMosaic Idealize.ShloMosaic.TcCoe Idealize.SL.Sem
open Idealize.ShloMosaic.Pipeline (Dat)
open Cert.KernelIdeal Cert.KernelIdeal.Gen Idealize.ShloMosaic.ValueIdx

/-! ## The output windows' blocks as rows of their arrays, and their cover -/

theorem idx1_7 : ∀ t : Fin cfg1.N, win1_7.index t 0 = t.val / 16 ∧ win1_7.index t 1 = 0 :=
  (by decide +kernel : ∀ t : Fin grid1.N, win1_7.index t 0 = t.val / 16 ∧ win1_7.index t 1 = 0)

/-- Row `r` of output window 7's block at point `t` is row `row (t / 16) r` of its array. -/
theorem out7_read (G : S8192x1.Idx → EReal) (t : Fin cfg1.N) (r : Fin 512) :
    ((cfg1.win 7).blk t).view.read (Elt Ideal) G (ix2 r 0) = G (ix2 (row (t.val / 16) r) 0) := by
  have hN : cfg1.N = 256 := N_1
  have ht := t.isLt
  show G _ = G _
  congr 1
  funext a
  apply Fin.ext
  match a with
  | ⟨0, _⟩ =>
    show win1_7.index t 0 * 512 + 1 * r.val = (row (t.val / 16) r).val
    rw [(idx1_7 t).1, row_val _ _ (by omega)]; omega
  | ⟨1, _⟩ =>
    show win1_7.index t 1 * 1 + 1 * 0 = 0
    rw [(idx1_7 t).2]

/-- Every row of output window 7's array lies in the block its row block's last point writes back. -/
theorem cover7 (i : S8192x1.Idx) :
    ∃ t : Fin cfg1.N, (cfg1.win 7).flush t = true ∧ i ∈ ((cfg1.win 7).blk t).view.set := by
  have hN : cfg1.N = 256 := N_1
  have h0 : (i 0 : ℕ) < 8192 := (i 0).isLt
  have h1 : (i 1 : ℕ) < 1 := (i 1).isLt
  have hlt : 16 * ((i 0 : ℕ) / 512) + 15 < cfg1.N := by omega
  refine ⟨⟨16 * ((i 0 : ℕ) / 512) + 15, hlt⟩, (flush1_7 _).mpr (by show (16 * ((i 0 : ℕ) / 512) + 15) % 16 = 15; omega), ?_⟩
  show i ∈ ((View.whole main_v4_0).slice (win1_7.rect ⟨16 * ((i 0 : ℕ) / 512) + 15, hlt⟩)).set
  rw [View.set_slice_whole, Rect.mem_set_unit]
  intro a
  match a with
  | ⟨0, _⟩ =>
    show win1_7.index _ 0 * 512 ≤ (i 0 : ℕ) ∧ (i 0 : ℕ) < win1_7.index _ 0 * 512 + 512
    rw [(idx1_7 _).1]
    show (16 * ((i 0 : ℕ) / 512) + 15) / 16 * 512 ≤ (i 0 : ℕ) ∧ (i 0 : ℕ) < (16 * ((i 0 : ℕ) / 512) + 15) / 16 * 512 + 512
    omega
  | ⟨1, _⟩ =>
    show win1_7.index _ 1 * 1 ≤ (i 1 : ℕ) ∧ (i 1 : ℕ) < win1_7.index _ 1 * 1 + 1
    rw [(idx1_7 _).2]
    omega

theorem idx1_8 : ∀ t : Fin cfg1.N, win1_8.index t 0 = t.val / 16 ∧ win1_8.index t 1 = 0 :=
  (by decide +kernel : ∀ t : Fin grid1.N, win1_8.index t 0 = t.val / 16 ∧ win1_8.index t 1 = 0)

/-- Row `r` of output window 8's block at point `t` is row `row (t / 16) r` of its array. -/
theorem out8_read (G : S8192x1.Idx → BitVec 32) (t : Fin cfg1.N) (r : Fin 512) :
    ((cfg1.win 8).blk t).view.read (Elt Ideal) G (ix2 r 0) = G (ix2 (row (t.val / 16) r) 0) := by
  have hN : cfg1.N = 256 := N_1
  have ht := t.isLt
  show G _ = G _
  congr 1
  funext a
  apply Fin.ext
  match a with
  | ⟨0, _⟩ =>
    show win1_8.index t 0 * 512 + 1 * r.val = (row (t.val / 16) r).val
    rw [(idx1_8 t).1, row_val _ _ (by omega)]; omega
  | ⟨1, _⟩ =>
    show win1_8.index t 1 * 1 + 1 * 0 = 0
    rw [(idx1_8 t).2]

/-- Every row of output window 8's array lies in the block its row block's last point writes back. -/
theorem cover8 (i : S8192x1.Idx) :
    ∃ t : Fin cfg1.N, (cfg1.win 8).flush t = true ∧ i ∈ ((cfg1.win 8).blk t).view.set := by
  have hN : cfg1.N = 256 := N_1
  have h0 : (i 0 : ℕ) < 8192 := (i 0).isLt
  have h1 : (i 1 : ℕ) < 1 := (i 1).isLt
  have hlt : 16 * ((i 0 : ℕ) / 512) + 15 < cfg1.N := by omega
  refine ⟨⟨16 * ((i 0 : ℕ) / 512) + 15, hlt⟩, (flush1_8 _).mpr (by show (16 * ((i 0 : ℕ) / 512) + 15) % 16 = 15; omega), ?_⟩
  show i ∈ ((View.whole main_v4_1).slice (win1_8.rect ⟨16 * ((i 0 : ℕ) / 512) + 15, hlt⟩)).set
  rw [View.set_slice_whole, Rect.mem_set_unit]
  intro a
  match a with
  | ⟨0, _⟩ =>
    show win1_8.index _ 0 * 512 ≤ (i 0 : ℕ) ∧ (i 0 : ℕ) < win1_8.index _ 0 * 512 + 512
    rw [(idx1_8 _).1]
    show (16 * ((i 0 : ℕ) / 512) + 15) / 16 * 512 ≤ (i 0 : ℕ) ∧ (i 0 : ℕ) < (16 * ((i 0 : ℕ) / 512) + 15) / 16 * 512 + 512
    omega
  | ⟨1, _⟩ =>
    show win1_8.index _ 1 * 1 ≤ (i 1 : ℕ) ∧ (i 1 : ℕ) < win1_8.index _ 1 * 1 + 1
    rw [(idx1_8 _).2]
    omega

theorem idx1_9 : ∀ t : Fin cfg1.N, win1_9.index t 0 = t.val / 16 ∧ win1_9.index t 1 = 0 :=
  (by decide +kernel : ∀ t : Fin grid1.N, win1_9.index t 0 = t.val / 16 ∧ win1_9.index t 1 = 0)

/-- Row `r` of output window 9's block at point `t` is row `row (t / 16) r` of its array. -/
theorem out9_read (G : S8192x1.Idx → BitVec 32) (t : Fin cfg1.N) (r : Fin 512) :
    ((cfg1.win 9).blk t).view.read (Elt Ideal) G (ix2 r 0) = G (ix2 (row (t.val / 16) r) 0) := by
  have hN : cfg1.N = 256 := N_1
  have ht := t.isLt
  show G _ = G _
  congr 1
  funext a
  apply Fin.ext
  match a with
  | ⟨0, _⟩ =>
    show win1_9.index t 0 * 512 + 1 * r.val = (row (t.val / 16) r).val
    rw [(idx1_9 t).1, row_val _ _ (by omega)]; omega
  | ⟨1, _⟩ =>
    show win1_9.index t 1 * 1 + 1 * 0 = 0
    rw [(idx1_9 t).2]

/-- Every row of output window 9's array lies in the block its row block's last point writes back. -/
theorem cover9 (i : S8192x1.Idx) :
    ∃ t : Fin cfg1.N, (cfg1.win 9).flush t = true ∧ i ∈ ((cfg1.win 9).blk t).view.set := by
  have hN : cfg1.N = 256 := N_1
  have h0 : (i 0 : ℕ) < 8192 := (i 0).isLt
  have h1 : (i 1 : ℕ) < 1 := (i 1).isLt
  have hlt : 16 * ((i 0 : ℕ) / 512) + 15 < cfg1.N := by omega
  refine ⟨⟨16 * ((i 0 : ℕ) / 512) + 15, hlt⟩, (flush1_9 _).mpr (by show (16 * ((i 0 : ℕ) / 512) + 15) % 16 = 15; omega), ?_⟩
  show i ∈ ((View.whole main_v4_2).slice (win1_9.rect ⟨16 * ((i 0 : ℕ) / 512) + 15, hlt⟩)).set
  rw [View.set_slice_whole, Rect.mem_set_unit]
  intro a
  match a with
  | ⟨0, _⟩ =>
    show win1_9.index _ 0 * 512 ≤ (i 0 : ℕ) ∧ (i 0 : ℕ) < win1_9.index _ 0 * 512 + 512
    rw [(idx1_9 _).1]
    show (16 * ((i 0 : ℕ) / 512) + 15) / 16 * 512 ≤ (i 0 : ℕ) ∧ (i 0 : ℕ) < (16 * ((i 0 : ℕ) / 512) + 15) / 16 * 512 + 512
    omega
  | ⟨1, _⟩ =>
    show win1_9.index _ 1 * 1 ≤ (i 1 : ℕ) ∧ (i 1 : ℕ) < win1_9.index _ 1 * 1 + 1
    rw [(idx1_9 _).2]
    omega

theorem idx1_10 : ∀ t : Fin cfg1.N, win1_10.index t 0 = t.val / 16 ∧ win1_10.index t 1 = 0 :=
  (by decide +kernel : ∀ t : Fin grid1.N, win1_10.index t 0 = t.val / 16 ∧ win1_10.index t 1 = 0)

/-- Row `r` of output window 10's block at point `t` is row `row (t / 16) r` of its array. -/
theorem out10_read (G : S8192x1.Idx → BitVec 32) (t : Fin cfg1.N) (r : Fin 512) :
    ((cfg1.win 10).blk t).view.read (Elt Ideal) G (ix2 r 0) = G (ix2 (row (t.val / 16) r) 0) := by
  have hN : cfg1.N = 256 := N_1
  have ht := t.isLt
  show G _ = G _
  congr 1
  funext a
  apply Fin.ext
  match a with
  | ⟨0, _⟩ =>
    show win1_10.index t 0 * 512 + 1 * r.val = (row (t.val / 16) r).val
    rw [(idx1_10 t).1, row_val _ _ (by omega)]; omega
  | ⟨1, _⟩ =>
    show win1_10.index t 1 * 1 + 1 * 0 = 0
    rw [(idx1_10 t).2]

/-- Every row of output window 10's array lies in the block its row block's last point writes back. -/
theorem cover10 (i : S8192x1.Idx) :
    ∃ t : Fin cfg1.N, (cfg1.win 10).flush t = true ∧ i ∈ ((cfg1.win 10).blk t).view.set := by
  have hN : cfg1.N = 256 := N_1
  have h0 : (i 0 : ℕ) < 8192 := (i 0).isLt
  have h1 : (i 1 : ℕ) < 1 := (i 1).isLt
  have hlt : 16 * ((i 0 : ℕ) / 512) + 15 < cfg1.N := by omega
  refine ⟨⟨16 * ((i 0 : ℕ) / 512) + 15, hlt⟩, (flush1_10 _).mpr (by show (16 * ((i 0 : ℕ) / 512) + 15) % 16 = 15; omega), ?_⟩
  show i ∈ ((View.whole main_v4_3).slice (win1_10.rect ⟨16 * ((i 0 : ℕ) / 512) + 15, hlt⟩)).set
  rw [View.set_slice_whole, Rect.mem_set_unit]
  intro a
  match a with
  | ⟨0, _⟩ =>
    show win1_10.index _ 0 * 512 ≤ (i 0 : ℕ) ∧ (i 0 : ℕ) < win1_10.index _ 0 * 512 + 512
    rw [(idx1_10 _).1]
    show (16 * ((i 0 : ℕ) / 512) + 15) / 16 * 512 ≤ (i 0 : ℕ) ∧ (i 0 : ℕ) < (16 * ((i 0 : ℕ) / 512) + 15) / 16 * 512 + 512
    omega
  | ⟨1, _⟩ =>
    show win1_10.index _ 1 * 1 ≤ (i 1 : ℕ) ∧ (i 1 : ℕ) < win1_10.index _ 1 * 1 + 1
    rw [(idx1_10 _).2]
    omega

variable (V : (c : Dev nD) → (b : Ref sig .tc) → Buf (Elt Ideal) ((c : Thread nD τ).loc b))

/-! ## The specification's four columns as arrays -/

def lossArr (c : Dev nD) : S8192x1.Idx → EReal := fun i => Cert.Spec.lossRow (X V c) (TC V c) (TR V c) (MG V c) (MP V c) (MN V c) (i 0)
def anchorArr (c : Dev nD) : S8192x1.Idx → BitVec 32 := fun i => Cert.Spec.anchor (X V c) (TC V c) (TR V c) (MG V c) (MP V c) (MN V c) (i 0)
def apArr (c : Dev nD) : S8192x1.Idx → BitVec 32 := fun i => Cert.Spec.apOut (X V c) (TC V c) (TR V c) (MG V c) (MP V c) (MN V c) (i 0)
def anArr (c : Dev nD) : S8192x1.Idx → BitVec 32 := fun i => Cert.Spec.anOut (X V c) (TC V c) (TR V c) (MG V c) (MP V c) (MN V c) (i 0)

/-! ## What the last column block of a row block writes back -/

section Flushed
variable (c : Dev nD) (dat : Dat τ (Elt Ideal) Unit ℕ (Pipeline.UD sig nD τ) ℕ cfg1 c)

theorem flushed7 (s0 s1 s2 s3 : (n : ℕ) → n < cfg1.N → Vec Ideal S512x1 .f32)
    (h0f : ∀ t : Fin cfg1.N, t.val % 16 = 0 → s0 t.val t.isLt = Steps.apStep (blk V c 0 t) (blk V c 1 t) (blk V c 2 t) (blk V c 3 t) (blk V c 4 t) (blk V c 6 t) Steps.apInit)
    (h0l : ∀ (t : Fin cfg1.N) (h : t.val % 16 ≠ 0), s0 t.val t.isLt = Steps.apStep (blk V c 0 t) (blk V c 1 t) (blk V c 2 t) (blk V c 3 t) (blk V c 4 t) (blk V c 6 t) (s0 (t.val - 1) (by omega)))
    (h1f : ∀ t : Fin cfg1.N, t.val % 16 = 0 → s1 t.val t.isLt = Steps.anStep (blk V c 0 t) (blk V c 1 t) (blk V c 2 t) (blk V c 3 t) (blk V c 4 t) (blk V c 5 t) Steps.anInit)
    (h1l : ∀ (t : Fin cfg1.N) (h : t.val % 16 ≠ 0), s1 t.val t.isLt = Steps.anStep (blk V c 0 t) (blk V c 1 t) (blk V c 2 t) (blk V c 3 t) (blk V c 4 t) (blk V c 5 t) (s1 (t.val - 1) (by omega)))
    (h2f : ∀ t : Fin cfg1.N, t.val % 16 = 0 → s2 t.val t.isLt = Steps.posStep (blk V c 0 t) (blk V c 1 t) (blk V c 2 t) (blk V c 3 t) (blk V c 4 t) (blk V c 6 t) Steps.posInit)
    (h2l : ∀ (t : Fin cfg1.N) (h : t.val % 16 ≠ 0), s2 t.val t.isLt = Steps.posStep (blk V c 0 t) (blk V c 1 t) (blk V c 2 t) (blk V c 3 t) (blk V c 4 t) (blk V c 6 t) (s2 (t.val - 1) (by omega)))
    (h3f : ∀ t : Fin cfg1.N, t.val % 16 = 0 → s3 t.val t.isLt = Steps.negStep (blk V c 0 t) (blk V c 1 t) (blk V c 2 t) (blk V c 3 t) (blk V c 4 t) (blk V c 5 t) Steps.negInit)
    (h3l : ∀ (t : Fin cfg1.N) (h : t.val % 16 ≠ 0), s3 t.val t.isLt = Steps.negStep (blk V c 0 t) (blk V c 1 t) (blk V c 2 t) (blk V c 3 t) (blk V c 4 t) (blk V c 5 t) (s3 (t.val - 1) (by omega)))
    (ho7 : ∀ t : Fin cfg1.N, t.val % 16 = 15 → dat.after 7 t = Steps.lossOut (s0 t.val t.isLt) (s1 t.val t.isLt) (s2 t.val t.isLt) (s3 t.val t.isLt))
    (t : Fin cfg1.N) (hf : (cfg1.win 7).flush t = true) :
    dat.flushed 7 t = ((cfg1.win 7).blk t).view.read (Elt Ideal) (lossArr V c) := by
  have ht : t.val % 16 = 15 := (flush1_7 t).mp hf
  refine funext fun (y : S512x1.Idx) => ?_
  obtain ⟨r, z, rfl⟩ : ∃ (r : Fin 512) (z : Fin 1), y = ix2 r z := ⟨y 0, y 1, eq_ix2 y⟩
  obtain rfl : z = 0 := Subsingleton.elim _ _
  refine Eq.trans ?_ (out7_read (lossArr V c) t r).symm
  show dat.after 7 t (ix2 r 0) = Cert.Spec.lossRow (X V c) (TC V c) (TR V c) (MG V c) (MP V c) (MN V c) (row (t.val / 16) r)
  refine (congrFun (ho7 t ht) (ix2 r 0)).trans ?_
  rw [lossOut_apply, ap_last V c s0 h0f h0l t ht r, an_last V c s1 h1f h1l t ht r, pos_last V c s2 h2f h2l t ht r, neg_last V c s3 h3f h3l t ht r]
  exact loss_spec (X V c) (TC V c) (TR V c) (MG V c) (MP V c) (MN V c) (row (t.val / 16) r)

theorem flushed8 (s0 s1 s2 s3 : (n : ℕ) → n < cfg1.N → Vec Ideal S512x1 .f32)
    (h0f : ∀ t : Fin cfg1.N, t.val % 16 = 0 → s0 t.val t.isLt = Steps.apStep (blk V c 0 t) (blk V c 1 t) (blk V c 2 t) (blk V c 3 t) (blk V c 4 t) (blk V c 6 t) Steps.apInit)
    (h0l : ∀ (t : Fin cfg1.N) (h : t.val % 16 ≠ 0), s0 t.val t.isLt = Steps.apStep (blk V c 0 t) (blk V c 1 t) (blk V c 2 t) (blk V c 3 t) (blk V c 4 t) (blk V c 6 t) (s0 (t.val - 1) (by omega)))
    (h1f : ∀ t : Fin cfg1.N, t.val % 16 = 0 → s1 t.val t.isLt = Steps.anStep (blk V c 0 t) (blk V c 1 t) (blk V c 2 t) (blk V c 3 t) (blk V c 4 t) (blk V c 5 t) Steps.anInit)
    (h1l : ∀ (t : Fin cfg1.N) (h : t.val % 16 ≠ 0), s1 t.val t.isLt = Steps.anStep (blk V c 0 t) (blk V c 1 t) (blk V c 2 t) (blk V c 3 t) (blk V c 4 t) (blk V c 5 t) (s1 (t.val - 1) (by omega)))
    (ho8 : ∀ t : Fin cfg1.N, t.val % 16 = 15 → dat.after 8 t = Steps.anchorOut (s0 t.val t.isLt) (s1 t.val t.isLt))
    (t : Fin cfg1.N) (hf : (cfg1.win 8).flush t = true) :
    dat.flushed 8 t = ((cfg1.win 8).blk t).view.read (Elt Ideal) (anchorArr V c) := by
  have ht : t.val % 16 = 15 := (flush1_8 t).mp hf
  refine funext fun (y : S512x1.Idx) => ?_
  obtain ⟨r, z, rfl⟩ : ∃ (r : Fin 512) (z : Fin 1), y = ix2 r z := ⟨y 0, y 1, eq_ix2 y⟩
  obtain rfl : z = 0 := Subsingleton.elim _ _
  refine Eq.trans ?_ (out8_read (anchorArr V c) t r).symm
  show dat.after 8 t (ix2 r 0) = Cert.Spec.anchor (X V c) (TC V c) (TR V c) (MG V c) (MP V c) (MN V c) (row (t.val / 16) r)
  refine (congrFun (ho8 t ht) (ix2 r 0)).trans ?_
  rw [anchorOut_apply, ap_last V c s0 h0f h0l t ht r, an_last V c s1 h1f h1l t ht r]
  exact anchor_spec (X V c) (TC V c) (TR V c) (MG V c) (MP V c) (MN V c) (row (t.val / 16) r)

theorem flushed9 (s0 s1 s2 s3 : (n : ℕ) → n < cfg1.N → Vec Ideal S512x1 .f32)
    (h0f : ∀ t : Fin cfg1.N, t.val % 16 = 0 → s0 t.val t.isLt = Steps.apStep (blk V c 0 t) (blk V c 1 t) (blk V c 2 t) (blk V c 3 t) (blk V c 4 t) (blk V c 6 t) Steps.apInit)
    (h0l : ∀ (t : Fin cfg1.N) (h : t.val % 16 ≠ 0), s0 t.val t.isLt = Steps.apStep (blk V c 0 t) (blk V c 1 t) (blk V c 2 t) (blk V c 3 t) (blk V c 4 t) (blk V c 6 t) (s0 (t.val - 1) (by omega)))
    (h1f : ∀ t : Fin cfg1.N, t.val % 16 = 0 → s1 t.val t.isLt = Steps.anStep (blk V c 0 t) (blk V c 1 t) (blk V c 2 t) (blk V c 3 t) (blk V c 4 t) (blk V c 5 t) Steps.anInit)
    (h1l : ∀ (t : Fin cfg1.N) (h : t.val % 16 ≠ 0), s1 t.val t.isLt = Steps.anStep (blk V c 0 t) (blk V c 1 t) (blk V c 2 t) (blk V c 3 t) (blk V c 4 t) (blk V c 5 t) (s1 (t.val - 1) (by omega)))
    (ho9 : ∀ t : Fin cfg1.N, t.val % 16 = 15 → dat.after 9 t = Steps.apOut (s0 t.val t.isLt) (s1 t.val t.isLt))
    (t : Fin cfg1.N) (hf : (cfg1.win 9).flush t = true) :
    dat.flushed 9 t = ((cfg1.win 9).blk t).view.read (Elt Ideal) (apArr V c) := by
  have ht : t.val % 16 = 15 := (flush1_9 t).mp hf
  refine funext fun (y : S512x1.Idx) => ?_
  obtain ⟨r, z, rfl⟩ : ∃ (r : Fin 512) (z : Fin 1), y = ix2 r z := ⟨y 0, y 1, eq_ix2 y⟩
  obtain rfl : z = 0 := Subsingleton.elim _ _
  refine Eq.trans ?_ (out9_read (apArr V c) t r).symm
  show dat.after 9 t (ix2 r 0) = Cert.Spec.apOut (X V c) (TC V c) (TR V c) (MG V c) (MP V c) (MN V c) (row (t.val / 16) r)
  refine (congrFun (ho9 t ht) (ix2 r 0)).trans ?_
  rw [apOut_apply, ap_last V c s0 h0f h0l t ht r, an_last V c s1 h1f h1l t ht r]
  exact apOut_spec (X V c) (TC V c) (TR V c) (MG V c) (MP V c) (MN V c) (row (t.val / 16) r)

theorem flushed10 (s0 s1 s2 s3 : (n : ℕ) → n < cfg1.N → Vec Ideal S512x1 .f32)
    (h0f : ∀ t : Fin cfg1.N, t.val % 16 = 0 → s0 t.val t.isLt = Steps.apStep (blk V c 0 t) (blk V c 1 t) (blk V c 2 t) (blk V c 3 t) (blk V c 4 t) (blk V c 6 t) Steps.apInit)
    (h0l : ∀ (t : Fin cfg1.N) (h : t.val % 16 ≠ 0), s0 t.val t.isLt = Steps.apStep (blk V c 0 t) (blk V c 1 t) (blk V c 2 t) (blk V c 3 t) (blk V c 4 t) (blk V c 6 t) (s0 (t.val - 1) (by omega)))
    (h1f : ∀ t : Fin cfg1.N, t.val % 16 = 0 → s1 t.val t.isLt = Steps.anStep (blk V c 0 t) (blk V c 1 t) (blk V c 2 t) (blk V c 3 t) (blk V c 4 t) (blk V c 5 t) Steps.anInit)
    (h1l : ∀ (t : Fin cfg1.N) (h : t.val % 16 ≠ 0), s1 t.val t.isLt = Steps.anStep (blk V c 0 t) (blk V c 1 t) (blk V c 2 t) (blk V c 3 t) (blk V c 4 t) (blk V c 5 t) (s1 (t.val - 1) (by omega)))
    (ho10 : ∀ t : Fin cfg1.N, t.val % 16 = 15 → dat.after 10 t = Steps.anOut (s0 t.val t.isLt) (s1 t.val t.isLt))
    (t : Fin cfg1.N) (hf : (cfg1.win 10).flush t = true) :
    dat.flushed 10 t = ((cfg1.win 10).blk t).view.read (Elt Ideal) (anArr V c) := by
  have ht : t.val % 16 = 15 := (flush1_10 t).mp hf
  refine funext fun (y : S512x1.Idx) => ?_
  obtain ⟨r, z, rfl⟩ : ∃ (r : Fin 512) (z : Fin 1), y = ix2 r z := ⟨y 0, y 1, eq_ix2 y⟩
  obtain rfl : z = 0 := Subsingleton.elim _ _
  refine Eq.trans ?_ (out10_read (anArr V c) t r).symm
  show dat.after 10 t (ix2 r 0) = Cert.Spec.anOut (X V c) (TC V c) (TR V c) (MG V c) (MP V c) (MN V c) (row (t.val / 16) r)
  refine (congrFun (ho10 t ht) (ix2 r 0)).trans ?_
  rw [anOut_apply, ap_last V c s0 h0f h0l t ht r, an_last V c s1 h1f h1l t ht r]
  exact anOut_spec (X V c) (TC V c) (TR V c) (MG V c) (MP V c) (MN V c) (row (t.val / 16) r)

end Flushed

/-! ## The arrays after the run -/

/-- The four output arrays of the second pass end holding, row by row, the specification's row loss, validity flag and
    the two counts of the valid rows. -/
theorem pass2_value (c : Dev nD) (dat : Dat τ (Elt Ideal) Unit ℕ (Pipeline.UD sig nD τ) ℕ cfg1 c)
    (hA : ∀ w, dat.A w = V c (Pipeline.arrRef spec1 w))
    (s0 s1 s2 s3 : (n : ℕ) → n < cfg1.N → Vec Ideal S512x1 .f32)
    (h0f : ∀ t : Fin cfg1.N, t.val % 16 = 0 → s0 t.val t.isLt = Steps.apStep (blk V c 0 t) (blk V c 1 t) (blk V c 2 t) (blk V c 3 t) (blk V c 4 t) (blk V c 6 t) Steps.apInit)
    (h0l : ∀ (t : Fin cfg1.N) (h : t.val % 16 ≠ 0), s0 t.val t.isLt = Steps.apStep (blk V c 0 t) (blk V c 1 t) (blk V c 2 t) (blk V c 3 t) (blk V c 4 t) (blk V c 6 t) (s0 (t.val - 1) (by omega)))
    (h1f : ∀ t : Fin cfg1.N, t.val % 16 = 0 → s1 t.val t.isLt = Steps.anStep (blk V c 0 t) (blk V c 1 t) (blk V c 2 t) (blk V c 3 t) (blk V c 4 t) (blk V c 5 t) Steps.anInit)
    (h1l : ∀ (t : Fin cfg1.N) (h : t.val % 16 ≠ 0), s1 t.val t.isLt = Steps.anStep (blk V c 0 t) (blk V c 1 t) (blk V c 2 t) (blk V c 3 t) (blk V c 4 t) (blk V c 5 t) (s1 (t.val - 1) (by omega)))
    (h2f : ∀ t : Fin cfg1.N, t.val % 16 = 0 → s2 t.val t.isLt = Steps.posStep (blk V c 0 t) (blk V c 1 t) (blk V c 2 t) (blk V c 3 t) (blk V c 4 t) (blk V c 6 t) Steps.posInit)
    (h2l : ∀ (t : Fin cfg1.N) (h : t.val % 16 ≠ 0), s2 t.val t.isLt = Steps.posStep (blk V c 0 t) (blk V c 1 t) (blk V c 2 t) (blk V c 3 t) (blk V c 4 t) (blk V c 6 t) (s2 (t.val - 1) (by omega)))
    (h3f : ∀ t : Fin cfg1.N, t.val % 16 = 0 → s3 t.val t.isLt = Steps.negStep (blk V c 0 t) (blk V c 1 t) (blk V c 2 t) (blk V c 3 t) (blk V c 4 t) (blk V c 5 t) Steps.negInit)
    (h3l : ∀ (t : Fin cfg1.N) (h : t.val % 16 ≠ 0), s3 t.val t.isLt = Steps.negStep (blk V c 0 t) (blk V c 1 t) (blk V c 2 t) (blk V c 3 t) (blk V c 4 t) (blk V c 5 t) (s3 (t.val - 1) (by omega)))
    (ho7 : ∀ t : Fin cfg1.N, t.val % 16 = 15 → dat.after 7 t = Steps.lossOut (s0 t.val t.isLt) (s1 t.val t.isLt) (s2 t.val t.isLt) (s3 t.val t.isLt))
    (ho8 : ∀ t : Fin cfg1.N, t.val % 16 = 15 → dat.after 8 t = Steps.anchorOut (s0 t.val t.isLt) (s1 t.val t.isLt))
    (ho9 : ∀ t : Fin cfg1.N, t.val % 16 = 15 → dat.after 9 t = Steps.apOut (s0 t.val t.isLt) (s1 t.val t.isLt))
    (ho10 : ∀ t : Fin cfg1.N, t.val % 16 = 15 → dat.after 10 t = Steps.anOut (s0 t.val t.isLt) (s1 t.val t.isLt)) :
    (∀ i : Fin 8192, (dat.arrAt 7 cfg1.N : S8192x1.Idx → EReal) (ix2 i 0) = Cert.Spec.lossRow (X V c) (TC V c) (TR V c) (MG V c) (MP V c) (MN V c) i)
    ∧ (∀ i : Fin 8192, (dat.arrAt 8 cfg1.N : S8192x1.Idx → BitVec 32) (ix2 i 0) = Cert.Spec.anchor (X V c) (TC V c) (TR V c) (MG V c) (MP V c) (MN V c) i)
    ∧ (∀ i : Fin 8192, (dat.arrAt 9 cfg1.N : S8192x1.Idx → BitVec 32) (ix2 i 0) = Cert.Spec.apOut (X V c) (TC V c) (TR V c) (MG V c) (MP V c) (MN V c) i)
    ∧ (∀ i : Fin 8192, (dat.arrAt 10 cfg1.N : S8192x1.Idx → BitVec 32) (ix2 i 0) = Cert.Spec.anOut (X V c) (TC V c) (TR V c) (MG V c) (MP V c) (MN V c) i) := by
  have e7 : dat.arrAt 7 cfg1.N = lossArr V c :=
    dat.arrAt_eq_of_cover 7 (lossArr V c) (flushed7 V c dat s0 s1 s2 s3 h0f h0l h1f h1l h2f h2l h3f h3l ho7) cover7
  have e8 : dat.arrAt 8 cfg1.N = anchorArr V c :=
    dat.arrAt_eq_of_cover 8 (anchorArr V c) (flushed8 V c dat s0 s1 s2 s3 h0f h0l h1f h1l ho8) cover8
  have e9 : dat.arrAt 9 cfg1.N = apArr V c :=
    dat.arrAt_eq_of_cover 9 (apArr V c) (flushed9 V c dat s0 s1 s2 s3 h0f h0l h1f h1l ho9) cover9
  have e10 : dat.arrAt 10 cfg1.N = anArr V c :=
    dat.arrAt_eq_of_cover 10 (anArr V c) (flushed10 V c dat s0 s1 s2 s3 h0f h0l h1f h1l ho10) cover10
  exact ⟨fun i => congrFun e7 (ix2 i 0), fun i => congrFun e8 (ix2 i 0), fun i => congrFun e9 (ix2 i 0), fun i => congrFun e10 (ix2 i 0)⟩

end Cert.KernelIdeal.V2

end
-- ==== Proof.KernelIdeal.HostOps.lean ====
/-
  The host operations around the two passes, read at an index, on the extended reals.

  A vector of 8192 entries reshaped to a column reads its entry at each row (`col_of_vec`), reshaped to a row at each
  column (`row_of_vec`); a column reshaped back to a vector is the vector of its rows' entries (`vec_of_col`); and the
  sum of a column's entries from zero, divided by a constant, is the entries' sum divided by that constant
  (`mean_of_col`).
-/
import proofs.«118951_j44573170598307_1_alg».proof.Proof.Spec
import proofs.«118951_j44573170598307_1_alg».proof.Proof.Gen.KernelIdeal.Launch
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.KernelIdeal.HostOps

open Idealize.ShloMosaic Cert.KernelIdeal Cert.KernelIdeal.Gen Idealize.ShloMosaic.ValueIdx

/-- A vector reshaped to a column reads, at row `a`, its entry `a`. -/
theorem col_of_vec {α : Type} (v : S8192.Idx → α) (a : Fin 8192) :
    shapeCast S8192x1 v shapeCasts_S8192_S8192x1 (ValueIdx.ix2 a 0) = v (ValueIdx.ix1 a) :=
  shapeCast_apply v shapeCasts_S8192_S8192x1 _ _ (by
    rw [Shape.rowMajor_val_two, Shape.rowMajor_val_one]
    show a.val = a.val * 1 + 0
    omega)

/-- A vector reshaped to a row reads, at column `b`, its entry `b`. -/
theorem row_of_vec (v : IVec S8192 32) (b : Fin 8192) :
    shapeCast S1x8192 v shapeCasts_S8192_S1x8192 (ValueIdx.ix2 0 b) = v (ValueIdx.ix1 b) :=
  shapeCast_a_1a_apply v shapeCasts_S8192_S1x8192 0 b

/-- A column reshaped to a vector is the vector of the column's entries. -/
theorem vec_of_col (col : IVec S8192x1 32) (f : Fin 8192 → BitVec 32) (h : ∀ i, col (ValueIdx.ix2 i 0) = f i) :
    shapeCast S8192 col shapeCasts_S8192x1_S8192 = fun idx => f (idx 0) := by
  funext idx
  obtain ⟨a, rfl⟩ : ∃ a : Fin 8192, idx = ix1 a := ⟨idx 0, eq_ix1 idx⟩
  refine (shapeCast_apply col shapeCasts_S8192x1_S8192 (ix1 a) (ix2 a 0) ?_).trans (h a)
  rw [Shape.rowMajor_val_two, Shape.rowMajor_val_one]
  show a.val * 1 + 0 = a.val
  omega

/-- The column's entries summed from zero and divided by a constant: the sum of the entries over that constant. -/
theorem mean_of_col (col : FVec Ideal S8192x1 .f32) (f : Fin 8192 → EReal) (h : ∀ i, col (ValueIdx.ix2 i 0) = f i) :
    Host.divf (Host.reduceAdd col (constant (F := Ideal) S_ .f32 0x00000000#32) reducesTo_S8192x1_S_d0_1 h_S_) (constant (F := Ideal) S_ .f32 0x46000000#32)
      = fun _ => Ideal.div (∑ i : Fin 8192, f i) (Cert.Spec.lit 0x46000000#32) := by
  funext j
  show Ideal.div (Ideal.hostReduceAdd reducesTo_S8192x1_S_d0_1 col (Ideal.ofBits .f32 0x00000000#32) j) (Ideal.ofBits .f32 0x46000000#32) = _
  rw [Ideal.hostReduceAdd_total reducesTo_S8192x1_S_d0_1 (fun b => b.elim0) col _ j, Ideal.ofBits_zero_f32, zero_add,
    sum_idx2 (n0 := 8192) (n1 := 1) col]
  refine congrArg (fun s => Ideal.div s (Ideal.ofBits .f32 0x46000000#32)) (Finset.sum_congr rfl fun a _ => ?_)
  rw [Fin.sum_univ_one]
  exact h a

end Cert.KernelIdeal.HostOps

end
-- ==== Proof.KernelIdeal.Results.lean ====
/-
  The idealized kernel's five results as the specification's functions of the three arguments.

  The opening reshapes hand both passes the labels (as a column and as a row) and the margins (as a column); the first
  pass leaves each row's least positive and greatest negative similarity; the second, entered from those, leaves each
  row's loss, validity flag and two counts; the closing host operations average the losses, flatten the three integer
  columns and add up the two counts' totals. Each stage is read off the run's contents and rewritten with the stage's
  own value lemma.
-/
import proofs.«118951_j44573170598307_1_alg».proof.Proof.KernelIdeal.Regs
import proofs.«118951_j44573170598307_1_alg».proof.Proof.KernelIdeal.Pass1Pieces
import proofs.«118951_j44573170598307_1_alg».proof.Proof.KernelIdeal.Pass2Pieces
import proofs.«118951_j44573170598307_1_alg».proof.Proof.KernelIdeal.Pass1Value
import proofs.«118951_j44573170598307_1_alg».proof.Proof.KernelIdeal.Pass2Value
import proofs.«118951_j44573170598307_1_alg».proof.Proof.KernelIdeal.HostOps
import proofs.«118951_j44573170598307_1_alg».proof.Proof.Spec
import Idealize.ShloMosaic.Lib.StableHlo.Run
import Idealize.ShloMosaic.Lib.ValueIdx

noncomputable section

namespace Cert.KernelIdeal.Res

open Idealize.ShloMosaic Idealize.ShloMosaic.TcCoe Idealize.ShloMosaic.StableHlo Idealize.ShloMosaic.ValueIdx
open Idealize.SL Idealize.SL.Sem
open Cert.KernelIdeal Cert.KernelIdeal.Gen Cert.KernelIdeal.Run

variable (m : (ℓ : Loc nD τ sig) → Buf (Elt Ideal) ℓ)

/-- The three arguments as the specification reads them. -/
def X (c : Dev nD) : Fin 8192 → Fin 1024 → EReal := fun a k => (m ((c.tc : Thread nD τ).loc main_arg0) : S8192x1024.Idx → EReal) (ix2 a k)
def TG (c : Dev nD) : Fin 8192 → BitVec 32 := fun a => (m ((c.tc : Thread nD τ).loc main_arg1) : S8192.Idx → BitVec 32) (ix1 a)
def MG (c : Dev nD) : Fin 8192 → EReal := fun a => (m ((c.tc : Thread nD τ).loc main_arg2) : S8192.Idx → EReal) (ix1 a)

/-! ## What the opening reshapes hand the passes -/

theorem c1_arg0 (c : Dev nD) : C1 m c main_arg0 = m ((c.tc : Thread nD τ).loc main_arg0) := (V1_of m c main_arg0 (by decide)).trans rfl

theorem c1_v0 (c : Dev nD) : (C1 m c main_v0 : S8192x1.Idx → BitVec 32) = shapeCast S8192x1 (m ((c.tc : Thread nD τ).loc main_arg1) : S8192.Idx → BitVec 32) shapeCasts_S8192_S8192x1 := by
  show StableHlo.after hostOps0 (fun b => m (c, b)) (Proc.devRef .tc main_v0) = _
  after_results; rfl
theorem c1_v1 (c : Dev nD) : (C1 m c main_v1 : S1x8192.Idx → BitVec 32) = shapeCast S1x8192 (m ((c.tc : Thread nD τ).loc main_arg1) : S8192.Idx → BitVec 32) shapeCasts_S8192_S1x8192 := by
  show StableHlo.after hostOps0 (fun b => m (c, b)) (Proc.devRef .tc main_v1) = _
  after_results; rfl
theorem c1_v2 (c : Dev nD) : (C1 m c main_v2 : S8192x1.Idx → EReal) = shapeCast S8192x1 (m ((c.tc : Thread nD τ).loc main_arg2) : S8192.Idx → EReal) shapeCasts_S8192_S8192x1 := by
  show StableHlo.after hostOps0 (fun b => m (c, b)) (Proc.devRef .tc main_v2) = _
  after_results; rfl

theorem x1 (c : Dev nD) : V1.X (C1 m) c = X m c := by
  funext a k; unfold V1.X X; rw [c1_arg0]
theorem tc1 (c : Dev nD) : V1.TC (C1 m) c = TG m c := by
  funext a; unfold V1.TC TG; rw [c1_v0]; exact HostOps.col_of_vec _ a
theorem tr1 (c : Dev nD) : V1.TR (C1 m) c = TG m c := by
  funext b; unfold V1.TR TG; rw [c1_v1]; exact HostOps.row_of_vec _ b

/-! ## The first pass -/

/-- After the first pass its two output columns hold the rows' least positive and greatest negative similarity. -/
theorem first_pass (c : Dev nD) :
    (∀ i : Fin 8192, (W2 m (pass1 m) c main_v3_0 : S8192x1.Idx → EReal) (ix2 i 0) = Cert.Spec.minpos (X m c) (TG m c) (TG m c) i)
    ∧ (∀ i : Fin 8192, (W2 m (pass1 m) c main_v3_1 : S8192x1.Idx → EReal) (ix2 i 0) = Cert.Spec.maxneg (X m c) (TG m c) (TG m c) i) := by
  have h := V1.pass1_value (C1 m) c (P1.dat (C1 m) c) (P1.A_eq (C1 m) c) (fun i => by rw [tc1, tr1])
    (P1.scr0 (C1 m) c) (P1.scr1 (C1 m) c)
    (fun t h => P1.scr0_first (C1 m) c t h) (fun t h => P1.scr0_later (C1 m) c t h)
    (fun t h => P1.scr1_first (C1 m) c t h) (fun t h => P1.scr1_later (C1 m) c t h)
    (fun t h => P1.out4_last (C1 m) c t h) (fun t h => P1.out5_last (C1 m) c t h)
  rw [x1, tc1, tr1] at h
  refine ⟨fun i => ?_, fun i => ?_⟩
  · rw [W2_v3_0]; exact h.1 i
  · rw [W2_v3_1]; exact h.2 i

/-! ## What the second pass is entered from -/

theorem c2_arg0 (c : Dev nD) : C2 m (pass1 m) c main_arg0 = m ((c.tc : Thread nD τ).loc main_arg0) :=
  (W2_of (pass1 m) c main_arg0 (by decide)).trans (c1_arg0 m c)
theorem c2_v0 (c : Dev nD) : C2 m (pass1 m) c main_v0 = C1 m c main_v0 := W2_of (pass1 m) c main_v0 (by decide)
theorem c2_v1 (c : Dev nD) : C2 m (pass1 m) c main_v1 = C1 m c main_v1 := W2_of (pass1 m) c main_v1 (by decide)
theorem c2_v2 (c : Dev nD) : C2 m (pass1 m) c main_v2 = C1 m c main_v2 := W2_of (pass1 m) c main_v2 (by decide)

theorem x2 (c : Dev nD) : V2.X (C2 m (pass1 m)) c = X m c := by
  funext a k; unfold V2.X X; rw [c2_arg0]
theorem tc2 (c : Dev nD) : V2.TC (C2 m (pass1 m)) c = TG m c := by
  funext a; unfold V2.TC TG; rw [c2_v0, c1_v0]; exact HostOps.col_of_vec _ a
theorem tr2 (c : Dev nD) : V2.TR (C2 m (pass1 m)) c = TG m c := by
  funext b; unfold V2.TR TG; rw [c2_v1, c1_v1]; exact HostOps.row_of_vec _ b
theorem mg2 (c : Dev nD) : V2.MG (C2 m (pass1 m)) c = MG m c := by
  funext a; unfold V2.MG MG; rw [c2_v2, c1_v2]; exact HostOps.col_of_vec _ a
theorem mp2 (c : Dev nD) : V2.MP (C2 m (pass1 m)) c = Cert.Spec.minpos (X m c) (TG m c) (TG m c) := by
  funext a; exact (first_pass m c).1 a
theorem mn2 (c : Dev nD) : V2.MN (C2 m (pass1 m)) c = Cert.Spec.maxneg (X m c) (TG m c) (TG m c) := by
  funext a; exact (first_pass m c).2 a

/-! ## The second pass -/

/-- After the second pass its four output columns hold the rows' losses, validity flags and counts. -/
theorem second_pass (c : Dev nD) :
    (∀ i : Fin 8192, (W3 m (pass1 m) (pass2 m) c main_v4_0 : S8192x1.Idx → EReal) (ix2 i 0) = Cert.Spec.lossRowW (X m c) (TG m c) (MG m c) i)
    ∧ (∀ i : Fin 8192, (W3 m (pass1 m) (pass2 m) c main_v4_1 : S8192x1.Idx → BitVec 32) (ix2 i 0) = Cert.Spec.anchorW (X m c) (TG m c) (MG m c) i)
    ∧ (∀ i : Fin 8192, (W3 m (pass1 m) (pass2 m) c main_v4_2 : S8192x1.Idx → BitVec 32) (ix2 i 0) = Cert.Spec.apW (X m c) (TG m c) (MG m c) i)
    ∧ (∀ i : Fin 8192, (W3 m (pass1 m) (pass2 m) c main_v4_3 : S8192x1.Idx → BitVec 32) (ix2 i 0) = Cert.Spec.anW (X m c) (TG m c) (MG m c) i) := by
  have h := V2.pass2_value (C2 m (pass1 m)) c (P2.dat (C2 m (pass1 m)) c) (P2.A_eq (C2 m (pass1 m)) c)
    (P2.scr0 (C2 m (pass1 m)) c) (P2.scr1 (C2 m (pass1 m)) c) (P2.scr2 (C2 m (pass1 m)) c) (P2.scr3 (C2 m (pass1 m)) c)
    (fun t h => P2.scr0_first (C2 m (pass1 m)) c t h) (fun t h => P2.scr0_later (C2 m (pass1 m)) c t h)
    (fun t h => P2.scr1_first (C2 m (pass1 m)) c t h) (fun t h => P2.scr1_later (C2 m (pass1 m)) c t h)
    (fun t h => P2.scr2_first (C2 m (pass1 m)) c t h) (fun t h => P2.scr2_later (C2 m (pass1 m)) c t h)
    (fun t h => P2.scr3_first (C2 m (pass1 m)) c t h) (fun t h => P2.scr3_later (C2 m (pass1 m)) c t h)
    (fun t h => P2.out7_last (C2 m (pass1 m)) c t h) (fun t h => P2.out8_last (C2 m (pass1 m)) c t h)
    (fun t h => P2.out9_last (C2 m (pass1 m)) c t h) (fun t h => P2.out10_last (C2 m (pass1 m)) c t h)
  rw [x2, tc2, tr2, mg2, mp2, mn2] at h
  refine ⟨fun i => ?_, fun i => ?_, fun i => ?_, fun i => ?_⟩
  · rw [W3_v4_0]; exact h.1 i
  · rw [W3_v4_1]; exact h.2.1 i
  · rw [W3_v4_2]; exact h.2.2.1 i
  · rw [W3_v4_3]; exact h.2.2.2 i

/-! ## The closing host operations -/

/-- The grand total as both programs spell it: the two count vectors reduced by integer addition, then added. -/
def total (ap an : Fin 8192 → BitVec 32) : S_.Idx → BitVec 32 :=
  addi (Host.reduce IntOp.addi (fun idx : S8192.Idx => ap (idx 0)) (constantI S_ 32 0#32) reducesTo_S8192_S_d0 h_S_)
    (Host.reduce IntOp.addi (fun idx : S8192.Idx => an (idx 0)) (constantI S_ 32 0#32) reducesTo_S8192_S_d0 h_S_)

variable (c : Dev nD)

theorem res_loss : (StableHlo.after hostOps2 (W3 m (pass1 m) (pass2 m) c) (Proc.devRef .tc main_v6) : S_.Idx → EReal)
    = fun _ => Cert.Spec.loss (X m c) (TG m c) (MG m c) := by
  after_results
  exact HostOps.mean_of_col _ _ (second_pass m c).1
theorem res_anchor : (StableHlo.after hostOps2 (W3 m (pass1 m) (pass2 m) c) (Proc.devRef .tc main_v7) : S8192.Idx → BitVec 32)
    = fun idx => Cert.Spec.anchorW (X m c) (TG m c) (MG m c) (idx 0) := by
  after_results
  exact HostOps.vec_of_col _ _ (second_pass m c).2.1
theorem res_ap : (StableHlo.after hostOps2 (W3 m (pass1 m) (pass2 m) c) (Proc.devRef .tc main_v8) : S8192.Idx → BitVec 32)
    = fun idx => Cert.Spec.apW (X m c) (TG m c) (MG m c) (idx 0) := by
  after_results
  exact HostOps.vec_of_col _ _ (second_pass m c).2.2.1
theorem res_an : (StableHlo.after hostOps2 (W3 m (pass1 m) (pass2 m) c) (Proc.devRef .tc main_v9) : S8192.Idx → BitVec 32)
    = fun idx => Cert.Spec.anW (X m c) (TG m c) (MG m c) (idx 0) := by
  after_results
  exact HostOps.vec_of_col _ _ (second_pass m c).2.2.2
theorem res_total : (StableHlo.after hostOps2 (W3 m (pass1 m) (pass2 m) c) (Proc.devRef .tc main_v12) : S_.Idx → BitVec 32)
    = total (Cert.Spec.apW (X m c) (TG m c) (MG m c)) (Cert.Spec.anW (X m c) (TG m c) (MG m c)) := by
  after_results
  unfold total
  rw [← HostOps.vec_of_col _ _ (second_pass m c).2.2.1, ← HostOps.vec_of_col _ _ (second_pass m c).2.2.2]
  rfl

/-! ## The run with its results named -/

/-- Every weakly fair execution of the idealized kernel from memory `m` terminates with its five results at the
    specification's functions of the arguments, the arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = (fun _ => Cert.Spec.loss (X m c) (TG m c) (MG m c) : S_.Idx → EReal)
      ∧ r.2.mem ((c.tc : Thread nD τ).loc main_v7) = (fun idx => Cert.Spec.anchorW (X m c) (TG m c) (MG m c) (idx 0) : S8192.Idx → BitVec 32)
      ∧ r.2.mem ((c.tc : Thread nD τ).loc main_v8) = (fun idx => Cert.Spec.apW (X m c) (TG m c) (MG m c) (idx 0) : S8192.Idx → BitVec 32)
      ∧ r.2.mem ((c.tc : Thread nD τ).loc main_v9) = (fun idx => Cert.Spec.anW (X m c) (TG m c) (MG m c) (idx 0) : S8192.Idx → BitVec 32)
      ∧ r.2.mem ((c.tc : Thread nD τ).loc main_v12) = total (Cert.Spec.apW (X m c) (TG m c) (MG m c)) (Cert.Spec.anW (X m c) (TG m c) (MG m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v6 (by decide))).trans (res_loss m c),
     (h c _ (mem_uc main_v7 (by decide))).trans (res_anchor m c),
     (h c _ (mem_uc main_v8 (by decide))).trans (res_ap m c),
     (h c _ (mem_uc main_v9 (by decide))).trans (res_an m c),
     (h c _ (mem_uc main_v12 (by decide))).trans (res_total m c),
     (h c _ (mem_uc main_arg0 (by decide))).trans (last_of_untouched m (pass1 m) (pass2 m) c main_arg0 (by decide) (by decide) (by decide) (by decide)),
     (h c _ (mem_uc main_arg1 (by decide))).trans (last_of_untouched m (pass1 m) (pass2 m) c main_arg1 (by decide) (by decide) (by decide) (by decide)),
     (h c _ (mem_uc main_arg2 (by decide))).trans (last_of_untouched m (pass1 m) (pass2 m) c main_arg2 (by decide) (by decide) (by decide) (by decide))⟩)
    (run_all m ρ (pass1 m) (pass2 m))

end Cert.KernelIdeal.Res

end
-- ==== Proof.Reference.Pairs.lean ====
/-
  The reference's similarities and pair masks, read at a pair of rows `(p, q)`, over the extended reals.

  With `x` the embeddings (8192 rows of 1024 numbers) and `t` the labels: the product of `x` with its transpose is at
  `(p, q)` the inner product `∑ k, x p k * x q k` of rows `p` and `q`; the label column compared with the label row says
  whether the two rows carry one label; a pair is positive when they do and the similarity is below one, negative when
  they do not (the complement of a one-bit word is its exclusive or with one).
-/
import proofs.«118951_j44573170598307_1_alg».proof.Proof.Reference.Stages
import proofs.«118951_j44573170598307_1_alg».proof.Proof.Spec

noncomputable section

namespace Cert.ReferenceIdeal.RefValue

open Cert.ReferenceIdeal Cert.ReferenceIdeal.Gen Cert.ReferenceIdeal.Stages Idealize.ShloMosaic Idealize.ShloMosaic.ValueIdx

/-- The embeddings as rows of coordinates. -/
abbrev rowsOf (x0 : (⟨S8192x1024, .f32⟩ : BufTy).Contents (Elt Ideal)) : Fin 8192 → Fin 1024 → EReal :=
  fun a k => x0 (ix2 a k)
/-- The labels by row. -/
abbrev labelsOf (x1 : (⟨S8192, .i32⟩ : BufTy).Contents (Elt Ideal)) : Fin 8192 → BitVec 32 := fun a => x1 (ix1 a)
/-- The margins by row. -/
abbrev marginsOf (x2 : (⟨S8192, .f32⟩ : BufTy).Contents (Elt Ideal)) : Fin 8192 → EReal := fun a => x2 (ix1 a)

/-- On one bit, the complement is the exclusive or with one. -/
theorem not_bit (a : BitVec 1) : ~~~a = IntOp.xori a 1#1 := by
  rcases BitVec.eq_zero_or_eq_one a with h | h <;> subst h <;> decide

variable (x0 : (⟨S8192x1024, .f32⟩ : BufTy).Contents (Elt Ideal)) (x1 : (⟨S8192, .i32⟩ : BufTy).Contents (Elt Ideal))

/-- The product of the embeddings with their transpose, at rows `p` and `q`, is the inner product of the two rows:
    the left operand is read at `(p, k)`, the transposed right operand at `(k, q)`, which is the array at `(q, k)`. -/
theorem sim_at (p q : Fin 8192) :
    val_main_v1 (F := Ideal) x0 (ix2 p q) = Cert.Spec.sim (rowsOf x0) p q := by
  rw [val_main_v1_apply]
  unfold Cert.Spec.sim
  refine Finset.sum_congr rfl fun k _ => ?_
  rw [val_main_v0_apply]
  have e1 : lidx_main_v1 (ix2 p q) k = ix2 p k :=
    funext fun a => Fin.ext (by match a with | ⟨0, _⟩ => rfl | ⟨1, _⟩ => rfl)
  have e2 : idx_main_v0 (ridx_main_v1 (ix2 p q) k) = ix2 q k :=
    funext fun a => Fin.ext (by match a with | ⟨0, _⟩ => rfl | ⟨1, _⟩ => rfl)
  rw [e1, e2]

/-- The label column against the label row, at `(p, q)`: do rows `p` and `q` carry one label. -/
theorem same_at (p q : Fin 8192) :
    val_main_v6 (F := Ideal) x1 (ix2 p q) = Cert.Spec.same (labelsOf x1) (labelsOf x1) p q := by
  rw [val_main_v6_apply, val_main_v4_apply, val_main_v5_apply, val_main_v2_apply, val_main_v3_apply]
  have e1 : idx_main_v2 (idx_main_v4 (ix2 p q)) = ix1 p :=
    funext fun a => Fin.ext (by match a with | ⟨0, _⟩ => rfl)
  have e2 : idx_main_v3 (idx_main_v5 (ix2 p q)) = ix1 q :=
    funext fun a => Fin.ext (by match a with | ⟨0, _⟩ => rfl)
  rw [e1, e2]
  rfl

/-- The positive pairs: one label and a similarity below one. -/
theorem pos_at (p q : Fin 8192) :
    val_main_v9 (F := Ideal) x0 x1 (ix2 p q) = Cert.Spec.pos (rowsOf x0) (labelsOf x1) (labelsOf x1) p q := by
  rw [val_main_v9_apply, val_main_v8_apply, same_at, sim_at, val_main_v7_apply, val_main_cst_apply]
  rfl

/-- The negative pairs: the labels differ. -/
theorem neg_at (p q : Fin 8192) :
    val_main_v10 (F := Ideal) x1 (ix2 p q) = Cert.Spec.neg (labelsOf x1) (labelsOf x1) p q := by
  rw [val_main_v10_apply, same_at]
  exact not_bit _

end Cert.ReferenceIdeal.RefValue

end
-- ==== Proof.Reference.RowExtremes.lean ====
/-
  The reference's row minimum and row maximum, read at a row `p`.

  A minimum over the second axis of a square array, started from plus infinity (the top of the extended reals), is at
  row `p` the infimum over `k` of the entries `(p, k)`; a maximum started from minus infinity is the supremum. Applied to
  the similarities with every non-positive pair replaced by the large literal, the first is the least similarity among
  the row's positives; applied to the similarities with every non-negative pair replaced by the large negative literal,
  the second is the greatest similarity among the row's negatives.
-/
import proofs.«118951_j44573170598307_1_alg».proof.Proof.Reference.Pairs
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Stages Idealize.ShloMosaic Idealize.ShloMosaic.ValueIdx

variable (x0 : (⟨S8192x1024, .f32⟩ : BufTy).Contents (Elt Ideal)) (x1 : (⟨S8192, .i32⟩ : BufTy).Contents (Elt Ideal))

/-- The f32 word of plus infinity is the top of the extended reals. -/
theorem ofBits_posInf : Ideal.ofBits .f32 0x7F800000#32 = ⊤ := by simp [Ideal.ofBits, Ideal.ieee]
/-- The f32 word of minus infinity is the bottom of the extended reals. -/
theorem ofBits_negInf : Ideal.ofBits .f32 0xFF800000#32 = ⊥ := by simp [Ideal.ofBits, Ideal.ieee]

/-- Row `p` of a square array with column `k` inserted on the second axis is the entry `(p, k)`. -/
theorem lift_row (h : S8192x8192.Reduces [1] S8192) (p k : Fin 8192) : h.lift (ix1 p) k = ix2 p k :=
  funext fun a => Fin.ext (by match a with | ⟨0, _⟩ => rfl | ⟨1, _⟩ => rfl)

/-- A minimum over the second axis, started from plus infinity, is at row `p` the infimum of the row's entries. -/
theorem rowMin_at (y : (⟨S8192x8192, .f32⟩ : BufTy).Contents (Elt Ideal)) (p : Fin 8192) :
    Host.reduce FloatOps.minimumf y (constant (F := Ideal) S_ .f32 0x7F800000#32) reducesTo_S8192x8192_S8192_d1 h_S_ (ix1 p)
      = Finset.univ.inf fun k : Fin 8192 => y (ix2 p k) := by
  have hR : S8192x8192.Reduces [1] S8192 := by decide
  have h1 := Host.reduce_eq_fold_single FloatOps.minimumf y (constant (F := Ideal) S_ .f32 0x7F800000#32) reducesTo_S8192x8192_S8192_d1 hR h_S_ (ix1 p)
  refine h1.trans ?_
  show Finset.fold min (Ideal.ofBits .f32 0x7F800000#32) (fun k : Fin 8192 => y (hR.lift (ix1 p) k)) Finset.univ = _
  rw [ofBits_posInf]
  simp only [lift_row]
  rfl

/-- A maximum over the second axis, started from minus infinity, is at row `p` the supremum of the row's entries. -/
theorem rowMax_at (y : (⟨S8192x8192, .f32⟩ : BufTy).Contents (Elt Ideal)) (p : Fin 8192) :
    Host.reduce FloatOps.maximumf y (constant (F := Ideal) S_ .f32 0xFF800000#32) reducesTo_S8192x8192_S8192_d1 h_S_ (ix1 p)
      = Finset.univ.sup fun k : Fin 8192 => y (ix2 p k) := by
  have hR : S8192x8192.Reduces [1] S8192 := by decide
  have h1 := Host.reduce_eq_fold_single FloatOps.maximumf y (constant (F := Ideal) S_ .f32 0xFF800000#32) reducesTo_S8192x8192_S8192_d1 hR h_S_ (ix1 p)
  refine h1.trans ?_
  show Finset.fold max (Ideal.ofBits .f32 0xFF800000#32) (fun k : Fin 8192 => y (hR.lift (ix1 p) k)) Finset.univ = _
  rw [ofBits_negInf]
  simp only [lift_row]
  rfl

/-- The least similarity among the positives of row `p`: a pair that is not positive enters the minimum as the large
    literal. -/
theorem minpos_at (p : Fin 8192) :
    val_main_v12 (F := Ideal) x0 x1 (ix1 p) = Cert.Spec.minpos (rowsOf x0) (labelsOf x1) (labelsOf x1) p := by
  unfold val_main_v12 val_main_cst_1
  rw [rowMin_at]
  unfold Cert.Spec.minpos
  refine congrArg (Finset.univ.inf) (funext fun k => ?_)
  rw [val_main_v11_apply, pos_at, sim_at, val_main_call0_v1_apply, val_main_call0_v0_apply, val_main_cst_0_apply]
  rfl

/-- The greatest similarity among the negatives of row `p`: a pair that is not negative enters the maximum as the
    large negative literal. -/
theorem maxneg_at (p : Fin 8192) :
    val_main_v14 (F := Ideal) x0 x1 (ix1 p) = Cert.Spec.maxneg (rowsOf x0) (labelsOf x1) (labelsOf x1) p := by
  unfold val_main_v14 val_main_cst_3
  rw [rowMax_at]
  unfold Cert.Spec.maxneg
  refine congrArg (Finset.univ.sup) (funext fun k => ?_)
  rw [val_main_v13_apply, neg_at, sim_at, val_main_call1_v1_apply, val_main_call1_v0_apply, val_main_cst_2_apply]
  rfl

end Cert.ReferenceIdeal.RefValue

end
-- ==== Proof.Reference.Kept.lean ====
/-
  The reference's kept pairs, their counts per row, and the rows' validity.

  A negative pair `(p, q)` is kept when `(sim p q + margin p) - minpos p > 0`, a positive pair when
  `(maxneg p - sim p q) + margin p > 0`. The sum over a row of the kept bits, each widened to a 32-bit word, is the number
  of kept pairs of the row: at most 8192, so the word does not wrap and its signed comparison with zero is "the count is
  positive". A row is valid when it keeps a positive and keeps a negative.
-/
import proofs.«118951_j44573170598307_1_alg».proof.Proof.Reference.RowExtremes
import Idealize.ShloMosaic.Lib.StableHlo.Predicate

noncomputable section

namespace Cert.ReferenceIdeal.RefValue

open Cert.ReferenceIdeal Cert.ReferenceIdeal.Gen Cert.ReferenceIdeal.Stages Idealize.ShloMosaic Idealize.ShloMosaic.ValueIdx

variable (x0 : (⟨S8192x1024, .f32⟩ : BufTy).Contents (Elt Ideal)) (x1 : (⟨S8192, .i32⟩ : BufTy).Contents (Elt Ideal))

variable (x2 : (⟨S8192, .f32⟩ : BufTy).Contents (Elt Ideal))

/-- A negative pair is kept when its similarity plus the row's margin exceeds the row's least positive similarity. -/
theorem keepNeg_at (p q : Fin 8192) :
    val_main_v23 (F := Ideal) x0 x1 x2 (ix2 p q)
      = Cert.Spec.keepNeg (rowsOf x0) (labelsOf x1) (labelsOf x1) (marginsOf x2)
          (Cert.Spec.minpos (rowsOf x0) (labelsOf x1) (labelsOf x1)) p q := by
  have e1 : idx_main_v15 (idx_main_v16 (ix2 p q)) = ix1 p := funext fun a => Fin.ext (by match a with | ⟨0, _⟩ => rfl)
  have e2 : idx_main_v18 (idx_main_v19 (ix2 p q)) = ix1 p := funext fun a => Fin.ext (by match a with | ⟨0, _⟩ => rfl)
  rw [val_main_v23_apply, neg_at, val_main_v22_apply, val_main_v20_apply, val_main_v17_apply, sim_at, val_main_v16_apply,
    val_main_v15_apply, e1, val_main_v19_apply, val_main_v18_apply, e2, minpos_at, val_main_v21_apply, val_main_cst_4_apply]
  rfl

/-- A positive pair is kept when the row's greatest negative similarity, less its own, plus the row's margin is
    positive. -/
theorem keepPos_at (p q : Fin 8192) :
    val_main_v31 (F := Ideal) x0 x1 x2 (ix2 p q)
      = Cert.Spec.keepPos (rowsOf x0) (labelsOf x1) (labelsOf x1) (marginsOf x2)
          (Cert.Spec.maxneg (rowsOf x0) (labelsOf x1) (labelsOf x1)) p q := by
  have e1 : idx_main_v24 (idx_main_v25 (ix2 p q)) = ix1 p := funext fun a => Fin.ext (by match a with | ⟨0, _⟩ => rfl)
  have e2 : idx_main_v15 (idx_main_v27 (ix2 p q)) = ix1 p := funext fun a => Fin.ext (by match a with | ⟨0, _⟩ => rfl)
  rw [val_main_v31_apply, pos_at, val_main_v30_apply, val_main_v28_apply, val_main_v26_apply, val_main_v25_apply,
    val_main_v24_apply, e1, maxneg_at, sim_at, val_main_v27_apply, val_main_v15_apply, e2, val_main_v29_apply,
    val_main_cst_5_apply]
  rfl

/-- The two ways of writing the entry `(p, q)` of a square array name one index. -/
theorem ij_eq_ix2 (p q : Fin 8192) : (StableHlo.Predicate.ij p q : S8192x8192.Idx) = ix2 p q :=
  funext fun a => by match a with | ⟨0, _⟩ => rfl | ⟨1, _⟩ => rfl

/-- A count of at most 8192 set bits, as a 32-bit word, is the word of that count. -/
theorem word_of_count (w : BitVec 32) (n : ℕ) (hn : n ≤ 8192) (h : w.toNat = n) : w = BitVec.ofNat 32 n := by
  apply BitVec.eq_of_toNat_eq
  rw [h, BitVec.toNat_ofNat]
  exact (Nat.mod_eq_of_lt (by omega)).symm

/-- A set of rows has at most 8192 members. -/
theorem card_le (P : Fin 8192 → Prop) [DecidablePred P] : (Finset.univ.filter P).card ≤ 8192 :=
  (Finset.card_le_univ _).trans (by simp)

/-- The sum over a row of the kept-positive bits, widened to 32 bits, is the number of kept positives of the row. -/
theorem ap_at (p : Fin 8192) :
    val_main_v33 (F := Ideal) x0 x1 x2 (ix1 p)
      = BitVec.ofNat 32 (Cert.Spec.ap (rowsOf x0) (labelsOf x1) (labelsOf x1) (marginsOf x2)
          (Cert.Spec.maxneg (rowsOf x0) (labelsOf x1) (labelsOf x1)) p) := by
  refine word_of_count _ _ (card_le _) ?_
  unfold val_main_v33 val_main_v32 val_main_c
  refine (StableHlo.Predicate.toNat_reduce_count_cols (by decide) (val_main_v31 (F := Ideal) x0 x1 x2) natLt_1_32
    reducesTo_S8192x8192_S8192_d1 h_S_ (ix1 p)).trans ?_
  unfold Cert.Spec.ap
  refine congrArg Finset.card (Finset.filter_congr fun q _ => ?_)
  show val_main_v31 (F := Ideal) x0 x1 x2 (StableHlo.Predicate.ij p q) = 1#1 ↔ _
  rw [ij_eq_ix2, keepPos_at]

/-- The sum over a row of the kept-negative bits, widened to 32 bits, is the number of kept negatives of the row. -/
theorem an_at (p : Fin 8192) :
    val_main_v35 (F := Ideal) x0 x1 x2 (ix1 p)
      = BitVec.ofNat 32 (Cert.Spec.an (rowsOf x0) (labelsOf x1) (labelsOf x1) (marginsOf x2)
          (Cert.Spec.minpos (rowsOf x0) (labelsOf x1) (labelsOf x1)) p) := by
  refine word_of_count _ _ (card_le _) ?_
  unfold val_main_v35 val_main_v34 val_main_c_6
  refine (StableHlo.Predicate.toNat_reduce_count_cols (by decide) (val_main_v23 (F := Ideal) x0 x1 x2) natLt_1_32
    reducesTo_S8192x8192_S8192_d1 h_S_ (ix1 p)).trans ?_
  unfold Cert.Spec.an
  refine congrArg Finset.card (Finset.filter_congr fun q _ => ?_)
  show val_main_v23 (F := Ideal) x0 x1 x2 (StableHlo.Predicate.ij p q) = 1#1 ↔ _
  rw [ij_eq_ix2, keepNeg_at]

/-- A row keeps at most 8192 positives, and at most 8192 negatives. -/
theorem ap_le (x : Fin 8192 → Fin 1024 → EReal) (tc tr : Fin 8192 → BitVec 32) (mg mn : Fin 8192 → EReal) (p : Fin 8192) :
    Cert.Spec.ap x tc tr mg mn p ≤ 8192 := by unfold Cert.Spec.ap; exact card_le _
theorem an_le (x : Fin 8192 → Fin 1024 → EReal) (tc tr : Fin 8192 → BitVec 32) (mg mp : Fin 8192 → EReal) (p : Fin 8192) :
    Cert.Spec.an x tc tr mg mp p ≤ 8192 := by unfold Cert.Spec.an; exact card_le _

/-- The signed test "greater than zero" on the word of a count of at most 8192 is "the count is positive". -/
theorem sgt_zero_count (n : ℕ) (hn : n ≤ 8192) :
    IntOp.cmpi .sgt (BitVec.ofNat 32 n) 0#32 = if 0 < n then 1#1 else 0#1 := by
  have hv : (BitVec.ofNat 32 n).toNat = n := by rw [BitVec.toNat_ofNat]; exact Nat.mod_eq_of_lt (by omega)
  have hiff := StableHlo.Predicate.sgt_iff_toNat (a := BitVec.ofNat 32 n) (b := 0#32) (by rw [hv]; omega) (by decide)
  rw [hv] at hiff
  by_cases h : 0 < n
  · rw [if_pos h]; exact hiff.2 (by simpa using h)
  · rw [if_neg h]; exact eq_zero_of_ne_one fun h1 => h (by simpa using hiff.1 h1)

/-- The row is valid when it keeps a positive and keeps a negative. -/
theorem valid_at (p : Fin 8192) :
    val_main_v40 (F := Ideal) x0 x1 x2 (ix1 p)
      = Cert.Spec.valid (rowsOf x0) (labelsOf x1) (labelsOf x1) (marginsOf x2)
          (Cert.Spec.minpos (rowsOf x0) (labelsOf x1) (labelsOf x1)) (Cert.Spec.maxneg (rowsOf x0) (labelsOf x1) (labelsOf x1)) p := by
  rw [val_main_v40_apply, val_main_v37_apply, val_main_v39_apply, ap_at, an_at, val_main_v36_apply, val_main_c_7_apply,
    val_main_v38_apply, val_main_c_8_apply, sgt_zero_count _ (ap_le ..), sgt_zero_count _ (an_le ..)]
  unfold Cert.Spec.valid
  by_cases ha : 0 < Cert.Spec.ap (rowsOf x0) (labelsOf x1) (labelsOf x1) (marginsOf x2)
      (Cert.Spec.maxneg (rowsOf x0) (labelsOf x1) (labelsOf x1)) p <;>
    by_cases hb : 0 < Cert.Spec.an (rowsOf x0) (labelsOf x1) (labelsOf x1) (marginsOf x2)
      (Cert.Spec.minpos (rowsOf x0) (labelsOf x1) (labelsOf x1)) p <;>
    simp only [ha, hb, if_true, if_false, and_self, and_true, and_false, true_and, false_and] <;> decide

end Cert.ReferenceIdeal.RefValue

end
-- ==== Proof.Reference.Loss.lean ====
/-
  The reference's two sums under the logarithms, the rows' losses and their mean.

  Row `p`'s first sum runs over its kept positives, of `exp (-2 (sim p q - ½))`; the second over its kept negatives, of
  `exp (10 (sim p q - ½))`; a pair that is not kept contributes the zero word, which is the real zero, and both sums start
  from it. A valid row's loss is `1 · log1p` of the first plus `⅕ · log1p` of the second (the factors stay the words the
  program prints), an invalid row's is zero; the result is the rows' sum divided by 8192.
-/
import proofs.«118951_j44573170598307_1_alg».proof.Proof.Reference.Kept
import Idealize.ShloMosaic.Lib.ValueIdxRank1

noncomputable section

namespace Cert.ReferenceIdeal.RefValue

open Cert.ReferenceIdeal Cert.ReferenceIdeal.Gen Cert.ReferenceIdeal.Stages Idealize.ShloMosaic Idealize.ShloMosaic.ValueIdx

variable (x0 : (⟨S8192x1024, .f32⟩ : BufTy).Contents (Elt Ideal)) (x1 : (⟨S8192, .i32⟩ : BufTy).Contents (Elt Ideal))

variable (x2 : (⟨S8192, .f32⟩ : BufTy).Contents (Elt Ideal))

/-- A kept positive's term under the first logarithm: the exponential of minus two times its similarity less a half. -/
theorem posTerm_at (p q : Fin 8192) :
    val_main_v46 (F := Ideal) x0 x1 x2 (ix2 p q)
      = Scalar.select (Cert.Spec.keepPos (rowsOf x0) (labelsOf x1) (labelsOf x1) (marginsOf x2)
            (Cert.Spec.maxneg (rowsOf x0) (labelsOf x1) (labelsOf x1)) p q)
          (Ideal.exp (Cert.Spec.lit 0xC0000000#32 * (Cert.Spec.sim (rowsOf x0) p q - Cert.Spec.lit 0x3F000000#32))) 0 := by
  rw [val_main_v46_apply, keepPos_at, val_main_v45_apply, val_main_v44_apply, val_main_v43_apply, val_main_cst_10_apply,
    val_main_v42_apply, sim_at, val_main_v41_apply, val_main_cst_9_apply, val_main_call2_v1_apply, val_main_call2_v0_apply,
    val_main_cst_11_apply]
  exact congrArg (Scalar.select _ _) Ideal.ofBits_zero_f32

/-- A kept negative's term under the second logarithm: the exponential of ten times its similarity less a half. -/
theorem negTerm_at (p q : Fin 8192) :
    val_main_v56 (F := Ideal) x0 x1 x2 (ix2 p q)
      = Scalar.select (Cert.Spec.keepNeg (rowsOf x0) (labelsOf x1) (labelsOf x1) (marginsOf x2)
            (Cert.Spec.minpos (rowsOf x0) (labelsOf x1) (labelsOf x1)) p q)
          (Ideal.exp (Cert.Spec.lit 0x41200000#32 * (Cert.Spec.sim (rowsOf x0) p q - Cert.Spec.lit 0x3F000000#32))) 0 := by
  rw [val_main_v56_apply, keepNeg_at, val_main_v55_apply, val_main_v54_apply, val_main_v53_apply, val_main_cst_15_apply,
    val_main_v52_apply, sim_at, val_main_v51_apply, val_main_cst_14_apply, val_main_call3_v1_apply, val_main_call3_v0_apply,
    val_main_cst_16_apply]
  exact congrArg (Scalar.select _ _) Ideal.ofBits_zero_f32

/-- The sum over row `p` of the kept positives' terms. -/
theorem posSum_at (p : Fin 8192) :
    val_main_v47 (F := Ideal) x0 x1 x2 (ix1 p)
      = Cert.Spec.posSum (rowsOf x0) (labelsOf x1) (labelsOf x1) (marginsOf x2)
          (Cert.Spec.maxneg (rowsOf x0) (labelsOf x1) (labelsOf x1)) p := by
  rw [val_main_v47_apply, val_main_cst_12_apply]
  unfold Cert.Spec.posSum
  refine (congrArg (· + _) Ideal.ofBits_zero_f32).trans ((zero_add _).trans (Finset.sum_congr rfl fun k _ => ?_))
  have e : idx_main_v47 (ix1 p) k = ix2 p k :=
    funext fun a => Fin.ext (by match a with | ⟨0, _⟩ => rfl | ⟨1, _⟩ => rfl)
  rw [e, posTerm_at]

/-- The sum over row `p` of the kept negatives' terms. -/
theorem negSum_at (p : Fin 8192) :
    val_main_v57 (F := Ideal) x0 x1 x2 (ix1 p)
      = Cert.Spec.negSum (rowsOf x0) (labelsOf x1) (labelsOf x1) (marginsOf x2)
          (Cert.Spec.minpos (rowsOf x0) (labelsOf x1) (labelsOf x1)) p := by
  rw [val_main_v57_apply, val_main_cst_17_apply]
  unfold Cert.Spec.negSum
  refine (congrArg (· + _) Ideal.ofBits_zero_f32).trans ((zero_add _).trans (Finset.sum_congr rfl fun k _ => ?_))
  have e : idx_main_v57 (ix1 p) k = ix2 p k :=
    funext fun a => Fin.ext (by match a with | ⟨0, _⟩ => rfl | ⟨1, _⟩ => rfl)
  rw [e, negTerm_at]

/-- The loss of row `p`: on a valid row the two weighted logarithms, zero otherwise. -/
theorem lossRow_at (p : Fin 8192) :
    val_main_v62 (F := Ideal) x0 x1 x2 (ix1 p) = Cert.Spec.lossRowW (rowsOf x0) (labelsOf x1) (marginsOf x2) p := by
  rw [val_main_v62_apply, valid_at, val_main_v61_apply, val_main_v50_apply, val_main_v49_apply, val_main_cst_13_apply,
    val_main_v48_apply, posSum_at, val_main_v60_apply, val_main_v59_apply, val_main_cst_18_apply, val_main_v58_apply,
    negSum_at, val_main_call4_v1_apply, val_main_call4_v0_apply, val_main_cst_19_apply]
  exact congrArg (Scalar.select _ _) Ideal.ofBits_zero_f32

/-- The mean row loss: the rows' losses summed and divided by 8192. -/
theorem loss_eq :
    val_main_v64 (F := Ideal) x0 x1 x2 = fun _ => Cert.Spec.loss (rowsOf x0) (labelsOf x1) (marginsOf x2) := by
  funext i
  rw [val_main_v64_apply, val_main_v63_apply, val_main_cst_20_apply, val_main_cst_21_apply]
  unfold Cert.Spec.loss
  refine congrArg (Ideal.div · _) ?_
  refine (congrArg (· + _) Ideal.ofBits_zero_f32).trans ((zero_add _).trans ?_)
  rw [← Equiv.sum_comp (idxEquiv1 (n := 8192)).symm]
  exact Finset.sum_congr rfl fun p _ => lossRow_at x0 x1 x2 p

end Cert.ReferenceIdeal.RefValue

end
-- ==== Proof.Reference.Counts.lean ====
/-
  The reference's integer results: the validity flags, the kept counts of the valid rows, and their grand total.

  The flag of a row is its validity bit widened to 32 bits; the two count arrays hold a valid row's number of kept
  positives (negatives) and zero on an invalid row. The grand total adds the two arrays' sums, each taken as 32-bit
  words from zero: those two sums are left as written, applied to the count arrays.
-/
import proofs.«118951_j44573170598307_1_alg».proof.Proof.Reference.Kept

noncomputable section

namespace Cert.ReferenceIdeal.RefValue

open Cert.ReferenceIdeal Cert.ReferenceIdeal.Gen Cert.ReferenceIdeal.Stages Idealize.ShloMosaic Idealize.ShloMosaic.ValueIdx

variable (x0 : (⟨S8192x1024, .f32⟩ : BufTy).Contents (Elt Ideal)) (x1 : (⟨S8192, .i32⟩ : BufTy).Contents (Elt Ideal))

variable (x2 : (⟨S8192, .f32⟩ : BufTy).Contents (Elt Ideal))

/-- The validity flags as 32-bit words. -/
theorem anchor_eq :
    val_main_v65 (F := Ideal) x0 x1 x2 = fun idx => Cert.Spec.anchorW (rowsOf x0) (labelsOf x1) (marginsOf x2) (idx 0) := by
  funext idx
  obtain ⟨p, rfl⟩ : ∃ p : Fin 8192, idx = ix1 p := ⟨idx 0, eq_ix1 idx⟩
  show val_main_v65 (F := Ideal) x0 x1 x2 (ix1 p) = Cert.Spec.anchorW (rowsOf x0) (labelsOf x1) (marginsOf x2) p
  rw [val_main_v65_apply, valid_at]
  rfl

/-- The kept positives' count of a valid row, zero on an invalid one. -/
theorem apOut_eq :
    val_main_v66 (F := Ideal) x0 x1 x2 = fun idx => Cert.Spec.apW (rowsOf x0) (labelsOf x1) (marginsOf x2) (idx 0) := by
  funext idx
  obtain ⟨p, rfl⟩ : ∃ p : Fin 8192, idx = ix1 p := ⟨idx 0, eq_ix1 idx⟩
  show val_main_v66 (F := Ideal) x0 x1 x2 (ix1 p) = Cert.Spec.apW (rowsOf x0) (labelsOf x1) (marginsOf x2) p
  rw [val_main_v66_apply, valid_at, ap_at, val_main_call5_v1_apply, val_main_call5_v0_apply, val_main_c_22_apply]
  rfl

/-- The kept negatives' count of a valid row, zero on an invalid one. -/
theorem anOut_eq :
    val_main_v67 (F := Ideal) x0 x1 x2 = fun idx => Cert.Spec.anW (rowsOf x0) (labelsOf x1) (marginsOf x2) (idx 0) := by
  funext idx
  obtain ⟨p, rfl⟩ : ∃ p : Fin 8192, idx = ix1 p := ⟨idx 0, eq_ix1 idx⟩
  show val_main_v67 (F := Ideal) x0 x1 x2 (ix1 p) = Cert.Spec.anW (rowsOf x0) (labelsOf x1) (marginsOf x2) p
  rw [val_main_v67_apply, valid_at, an_at, val_main_call6_v1_apply, val_main_call6_v0_apply, val_main_c_23_apply]
  rfl

/-- The grand total: the two count arrays, each summed as 32-bit words from zero, added. The sums are left as the
    program writes them. -/
theorem total_eq :
    val_main_v70 (F := Ideal) x0 x1 x2
      = addi (Host.reduce IntOp.addi (fun idx : S8192.Idx => Cert.Spec.apW (rowsOf x0) (labelsOf x1) (marginsOf x2) (idx 0))
            (constantI S_ 32 0#32) reducesTo_S8192_S_d0 h_S_)
          (Host.reduce IntOp.addi (fun idx : S8192.Idx => Cert.Spec.anW (rowsOf x0) (labelsOf x1) (marginsOf x2) (idx 0))
            (constantI S_ 32 0#32) reducesTo_S8192_S_d0 h_S_) := by
  unfold val_main_v70 val_main_v68 val_main_v69 val_main_c_24 val_main_c_25
  rw [apOut_eq, anOut_eq]

end Cert.ReferenceIdeal.RefValue

end
-- ==== Proof.Reference.Results.lean ====
/-
  The reference's run ends at the specification.

  Every weakly fair execution of the reference program ends with its five results holding, as functions of the three
  argument arrays `x` (the embeddings by row and coordinate), `t` (the labels by row) and `g` (the margins by row): the mean
  row loss; the rows' validity flags; the kept-positive and kept-negative counts of the valid rows; and the sum of the
  two count arrays' 32-bit sums, those two sums left as the program writes them. The arguments are unchanged.
-/
import proofs.«118951_j44573170598307_1_alg».proof.Proof.Reference.Stages
import proofs.«118951_j44573170598307_1_alg».proof.Proof.Reference.Loss
import proofs.«118951_j44573170598307_1_alg».proof.Proof.Reference.Counts

noncomputable section

namespace Cert.ReferenceIdeal.RefValue

open Cert.ReferenceIdeal Cert.ReferenceIdeal.Gen Cert.ReferenceIdeal.Stages Idealize.ShloMosaic Idealize.ShloMosaic.TcCoe
  Idealize.SL.Sem Idealize.ShloMosaic.StableHlo

variable (m' : (ℓ : Loc nD τ sig) → Buf (Elt Ideal) ℓ) (c : Dev nD)

/-- The first result is the mean row loss. -/
theorem res_loss :
    Cert.ReferenceIdeal.RunP.res_out0 (F := Ideal) m' c
      = fun _ => Cert.Spec.loss (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) :=
  (val_main_v64_eq (F := Ideal) m' c).trans (loss_eq _ _ _)

/-- The second result is the rows' validity flags. -/
theorem res_anchor :
    Cert.ReferenceIdeal.RunP.res_out1 (F := Ideal) m' c
      = fun idx => Cert.Spec.anchorW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0) :=
  (val_main_v65_eq (F := Ideal) m' c).trans (anchor_eq _ _ _)

/-- The third result is the kept positives' counts of the valid rows. -/
theorem res_ap :
    Cert.ReferenceIdeal.RunP.res_out2 (F := Ideal) m' c
      = fun idx => Cert.Spec.apW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0) :=
  (val_main_v66_eq (F := Ideal) m' c).trans (apOut_eq _ _ _)

/-- The fourth result is the kept negatives' counts of the valid rows. -/
theorem res_an :
    Cert.ReferenceIdeal.RunP.res_out3 (F := Ideal) m' c
      = fun idx => Cert.Spec.anW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0) :=
  (val_main_v67_eq (F := Ideal) m' c).trans (anOut_eq _ _ _)

/-- The fifth result adds the two count arrays' sums. -/
theorem res_total :
    Cert.ReferenceIdeal.RunP.res_out4 (F := Ideal) m' c
      = addi (Host.reduce IntOp.addi (fun idx : S8192.Idx => Cert.Spec.apW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0))
            (constantI S_ 32 0#32) reducesTo_S8192_S_d0 h_S_)
          (Host.reduce IntOp.addi (fun idx : S8192.Idx => Cert.Spec.anW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0))
            (constantI S_ 32 0#32) reducesTo_S8192_S_d0 h_S_) :=
  (val_main_v70_eq (F := Ideal) m' c).trans (total_eq _ _ _)

/-- On every device, from any memory with zero counters: every weakly fair execution of the reference terminates with
    its results at the specification's functions of the arguments, and the arguments unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v64)
        = (fun _ => Cert.Spec.loss (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)))
      ∧ r.2.mem ((c.tc : Thread nD τ).loc main_v65)
        = (fun idx => Cert.Spec.anchorW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0))
      ∧ r.2.mem ((c.tc : Thread nD τ).loc main_v66)
        = (fun idx => Cert.Spec.apW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0))
      ∧ r.2.mem ((c.tc : Thread nD τ).loc main_v67)
        = (fun idx => Cert.Spec.anW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0))
      ∧ r.2.mem ((c.tc : Thread nD τ).loc main_v70)
        = addi (Host.reduce IntOp.addi (fun idx : S8192.Idx => Cert.Spec.apW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0))
              (constantI S_ 32 0#32) reducesTo_S8192_S_d0 h_S_)
            (Host.reduce IntOp.addi (fun idx : S8192.Idx => Cert.Spec.anW (fun a k => (m' ((c.tc : Thread nD τ).loc main_arg0) : S8192x1024.Idx → EReal) (ValueIdx.ix2 a k))
          (fun a => (m' ((c.tc : Thread nD τ).loc main_arg1) : S8192.Idx → BitVec 32) (ValueIdx.ix1 a))
          (fun a => (m' ((c.tc : Thread nD τ).loc main_arg2) : S8192.Idx → EReal) (ValueIdx.ix1 a)) (idx 0))
              (constantI S_ 32 0#32) reducesTo_S8192_S_d0 h_S_)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono (fun _ h c =>
      ⟨(h c).1.trans (res_loss m' c), (h c).2.1.trans (res_anchor m' c), (h c).2.2.1.trans (res_ap m' c),
        (h c).2.2.2.1.trans (res_an m' c), (h c).2.2.2.2.1.trans (res_total m' c), (h c).2.2.2.2.2⟩)
    (Cert.ReferenceIdeal.RunP.run (F := Ideal) m' ρ')

end Cert.ReferenceIdeal.RefValue

end
-- ==== Proof.lean ====
/-
  A hard-mining multi-similarity loss: the Pallas kernel against its jnp reference, over the extended reals.

  Both programs compute, from embeddings `x`, a label and a margin per row (Proof/Spec.lean): the similarities
  `sim i j = ∑ k, x i k · x j k`; per row the least similarity among its positives (same label, `sim < 1`) and the
  greatest among its negatives (other label); the positives and negatives kept by the two margin tests against those;
  their counts, and the two sums of exponentials under `log1p`; the mean loss over the rows, the rows' validity flags,
  the counts of the valid rows and the counts' grand total.

  The kernel does it in two passes over a 16 × 16 grid of 512 × 512 tiles of the similarity matrix, never written out:
  each pass stages the embeddings twice (a row block and a column block of ONE array), folds a tile's row reductions
  into accumulators that it resets at a row block's first column block and writes out at its last. At the extended reals
  the tiled folds are the whole-row reductions by associativity and commutativity alone; the finite stand-ins ±1e9 the
  kernel starts its minimum and maximum from change nothing, because a positive's similarity is below 1 and a row is
  never its own negative; the counts, kept as floats by the kernel and as integers by the reference, are the same
  natural numbers. No finiteness of the inputs is used.

  The frames (Proof/Kernel, Proof/KernelIdeal: the launch over four segments with the shared array dealt in halves,
  each pass's body run case by case), the idealized kernel's value (Proof/KernelIdeal/Results.lean) and the
  reference's (Proof/Reference/Results.lean) meet here.
-/
import proofs.«118951_j44573170598307_1_alg».proof.Defs
import proofs.«118951_j44573170598307_1_alg».proof.Proof.Gen.Kernel
import proofs.«118951_j44573170598307_1_alg».proof.Proof.Gen.KernelIdeal
import proofs.«118951_j44573170598307_1_alg».proof.Proof.Gen.ReferenceIdeal
import proofs.«118951_j44573170598307_1_alg».proof.Proof.Gen.Pre_finite_inputs
import proofs.«118951_j44573170598307_1_alg».proof.Proof.Kernel.Regs
import proofs.«118951_j44573170598307_1_alg».proof.Proof.KernelIdeal.Results
import proofs.«118951_j44573170598307_1_alg».proof.Proof.Reference.Results

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference runs and leaves its arguments as launched: its run with the results dropped. -/
theorem frame_reference : Cert.frame_ReferenceIdeal := fun m ρ _ =>
  (θ_run Cert.ReferenceIdeal.defs _ _).mono (fun _ h c => (h c).2.2.2.2.2) (Cert.ReferenceIdeal.RefValue.ref_run m ρ)

/-- The idealization rewrote no operation. -/
theorem preserves : Cert.preserves_Kernel_KernelIdeal := trivial

/-- From memories that agree on the arguments both idealized programs end at the specification's five functions of
    those arguments. -/
theorem algebraic : Cert.algebraic_KernelIdeal_ReferenceIdeal := by
  intro m ρ m' ρ' _ hagree
  refine ⟨_, _, _, _, _, Cert.KernelIdeal.Res.run m ρ, ?_⟩
  refine (θ_run Cert.ReferenceIdeal.defs _ _).mono (fun r h c => ?_) (Cert.ReferenceIdeal.RefValue.ref_run m' ρ')
  obtain ⟨h0, h1, h2, h3, h4, ha⟩ := h c
  obtain ⟨e0, e1, e2⟩ := hagree c
  rw [e0, e1, e2] at h0 h1 h2 h3 h4
  exact ⟨h0, h1, h2, h3, h4, ha⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
